-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024x2048 : Shape := ⟨3, ![1, 1024, 2048]⟩
abbrev S1x1024 : Shape := ⟨2, ![1, 1024]⟩
abbrev S129280x2048 : Shape := ⟨2, ![129280, 2048]⟩
abbrev S2048 : Shape := ⟨1, ![2048]⟩
abbrev S2048x4096 : Shape := ⟨2, ![2048, 4096]⟩
abbrev S_ : Shape := ⟨0, ![]⟩

class Facts : Prop where
  bcast_S_S1x1024x2048 : S_.BroadcastsInDim S1x1024x2048 (![] : Fin 0 → Fin S1x1024x2048.rank)
  reducesTo_S1x1024x2048_S_d0_1_2 : S1x1024x2048.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S129280x2048 : S_.BroadcastsInDim S129280x2048 (![] : Fin 0 → Fin S129280x2048.rank)
  reducesTo_S129280x2048_S_d0_1 : S129280x2048.ReducesTo [0, 1] S_
  bcast_S_S2048 : S_.BroadcastsInDim S2048 (![] : Fin 0 → Fin S2048.rank)
  reducesTo_S2048_S_d0 : S2048.ReducesTo [0] S_
  bcast_S_S2048x4096 : S_.BroadcastsInDim S2048x4096 (![] : Fin 0 → Fin S2048x4096.rank)
  reducesTo_S2048x4096_S_d0_1 : S2048x4096.ReducesTo [0, 1] S_

variable [Facts]

def fn_part2 {F : FTy → Type} [FloatOps F] (main_arg2 : IVec S1x1024 32) (main_arg9 : FVec F S2048 .f32) (main_arg10 : FVec F S129280x2048 .f32) (main_v33 : IVec S_ 1) : IVec S_ 1 :=
  let main_v34 : FVec F S2048 .f32 := Host.absf main_arg9
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S129280x2048 .f32 := Host.absf main_arg10
  let main_cst_14 : FVec F S_ .f32 := constant S_ .f32 0x7F800000#32
  let main_v40 : FVec F S129280x2048 .f32 := broadcastInDim S129280x2048 ![] bcast_S_S129280x2048 main_cst_14
  let main_v41 : IVec S129280x2048 1 := cmpf .olt main_v39 main_v40
  let main_c_15 : IVec S_ 1 := constantI S_ 1 1#1
  let main_v42 : IVec S_ 1 := (fun x v => Host.reduce IntOp.andi x v reducesTo_S129280x2048_S_d0_1 h_S_) main_v41 main_c_15
  let main_v43 : IVec S_ 1 := andi main_v38 main_v42
  let main_c_16 : IVec S_ 32 := constantI S_ 32 0#32
  let main_v44 : IVec S1x1024 32 := broadcastInDim S1x1024 ![] bcast_S_S1x1024 main_c_16
  let main_v45 : IVec S1x1024 1 := cmpi .sge main_arg2 main_v44
  let main_c_17 : IVec S_ 32 := constantI S_ 32 129280#32
  let main_v46 : IVec S1x1024 32 := broadcastInDim S1x1024 ![] bcast_S_S1x1024 main_c_17
  let main_v47 : IVec S1x1024 1 := cmpi .slt main_arg2 main_v46
  let main_v48 : IVec S1x1024 1 := andi main_v45 main_v47
  let main_c_18 : IVec S_ 1 := constantI S_ 1 1#1
  let main_v49 : IVec S_ 1 := (fun x v => Host.reduce IntOp.andi x v reducesTo_S1x1024_S_d0_1 h_S_) main_v48 main_c_18
  let main_v50 : IVec S_ 1 := andi main_v43 main_v49
  main_v50

def fn_part1 {F : FTy → Type} [FloatOps F] (main_arg2 : IVec S1x1024 32) (main_arg6 : FVec F S2048 .f32) (main_arg7 : FVec F S2048x4096 .f32) (main_arg8 : FVec F S2048 .f32) (main_arg9 : FVec F S2048 .f32) (main_arg10 : FVec F S129280x2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg6
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg7
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg8
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg2 main_arg9 main_arg10 main_v33

def fn {F : FTy → Type} [FloatOps F] (main_arg0 : FVec F S1x1024x2048 .f32) (main_arg1 : IVec S1x1024 32) (main_arg2 : IVec S1x1024 32) (main_arg3 : FVec F S1x1024 .f32) (main_arg4 : FVec F S129280x2048 .f32) (main_arg5 : FVec F S2048 .f32) (main_arg6 : FVec F S2048 .f32) (main_arg7 : FVec F S2048x4096 .f32) (main_arg8 : FVec F S2048 .f32) (main_arg9 : FVec F S2048 .f32) (main_arg10 : FVec F S129280x2048 .f32) : IVec S_ 1 :=
  let main_v0 : FVec F S1x1024x2048 .f32 := Host.absf main_arg0
  let main_cst : FVec F S_ .f32 := constant S_ .f32 0x7F800000#32
  let main_v1 : FVec F S1x1024x2048 .f32 := broadcastInDim S1x1024x2048 ![] bcast_S_S1x1024x2048 main_cst
  let main_v2 : IVec S1x1024x2048 1 := cmpf .olt main_v0 main_v1
  let main_c : IVec S_ 1 := constantI S_ 1 1#1
  let main_v3 : IVec S_ 1 := (fun x v => Host.reduce IntOp.andi x v reducesTo_S1x1024x2048_S_d0_1_2 h_S_) main_v2 main_c
  let main_v4 : FVec F S1x1024 .f32 := Host.absf main_arg3
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S129280x2048 .f32 := Host.absf main_arg4
  let main_cst_2 : FVec F S_ .f32 := constant S_ .f32 0x7F800000#32
  let main_v10 : FVec F S129280x2048 .f32 := broadcastInDim S129280x2048 ![] bcast_S_S129280x2048 main_cst_2
  let main_v11 : IVec S129280x2048 1 := cmpf .olt main_v9 main_v10
  let main_c_3 : IVec S_ 1 := constantI S_ 1 1#1
  let main_v12 : IVec S_ 1 := (fun x v => Host.reduce IntOp.andi x v reducesTo_S129280x2048_S_d0_1 h_S_) main_v11 main_c_3
  let main_v13 : IVec S_ 1 := andi main_v8 main_v12
  let main_v14 : FVec F S2048 .f32 := Host.absf main_arg5
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg2 main_arg6 main_arg7 main_arg8 main_arg9 main_arg10 main_v13 main_v16
-- ==== Kernel.lean ====
abbrev S1x1024x2048 : Shape := ⟨3, ![1, 1024, 2048]⟩
abbrev S1x1024 : Shape := ⟨2, ![1, 1024]⟩
abbrev S129280x2048 : Shape := ⟨2, ![129280, 2048]⟩
abbrev S2048 : Shape := ⟨1, ![2048]⟩
abbrev S2048x4096 : Shape := ⟨2, ![2048, 4096]⟩
abbrev S1024 : Shape := ⟨1, ![1024]⟩
abbrev S_ : Shape := ⟨0, ![]⟩
abbrev S1024x1 : Shape := ⟨2, ![1024, 1]⟩
abbrev S1024x2048 : Shape := ⟨2, ![1024, 2048]⟩
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S1023 : Shape := ⟨1, ![1023]⟩
abbrev S1 : Shape := ⟨1, ![1]⟩
abbrev S1024x129280 : Shape := ⟨2, ![1024, 129280]⟩
abbrev S512x2048 : Shape := ⟨2, ![512, 2048]⟩
abbrev S1280x2048 : Shape := ⟨2, ![1280, 2048]⟩
abbrev S512x1 : Shape := ⟨2, ![512, 1]⟩
abbrev S512x1280 : Shape := ⟨2, ![512, 1280]⟩
abbrev S512 : Shape := ⟨1, ![512]⟩
abbrev S1x1024x129280 : Shape := ⟨3, ![1, 1024, 129280]⟩

abbrev nBuf : Space → Nat
  | .hbm => 55
  | .vmem => 25
  | .smem => 0
  | _ => 0

abbrev bufTy : (tb : Table) → Fin (tcTables nBuf tb) → BufTy
  | .hbm, ⟨0, _⟩ => ⟨S1x1024x2048, .f32⟩
  | .hbm, ⟨1, _⟩ => ⟨S1x1024, .i32⟩
  | .hbm, ⟨2, _⟩ => ⟨S1x1024, .i32⟩
  | .hbm, ⟨3, _⟩ => ⟨S1x1024, .f32⟩
  | .hbm, ⟨4, _⟩ => ⟨S129280x2048, .f32⟩
  | .hbm, ⟨5, _⟩ => ⟨S2048, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048, .f32⟩
  | .hbm, ⟨10, _⟩ => ⟨S129280x2048, .f32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S1024, .i32⟩
  | .hbm, ⟨19, _⟩ => ⟨S1024x1, .i32⟩
  | .hbm, ⟨20, _⟩ => ⟨S1024x2048, .f32⟩
  | .hbm, ⟨21, _⟩ => ⟨S1024x2048, .f32⟩
  | .hbm, ⟨22, _⟩ => ⟨S2048x2048, .f32⟩
  | .hbm, ⟨23, _⟩ => ⟨S2048x2048, .bf16⟩
  | .hbm, ⟨24, _⟩ => ⟨S2048x2048, .f32⟩
  | .hbm, ⟨25, _⟩ => ⟨S2048x2048, .bf16⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S1024x2048, .bf16⟩
  | .hbm, ⟨31, _⟩ => ⟨S129280x2048, .bf16⟩
  | .hbm, ⟨32, _⟩ => ⟨S1024, .i32⟩
  | .hbm, ⟨33, _⟩ => ⟨S1024, .f32⟩
  | .hbm, ⟨34, _⟩ => ⟨S1023, .i32⟩
  | .hbm, ⟨35, _⟩ => ⟨S_, .i32⟩
  | .hbm, ⟨36, _⟩ => ⟨S1, .i32⟩
  | .hbm, ⟨37, _⟩ => ⟨S1024, .i32⟩
  | .hbm, ⟨38, _⟩ => ⟨S1024x1, .i32⟩
  | .hbm, ⟨39, _⟩ => ⟨S1023, .f32⟩
  | .hbm, ⟨40, _⟩ => ⟨S_, .f32⟩
  | .hbm, ⟨41, _⟩ => ⟨S1, .f32⟩
  | .hbm, ⟨42, _⟩ => ⟨S1024, .f32⟩
  | .hbm, ⟨43, _⟩ => ⟨S1024x129280, .f32⟩
  | .hbm, ⟨44, _⟩ => ⟨S1024x1, .f32⟩
  | .hbm, ⟨45, _⟩ => ⟨S1024, .f32⟩
  | .hbm, ⟨46, _⟩ => ⟨S1024, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S1x1024x129280, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S2048x2048, .bf16⟩
  | .local _ .vmem, ⟨7, _⟩ => ⟨S2048x2048, .bf16⟩
  | .local _ .vmem, ⟨8, _⟩ => ⟨S1x2048, .f32⟩
  | .local _ .vmem, ⟨9, _⟩ => ⟨S1x2048, .f32⟩
  | .local _ .vmem, ⟨10, _⟩ => ⟨S256x2048, .bf16⟩
  | .local _ .vmem, ⟨11, _⟩ => ⟨S256x2048, .bf16⟩
  | .local _ .vmem, ⟨12, _⟩ => ⟨S512x2048, .bf16⟩
  | .local _ .vmem, ⟨13, _⟩ => ⟨S512x2048, .bf16⟩
  | .local _ .vmem, ⟨14, _⟩ => ⟨S1280x2048, .bf16⟩
  | .local _ .vmem, ⟨15, _⟩ => ⟨S1280x2048, .bf16⟩
  | .local _ .vmem, ⟨16, _⟩ => ⟨S512x1, .i32⟩
  | .local _ .vmem, ⟨17, _⟩ => ⟨S512x1, .i32⟩
  | .local _ .vmem, ⟨18, _⟩ => ⟨S512x1280, .f32⟩
  | .local _ .vmem, ⟨19, _⟩ => ⟨S512x1280, .f32⟩
  | .local _ .vmem, ⟨20, _⟩ => ⟨S512x1, .f32⟩
  | .local _ .vmem, ⟨21, _⟩ => ⟨S512x1, .f32⟩
  | .local _ .vmem, ⟨22, _⟩ => ⟨S512x1, .f32⟩
  | .local _ .vmem, ⟨23, _⟩ => ⟨S512x1, .f32⟩
  | .local _ .vmem, ⟨24, _⟩ => ⟨S512x1, .f32⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst : Ref sig .tc := ⟨.hbm, 40, rfl⟩
abbrev main_v26 : Ref sig .tc := ⟨.hbm, 41, rfl⟩
abbrev main_v27 : Ref sig .tc := ⟨.hbm, 42, rfl⟩
abbrev main_v28_0 : Ref sig .tc := ⟨.hbm, 43, rfl⟩
abbrev main_v28_1 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![2, 101], ![false, false]⟩

def k1_cond2 (i : grid1.Coords) : BitVec 1 :=
  let arg1 : BitVec 32 := BitVec.ofNat 32 (i 1).val
  let c100_i32 : BitVec 32 := 100#32
  let v46 : BitVec 1 := Scalar.cmpi .eq arg1 c100_i32
  let v47 : BitVec 32 := Scalar.extui v46
  let c0_i32_24 : BitVec 32 := 0#32
  let v48 : BitVec 1 := Scalar.cmpi .ne v47 c0_i32_24
  v48

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1280x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S1x1024_S1024 : S1x1024.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  shapeCasts_S1x1024x2048_S1024x2048 : S1x1024x2048.ShapeCasts S1024x2048
  slices_S2048x4096_S2048x2048_0_0 : S2048x4096.Slices ![0, 0] S2048x2048
  bitsLt_bf16_f32 : FTy.bits .bf16 < FTy.bits .f32
  slices_S2048x4096_S2048x2048_0_2048 : S2048x4096.Slices ![0, 2048] S2048x2048
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S256x2048_S256 : S256x2048.Reduces [1] S256
  shapeCasts_S256_S256x1 : S256.ShapeCasts S256x1
  broadcasts_S256x1_S256x2048 : S256x1.Broadcasts S256x2048
  broadcasts_S1x2048_S256x2048 : S1x2048.Broadcasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  packedbf16_S256x2048_S256x2048_0_0 : (Rect.unit (s := S256x2048) ![0, 0] S256x2048.size inb_S256x2048_S256x2048_0_0).PackedRows (EltTy.packing .bf16)
  slices_S1024_S1023_1 : S1024.Slices ![1] S1023
  bcast_S_S1 : S_.BroadcastsInDim S1 (![] : Fin 0 → Fin S1.rank)
  concatenates_S1023_S1_S1024_d0 : Shape.Concatenates [S1023, S1] S1024 0
  shapeCasts_S1024_S1024x1 : S1024.ShapeCasts S1024x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1280x2048_S1280x2048_0_0 : ∀ a, (![0, 0] : Fin 2 → Nat) a + S1280x2048.size a ≤ S1280x2048.size a
  h_S1280x2048 : 0 < S1280x2048.numel
  shapeCasts_S1280x2048_S1280x2048 : S1280x2048.ShapeCasts S1280x2048
  inb_S512x1280_S512x1280_0_0 : ∀ a, (![0, 0] : Fin 2 → Nat) a + S512x1280.size a ≤ S512x1280.size a
  h_S512x1280 : 0 < S512x1280.numel
  reduces_S512x1280_S512 : S512x1280.Reduces [1] S512
  shapeCasts_S512_S512x1 : S512.ShapeCasts S512x1
  broadcasts_S512x1_S512x1280 : S512x1.Broadcasts S512x1280
  iota_S512x1280_d1_w32 : S512x1280.Iotas .tc 32 [1]
  shapeCasts_S1024x1_S1024 : S1024x1.ShapeCasts S1024
  reducesTo_S1024_S_d0 : S1024.ReducesTo [0] S_
  h_S_ : 0 < S_.numel
  shapeCasts_S1024x129280_S1x1024x129280 : S1024x129280.ShapeCasts S1x1024x129280
  gather_S129280x2048_S1024x1_S1024x2048_1_0_n_n_0_1_12048_wf : GatherDims.WF S129280x2048 S1024x1 S1024x2048 [1] [0] [] [0] [] 1 ![1, 2048]
  dot_S256x2048_S2048x2048_S256x2048_1_1_0_0_n_n_wf : DotDims.WF S256x2048 S2048x2048 S256x2048 [1] [1] [0] [0] [] []
  dot_S512x2048_S1280x2048_S512x1280_1_1_0_0_n_n_wf : DotDims.WF S512x2048 S1280x2048 S512x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S1024x2048.size a
  hwx0_0 : ∀ i : grid0.Coords, EltTy.bits .f32 = 32 ∨ (Rect.block (s := S1024x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S1024x2048.size a
  hwx0_1 : ∀ i : grid0.Coords, EltTy.bits .f32 = 32 ∨ (Rect.block (s := S1024x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .bf16 = 32 ∨ (Rect.block (s := S2048x2048) S2048x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S2048x2048.size a
  hwx0_5 : ∀ i : grid0.Coords, EltTy.bits .bf16 = 32 ∨ (Rect.block (s := S2048x2048) S2048x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S1024x2048.size a
  hwx0_8 : ∀ i : grid0.Coords, EltTy.bits .bf16 = 32 ∨ (Rect.block (s := S1024x2048) S256x2048.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S1024x2048.size a
  hwx1_0 : ∀ i : grid1.Coords, EltTy.bits .bf16 = 32 ∨ (Rect.block (s := S1024x2048) S512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x2048.size a ≤ S129280x2048.size a
  hwx1_1 : ∀ i : grid1.Coords, EltTy.bits .bf16 = 32 ∨ (Rect.block (s := S129280x2048) S1280x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S1024x1.size a
  hwx1_2 : ∀ i : grid1.Coords, EltTy.bits .i32 = 32 ∨ (Rect.block (s := S1024x1) S512x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1280.size a ≤ S1024x129280.size a
  hwx1_3 : ∀ i : grid1.Coords, EltTy.bits .f32 = 32 ∨ (Rect.block (s := S1024x129280) S512x1280.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S1024x1.size a
  hwx1_4 : ∀ i : grid1.Coords, EltTy.bits .f32 = 32 ∨ (Rect.block (s := S1024x1) S512x1.size (cc1_transform_4 i) (hinb1_4 i)).WholeWords (EltTy.packing .f32)

variable [Facts₀]

def gather_S129280x2048_S1024x1_S1024x2048_1_0_n_n_0_1_12048 : GatherDims S129280x2048 S1024x1 S1024x2048 where
  offsetDims := [1]
  collapsedSliceDims := [0]
  operandBatchingDims := []
  startIndicesBatchingDims := []
  startIndexMap := [0]
  indexVectorDim := 1
  sliceSizes := ![1, 2048]
  wf := gather_S129280x2048_S1024x1_S1024x2048_1_0_n_n_0_1_12048_wf
def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S512x2048_S1280x2048_S512x1280_1_1_0_0_n_n : DotDims S512x2048 S1280x2048 S512x1280 where
  lhsContracting := [1]
  rhsContracting := [1]
  lhsNonContracting := [0]
  rhsNonContracting := [0]
  lhsBatch := []
  rhsBatch := []
  wf := dot_S512x2048_S1280x2048_S512x1280_1_1_0_0_n_n_wf

abbrev win0_0 : Pipeline.Window sig grid0 :=
  Pipeline.Window.ofSpec (Memref.whole main_v7) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S2048x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S2048x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S256x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v17) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1280x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28_0) S512x1280.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28_1) S512x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S1x1024x2048 : Shape := ⟨3, ![1, 1024, 2048]⟩
abbrev S1x1024 : Shape := ⟨2, ![1, 1024]⟩
abbrev S129280x2048 : Shape := ⟨2, ![129280, 2048]⟩
abbrev S2048 : Shape := ⟨1, ![2048]⟩
abbrev S2048x4096 : Shape := ⟨2, ![2048, 4096]⟩
abbrev S_ : Shape := ⟨0, ![]⟩
abbrev S1x1024x1 : Shape := ⟨3, ![1, 1024, 1]⟩
abbrev S1x1x2048 : Shape := ⟨3, ![1, 1, 2048]⟩
abbrev S1x1024x4096 : Shape := ⟨3, ![1, 1024, 4096]⟩
abbrev S1x1024x129280 : Shape := ⟨3, ![1, 1024, 129280]⟩
abbrev S1x1023x129280 : Shape := ⟨3, ![1, 1023, 129280]⟩
abbrev S1x1023 : Shape := ⟨2, ![1, 1023]⟩
abbrev S1x1023x1 : Shape := ⟨3, ![1, 1023, 1]⟩
abbrev S1023x1x1 : Shape := ⟨3, ![1023, 1, 1]⟩
abbrev S1 : Shape := ⟨1, ![1]⟩
abbrev S1x1x1 : Shape := ⟨3, ![1, 1, 1]⟩
abbrev S1023x1 : Shape := ⟨2, ![1023, 1]⟩
abbrev S1023 : Shape := ⟨1, ![1023]⟩

abbrev nBuf : Space → Nat
  | .hbm => 141
  | .vmem => 0
  | .smem => 0
  | _ => 0

abbrev hbmTy0_0 (i : Nat) : BufTy := match i % 128 with
  | 0 => ⟨S1x1024x2048, .f32⟩
  | 1 => ⟨S1x1024, .i32⟩
  | 2 => ⟨S1x1024, .i32⟩
  | 3 => ⟨S1x1024, .f32⟩
  | 4 => ⟨S129280x2048, .f32⟩
  | 5 => ⟨S2048, .f32⟩
  | 6 => ⟨S2048, .f32⟩
  | 7 => ⟨S2048x4096, .f32⟩
  | 8 => ⟨S2048, .f32⟩
  | 9 => ⟨S2048, .f32⟩
  | 10 => ⟨S129280x2048, .f32⟩
  | 11 => ⟨S_, .i32⟩
  | 12 => ⟨S1x1024, .i32⟩
  | 13 => ⟨S1x1024, .i1⟩
  | 14 => ⟨S_, .i32⟩
  | 15 => ⟨S1x1024, .i32⟩
  | 16 => ⟨S1x1024, .i32⟩
  | 17 => ⟨S1x1024, .i32⟩
  | 18 => ⟨S1x1024x1, .i32⟩
  | 19 => ⟨S1x1024x2048, .f32⟩
  | 20 => ⟨S1x1024x2048, .f32⟩
  | 21 => ⟨S_, .f32⟩
  | 22 => ⟨S1x1024, .f32⟩
  | 23 => ⟨S1x1024x1, .f32⟩
  | 24 => ⟨S_, .f32⟩
  | 25 => ⟨S1x1024x1, .f32⟩
  | 26 => ⟨S1x1024x1, .f32⟩
  | 27 => ⟨S_, .f32⟩
  | 28 => ⟨S1x1024x1, .f32⟩
  | 29 => ⟨S1x1024x1, .f32⟩
  | 30 => ⟨S1x1024x1, .f32⟩
  | 31 => ⟨S1x1024x2048, .f32⟩
  | 32 => ⟨S1x1024x2048, .f32⟩
  | 33 => ⟨S1x1x2048, .f32⟩
  | 34 => ⟨S1x1024x2048, .f32⟩
  | 35 => ⟨S1x1024x2048, .f32⟩
  | 36 => ⟨S1x1024x2048, .f32⟩
  | 37 => ⟨S_, .f32⟩
  | 38 => ⟨S1x1024, .f32⟩
  | 39 => ⟨S1x1024x1, .f32⟩
  | 40 => ⟨S_, .f32⟩
  | 41 => ⟨S1x1024x1, .f32⟩
  | 42 => ⟨S1x1024x1, .f32⟩
  | 43 => ⟨S_, .f32⟩
  | 44 => ⟨S1x1024x1, .f32⟩
  | 45 => ⟨S1x1024x1, .f32⟩
  | 46 => ⟨S1x1024x1, .f32⟩
  | 47 => ⟨S1x1024x2048, .f32⟩
  | 48 => ⟨S1x1024x2048, .f32⟩
  | 49 => ⟨S1x1x2048, .f32⟩
  | 50 => ⟨S1x1024x2048, .f32⟩
  | 51 => ⟨S1x1024x2048, .f32⟩
  | 52 => ⟨S1x1024x4096, .f32⟩
  | 53 => ⟨S1x1024x2048, .f32⟩
  | 54 => ⟨S1x1024x2048, .f32⟩
  | 55 => ⟨S_, .f32⟩
  | 56 => ⟨S1x1024, .f32⟩
  | 57 => ⟨S1x1024x1, .f32⟩
  | 58 => ⟨S_, .f32⟩
  | 59 => ⟨S1x1024x1, .f32⟩
  | 60 => ⟨S1x1024x1, .f32⟩
  | 61 => ⟨S_, .f32⟩
  | 62 => ⟨S1x1024x1, .f32⟩
  | 63 => ⟨S1x1024x1, .f32⟩
  | 64 => ⟨S1x1024x1, .f32⟩
  | 65 => ⟨S1x1024x2048, .f32⟩
  | 66 => ⟨S1x1024x2048, .f32⟩
  | 67 => ⟨S1x1x2048, .f32⟩
  | 68 => ⟨S1x1024x2048, .f32⟩
  | 69 => ⟨S1x1024x2048, .f32⟩
  | 70 => ⟨S1x1024x2048, .f32⟩
  | 71 => ⟨S_, .f32⟩
  | 72 => ⟨S1x1024, .f32⟩
  | 73 => ⟨S1x1024x1, .f32⟩
  | 74 => ⟨S_, .f32⟩
  | 75 => ⟨S1x1024x1, .f32⟩
  | 76 => ⟨S1x1024x1, .f32⟩
  | 77 => ⟨S_, .f32⟩
  | 78 => ⟨S1x1024x1, .f32⟩
  | 79 => ⟨S1x1024x1, .f32⟩
  | 80 => ⟨S1x1024x1, .f32⟩
  | 81 => ⟨S1x1024x2048, .f32⟩
  | 82 => ⟨S1x1024x2048, .f32⟩
  | 83 => ⟨S1x1x2048, .f32⟩
  | 84 => ⟨S1x1024x2048, .f32⟩
  | 85 => ⟨S1x1024x2048, .f32⟩
  | 86 => ⟨S1x1024x129280, .f32⟩
  | 87 => ⟨S1x1023x129280, .f32⟩
  | 88 => ⟨S1x1023, .i32⟩
  | 89 => ⟨S_, .f32⟩
  | 90 => ⟨S1x1023, .f32⟩
  | 91 => ⟨S_, .f32⟩
  | 92 => ⟨S1x1023, .f32⟩
  | 93 => ⟨S1x1023, .f32⟩
  | 94 => ⟨S1x1023x1, .f32⟩
  | 95 => ⟨S1x1023x129280, .f32⟩
  | 96 => ⟨S1x1023x129280, .f32⟩
  | 97 => ⟨S1x1023x129280, .f32⟩
  | 98 => ⟨S_, .f32⟩
  | 99 => ⟨S1x1023, .f32⟩
  | 100 => ⟨S1x1023x1, .f32⟩
  | 101 => ⟨S1x1023x1, .f32⟩
  | 102 => ⟨S1x1023x129280, .f32⟩
  | 103 => ⟨S1x1023x129280, .f32⟩
  | 104 => ⟨S1x1023x1, .i32⟩
  | 105 => ⟨S_, .i32⟩
  | 106 => ⟨S1x1023x1, .i32⟩
  | 107 => ⟨S1x1023x1, .i1⟩
  | 108 => ⟨S_, .i32⟩
  | 109 => ⟨S1x1023x1, .i32⟩
  | 110 => ⟨S1x1023x1, .i32⟩
  | 111 => ⟨S1x1023x1, .i32⟩
  | 112 => ⟨S1023x1x1, .i32⟩
  | 113 => ⟨S1, .i32⟩
  | 114 => ⟨S_, .i32⟩
  | 115 => ⟨S1023x1x1, .i32⟩
  | 116 => ⟨S1023x1x1, .i1⟩
  | 117 => ⟨S1x1x1, .i32⟩
  | 118 => ⟨S1023x1x1, .i32⟩
  | 119 => ⟨S1023x1x1, .i1⟩
  | 120 => ⟨S1023x1x1, .i1⟩
  | 121 => ⟨S_, .i1⟩
  | 122 => ⟨S1023x1, .i1⟩
  | 123 => ⟨S1x1023x1, .f32⟩
  | 124 => ⟨S1x1023x1, .i1⟩
  | 125 => ⟨S_, .f32⟩
  | 126 => ⟨S1x1023x1, .f32⟩
  | 127 => ⟨S1x1023x1, .f32⟩
  | _ => ⟨S1x1024x2048, .f32⟩

abbrev hbmTy0_1 (i : Nat) : BufTy := match i % 128 with
  | 0 => ⟨S1x1023, .f32⟩
  | 1 => ⟨S1x1023, .f32⟩
  | 2 => ⟨S1x1023, .f32⟩
  | 3 => ⟨S1023, .f32⟩
  | 4 => ⟨S1023, .f32⟩
  | 5 => ⟨S1023, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | _ => ⟨S1x1024x2048, .f32⟩

abbrev hbmTy (i : Nat) : BufTy := match i / 128 with
  | 0 => hbmTy0_0 i
  | 1 => hbmTy0_1 i
  | _ => ⟨S1x1024x2048, .f32⟩

abbrev bufTy : (tb : Table) → Fin (tcTables nBuf tb) → BufTy
  | .hbm, ⟨i, _⟩ => hbmTy i
  | _, _ => ⟨S1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_call0_cst : Ref sig .tc := ⟨.hbm, 89, rfl⟩
abbrev main_call0_v0 : Ref sig .tc := ⟨.hbm, 90, rfl⟩
abbrev main_call0_cst_0 : Ref sig .tc := ⟨.hbm, 91, rfl⟩
abbrev main_call0_v1 : Ref sig .tc := ⟨.hbm, 92, rfl⟩
abbrev main_call0_v2 : Ref sig .tc := ⟨.hbm, 93, rfl⟩
abbrev main_call0_v3 : Ref sig .tc := ⟨.hbm, 94, rfl⟩
abbrev main_call0_v4 : Ref sig .tc := ⟨.hbm, 95, rfl⟩
abbrev main_call0_v5 : Ref sig .tc := ⟨.hbm, 96, rfl⟩
abbrev main_call0_v6 : Ref sig .tc := ⟨.hbm, 97, rfl⟩
abbrev main_call0_cst_1 : Ref sig .tc := ⟨.hbm, 98, rfl⟩
abbrev main_call0_v7 : Ref sig .tc := ⟨.hbm, 99, rfl⟩
abbrev main_call0_v8 : Ref sig .tc := ⟨.hbm, 100, rfl⟩
abbrev main_call0_v9 : Ref sig .tc := ⟨.hbm, 101, rfl⟩
abbrev main_call0_v10 : Ref sig .tc := ⟨.hbm, 102, rfl⟩
abbrev main_v64 : Ref sig .tc := ⟨.hbm, 103, rfl⟩
abbrev main_v65 : Ref sig .tc := ⟨.hbm, 104, rfl⟩
abbrev main_call1_c : Ref sig .tc := ⟨.hbm, 105, rfl⟩
abbrev main_call1_v0 : Ref sig .tc := ⟨.hbm, 106, rfl⟩
abbrev main_call1_v1 : Ref sig .tc := ⟨.hbm, 107, rfl⟩
abbrev main_call1_c_0 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_call1_v5 : Ref sig .tc := ⟨.hbm, 112, rfl⟩
abbrev main_call1_c_1 : Ref sig .tc := ⟨.hbm, 113, rfl⟩
abbrev main_call1_c_2 : Ref sig .tc := ⟨.hbm, 114, rfl⟩
abbrev main_call1_v6 : Ref sig .tc := ⟨.hbm, 115, rfl⟩
abbrev main_call1_v7 : Ref sig .tc := ⟨.hbm, 116, rfl⟩
abbrev main_call1_v8 : Ref sig .tc := ⟨.hbm, 117, rfl⟩
abbrev main_call1_v9 : Ref sig .tc := ⟨.hbm, 118, rfl⟩
abbrev main_call1_v10 : Ref sig .tc := ⟨.hbm, 119, rfl⟩
abbrev main_call1_v11 : Ref sig .tc := ⟨.hbm, 120, rfl⟩
abbrev main_call1_c_3 : Ref sig .tc := ⟨.hbm, 121, rfl⟩
abbrev main_call1_v12 : Ref sig .tc := ⟨.hbm, 122, rfl⟩
abbrev main_call1_v13 : Ref sig .tc := ⟨.hbm, 123, rfl⟩
abbrev main_call1_v14 : Ref sig .tc := ⟨.hbm, 124, rfl⟩
abbrev main_call1_cst : Ref sig .tc := ⟨.hbm, 125, rfl⟩
abbrev main_call1_v15 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_cst_12 : Ref sig .tc := ⟨.hbm, 134, rfl⟩
abbrev main_v73 : Ref sig .tc := ⟨.hbm, 135, rfl⟩
abbrev main_cst_13 : Ref sig .tc := ⟨.hbm, 136, rfl⟩
abbrev main_v74 : Ref sig .tc := ⟨.hbm, 137, rfl⟩
abbrev main_cst_14 : Ref sig .tc := ⟨.hbm, 138, rfl⟩
abbrev main_v75 : Ref sig .tc := ⟨.hbm, 139, rfl⟩
abbrev main_v76 : Ref sig .tc := ⟨.hbm, 140, rfl⟩

abbrev nD : Nat := 1
abbrev τ : Topo := Topo.v7x

variable {F : FTy → Type} [FloatOps F]

class Facts₀ : Prop where
  bcast_S_S1x1024 : S_.BroadcastsInDim S1x1024 (![] : Fin 0 → Fin S1x1024.rank)
  bcast_S1x1024_S1x1024x1_0_1 : S1x1024.BroadcastsInDim S1x1024x1 (![0, 1] : Fin 2 → Fin S1x1024x1.rank)
  reducesTo_S1x1024x2048_S1x1024_d2 : S1x1024x2048.ReducesTo [2] S1x1024
  h_S_ : 0 < S_.numel
  bcast_S_S1x1024x1 : S_.BroadcastsInDim S1x1024x1 (![] : Fin 0 → Fin S1x1024x1.rank)
  bcast_S1x1024x1_S1x1024x2048_0_1_2 : S1x1024x1.BroadcastsInDim S1x1024x2048 (![0, 1, 2] : Fin 3 → Fin S1x1024x2048.rank)
  bcast_S2048_S1x1x2048_2 : S2048.BroadcastsInDim S1x1x2048 (![2] : Fin 1 → Fin S1x1x2048.rank)
  bcast_S1x1x2048_S1x1024x2048_0_1_2 : S1x1x2048.BroadcastsInDim S1x1024x2048 (![0, 1, 2] : Fin 3 → Fin S1x1024x2048.rank)
  concatenates_S1x1024x2048_S1x1024x2048_S1x1024x4096_d2 : Shape.Concatenates [S1x1024x2048, S1x1024x2048] S1x1024x4096 2
  slices_S1x1024x129280_S1x1023x129280_0_0_0 : S1x1024x129280.Slices ![0, 0, 0] S1x1023x129280
  slices_S1x1024_S1x1023_0_1 : S1x1024.Slices ![0, 1] S1x1023
  reducesTo_S1x1023x129280_S1x1023_d2 : S1x1023x129280.ReducesTo [2] S1x1023
  bcast_S_S1x1023 : S_.BroadcastsInDim S1x1023 (![] : Fin 0 → Fin S1x1023.rank)
  bcast_S1x1023_S1x1023x1_0_1 : S1x1023.BroadcastsInDim S1x1023x1 (![0, 1] : Fin 2 → Fin S1x1023x1.rank)
  bcast_S1x1023x1_S1x1023x129280_0_1_2 : S1x1023x1.BroadcastsInDim S1x1023x129280 (![0, 1, 2] : Fin 3 → Fin S1x1023x129280.rank)
  bcast_S_S1x1023x1 : S_.BroadcastsInDim S1x1023x1 (![] : Fin 0 → Fin S1x1023x1.rank)
  shapeCasts_S1x1023x1_S1023x1x1 : S1x1023x1.ShapeCasts S1023x1x1
  bcast_S_S1023x1x1 : S_.BroadcastsInDim S1023x1x1 (![] : Fin 0 → Fin S1023x1x1.rank)
  bcast_S1_S1x1x1_2 : S1.BroadcastsInDim S1x1x1 (![2] : Fin 1 → Fin S1x1x1.rank)
  bcast_S1x1x1_S1023x1x1_0_1_2 : S1x1x1.BroadcastsInDim S1023x1x1 (![0, 1, 2] : Fin 3 → Fin S1023x1x1.rank)
  reducesTo_S1023x1x1_S1023x1_d2 : S1023x1x1.ReducesTo [2] S1023x1
  bcast_S1023x1_S1x1023x1_1_2 : S1023x1.BroadcastsInDim S1x1023x1 (![1, 2] : Fin 2 → Fin S1x1023x1.rank)
  shapeCasts_S1x1023x1_S1x1023 : S1x1023x1.ShapeCasts S1x1023
  shapeCasts_S1x1023_S1023 : S1x1023.ShapeCasts S1023
  reducesTo_S1023_S_d0 : S1023.ReducesTo [0] S_
  gather_S129280x2048_S1x1024x1_S1x1024x2048_2_0_n_n_0_2_12048_wf : GatherDims.WF S129280x2048 S1x1024x1 S1x1024x2048 [2] [0] [] [0] [] 2 ![1, 2048]
  dot_S1x1024x4096_S2048x4096_S1x1024x2048_2_1_01_0_n_n_wf : DotDims.WF S1x1024x4096 S2048x4096 S1x1024x2048 [2] [1] [0, 1] [0] [] []
  dot_S1x1024x2048_S129280x2048_S1x1024x129280_2_1_01_0_n_n_wf : DotDims.WF S1x1024x2048 S129280x2048 S1x1024x129280 [2] [1] [0, 1] [0] [] []
  gather_S1x1023x129280_S1023x1x1_S1x1023x1_0_2_1_0_2_2_111_wf : GatherDims.WF S1x1023x129280 S1023x1x1 S1x1023x1 [0] [2] [1] [2] [0] 2 ![1, 1, 1]

variable [Facts₀]

def gather_S129280x2048_S1x1024x1_S1x1024x2048_2_0_n_n_0_2_12048 : GatherDims S129280x2048 S1x1024x1 S1x1024x2048 where
  offsetDims := [2]
  collapsedSliceDims := [0]
  operandBatchingDims := []
  startIndicesBatchingDims := []
  startIndexMap := [0]
  indexVectorDim := 2
  sliceSizes := ![1, 2048]
  wf := gather_S129280x2048_S1x1024x1_S1x1024x2048_2_0_n_n_0_2_12048_wf
def dot_S1x1024x4096_S2048x4096_S1x1024x2048_2_1_01_0_n_n : DotDims S1x1024x4096 S2048x4096 S1x1024x2048 where
  lhsContracting := [2]
  rhsContracting := [1]
  lhsNonContracting := [0, 1]
  rhsNonContracting := [0]
  lhsBatch := []
  rhsBatch := []
  wf := dot_S1x1024x4096_S2048x4096_S1x1024x2048_2_1_01_0_n_n_wf
def dot_S1x1024x2048_S129280x2048_S1x1024x129280_2_1_01_0_n_n : DotDims S1x1024x2048 S129280x2048 S1x1024x129280 where
  lhsContracting := [2]
  rhsContracting := [1]
  lhsNonContracting := [0, 1]
  rhsNonContracting := [0]
  lhsBatch := []
  rhsBatch := []
  wf := dot_S1x1024x2048_S129280x2048_S1x1024x129280_2_1_01_0_n_n_wf
def gather_S1x1023x129280_S1023x1x1_S1x1023x1_0_2_1_0_2_2_111 : GatherDims S1x1023x129280 S1023x1x1 S1x1023x1 where
  offsetDims := [0]
  collapsedSliceDims := [2]
  operandBatchingDims := [1]
  startIndicesBatchingDims := [0]
  startIndexMap := [2]
  indexVectorDim := 2
  sliceSizes := ![1, 1, 1]
  wf := gather_S1x1023x129280_S1023x1x1_S1x1023x1_0_2_1_0_2_2_111_wf

class Facts : Prop extends Facts₀ where

variable [Facts]
-- ==== Proof.KB.FrontDefs.lean ====
import proofs.«420313_j13838384627918_1_alg».proof.Proof.Gen.Kernel.Launch
import proofs.«420313_j13838384627918_1_alg».proof.Proof.Gen.Kernel.Skeleton
import proofs.«420313_j13838384627918_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The front region (normalise both streams, project each through its square weight, add, normalise twice)

Definitions only: each window's block at a grid point, what the body leaves in the output window's
staging buffer as a function of the eight input blocks, and the region's proof data. -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 256x2048 block (both f32 input streams and the bf16 output). -/
abbrev rTile : Rect S256x2048 := Rect.unit (s := S256x2048) ![0, 0] S256x2048.size inb_S256x2048_S256x2048_0_0
/-- The whole 1x2048 row (the four norm weights). -/
abbrev rRow : Rect S1x2048 := Rect.unit (s := S1x2048) ![0, 0] S1x2048.size inb_S1x2048_S1x2048_0_0
/-- The whole 2048x2048 square projection weight. -/
abbrev rSquare : Rect S2048x2048 := Rect.unit (s := S2048x2048) ![0, 0] S2048x2048.size inb_S2048x2048_S2048x2048_0_0

/-- The output window's staging buffer after the body, from the eight input blocks
    (`x0` embedding rows, `x1` hidden rows, `x2`/`x3` their norm weights, `x4`/`x5` their square
    projections, `x6`/`x7` the two closing norm weights): its single whole-block store
    `norm₇ (norm₆ (rms x0 x2 · x4ᵀ + rms x1 x3 · x5ᵀ))` rounded to bf16. -/
def frontOut (x0 x1 : Vec F S256x2048 .f32) (x2 x3 : Vec F S1x2048 .f32) (x4 x5 : Vec F S2048x2048 .bf16)
    (x6 x7 : Vec F S1x2048 .f32) : Vec F S256x2048 .bf16 :=
  View.canon [⟨rTile, k0_pay1 (k0_pay2 (View.ld x1 rTile) (View.ld x3 rRow))
    (k0_pay3 (View.ld x0 rTile) (View.ld x2 rRow) (View.ld x4 rSquare))
    (k0_pay4 (View.ld x5 rSquare))
    (constant S256x2048 .f32 0x00000000#32)
    (View.ld x6 rRow) (View.ld x7 rRow)⟩]

/-- The proof data of the front region on core `c`: the arrays as the region finds them (`V`); after the body
    at point `t` each input's buffer at its block and the output's at `frontOut` of the input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => frontOut (iblk0 V c 0 t) (iblk0 V c 1 t) (iblk0 V c 2 t) (iblk0 V c 3 t)
        (iblk0 V c 4 t) (iblk0 V c 5 t) (iblk0 V c 6 t) (iblk0 V c 7 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t =
    frontOut (iblk0 V c 0 t) (iblk0 V c 1 t) (iblk0 V c 2 t) (iblk0 V c 3 t)
      (iblk0 V c 4 t) (iblk0 V c 5 t) (iblk0 V c 6 t) (iblk0 V c 7 t) := by dsimp only [dat0]

end Cert.Kernel.Gen

end
-- ==== Proof.KB.HeadDefs.lean ====
/- The lm_head kernel's half of the frame: what the three carried columns (running maximum, running sum,
   label logit), the logits block and the loss block hold after the body at each grid point, as a recursion over
   the payloads of the kernel's stores; the region invariant carrying the three columns; and the proof data. -/
import proofs.«420313_j13838384627918_1_alg».proof.Proof.Gen.Kernel.Launch
import proofs.«420313_j13838384627918_1_alg».proof.Proof.Gen.Kernel.Skeleton
import proofs.«420313_j13838384627918_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Core `c`'s TensorCore buffers as the lm_head region finds them: a parameter of everything below.
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The three carried columns -/

/-- The columns' memrefs: the running maximum `m`, the running sum `l`, the label logit `lbl`. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1 .f32 := Memref.whole cc1_scratch2

/-- The three columns `(m, l, lbl)`. -/
abbrev Scr1 (F : FTy → Type) : Type := Vec F S512x1 .f32 × Vec F S512x1 .f32 × Vec F S512x1 .f32

/-- What the first vocabulary step stores before anything else: `m = -∞`, `l = 0`, `lbl = 0`. -/
def scrReset1 : Scr1 F := (k1_pay3 (F := F), k1_pay4 (F := F), k1_pay5 (F := F))

/-- One body from the columns `prev` it finds (after the reset, at a first vocabulary step), at the point's
    normed block `x0`, weight block `x1` and label block `x2`: the new maximum from the old; the new sum from the
    OLD maximum and the old sum (the sum is stored before the maximum is); the label logit from the logits just
    computed, the column ids of this vocabulary step and the old label logit. No whole-rectangle load or same-shape
    cast sits between a load and a payload: each load's value enters its payload as loaded. -/
def scrStep1 (c : Dev nD) (t : Fin cfg1.N) (prev : Scr1 F) : Scr1 F :=
  (k1_pay9 (iblk1 V c 0 t) (iblk1 V c 1 t) prev.1,
   k1_pay8 (iblk1 V c 0 t) (iblk1 V c 1 t) prev.1 prev.2.1,
   k1_pay1 (k1_pay6 (iblk1 V c 0 t) (iblk1 V c 1 t)) (k1_pay10 (grid1.coords t)) (iblk1 V c 2 t) prev.2.2)

/-- THE ACCUMULATION. The three columns after the body at position `n`: one step from the reset values at a first
    vocabulary step (`n % 101 = 0`), from what position `n - 1` left otherwise. -/
def scrAt1 (c : Dev nD) : (n : ℕ) → n < cfg1.N → Scr1 F
  | 0, hn => scrStep1 V c ⟨0, hn⟩ scrReset1
  | n + 1, hn => scrStep1 V c ⟨n + 1, hn⟩
      (if (n + 1) % 101 = 0 then scrReset1 else scrAt1 c n (Nat.lt_of_succ_lt hn))

/-- At a first vocabulary step: one step from the reset values. -/
theorem scrAt1_reset (c : Dev nD) (t : Fin cfg1.N) (h : t.val % 101 = 0) :
    scrAt1 V c t.val t.isLt = scrStep1 V c t scrReset1 := by
  obtain ⟨n, hn⟩ := t
  cases n with
  | zero => rfl
  | succ n => exact congrArg (scrStep1 V c ⟨n + 1, hn⟩) (if_pos h)

/-- At a later vocabulary step: one step from what the point before left. -/
theorem scrAt1_step (c : Dev nD) (t : Fin cfg1.N) (h : t.val % 101 ≠ 0) :
    scrAt1 V c t.val t.isLt = scrStep1 V c t (scrAt1 V c (t.val - 1) (Nat.lt_of_le_of_lt (Nat.sub_le _ _) t.isLt)) := by
  obtain ⟨n, hn⟩ := t
  cases n with
  | zero => exact absurd (Nat.zero_mod _) h
  | succ n => exact congrArg (scrStep1 V c ⟨n + 1, hn⟩) (if_neg h)

/-- The logits block the body stores at point `t`. -/
def logitsAt1 (c : Dev nD) (t : Fin cfg1.N) : Vec F S512x1280 .f32 :=
  k1_pay6 (iblk1 V c 0 t) (iblk1 V c 1 t)

/-- The loss block `m + log l - lbl` of the three columns after the body at point `t` (the body stores it at the
    last vocabulary step, reading the three columns back after their stores). -/
def nllAt1 (c : Dev nD) (t : Fin cfg1.N) : Vec F S512x1 .f32 :=
  k1_pay2 (scrAt1 V c t.val t.isLt).1 (scrAt1 V c t.val t.isLt).2.1 (scrAt1 V c t.val t.isLt).2.2

/-! ## The region invariant -/

/-- The core's scoped buffers that the lm_head region neither stages through nor carries, each whole at some
    contents, beside `S` (what is said of the three columns). -/
def scopedWith1 (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg8_1), ((c : Thread nD τ).loc cc0_stg8_1) ↦{fullShare} f)
    ∗ S)

/-- The three columns owned at `s`. -/
def colsAt1 (c : Dev nD) (s : Scr1 F) : sProp 𝕄 :=
  iprop(owns (c : Thread nD τ) scM1_0 fullShare s.1 ∗ owns (c : Thread nD τ) scM1_1 fullShare s.2.1 ∗ owns (c : Thread nD τ) scM1_2 fullShare s.2.2)

/-- The three columns owned at some contents. -/
def colsAny1 (c : Dev nD) : sProp 𝕄 :=
  iprop((∃ d, owns (c : Thread nD τ) scM1_0 fullShare d) ∗ (∃ d, owns (c : Thread nD τ) scM1_1 fullShare d) ∗ (∃ d, owns (c : Thread nD τ) scM1_2 fullShare d))

/-- The region invariant before position `n`: before the first point what the launch hands the region (every scoped
    buffer at anything); afterwards the three columns at what the point before left, the other scoped buffers at
    anything, the generator register at some state. -/
def PhiS1 (c : Dev nD) : (n : ℕ) → n ≤ cfg1.N → sProp 𝕄
  | 0, _ => Pipeline.ΦA spec1 c
  | n + 1, hn => iprop(scopedWith1 c (colsAt1 c (scrAt1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scopedWith1 c (colsAt1 c (scrAt1 V c n hn)) ∗ (∃ r, prngReg c r)) := rfl

theorem PhiS1_pos (c : Dev nD) (n : ℕ) (h : n ≤ cfg1.N) (hz : n ≠ 0) :
    PhiS1 V c n h = iprop(scopedWith1 c (colsAt1 c (scrAt1 V c (n - 1) (by omega))) ∗ (∃ r, prngReg c r)) := by
  cases n with
  | zero => exact absurd rfl hz
  | succ n => rfl

/-- What the launch hands the region, with the three columns as memrefs owned at some contents. -/
theorem PhiA1_eq (c : Dev nD) :
    (Pipeline.ΦA spec1 c : sProp 𝕄) = iprop(scopedWith1 c (colsAny1 c) ∗ (∃ r, prngReg c r)) := by
  unfold Pipeline.ΦA scopedWith1 colsAny1; rw [scopedRest1_eq]; simp only [scM1_0, scM1_1, scM1_2, owns_whole]; try rfl

/-! ## The proof data -/

/-- The proof data of the lm_head pipeline on core `c`: the arrays as the region finds them; after the body at
    point `t` each input's buffer at its block, the logits window's at the logits block, the loss window's at the
    loss of the three columns there (consulted only where the window is live, the last vocabulary steps; elsewhere
    the window is idle and its buffer handed back as found); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => logitsAt1 V c t
    | ⟨4, _⟩ => nllAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = logitsAt1 V c t := by dsimp only [dat1]
theorem after1_4 (c : Dev nD) (t : Fin cfg1.N) : (dat1 V c).after 4 t = nllAt1 V c t := by dsimp only [dat1]

end Cert.Kernel.Gen

end
-- ==== Proof.KB.Launch.lean ====
import proofs.«420313_j13838384627918_1_alg».proof.Proof.KB.FrontDefs
import proofs.«420313_j13838384627918_1_alg».proof.Proof.KB.HeadDefs
import proofs.«420313_j13838384627918_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The program's run from the two regions' proof data

The buffers' contents at every boundary between two items of the program are a fold from the launch
memory: a host stretch's effect, then what a region leaves in its output arrays. The two regions'
records over those contents, and the program's run from them: every final memory holds each
unscoped buffer at the last contents of the fold. -/

variable (m : (ℓ : Loc nD τ sig) → Buf (Elt F) ℓ)

/-! ## What the regions leave -/

/-- The front region's entry contents: the buffers after the first host stretch, read at the core's references. -/
abbrev entry0 : (c : Dev nD) → (b : Ref sig .tc) → Buf (Elt F) ((c : Thread nD τ).loc b) := fun c b => V1 m c b

/-- The buffers as the front region leaves them: each of its arrays at what its write-backs leave
    (an input as entered, the output every block written), every other buffer as entered. -/
def afterFront (c : Dev nD) : Valuation τ sig (Elt F) :=
  Pipeline.withArrays spec0 c (V1 m c) fun w => (dat0 (entry0 m) c).arrAt w cfg0.N

/-- What the front region leaves, as the unknowns of the valuations between items. -/
def outsFront : Outs (F := F) := fun _ r c => afterFront m c r

/-- The buffers as the head region leaves them, entered from the contents after the second host stretch. -/
def afterHead (c : Dev nD) : Valuation τ sig (Elt F) :=
  Pipeline.withArrays spec1 c (V3 m (outsFront m) c) fun w => (dat1 (fun c b => V3 m (outsFront m) c b) c).arrAt w cfg1.N

/-- What the regions leave: after the front region (item 1) its arrays' final contents, after the head
    region (item 3) its arrays' final contents. -/
def outs : Outs (F := F) := fun J r c => if J = 4 then afterHead m c r else afterFront m c r

/-- The head region's entry contents: the buffers after the second host stretch. -/
abbrev entry1 : (c : Dev nD) → (b : Ref sig .tc) → Buf (Elt F) ((c : Thread nD τ).loc b) := fun c b => V3 m (outs m) c b

theorem V2_outs (c : Dev nD) : V2 m (outs m) c = V2 m (outsFront m) c := rfl
theorem V3_outs (c : Dev nD) : V3 m (outs m) c = V3 m (outsFront m) c := rfl
theorem entry1_eq : (fun c b => V3 m (outsFront m) c b : (c : Dev nD) → (b : Ref sig .tc) → Buf (Elt F) ((c : Thread nD τ).loc b)) = entry1 m := rfl

/-- The front region leaves in its output array every block written. -/
theorem outs_v17 (c : Dev nD) : outs m 2 main_v17 c = (dat0 (entry0 m) c).arrAt 8 cfg0.N := by
  show afterFront m c (Proc.devRef .tc (Pipeline.arrRef spec0 8)) = _
  unfold afterFront; exact Pipeline.withArrays_arr spec0 launch0.win.arr_inj c _ _ 8
/-- The head region leaves in the logits array every block written, -/
theorem outs_v28_0 (c : Dev nD) : outs m 4 main_v28_0 c = (dat1 (entry1 m) c).arrAt 3 cfg1.N := by
  show afterHead m c (Proc.devRef .tc (Pipeline.arrRef spec1 3)) = _
  unfold afterHead; exact Pipeline.withArrays_arr spec1 launch1.win.arr_inj c _ _ 3
/-- and in the loss array every block written. -/
theorem outs_v28_1 (c : Dev nD) : outs m 4 main_v28_1 c = (dat1 (entry1 m) c).arrAt 4 cfg1.N := by
  show afterHead m c (Proc.devRef .tc (Pipeline.arrRef spec1 4)) = _
  unfold afterHead; exact Pipeline.withArrays_arr spec1 launch1.win.arr_inj c _ _ 4

/-! ## The proof data family and what rides along -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (entry0 m) c
  | ⟨1, _⟩ => fun c => dat1 (entry1 m) c

/-- No core owes another anything: no level is assigned. -/
abbrev L : GSem nD τ sig → Finset Unit := fun _ => ∅
abbrev lv : GSem nD τ sig → Unit → ℕ := fun _ _ => 0
/-- What rides beside the buffers through every item: the core's generator register at some state and
    its dues, at nothing. -/
abbrev R (c : Dev nD) : sProp 𝕄 := iprop((∃ r, prngReg c r) ∗ ∃ W, owes (c : Thread nD τ) (0 : CellTallies nD τ sig Unit) W)
/-- The same beside every boundary between two items. -/
def E : Fin 3 → Dev nD → sProp 𝕄 := fun _ c => R c

/-! ## The regions' records -/

section Records

variable (hb0 : ∀ V c, BodyObligation (dat0 (F := F) V c) (defs₀ (F := F)) Variants.none () Set.univ)
variable (hb1 : ∀ V c, BodyObligation (dat1 (F := F) V c) (defs₀ (F := F)) Variants.none () Set.univ)
variable (hin1 : ∀ V c, Pipeline.ΦA (U := UR sig nD τ) spec1 c ⊢ (dat1 (F := F) V c).Φ 0)
variable (hout1 : ∀ V c, (dat1 (F := F) V c).Φ (Fin.last cfg1.N) ⊢ Pipeline.ΦA (U := UR sig nD τ) spec1 c)

/-- The front region has one output window, the last; -/
theorem front_out_only : ∀ w : Fin cfg0.W, (cfg0.win w).isOut = true → w = 8 := by decide
/-- no input window of it reads the output array. -/
theorem front_in_ne : ∀ w : Fin cfg0.W, (cfg0.win w).isOut = false → Pipeline.arrRef spec0 w ∉ ([main_v17] : List (Ref sig .tc)) := by decide
/-- The head region's output windows are the logits' and the loss's; -/
theorem head_out_only : ∀ w : Fin cfg1.W, (cfg1.win w).isOut = true → w = 3 ∨ w = 4 := by decide
/-- no input window of it reads either output array. -/
theorem head_in_ne : ∀ w : Fin cfg1.W, (cfg1.win w).isOut = false → Pipeline.arrRef spec1 w ∉ ([main_v28_0, main_v28_1] : List (Ref sig .tc)) := by decide

/-- At the front region's exit each of its arrays holds what the pipeline leaves, -/
theorem hF0 (c : Dev nD) (w : Fin cfg0.W) :
    (dat0 (entry0 m) c).arrAt w cfg0.N = V2 m (outs m) c (Pipeline.arrRef spec0 w) := by
  cases h : (cfg0.win w).isOut
  · exact ((dat0 (entry0 m) c).arrAt_in w h _).trans ((A_eq0 (entry0 m) c w).trans (V2_of m (outs m) c _ (front_in_ne w h)).symm)
  · obtain rfl := front_out_only w h
    show _ = Function.update (V1 m c) (Proc.devRef .tc main_v17) (outs m 2 main_v17 c) (Proc.devRef .tc main_v17)
    rw [Function.update_self]; exact (outs_v17 m c).symm
/-- and every other buffer what it held at entry. -/
theorem hrest0 (c : Dev nD) : ∀ b : Ref sig .tc, b ∉ Finset.univ.image (Pipeline.arrRef spec0) → V2 m (outs m) c b = V1 m c b :=
  fun b hb => V2_of m (outs m) c b fun h => hb (Finset.mem_image.mpr ⟨8, Finset.mem_univ _, (List.mem_singleton.mp h).symm⟩)

theorem v28_ne : (Proc.devRef .tc main_v28_0 : DevRef τ sig) ≠ Proc.devRef .tc main_v28_1 := StableHlo.devRef_ne_of_ne (by decide)

/-- At the head region's exit each of its arrays holds what the pipeline leaves, -/
theorem hF1 (c : Dev nD) (w : Fin cfg1.W) :
    (dat1 (entry1 m) c).arrAt w cfg1.N = V4 m (outs m) c (Pipeline.arrRef spec1 w) := by
  cases h : (cfg1.win w).isOut
  · exact ((dat1 (entry1 m) c).arrAt_in w h _).trans ((A_eq1 (entry1 m) c w).trans (V4_of m (outs m) c _ (head_in_ne w h)).symm)
  · rcases head_out_only w h with rfl | rfl
    · show _ = Function.update (Function.update (V3 m (outs m) c) (Proc.devRef .tc main_v28_0) (outs m 4 main_v28_0 c))
        (Proc.devRef .tc main_v28_1) (outs m 4 main_v28_1 c) (Proc.devRef .tc main_v28_0)
      rw [Function.update_of_ne v28_ne, Function.update_self]; exact (outs_v28_0 m c).symm
    · show _ = Function.update (Function.update (V3 m (outs m) c) (Proc.devRef .tc main_v28_0) (outs m 4 main_v28_0 c))
        (Proc.devRef .tc main_v28_1) (outs m 4 main_v28_1 c) (Proc.devRef .tc main_v28_1)
      rw [Function.update_self]; exact (outs_v28_1 m c).symm
/-- and every other buffer what it held at entry. -/
theorem hrest1 (c : Dev nD) : ∀ b : Ref sig .tc, b ∉ Finset.univ.image (Pipeline.arrRef spec1) → V4 m (outs m) c b = V3 m (outs m) c b :=
  fun b hb => V4_of m (outs m) c b fun h => by
    rcases List.mem_cons.mp h with h | h
    · exact hb (Finset.mem_image.mpr ⟨3, Finset.mem_univ _, h.symm⟩)
    · exact hb (Finset.mem_image.mpr ⟨4, Finset.mem_univ _, (List.mem_singleton.mp h).symm⟩)

-- a library lemma stated over the pinned configuration unifies with the printed one only when unification may
-- unfold plain definitions in a metavariable's type
set_option backward.isDefEq.respectTransparency.types false in
/-- The front region over the thread state: entered from every unscoped buffer at the contents after the first
    host stretch, left with its output array at what it wrote. Its arrays are split out of the unscoped buffers
    and put back at the exit contents; the generator register goes into the invariant and comes back; nothing owed. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (hb0 (entry0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The head region over the thread state: entered from every unscoped buffer at the contents after the second
    host stretch, left with the logits and loss arrays at what it wrote. Its invariant starts from the scoped rest
    (the three carried columns among it, at anything) and the generator register, and gives them back. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (hb1 (entry1 m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (entry1 m) c)
    unfold Pipeline.ΦA
    iintro ⟨Hp, -, Hr⟩
    isplitl [Hr]; · iexact Hr
    iexact Hp
  hout c := by
    rw [Pipeline.ownSems0_none]
    refine BIBase.Entails.trans (hout1 (entry1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (fun b => V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch's ghost element is the pipelines' own: nothing else is set up. -/
theorem launch_ghost : (ownU (initOf (Pipeline.cells cfgs cellOf_inj) (Pipeline.launchToks cfgs cellOf_inj)) : sProp 𝕄)
    ⊢ |={Set.univ}=> iprop(BI.own ((emb₁ : Emb _ 𝕄) (initOf (Pipeline.cells cfgs cellOf_inj) (Pipeline.launchToks cfgs cellOf_inj)))
        ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals every core beside its buffers makes what rides along: the generator register at
    its launch state, the dues at nothing. -/
theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (E (F := F) 0) : sProp 𝕄) := by
  refine Pipeline.initEach L lv fun c => ?_
  unfold E
  iintro ⟨⟨-, HO, -, Hp, -⟩, -⟩
  imodintro
  isplitl [Hp]; · iexists _; iexact Hp
  iexists ∅; iexact HO

/-- What rides along ends owing nothing. -/
theorem rest_owes (c : Dev nD) : E (F := F) 2 c ⊢ (iprop(∃ W, owes (c : Thread nD τ) (0 : CellTallies nD τ sig Unit) W) : sProp 𝕄) := by
  unfold E; iintro ⟨-, H⟩; iexact H

include hb0 hb1 hin1 hout1 in
/-- THE FRAME at any instance: every weakly fair execution of the program from memory `m` with zero counters
    terminates, and every final memory holds each argument as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m (emb₁ : Emb _ 𝕄) () Variants.none L lv (fun _ _ => rfl) ρ (outs m) (pdats m) 0 (fun _ => iprop(emp))
    (initOf (Pipeline.cells cfgs cellOf_inj) (Pipeline.launchToks cfgs cellOf_inj)) launch_ghost E (launch_rest ρ) rest_owes
    (reg0 m hb0) (fun _ => .rfl) (fun _ => .rfl) (reg1 m hb1 hin1 hout1) (fun _ => .rfl) (fun _ => .rfl)

include hb0 hb1 hin1 hout1 in
set_option backward.isDefEq.respectTransparency.types false in
/-- THE RUN, every buffer read: every weakly fair execution of the program from memory `m` with zero counters
    terminates, and every final memory holds every unscoped buffer of every core at the last contents of the fold
    (the host stretches' effects over what the two regions leave). -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = V5 m (outs m) c b) := by
  refine Pipeline.θ_run_regions_kit_dev (pcfgs (F := F)) adm (pdats m) () cellOf_inj (emb₁ : Emb _ 𝕄) defs₀ Variants.none L lv m ρ main
    (segs m (outs m) Variants.none L lv E () (pdats m) (reg0 m hb0) (reg1 m hb1 hin1 hout1))
    (fun c Q => by
      rewrite [main_chain c, Pipeline.Seg.run_eq_chain,
        show (segs m (outs m) Variants.none L lv E () (pdats m) (reg0 m hb0) (reg1 m hb1 hin1 hout1) c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    0 (fun _ _ => rfl) (fun _ => iprop(emp))
    (initOf (Pipeline.cells cfgs cellOf_inj) (Pipeline.launchToks cfgs cellOf_inj)) launch_ghost
    (T₀ := fun c => iprop(StableHlo.held (c : Thread nD τ) (Pipeline.ucRefs τ sig) (V0 m c) ∗ E 0 c))
    (Tₙ := fun c => StableHlo.held (c : Thread nD τ) (Pipeline.ucRefs τ sig) (V5 m (outs m) c))
    (hch := fun c => ⟨.rfl, .rfl, .rfl, .rfl, .rfl, sep_mono .rfl (rest_owes c)⟩)
    (hinit := ?_) (QY := fun c s => ∀ b ∈ Pipeline.ucRefs τ sig, s.mem ((c : Thread nD τ).1, b) = V5 m (outs m) c b)
    (hfin := fun c s' => ?_) (hQ := fun _ h => h)
  · -- the launch: the unscoped buffers are held at the launch contents; the rest makes what rides along
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (launch_rest ρ) $$ [Hr Hla] with HE
    · isplitl [Hr]; · iexact Hr
      iexact Hla
    imodintro
    rw [bigSep_sep']
    isplitl [Hh]; · iexact Hh
    iexact HE
  · -- the end: every unscoped buffer read off the last contents
    unfold StableHlo.held
    iintro ⟨Hh, HSI⟩
    imodintro
    iapply (pointsTo_read_all (Pipeline.ucRefs τ sig) (fun b => ((c : Thread nD τ).1, b)) (V5 m (outs m) c) s')
    isplitl [Hh] <;> iassumption

end Records

end Cert.Kernel.Gen

end
-- ==== Proof.KB.Front.lean ====
import proofs.«420313_j13838384627918_1_alg».proof.Proof.Gen.Kernel.Launch
import proofs.«420313_j13838384627918_1_alg».proof.Proof.Gen.Kernel.Skeleton
import proofs.«420313_j13838384627918_1_alg».proof.Proof.Gen.Kernel.Points
import proofs.«420313_j13838384627918_1_alg».proof.Proof.KB.FrontDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The front region: the body's triple, the inputs' staging contents, the body obligation -/

/-! ## Each input's current staging buffer holds its block, fetched at this point or not

The two row streams move at every point; the six weights are fetched at the first point only and
their block index never moves after it. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The single store covers the output block -/

theorem cover0_8 (p0 : Vec F S256x2048 .bf16) (y : S256x2048.Idx) :
    ∃ pc ∈ ([⟨rTile, p0⟩] : List (View.Piece (Elt F) S256x2048 .bf16)), y ∈ pc.1.set :=
  View.cover_of_tiled [⟨rTile, p0⟩] S256x2048.size (by rfl) y

/-! ## The body's triple -/

set_option maxHeartbeats 4000000 in
/-- The body on whole staging memrefs, the eight inputs' at read contents `x0 … x7` and the output's at anything,
    runs to the continuation holding the inputs' as they were and the output's at `frontOut` of them. -/
theorem sound_kernel0 (c : Dev nD) (E : Set ℕ) (i : grid0.Coords) (arg1 : Memref sig .tc .vmem S256x2048 .f32) (harg1 : arg1.IsWhole) (arg2 : Memref sig .tc .vmem S256x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x2048 .bf16) (harg5 : arg5.IsWhole) (arg6 : Memref sig .tc .vmem S2048x2048 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S256x2048 .bf16) (harg9 : arg9.IsWhole)
    (x0 : Vec F S256x2048 .f32) (x1 : Vec F S256x2048 .f32) (x2 : Vec F S1x2048 .f32) (x3 : Vec F S1x2048 .f32) (x4 : Vec F S2048x2048 .bf16) (x5 : Vec F S2048x2048 .bf16) (x6 : Vec F S1x2048 .f32) (x7 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (frontOut x0 x1 x2 x3 x4 x5 x6 x7)) -∗ K ⟨⟩))
      ⊢ wp frame (wpE (defs₀ (F := F)) Variants.none c none) E (cc0__front_kernel i arg1 harg1 arg2 harg2 arg3 harg3 arg4 harg4 arg5 harg5 arg6 harg6 arg7 harg7 arg8 harg8 arg9 harg9) K := by
  simp only [cc0__front_kernel_eq_skeleton]; unfold cc0__front_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0
  subst hf1
  subst hf2
  subst hf3
  subst hf4
  subst hf5
  subst hf6
  subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.KB.HeadRuns.lean ====
/- What the three case runs of the lm_head kernel's body share: the body's two branch conditions in closed form
   over the grid, where the loss window is idle, the staging memrefs at a point, that each input window's buffer
   holds its block at every point, and what a whole-block store reads back. -/
import proofs.«420313_j13838384627918_1_alg».proof.Proof.KB.HeadDefs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's branch conditions -/

/-- The first conditional's condition (the reset of the three columns), from the grid coordinates. -/
abbrev cond1_0 (i : grid1.Coords) : Prop := (Scalar.cmpi .ne (Scalar.extui (Scalar.cmpi .eq (BitVec.ofNat 32 (i 1).val) 0#32)) 0#32) = 1#1
/-- It holds at the first vocabulary step of each sequence block. -/
theorem hcond1_0 : ∀ t : Fin cfg1.N, cond1_0 (grid1.coords t) ↔ t.val % 101 = 0 :=
  (by decide +kernel : ∀ t : Fin grid1.N, cond1_0 (grid1.coords t) ↔ t.val % 101 = 0)

/-- The second conditional's condition (the store of the loss block), from the grid coordinates. -/
abbrev cond1_1 (i : grid1.Coords) : Prop := k1_cond2 i = 1#1
/-- It holds at the last vocabulary step of each sequence block. -/
theorem hcond1_1 : ∀ t : Fin cfg1.N, cond1_1 (grid1.coords t) ↔ t.val % 101 = 100 :=
  (by decide +kernel : ∀ t : Fin grid1.N, cond1_1 (grid1.coords t) ↔ t.val % 101 = 100)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Away from the last vocabulary step the loss window is idle (the body stores nothing into it), -/
theorem idleAt1_4 : ∀ t : Fin cfg1.N, ¬cond1_1 (grid1.coords t) → cfg1.idle 4 (grid1.coords t) = true := by decide +kernel
/-- and the pipeline does not write its block back; -/
theorem noFlush1_4 : ∀ t : Fin cfg1.N, ¬cond1_1 (grid1.coords t) → (cfg1.win 4).flush t = false := by decide +kernel
/-- at the last vocabulary step it is live. -/
theorem liveAt1_4 : ∀ t : Fin cfg1.N, cond1_1 (grid1.coords t) → cfg1.idle 4 (grid1.coords t) = false := by decide +kernel

/-! ## The staging memrefs at a point -/

abbrev ms1_0 (t : Fin cfg1.N) : Memref sig .tc .vmem S512x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1280x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1280 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)

/-! ## Each input's buffer holds its block at every point -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

end Cert.Kernel.Gen

end
-- ==== Proof.KB.HeadWhole.lean ====
/- What a whole-block load reads and a whole-block store leaves, through a whole memref; and the region invariant's
   scoped buffers taken apart around the three carried columns. -/
import proofs.«420313_j13838384627918_1_alg».proof.Proof.KB.HeadRuns
import Idealize.ShloMosaic.Lib.WholeRead
import Idealize.ShloMosaic.Lib.WritesUnit

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of the whole block through a whole memref held at the contents that read `X` reads `X`. -/
theorem readAt_full_unread {κ : Kind} {sp : Space} {e : EltTy} {d : Fin 2 → ℕ} {Val : EltTy → Type}
    {m : Memref sig κ sp (⟨2, d⟩ : Shape) e} (h : m.IsWhole)
    (X : (⟨2, d⟩ : Shape).Idx → Val e) (inb : ∀ a, (![0, 0] : Fin 2 → ℕ) a + d a ≤ d a) :
    View.readAt Val m.view (Rect.unit (s := (⟨2, d⟩ : Shape)) ![0, 0] d inb).toLoadRect (h.unread X) = X := by
  funext x
  rw [Memref.IsWhole.readAt_unread h]
  congr 1
  funext a
  apply Fin.ext
  show (![0, 0] : Fin 2 → ℕ) a + 1 * (x a).val = (x a).val
  fin_cases a <;> simp

/-- A store of the whole block reads back the stored block, whatever was there and whatever was stored before. -/
theorem read_writes_full {κ : Kind} {sp : Space} {e : EltTy} {d : Fin 2 → ℕ} {Val : EltTy → Type}
    (v : View sig κ sp (⟨2, d⟩ : Shape) e) (f : v.ty.Contents Val) (inb : ∀ a, (![0, 0] : Fin 2 → ℕ) a + d a ≤ d a)
    (w : (⟨2, d⟩ : Shape).Idx → Val e) (L : List (View.Piece Val (⟨2, d⟩ : Shape) e)) :
    v.read Val (v.writes Val f ((⟨Rect.unit (s := (⟨2, d⟩ : Shape)) ![0, 0] d inb, w⟩ : View.Piece Val (⟨2, d⟩ : Shape) e) :: L)) = w := by
  funext y
  exact View.read_writes_cons_unit_of_mem v f inb w L y y rfl (fun a => by fin_cases a <;> simp)

/-! ## The scoped buffers around the three columns -/

/-- The three columns are taken out of the scoped buffers and any statement of them put back. -/
theorem scopedWith1_wand (c : Dev nD) (S S' : sProp 𝕄) :
    scopedWith1 (F := F) c S ⊢ iprop(S ∗ (S' -∗ scopedWith1 (F := F) c S')) := by
  unfold scopedWith1
  iintro ⟨H1, H2, H3, H4, H5, H6, H7, H8, H9, H10, H11, H12, HS⟩
  isplitl [HS]; · iexact HS
  iintro HS'
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact HS'

/-- Columns owned at known contents are columns owned at some contents. -/
theorem colsAt1_any (c : Dev nD) (s : Scr1 F) : colsAt1 c s ⊢ colsAny1 (F := F) c := by
  unfold colsAt1 colsAny1
  iintro ⟨H0, H1, H2⟩
  isplitl [H0]; · iexists _; iexact H0
  isplitl [H1]; · iexists _; iexact H1
  iexists _; iexact H2

end Cert.Kernel.Gen

end
-- ==== Proof.KB.HeadRunA.lean ====
/- The lm_head kernel's body at the first vocabulary step of a sequence block: the three columns are first reset
   (maximum to minus infinity, sum and label logit to zero), whatever they held; the loads that follow read the reset
   values back; the loss block is left as found. -/
import proofs.«420313_j13838384627918_1_alg».proof.Proof.KB.HeadWhole

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-two block. -/
private theorem zeros2 : (![0, 0] : Fin 2 → ℕ) = fun _ => 0 := by
  funext a; fin_cases a <;> rfl

set_option maxHeartbeats 4000000 in
/-- The body at a point where the first conditional is taken and the second is not. -/
theorem headRun_A (c : Dev nD) (i : grid1.Coords) (arg2 : Memref sig .tc .vmem S512x2048 .bf16) (harg2 : arg2.IsWhole) (arg3 : Memref sig .tc .vmem S1280x2048 .bf16) (harg3 : arg3.IsWhole) (arg4 : Memref sig .tc .vmem S512x1 .i32) (harg4 : arg4.IsWhole) (arg5 : Memref sig .tc .vmem S512x1280 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole)
    (hc0 : cond1_0 i) (hc1 : ¬cond1_1 i)
    (x0 : Vec F S512x2048 .bf16) (x1 : Vec F S1280x2048 .bf16) (x2 : Vec F S512x1 .i32) (y6 : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare y6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k1_pay6 x0 x1) ∗ owns (c : Thread nD τ) arg6 fullShare y6
            ∗ owns (c : Thread nD τ) arg7 fullShare (k1_pay9 x0 x1 (k1_pay3 (F := F)))
            ∗ owns (c : Thread nD τ) arg8 fullShare (k1_pay8 x0 x1 (k1_pay3 (F := F)) (k1_pay4 (F := F)))
            ∗ owns (c : Thread nD τ) arg9 fullShare (k1_pay1 (k1_pay6 x0 x1) (k1_pay10 i) x2 (k1_pay5 (F := F)))) -∗ K ⟨⟩))
      ⊢ wp frame (wpE (defs₀ (F := F)) Variants.none c none) E (cc1__lmhead_kernel i arg2 harg2 arg3 harg3 arg4 harg4 arg5 harg5 arg6 harg6 arg7 harg7 arg8 harg8 arg9 harg9) K := by
  simp only [cc1__lmhead_kernel_eq_skeleton]; unfold cc1__lmhead_kernel_skel
  simp only [k1_part1_eq_skeleton]; unfold k1_part1_skel
  unfold owns
  iintro ⟨⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%d9, %f9, -, H9⟩, Hk⟩
  obtain rfl := harg2.eq_unread hf2; obtain rfl := harg3.eq_unread hf3; obtain rfl := harg4.eq_unread hf4
  sl_exec (disch := first | exact hc0 | exact hc1)
  -- the three columns are loaded back after their reset: each load reads the value just stored
  have r7 := View.readCov_unit_zero (Val := Elt F) (S := S512x1) arg7.view zeros2 inb_S512x1_S512x1_0_0 (k1_pay3 (F := F))
  have r8 := View.readCov_unit_zero (Val := Elt F) (S := S512x1) arg8.view zeros2 inb_S512x1_S512x1_0_0 (k1_pay4 (F := F))
  have r9 := View.readCov_unit_zero (Val := Elt F) (S := S512x1) arg9.view zeros2 inb_S512x1_S512x1_0_0 (k1_pay5 (F := F))
  sl_step
  iapply Hk
  isplitl [H2]; · iexists _; isplitr; swap; · iexact H2
                  ipureintro; exact hf2
  isplitl [H3]; · iexists _; isplitr; swap; · iexact H3
                  ipureintro; exact hf3
  isplitl [H4]; · iexists _; isplitr; swap; · iexact H4
                  ipureintro; exact hf4
  isplitl [H5]; · iexists _; isplitr; swap; · iexact H5
                  ipureintro; rw [read_writes_full]; simp only [readAt_full_unread]
  isplitl [H6]; · iexists _; isplitr; swap; · iexact H6
                  ipureintro; exact hf6
  isplitl [H7]
  · iexists _; isplitr; swap; · iexact H7
    ipureintro; sl_unfold_words; rw [read_writes_full]; simp only [readAt_full_unread]
    exact congrArg (k1_pay9 x0 x1) r7
  isplitl [H8]
  · iexists _; isplitr; swap; · iexact H8
    ipureintro; sl_unfold_words; rw [read_writes_full]; simp only [readAt_full_unread]
    exact congr (congrArg (k1_pay8 x0 x1) r7) r8
  iexists _; isplitr; swap; · iexact H9
  ipureintro; sl_unfold_words; rw [read_writes_full]; simp only [readAt_full_unread]
  exact congrArg (k1_pay1 (k1_pay6 x0 x1) (k1_pay10 i) x2) r9

end Cert.Kernel.Gen

end
-- ==== Proof.KB.HeadRunB.lean ====
/- The lm_head kernel's body at a middle vocabulary step (neither the first nor the last of its sequence block):
   from the three columns at `s`, the logits block is stored, the sum is updated from the OLD maximum, then the
   maximum, then the label logit; the loss block is left as found. -/
import proofs.«420313_j13838384627918_1_alg».proof.Proof.KB.HeadWhole

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point where neither conditional is taken. -/
theorem headRun_B (c : Dev nD) (i : grid1.Coords) (arg2 : Memref sig .tc .vmem S512x2048 .bf16) (harg2 : arg2.IsWhole) (arg3 : Memref sig .tc .vmem S1280x2048 .bf16) (harg3 : arg3.IsWhole) (arg4 : Memref sig .tc .vmem S512x1 .i32) (harg4 : arg4.IsWhole) (arg5 : Memref sig .tc .vmem S512x1280 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole)
    (hc0 : ¬cond1_0 i) (hc1 : ¬cond1_1 i)
    (x0 : Vec F S512x2048 .bf16) (x1 : Vec F S1280x2048 .bf16) (x2 : Vec F S512x1 .i32) (y6 : Vec F S512x1 .f32) (s : Scr1 F)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare y6
        ∗ owns (c : Thread nD τ) arg7 fullShare s.1 ∗ owns (c : Thread nD τ) arg8 fullShare s.2.1 ∗ owns (c : Thread nD τ) arg9 fullShare s.2.2
        ∗ (iprop(owns (c : Thread nD τ) arg2 fullShare x0 ∗ owns (c : Thread nD τ) arg3 fullShare x1 ∗ owns (c : Thread nD τ) arg4 fullShare x2
            ∗ owns (c : Thread nD τ) arg5 fullShare (k1_pay6 x0 x1) ∗ owns (c : Thread nD τ) arg6 fullShare y6
            ∗ owns (c : Thread nD τ) arg7 fullShare (k1_pay9 x0 x1 s.1)
            ∗ owns (c : Thread nD τ) arg8 fullShare (k1_pay8 x0 x1 s.1 s.2.1)
            ∗ owns (c : Thread nD τ) arg9 fullShare (k1_pay1 (k1_pay6 x0 x1) (k1_pay10 i) x2 s.2.2)) -∗ K ⟨⟩))
      ⊢ wp frame (wpE (defs₀ (F := F)) Variants.none c none) E (cc1__lmhead_kernel i arg2 harg2 arg3 harg3 arg4 harg4 arg5 harg5 arg6 harg6 arg7 harg7 arg8 harg8 arg9 harg9) K := by
  simp only [cc1__lmhead_kernel_eq_skeleton]; unfold cc1__lmhead_kernel_skel
  simp only [k1_part1_eq_skeleton]; unfold k1_part1_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4
  obtain rfl := harg7.eq_unread hf7; obtain rfl := harg8.eq_unread hf8; obtain rfl := harg9.eq_unread hf9
  sl_exec (disch := first | exact hc0 | exact hc1)
  sl_step
  iapply Hk
  isplitl [H2]; · iexists _; isplitr; swap; · iexact H2
                  ipureintro; exact hf2
  isplitl [H3]; · iexists _; isplitr; swap; · iexact H3
                  ipureintro; exact hf3
  isplitl [H4]; · iexists _; isplitr; swap; · iexact H4
                  ipureintro; exact hf4
  isplitl [H5]; · iexists _; isplitr; swap; · iexact H5
                  ipureintro; rw [read_writes_full]; simp only [readAt_full_unread]
  isplitl [H6]; · iexists _; isplitr; swap; · iexact H6
                  ipureintro; exact hf6
  isplitl [H7]; · iexists _; isplitr; swap; · iexact H7
                  ipureintro; rw [read_writes_full]; simp only [readAt_full_unread]
  isplitl [H8]; · iexists _; isplitr; swap; · iexact H8
                  ipureintro; rw [read_writes_full]; simp only [readAt_full_unread]
  iexists _; isplitr; swap; · iexact H9
  ipureintro; rw [read_writes_full]; simp only [readAt_full_unread]

end Cert.Kernel.Gen

end
-- ==== Proof.KB.HeadRunC.lean ====
/- The lm_head kernel's body at a LAST vocabulary step (no reset of the three columns; the loss block is stored):
   on whole staging memrefs — the three inputs' at their blocks, the logits' and the loss's at anything, the three
   columns' at what the step before left — it runs to the continuation holding the inputs' as they were, the logits'
   at the block's logits, the three columns' one step on, and the loss's at m + log l − lbl of the columns just stored. -/
import proofs.«420313_j13838384627918_1_alg».proof.Proof.KB.HeadRuns
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-two block. -/
private theorem zeros2 : (![0, 0] : Fin 2 → ℕ) = fun _ => 0 := by
  funext a; fin_cases a <;> rfl

/-- One store of a whole block leaves its payload, whatever the buffer held. -/
private theorem read_whole_store {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero hz inb y⟩)).trans
    (View.canon_unit_zero hz inb w)

/-- A load of the whole block reads the contents. -/
private theorem load_whole {κ : Kind} {sp : Space} {S : Shape} {e : EltTy} (v : View sig κ sp S e) (f : v.ty.Contents (Elt F))
    {off : Fin S.rank → ℕ} (hz : off = fun _ => 0) (inb : ∀ a, off a + S.size a ≤ S.size a) :
    v.readAt (Elt F) (Rect.unit off S.size inb).toLoadRect f = v.read (Elt F) f :=
  (View.readAt_eq_ld v f _).trans (View.ld_unit_zero hz inb _)

set_option maxHeartbeats 4000000 in
theorem headRun_C (c : Dev nD) (i : grid1.Coords) (arg2 : Memref sig .tc .vmem S512x2048 .bf16) (harg2 : arg2.IsWhole) (arg3 : Memref sig .tc .vmem S1280x2048 .bf16) (harg3 : arg3.IsWhole) (arg4 : Memref sig .tc .vmem S512x1 .i32) (harg4 : arg4.IsWhole) (arg5 : Memref sig .tc .vmem S512x1280 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole)
    (hc0 : ¬cond1_0 i) (hc1 : cond1_1 i)
    (x0 : Vec F S512x2048 .bf16) (x1 : Vec F S1280x2048 .bf16) (x2 : Vec F S512x1 .i32) (s : Scr1 F)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ owns (c : Thread nD τ) arg7 fullShare s.1 ∗ owns (c : Thread nD τ) arg8 fullShare s.2.1 ∗ owns (c : Thread nD τ) arg9 fullShare s.2.2
        ∗ (iprop(owns (c : Thread nD τ) arg2 fullShare x0 ∗ owns (c : Thread nD τ) arg3 fullShare x1 ∗ owns (c : Thread nD τ) arg4 fullShare x2
            ∗ owns (c : Thread nD τ) arg5 fullShare (k1_pay6 x0 x1)
            ∗ owns (c : Thread nD τ) arg6 fullShare (k1_pay2 (k1_pay9 x0 x1 s.1) (k1_pay8 x0 x1 s.1 s.2.1) (k1_pay1 (k1_pay6 x0 x1) (k1_pay10 i) x2 s.2.2))
            ∗ owns (c : Thread nD τ) arg7 fullShare (k1_pay9 x0 x1 s.1)
            ∗ owns (c : Thread nD τ) arg8 fullShare (k1_pay8 x0 x1 s.1 s.2.1)
            ∗ owns (c : Thread nD τ) arg9 fullShare (k1_pay1 (k1_pay6 x0 x1) (k1_pay10 i) x2 s.2.2)) -∗ K ⟨⟩))
      ⊢ wp frame (wpE (defs₀ (F := F)) Variants.none c none) E (cc1__lmhead_kernel i arg2 harg2 arg3 harg3 arg4 harg4 arg5 harg5 arg6 harg6 arg7 harg7 arg8 harg8 arg9 harg9) K := by
  simp only [cc1__lmhead_kernel_eq_skeleton]; unfold cc1__lmhead_kernel_skel
  simp only [k1_part1_eq_skeleton]; unfold k1_part1_skel
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4
  obtain rfl := harg7.eq_unread hf7; obtain rfl := harg8.eq_unread hf8; obtain rfl := harg9.eq_unread hf9
  -- each first load of a buffer reads the contents the buffer was handed over at
  have e2 : View.readAt (Elt F) arg2.view (Rect.unit ![0, 0] S512x2048.size inb_S512x2048_S512x2048_0_0).toLoadRect (harg2.unread x0) = x0 :=
    (load_whole _ _ zeros2 _).trans (harg2.read_unread _)
  have e3 : View.readAt (Elt F) arg3.view (Rect.unit ![0, 0] S1280x2048.size inb_S1280x2048_S1280x2048_0_0).toLoadRect (harg3.unread x1) = x1 :=
    (load_whole _ _ zeros2 _).trans (harg3.read_unread _)
  have e4 : View.readAt (Elt F) arg4.view (Rect.unit ![0, 0] S512x1.size inb_S512x1_S512x1_0_0).toLoadRect (harg4.unread x2) = x2 :=
    (load_whole _ _ zeros2 _).trans (harg4.read_unread _)
  have e7 : View.readAt (Elt F) arg7.view (Rect.unit ![0, 0] S512x1.size inb_S512x1_S512x1_0_0).toLoadRect (harg7.unread s.1) = s.1 :=
    (load_whole _ _ zeros2 _).trans (harg7.read_unread _)
  have e8 : View.readAt (Elt F) arg8.view (Rect.unit ![0, 0] S512x1.size inb_S512x1_S512x1_0_0).toLoadRect (harg8.unread s.2.1) = s.2.1 :=
    (load_whole _ _ zeros2 _).trans (harg8.read_unread _)
  have e9 : View.readAt (Elt F) arg9.view (Rect.unit ![0, 0] S512x1.size inb_S512x1_S512x1_0_0).toLoadRect (harg9.unread s.2.2) = s.2.2 :=
    (load_whole _ _ zeros2 _).trans (harg9.read_unread _)
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (read_whole_store _ _ zeros2 _ _).trans ?_
    simp only [e2, e3]
  isplitl [H6]
  · iexists _; isplitr
    swap; · iexact H6
    ipureintro
    sl_unfold_words
    refine (read_whole_store _ _ zeros2 _ _).trans ?_
    simp only [e2, e3, e4, e7, e8, e9]
    -- the three columns are loaded back after their stores: each load reads the payload just stored
    have r7 := View.readCov_unit_zero (Val := Elt F) (S := S512x1) arg7.view zeros2 inb_S512x1_S512x1_0_0 (k1_pay9 x0 x1 s.1)
    have r8 := View.readCov_unit_zero (Val := Elt F) (S := S512x1) arg8.view zeros2 inb_S512x1_S512x1_0_0 (k1_pay8 x0 x1 s.1 s.2.1)
    have r9 := View.readCov_unit_zero (Val := Elt F) (S := S512x1) arg9.view zeros2 inb_S512x1_S512x1_0_0
      (k1_pay1 (k1_pay6 x0 x1) (k1_pay10 i) x2 s.2.2)
    exact congr (congr (congrArg (k1_pay2 (F := F)) r7) r8) r9
  isplitl [H7]
  · iexists _; isplitr
    swap; · iexact H7
    ipureintro
    sl_unfold_words
    refine (read_whole_store _ _ zeros2 _ _).trans ?_
    simp only [e2, e3, e7]
  isplitl [H8]
  · iexists _; isplitr
    swap; · iexact H8
    ipureintro
    sl_unfold_words
    refine (read_whole_store _ _ zeros2 _ _).trans ?_
    simp only [e2, e3, e7, e8]
  iexists _; isplitr
  swap; · iexact H9
  ipureintro
  sl_unfold_words
  refine (read_whole_store _ _ zeros2 _ _).trans ?_
  simp only [e2, e3, e4, e9]

end Cert.Kernel.Gen

end
-- ==== Proof.KB.Head.lean ====
/- The lm_head region's body obligation: at every grid point the kernel's body takes the region invariant (the three
   carried columns at what the point before left) and the windows' buffers to the invariant one step on and the
   buffers at what the proof data says — by the three case runs (first, middle, last vocabulary step). -/
import proofs.«420313_j13838384627918_1_alg».proof.Proof.KB.HeadRunA
import proofs.«420313_j13838384627918_1_alg».proof.Proof.KB.HeadRunB
import proofs.«420313_j13838384627918_1_alg».proof.Proof.KB.HeadRunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- The invariant before any point hands over the three columns at SOME contents and takes them back at any. -/
theorem PhiS1_open_any (c : Dev nD) (t : Fin cfg1.N) (S' : sProp 𝕄) :
    (dat1 V c).Φ t.castSucc ⊢ iprop(colsAny1 c ∗ (S' -∗ scopedWith1 (F := F) c S') ∗ (∃ r, prngReg c r)) := by
  rw [PhiS1_castSucc V c t]
  by_cases hz : t.val = 0
  · rw [PhiS1_zero V c _ _ hz, PhiA1_eq]
    iintro ⟨Hsc, Hg⟩
    ihave Hs := (scopedWith1_wand c (colsAny1 c) S') $$ Hsc
    icases Hs with ⟨HS, Hb⟩
    isplitl [HS]; · iexact HS
    isplitl [Hb]; · iexact Hb
    iexact Hg
  · rw [PhiS1_pos V c _ _ hz]
    iintro ⟨Hsc, Hg⟩
    ihave Hs := (scopedWith1_wand c _ S') $$ Hsc
    icases Hs with ⟨HS, Hb⟩
    isplitl [HS]; · iapply (colsAt1_any c _); iexact HS
    isplitl [Hb]; · iexact Hb
    iexact Hg

/-- The invariant before a point that is not the first hands over the three columns at what the point before left. -/
theorem PhiS1_open_pos (c : Dev nD) (t : Fin cfg1.N) (hz : t.val ≠ 0) (S' : sProp 𝕄) :
    (dat1 V c).Φ t.castSucc ⊢ iprop(colsAt1 c (scrAt1 V c (t.val - 1) (Nat.lt_of_le_of_lt (Nat.sub_le _ _) t.isLt))
      ∗ (S' -∗ scopedWith1 (F := F) c S') ∗ (∃ r, prngReg c r)) := by
  rw [PhiS1_castSucc V c t, PhiS1_pos V c _ _ hz]
  iintro ⟨Hsc, Hg⟩
  ihave Hs := (scopedWith1_wand c _ S') $$ Hsc
  icases Hs with ⟨HS, Hb⟩
  isplitl [HS]; · iexact HS
  isplitl [Hb]; · iexact Hb
  iexact Hg

set_option maxHeartbeats 4000000 in
/-- The body at any point: the inputs' memrefs hold their blocks; the closed forms say which case the point is in;
    the invariant hands the body the three columns (at what the point before left; at anything at a first
    vocabulary step, where the body resets them) and takes them back one step on; the loss window's buffer is
    handed back as found away from the last vocabulary step. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [logitsAt1]
  have hN : t.val < 202 := lt_of_lt_of_eq t.isLt (show cfg1.N = 202 from N_1)
  by_cases h1 : t.val % 101 = 100
  · -- a last vocabulary step
    have h0 : ¬t.val % 101 = 0 := by omega
    have hz : t.val ≠ 0 := by omega
    rw [show (dat1 V c).leavesExact 4 t = owns (c : Thread nD τ) (ms1_4 t) fullShare ((dat1 V c).after 4 t) from by
      unfold Dat.leavesExact; rw [liveAt1_4 t ((hcond1_1 t).mpr h1)], after1_4]
    rw [nllAt1, scrAt1_step V c t h0]
    unfold scrStep1 colsAt1; dsimp only
    iintro ⟨HΦ, Ho, ⟨%d0, H0⟩, ⟨%d1, H1⟩, ⟨%d2, H2⟩, ⟨%d3, H3⟩, ⟨%d4, H4⟩⟩
    ihave HΦ' := (PhiS1_open_pos V c t hz _) $$ HΦ
    unfold colsAt1
    icases HΦ' with ⟨⟨HS0, HS1, HS2⟩, Hb, Hg⟩
    iapply (headRun_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1)
      (iblk1 V c 0 t) (iblk1 V c 1 t) (iblk1 V c 2 t) (scrAt1 V c (t.val - 1) (Nat.lt_of_le_of_lt (Nat.sub_le _ _) t.isLt)) Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [Hb Hg HS0 HS1 HS2]
    · isplitl [Hb HS0 HS1 HS2]
      · iapply Hb
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 4 t (idleAt1_4 t (fun h => h1 ((hcond1_1 t).mp h))) (noFlush1_4 t (fun h => h1 ((hcond1_1 t).mp h)))]
    by_cases h0 : t.val % 101 = 0
    · -- a first vocabulary step
      rw [scrAt1_reset V c t h0]
      unfold scrStep1 scrReset1 colsAt1; dsimp only
      iintro ⟨HΦ, Ho, ⟨%d0, H0⟩, ⟨%d1, H1⟩, ⟨%d2, H2⟩, ⟨%d3, H3⟩, ⟨%d4, H4⟩⟩
      ihave HΦ' := (PhiS1_open_any V c t _) $$ HΦ
      unfold colsAny1
      icases HΦ' with ⟨⟨HS0, HS1, HS2⟩, Hb, Hg⟩
      iapply (headRun_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h))
        (iblk1 V c 0 t) (iblk1 V c 1 t) (iblk1 V c 2 t) ((dat1 V c).before 4 t d4) Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      isplitl [HS2]; · iexact HS2
      iintro ⟨H0, H1, H2, H3, H4, HS0, HS1, HS2⟩
      isplitl [Hb Hg HS0 HS1 HS2]
      · isplitl [Hb HS0 HS1 HS2]
        · iapply Hb
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexists _; iexact H4
    · -- a middle vocabulary step
      have hz : t.val ≠ 0 := fun h => h0 (by rw [h])
      rw [scrAt1_step V c t h0]
      unfold scrStep1 colsAt1; dsimp only
      iintro ⟨HΦ, Ho, ⟨%d0, H0⟩, ⟨%d1, H1⟩, ⟨%d2, H2⟩, ⟨%d3, H3⟩, ⟨%d4, H4⟩⟩
      ihave HΦ' := (PhiS1_open_pos V c t hz _) $$ HΦ
      unfold colsAt1
      icases HΦ' with ⟨⟨HS0, HS1, HS2⟩, Hb, Hg⟩
      iapply (headRun_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h))
        (iblk1 V c 0 t) (iblk1 V c 1 t) (iblk1 V c 2 t) ((dat1 V c).before 4 t d4)
        (scrAt1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      isplitl [HS2]; · iexact HS2
      iintro ⟨H0, H1, H2, H3, H4, HS0, HS1, HS2⟩
      isplitl [Hb Hg HS0 HS1 HS2]
      · isplitl [Hb HS0 HS1 HS2]
        · iapply Hb
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.KB.HeadEnds.lean ====
/- The two ends of the lm_head region's invariant: what the launch hands the region IS the invariant before the
   first point, and the invariant after the last point gives back what the launch handed over (the three columns
   forgotten to "some contents", the generator register riding along). -/
import proofs.«420313_j13838384627918_1_alg».proof.Proof.KB.HeadWhole

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What is said beside the scoped buffers may be weakened. -/
theorem scopedWith1_mono (c : Dev nD) (S S' : sProp 𝕄) (h : S ⊢ S') : scopedWith1 (F := F) c S ⊢ scopedWith1 (F := F) c S' := by
  refine (scopedWith1_wand c S S').trans ?_
  iintro ⟨HS, Hw⟩
  iapply Hw
  iapply h
  iexact HS

/-- Before the first point the invariant is what the launch hands the region. -/
theorem hin1 (c : Dev nD) : Pipeline.ΦA spec1 c ⊢ (dat1 V c).Φ 0 := by
  have e : (dat1 V c).Φ 0 = Pipeline.ΦA spec1 c :=
    (show (dat1 V c).Φ 0 = PhiS1 V c (0 : Fin (cfg1.N + 1)).val (Nat.le_of_lt_succ (0 : Fin (cfg1.N + 1)).isLt) from rfl).trans
      (PhiS1_zero V c _ _ rfl)
  rw [e]

/-- After the last point the invariant gives back what the launch handed over. -/
theorem hout1 (c : Dev nD) : (dat1 V c).Φ (Fin.last cfg1.N) ⊢ Pipeline.ΦA spec1 c := by
  have hN : cfg1.N ≠ 0 := by
    have : cfg1.N = 202 := N_1
    omega
  have e : (dat1 V c).Φ (Fin.last cfg1.N) = PhiS1 V c cfg1.N le_rfl := rfl
  rw [e, PhiS1_pos V c cfg1.N le_rfl hN, PhiA1_eq]
  iintro ⟨HS, Hr⟩
  isplitl [HS]
  · iapply (scopedWith1_mono c _ _ (colsAt1_any c _)) $$ HS
  iexact Hr

end Cert.Kernel.Gen

end
-- ==== Proof.KI.FrontDefs.lean ====
import proofs.«420313_j13838384627918_1_alg».proof.Proof.Gen.KernelIdeal.Launch
import proofs.«420313_j13838384627918_1_alg».proof.Proof.Gen.KernelIdeal.Skeleton
import proofs.«420313_j13838384627918_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The front region (normalise both streams, project each through its square weight, add, normalise twice)

Definitions only: each window's block at a grid point, what the body leaves in the output window's
staging buffer as a function of the eight input blocks, and the region's proof data. -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 256x2048 block (both f32 input streams and the bf16 output). -/
abbrev rTile : Rect S256x2048 := Rect.unit (s := S256x2048) ![0, 0] S256x2048.size inb_S256x2048_S256x2048_0_0
/-- The whole 1x2048 row (the four norm weights). -/
abbrev rRow : Rect S1x2048 := Rect.unit (s := S1x2048) ![0, 0] S1x2048.size inb_S1x2048_S1x2048_0_0
/-- The whole 2048x2048 square projection weight. -/
abbrev rSquare : Rect S2048x2048 := Rect.unit (s := S2048x2048) ![0, 0] S2048x2048.size inb_S2048x2048_S2048x2048_0_0

/-- The output window's staging buffer after the body, from the eight input blocks
    (`x0` embedding rows, `x1` hidden rows, `x2`/`x3` their norm weights, `x4`/`x5` their square
    projections, `x6`/`x7` the two closing norm weights): its single whole-block store
    `norm₇ (norm₆ (rms x0 x2 · x4ᵀ + rms x1 x3 · x5ᵀ))` rounded to bf16. -/
def frontOut (x0 x1 : Vec F S256x2048 .f32) (x2 x3 : Vec F S1x2048 .f32) (x4 x5 : Vec F S2048x2048 .bf16)
    (x6 x7 : Vec F S1x2048 .f32) : Vec F S256x2048 .bf16 :=
  View.canon [⟨rTile, k0_pay1 (k0_pay2 (View.ld x1 rTile) (View.ld x3 rRow))
    (k0_pay3 (View.ld x0 rTile) (View.ld x2 rRow) (View.ld x4 rSquare))
    (k0_pay4 (View.ld x5 rSquare))
    (constant S256x2048 .f32 0x00000000#32)
    (View.ld x6 rRow) (View.ld x7 rRow)⟩]

/-- The proof data of the front region on core `c`: the arrays as the region finds them (`V`); after the body
    at point `t` each input's buffer at its block and the output's at `frontOut` of the input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => frontOut (iblk0 V c 0 t) (iblk0 V c 1 t) (iblk0 V c 2 t) (iblk0 V c 3 t)
        (iblk0 V c 4 t) (iblk0 V c 5 t) (iblk0 V c 6 t) (iblk0 V c 7 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t =
    frontOut (iblk0 V c 0 t) (iblk0 V c 1 t) (iblk0 V c 2 t) (iblk0 V c 3 t)
      (iblk0 V c 4 t) (iblk0 V c 5 t) (iblk0 V c 6 t) (iblk0 V c 7 t) := by dsimp only [dat0]

end Cert.KernelIdeal.Gen

end
-- ==== Proof.KI.HeadDefs.lean ====
/- The lm_head kernel's half of the frame: what the three carried columns (running maximum, running sum,
   label logit), the logits block and the loss block hold after the body at each grid point, as a recursion over
   the payloads of the kernel's stores; the region invariant carrying the three columns; and the proof data. -/
import proofs.«420313_j13838384627918_1_alg».proof.Proof.Gen.KernelIdeal.Launch
import proofs.«420313_j13838384627918_1_alg».proof.Proof.Gen.KernelIdeal.Skeleton
import proofs.«420313_j13838384627918_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Core `c`'s TensorCore buffers as the lm_head region finds them: a parameter of everything below.
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The three carried columns -/

/-- The columns' memrefs: the running maximum `m`, the running sum `l`, the label logit `lbl`. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1 .f32 := Memref.whole cc1_scratch2

/-- The three columns `(m, l, lbl)`. -/
abbrev Scr1 (F : FTy → Type) : Type := Vec F S512x1 .f32 × Vec F S512x1 .f32 × Vec F S512x1 .f32

/-- What the first vocabulary step stores before anything else: `m = -∞`, `l = 0`, `lbl = 0`. -/
def scrReset1 : Scr1 F := (k1_pay3 (F := F), k1_pay4 (F := F), k1_pay5 (F := F))

/-- One body from the columns `prev` it finds (after the reset, at a first vocabulary step), at the point's
    normed block `x0`, weight block `x1` and label block `x2`: the new maximum from the old; the new sum from the
    OLD maximum and the old sum (the sum is stored before the maximum is); the label logit from the logits just
    computed, the column ids of this vocabulary step and the old label logit. No whole-rectangle load or same-shape
    cast sits between a load and a payload: each load's value enters its payload as loaded. -/
def scrStep1 (c : Dev nD) (t : Fin cfg1.N) (prev : Scr1 F) : Scr1 F :=
  (k1_pay9 (iblk1 V c 0 t) (iblk1 V c 1 t) prev.1,
   k1_pay8 (iblk1 V c 0 t) (iblk1 V c 1 t) prev.1 prev.2.1,
   k1_pay1 (k1_pay6 (iblk1 V c 0 t) (iblk1 V c 1 t)) (k1_pay10 (grid1.coords t)) (iblk1 V c 2 t) prev.2.2)

/-- THE ACCUMULATION. The three columns after the body at position `n`: one step from the reset values at a first
    vocabulary step (`n % 101 = 0`), from what position `n - 1` left otherwise. -/
def scrAt1 (c : Dev nD) : (n : ℕ) → n < cfg1.N → Scr1 F
  | 0, hn => scrStep1 V c ⟨0, hn⟩ scrReset1
  | n + 1, hn => scrStep1 V c ⟨n + 1, hn⟩
      (if (n + 1) % 101 = 0 then scrReset1 else scrAt1 c n (Nat.lt_of_succ_lt hn))

/-- At a first vocabulary step: one step from the reset values. -/
theorem scrAt1_reset (c : Dev nD) (t : Fin cfg1.N) (h : t.val % 101 = 0) :
    scrAt1 V c t.val t.isLt = scrStep1 V c t scrReset1 := by
  obtain ⟨n, hn⟩ := t
  cases n with
  | zero => rfl
  | succ n => exact congrArg (scrStep1 V c ⟨n + 1, hn⟩) (if_pos h)

/-- At a later vocabulary step: one step from what the point before left. -/
theorem scrAt1_step (c : Dev nD) (t : Fin cfg1.N) (h : t.val % 101 ≠ 0) :
    scrAt1 V c t.val t.isLt = scrStep1 V c t (scrAt1 V c (t.val - 1) (Nat.lt_of_le_of_lt (Nat.sub_le _ _) t.isLt)) := by
  obtain ⟨n, hn⟩ := t
  cases n with
  | zero => exact absurd (Nat.zero_mod _) h
  | succ n => exact congrArg (scrStep1 V c ⟨n + 1, hn⟩) (if_neg h)

/-- The logits block the body stores at point `t`. -/
def logitsAt1 (c : Dev nD) (t : Fin cfg1.N) : Vec F S512x1280 .f32 :=
  k1_pay6 (iblk1 V c 0 t) (iblk1 V c 1 t)

/-- The loss block `m + log l - lbl` of the three columns after the body at point `t` (the body stores it at the
    last vocabulary step, reading the three columns back after their stores). -/
def nllAt1 (c : Dev nD) (t : Fin cfg1.N) : Vec F S512x1 .f32 :=
  k1_pay2 (scrAt1 V c t.val t.isLt).1 (scrAt1 V c t.val t.isLt).2.1 (scrAt1 V c t.val t.isLt).2.2

/-! ## The region invariant -/

/-- The core's scoped buffers that the lm_head region neither stages through nor carries, each whole at some
    contents, beside `S` (what is said of the three columns). -/
def scopedWith1 (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg8_1), ((c : Thread nD τ).loc cc0_stg8_1) ↦{fullShare} f)
    ∗ S)

/-- The three columns owned at `s`. -/
def colsAt1 (c : Dev nD) (s : Scr1 F) : sProp 𝕄 :=
  iprop(owns (c : Thread nD τ) scM1_0 fullShare s.1 ∗ owns (c : Thread nD τ) scM1_1 fullShare s.2.1 ∗ owns (c : Thread nD τ) scM1_2 fullShare s.2.2)

/-- The three columns owned at some contents. -/
def colsAny1 (c : Dev nD) : sProp 𝕄 :=
  iprop((∃ d, owns (c : Thread nD τ) scM1_0 fullShare d) ∗ (∃ d, owns (c : Thread nD τ) scM1_1 fullShare d) ∗ (∃ d, owns (c : Thread nD τ) scM1_2 fullShare d))

/-- The region invariant before position `n`: before the first point what the launch hands the region (every scoped
    buffer at anything); afterwards the three columns at what the point before left, the other scoped buffers at
    anything, the generator register at some state. -/
def PhiS1 (c : Dev nD) : (n : ℕ) → n ≤ cfg1.N → sProp 𝕄
  | 0, _ => Pipeline.ΦA spec1 c
  | n + 1, hn => iprop(scopedWith1 c (colsAt1 c (scrAt1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scopedWith1 c (colsAt1 c (scrAt1 V c n hn)) ∗ (∃ r, prngReg c r)) := rfl

theorem PhiS1_pos (c : Dev nD) (n : ℕ) (h : n ≤ cfg1.N) (hz : n ≠ 0) :
    PhiS1 V c n h = iprop(scopedWith1 c (colsAt1 c (scrAt1 V c (n - 1) (by omega))) ∗ (∃ r, prngReg c r)) := by
  cases n with
  | zero => exact absurd rfl hz
  | succ n => rfl

/-- What the launch hands the region, with the three columns as memrefs owned at some contents. -/
theorem PhiA1_eq (c : Dev nD) :
    (Pipeline.ΦA spec1 c : sProp 𝕄) = iprop(scopedWith1 c (colsAny1 c) ∗ (∃ r, prngReg c r)) := by
  unfold Pipeline.ΦA scopedWith1 colsAny1; rw [scopedRest1_eq]; simp only [scM1_0, scM1_1, scM1_2, owns_whole]; try rfl

/-! ## The proof data -/

/-- The proof data of the lm_head pipeline on core `c`: the arrays as the region finds them; after the body at
    point `t` each input's buffer at its block, the logits window's at the logits block, the loss window's at the
    loss of the three columns there (consulted only where the window is live, the last vocabulary steps; elsewhere
    the window is idle and its buffer handed back as found); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => logitsAt1 V c t
    | ⟨4, _⟩ => nllAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = logitsAt1 V c t := by dsimp only [dat1]
theorem after1_4 (c : Dev nD) (t : Fin cfg1.N) : (dat1 V c).after 4 t = nllAt1 V c t := by dsimp only [dat1]

end Cert.KernelIdeal.Gen

end
-- ==== Proof.KI.Launch.lean ====
import proofs.«420313_j13838384627918_1_alg».proof.Proof.KI.FrontDefs
import proofs.«420313_j13838384627918_1_alg».proof.Proof.KI.HeadDefs
import proofs.«420313_j13838384627918_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The program's run from the two regions' proof data

The buffers' contents at every boundary between two items of the program are a fold from the launch
memory: a host stretch's effect, then what a region leaves in its output arrays. The two regions'
records over those contents, and the program's run from them: every final memory holds each
unscoped buffer at the last contents of the fold. -/

variable (m : (ℓ : Loc nD τ sig) → Buf (Elt F) ℓ)

/-! ## What the regions leave -/

/-- The front region's entry contents: the buffers after the first host stretch, read at the core's references. -/
abbrev entry0 : (c : Dev nD) → (b : Ref sig .tc) → Buf (Elt F) ((c : Thread nD τ).loc b) := fun c b => V1 m c b

/-- The buffers as the front region leaves them: each of its arrays at what its write-backs leave
    (an input as entered, the output every block written), every other buffer as entered. -/
def afterFront (c : Dev nD) : Valuation τ sig (Elt F) :=
  Pipeline.withArrays spec0 c (V1 m c) fun w => (dat0 (entry0 m) c).arrAt w cfg0.N

/-- What the front region leaves, as the unknowns of the valuations between items. -/
def outsFront : Outs (F := F) := fun _ r c => afterFront m c r

/-- The buffers as the head region leaves them, entered from the contents after the second host stretch. -/
def afterHead (c : Dev nD) : Valuation τ sig (Elt F) :=
  Pipeline.withArrays spec1 c (V3 m (outsFront m) c) fun w => (dat1 (fun c b => V3 m (outsFront m) c b) c).arrAt w cfg1.N

/-- What the regions leave: after the front region (item 1) its arrays' final contents, after the head
    region (item 3) its arrays' final contents. -/
def outs : Outs (F := F) := fun J r c => if J = 4 then afterHead m c r else afterFront m c r

/-- The head region's entry contents: the buffers after the second host stretch. -/
abbrev entry1 : (c : Dev nD) → (b : Ref sig .tc) → Buf (Elt F) ((c : Thread nD τ).loc b) := fun c b => V3 m (outs m) c b

theorem V2_outs (c : Dev nD) : V2 m (outs m) c = V2 m (outsFront m) c := rfl
theorem V3_outs (c : Dev nD) : V3 m (outs m) c = V3 m (outsFront m) c := rfl
theorem entry1_eq : (fun c b => V3 m (outsFront m) c b : (c : Dev nD) → (b : Ref sig .tc) → Buf (Elt F) ((c : Thread nD τ).loc b)) = entry1 m := rfl

/-- The front region leaves in its output array every block written. -/
theorem outs_v17 (c : Dev nD) : outs m 2 main_v17 c = (dat0 (entry0 m) c).arrAt 8 cfg0.N := by
  show afterFront m c (Proc.devRef .tc (Pipeline.arrRef spec0 8)) = _
  unfold afterFront; exact Pipeline.withArrays_arr spec0 launch0.win.arr_inj c _ _ 8
/-- The head region leaves in the logits array every block written, -/
theorem outs_v28_0 (c : Dev nD) : outs m 4 main_v28_0 c = (dat1 (entry1 m) c).arrAt 3 cfg1.N := by
  show afterHead m c (Proc.devRef .tc (Pipeline.arrRef spec1 3)) = _
  unfold afterHead; exact Pipeline.withArrays_arr spec1 launch1.win.arr_inj c _ _ 3
/-- and in the loss array every block written. -/
theorem outs_v28_1 (c : Dev nD) : outs m 4 main_v28_1 c = (dat1 (entry1 m) c).arrAt 4 cfg1.N := by
  show afterHead m c (Proc.devRef .tc (Pipeline.arrRef spec1 4)) = _
  unfold afterHead; exact Pipeline.withArrays_arr spec1 launch1.win.arr_inj c _ _ 4

/-! ## The proof data family and what rides along -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (entry0 m) c
  | ⟨1, _⟩ => fun c => dat1 (entry1 m) c

/-- No core owes another anything: no level is assigned. -/
abbrev L : GSem nD τ sig → Finset Unit := fun _ => ∅
abbrev lv : GSem nD τ sig → Unit → ℕ := fun _ _ => 0
/-- What rides beside the buffers through every item: the core's generator register at some state and
    its dues, at nothing. -/
abbrev R (c : Dev nD) : sProp 𝕄 := iprop((∃ r, prngReg c r) ∗ ∃ W, owes (c : Thread nD τ) (0 : CellTallies nD τ sig Unit) W)
/-- The same beside every boundary between two items. -/
def E : Fin 3 → Dev nD → sProp 𝕄 := fun _ c => R c

/-! ## The regions' records -/

section Records

variable (hb0 : ∀ V c, BodyObligation (dat0 (F := F) V c) (defs₀ (F := F)) Variants.none () Set.univ)
variable (hb1 : ∀ V c, BodyObligation (dat1 (F := F) V c) (defs₀ (F := F)) Variants.none () Set.univ)
variable (hin1 : ∀ V c, Pipeline.ΦA (U := UR sig nD τ) spec1 c ⊢ (dat1 (F := F) V c).Φ 0)
variable (hout1 : ∀ V c, (dat1 (F := F) V c).Φ (Fin.last cfg1.N) ⊢ Pipeline.ΦA (U := UR sig nD τ) spec1 c)

/-- The front region has one output window, the last; -/
theorem front_out_only : ∀ w : Fin cfg0.W, (cfg0.win w).isOut = true → w = 8 := by decide
/-- no input window of it reads the output array. -/
theorem front_in_ne : ∀ w : Fin cfg0.W, (cfg0.win w).isOut = false → Pipeline.arrRef spec0 w ∉ ([main_v17] : List (Ref sig .tc)) := by decide
/-- The head region's output windows are the logits' and the loss's; -/
theorem head_out_only : ∀ w : Fin cfg1.W, (cfg1.win w).isOut = true → w = 3 ∨ w = 4 := by decide
/-- no input window of it reads either output array. -/
theorem head_in_ne : ∀ w : Fin cfg1.W, (cfg1.win w).isOut = false → Pipeline.arrRef spec1 w ∉ ([main_v28_0, main_v28_1] : List (Ref sig .tc)) := by decide

/-- At the front region's exit each of its arrays holds what the pipeline leaves, -/
theorem hF0 (c : Dev nD) (w : Fin cfg0.W) :
    (dat0 (entry0 m) c).arrAt w cfg0.N = V2 m (outs m) c (Pipeline.arrRef spec0 w) := by
  cases h : (cfg0.win w).isOut
  · exact ((dat0 (entry0 m) c).arrAt_in w h _).trans ((A_eq0 (entry0 m) c w).trans (V2_of m (outs m) c _ (front_in_ne w h)).symm)
  · obtain rfl := front_out_only w h
    show _ = Function.update (V1 m c) (Proc.devRef .tc main_v17) (outs m 2 main_v17 c) (Proc.devRef .tc main_v17)
    rw [Function.update_self]; exact (outs_v17 m c).symm
/-- and every other buffer what it held at entry. -/
theorem hrest0 (c : Dev nD) : ∀ b : Ref sig .tc, b ∉ Finset.univ.image (Pipeline.arrRef spec0) → V2 m (outs m) c b = V1 m c b :=
  fun b hb => V2_of m (outs m) c b fun h => hb (Finset.mem_image.mpr ⟨8, Finset.mem_univ _, (List.mem_singleton.mp h).symm⟩)

theorem v28_ne : (Proc.devRef .tc main_v28_0 : DevRef τ sig) ≠ Proc.devRef .tc main_v28_1 := StableHlo.devRef_ne_of_ne (by decide)

/-- At the head region's exit each of its arrays holds what the pipeline leaves, -/
theorem hF1 (c : Dev nD) (w : Fin cfg1.W) :
    (dat1 (entry1 m) c).arrAt w cfg1.N = V4 m (outs m) c (Pipeline.arrRef spec1 w) := by
  cases h : (cfg1.win w).isOut
  · exact ((dat1 (entry1 m) c).arrAt_in w h _).trans ((A_eq1 (entry1 m) c w).trans (V4_of m (outs m) c _ (head_in_ne w h)).symm)
  · rcases head_out_only w h with rfl | rfl
    · show _ = Function.update (Function.update (V3 m (outs m) c) (Proc.devRef .tc main_v28_0) (outs m 4 main_v28_0 c))
        (Proc.devRef .tc main_v28_1) (outs m 4 main_v28_1 c) (Proc.devRef .tc main_v28_0)
      rw [Function.update_of_ne v28_ne, Function.update_self]; exact (outs_v28_0 m c).symm
    · show _ = Function.update (Function.update (V3 m (outs m) c) (Proc.devRef .tc main_v28_0) (outs m 4 main_v28_0 c))
        (Proc.devRef .tc main_v28_1) (outs m 4 main_v28_1 c) (Proc.devRef .tc main_v28_1)
      rw [Function.update_self]; exact (outs_v28_1 m c).symm
/-- and every other buffer what it held at entry. -/
theorem hrest1 (c : Dev nD) : ∀ b : Ref sig .tc, b ∉ Finset.univ.image (Pipeline.arrRef spec1) → V4 m (outs m) c b = V3 m (outs m) c b :=
  fun b hb => V4_of m (outs m) c b fun h => by
    rcases List.mem_cons.mp h with h | h
    · exact hb (Finset.mem_image.mpr ⟨3, Finset.mem_univ _, h.symm⟩)
    · exact hb (Finset.mem_image.mpr ⟨4, Finset.mem_univ _, (List.mem_singleton.mp h).symm⟩)

-- a library lemma stated over the pinned configuration unifies with the printed one only when unification may
-- unfold plain definitions in a metavariable's type
set_option backward.isDefEq.respectTransparency.types false in
/-- The front region over the thread state: entered from every unscoped buffer at the contents after the first
    host stretch, left with its output array at what it wrote. Its arrays are split out of the unscoped buffers
    and put back at the exit contents; the generator register goes into the invariant and comes back; nothing owed. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (hb0 (entry0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The head region over the thread state: entered from every unscoped buffer at the contents after the second
    host stretch, left with the logits and loss arrays at what it wrote. Its invariant starts from the scoped rest
    (the three carried columns among it, at anything) and the generator register, and gives them back. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (hb1 (entry1 m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (entry1 m) c)
    unfold Pipeline.ΦA
    iintro ⟨Hp, -, Hr⟩
    isplitl [Hr]; · iexact Hr
    iexact Hp
  hout c := by
    rw [Pipeline.ownSems0_none]
    refine BIBase.Entails.trans (hout1 (entry1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (fun b => V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch's ghost element is the pipelines' own: nothing else is set up. -/
theorem launch_ghost : (ownU (initOf (Pipeline.cells cfgs cellOf_inj) (Pipeline.launchToks cfgs cellOf_inj)) : sProp 𝕄)
    ⊢ |={Set.univ}=> iprop(BI.own ((emb₁ : Emb _ 𝕄) (initOf (Pipeline.cells cfgs cellOf_inj) (Pipeline.launchToks cfgs cellOf_inj)))
        ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals every core beside its buffers makes what rides along: the generator register at
    its launch state, the dues at nothing. -/
theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (E (F := F) 0) : sProp 𝕄) := by
  refine Pipeline.initEach L lv fun c => ?_
  unfold E
  iintro ⟨⟨-, HO, -, Hp, -⟩, -⟩
  imodintro
  isplitl [Hp]; · iexists _; iexact Hp
  iexists ∅; iexact HO

/-- What rides along ends owing nothing. -/
theorem rest_owes (c : Dev nD) : E (F := F) 2 c ⊢ (iprop(∃ W, owes (c : Thread nD τ) (0 : CellTallies nD τ sig Unit) W) : sProp 𝕄) := by
  unfold E; iintro ⟨-, H⟩; iexact H

include hb0 hb1 hin1 hout1 in
/-- THE FRAME at any instance: every weakly fair execution of the program from memory `m` with zero counters
    terminates, and every final memory holds each argument as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m (emb₁ : Emb _ 𝕄) () Variants.none L lv (fun _ _ => rfl) ρ (outs m) (pdats m) 0 (fun _ => iprop(emp))
    (initOf (Pipeline.cells cfgs cellOf_inj) (Pipeline.launchToks cfgs cellOf_inj)) launch_ghost E (launch_rest ρ) rest_owes
    (reg0 m hb0) (fun _ => .rfl) (fun _ => .rfl) (reg1 m hb1 hin1 hout1) (fun _ => .rfl) (fun _ => .rfl)

include hb0 hb1 hin1 hout1 in
set_option backward.isDefEq.respectTransparency.types false in
/-- THE RUN, every buffer read: every weakly fair execution of the program from memory `m` with zero counters
    terminates, and every final memory holds every unscoped buffer of every core at the last contents of the fold
    (the host stretches' effects over what the two regions leave). -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = V5 m (outs m) c b) := by
  refine Pipeline.θ_run_regions_kit_dev (pcfgs (F := F)) adm (pdats m) () cellOf_inj (emb₁ : Emb _ 𝕄) defs₀ Variants.none L lv m ρ main
    (segs m (outs m) Variants.none L lv E () (pdats m) (reg0 m hb0) (reg1 m hb1 hin1 hout1))
    (fun c Q => by
      rewrite [main_chain c, Pipeline.Seg.run_eq_chain,
        show (segs m (outs m) Variants.none L lv E () (pdats m) (reg0 m hb0) (reg1 m hb1 hin1 hout1) c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    0 (fun _ _ => rfl) (fun _ => iprop(emp))
    (initOf (Pipeline.cells cfgs cellOf_inj) (Pipeline.launchToks cfgs cellOf_inj)) launch_ghost
    (T₀ := fun c => iprop(StableHlo.held (c : Thread nD τ) (Pipeline.ucRefs τ sig) (V0 m c) ∗ E 0 c))
    (Tₙ := fun c => StableHlo.held (c : Thread nD τ) (Pipeline.ucRefs τ sig) (V5 m (outs m) c))
    (hch := fun c => ⟨.rfl, .rfl, .rfl, .rfl, .rfl, sep_mono .rfl (rest_owes c)⟩)
    (hinit := ?_) (QY := fun c s => ∀ b ∈ Pipeline.ucRefs τ sig, s.mem ((c : Thread nD τ).1, b) = V5 m (outs m) c b)
    (hfin := fun c s' => ?_) (hQ := fun _ h => h)
  · -- the launch: the unscoped buffers are held at the launch contents; the rest makes what rides along
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (launch_rest ρ) $$ [Hr Hla] with HE
    · isplitl [Hr]; · iexact Hr
      iexact Hla
    imodintro
    rw [bigSep_sep']
    isplitl [Hh]; · iexact Hh
    iexact HE
  · -- the end: every unscoped buffer read off the last contents
    unfold StableHlo.held
    iintro ⟨Hh, HSI⟩
    imodintro
    iapply (pointsTo_read_all (Pipeline.ucRefs τ sig) (fun b => ((c : Thread nD τ).1, b)) (V5 m (outs m) c) s')
    isplitl [Hh] <;> iassumption

end Records

end Cert.KernelIdeal.Gen

end
-- ==== Proof.KI.Front.lean ====
import proofs.«420313_j13838384627918_1_alg».proof.Proof.Gen.KernelIdeal.Launch
import proofs.«420313_j13838384627918_1_alg».proof.Proof.Gen.KernelIdeal.Skeleton
import proofs.«420313_j13838384627918_1_alg».proof.Proof.Gen.KernelIdeal.Points
import proofs.«420313_j13838384627918_1_alg».proof.Proof.KI.FrontDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The front region: the body's triple, the inputs' staging contents, the body obligation -/

/-! ## Each input's current staging buffer holds its block, fetched at this point or not

The two row streams move at every point; the six weights are fetched at the first point only and
their block index never moves after it. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The single store covers the output block -/

theorem cover0_8 (p0 : Vec F S256x2048 .bf16) (y : S256x2048.Idx) :
    ∃ pc ∈ ([⟨rTile, p0⟩] : List (View.Piece (Elt F) S256x2048 .bf16)), y ∈ pc.1.set :=
  View.cover_of_tiled [⟨rTile, p0⟩] S256x2048.size (by rfl) y

/-! ## The body's triple -/

set_option maxHeartbeats 4000000 in
/-- The body on whole staging memrefs, the eight inputs' at read contents `x0 … x7` and the output's at anything,
    runs to the continuation holding the inputs' as they were and the output's at `frontOut` of them. -/
theorem sound_kernel0 (c : Dev nD) (E : Set ℕ) (i : grid0.Coords) (arg1 : Memref sig .tc .vmem S256x2048 .f32) (harg1 : arg1.IsWhole) (arg2 : Memref sig .tc .vmem S256x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x2048 .bf16) (harg5 : arg5.IsWhole) (arg6 : Memref sig .tc .vmem S2048x2048 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S256x2048 .bf16) (harg9 : arg9.IsWhole)
    (x0 : Vec F S256x2048 .f32) (x1 : Vec F S256x2048 .f32) (x2 : Vec F S1x2048 .f32) (x3 : Vec F S1x2048 .f32) (x4 : Vec F S2048x2048 .bf16) (x5 : Vec F S2048x2048 .bf16) (x6 : Vec F S1x2048 .f32) (x7 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (frontOut x0 x1 x2 x3 x4 x5 x6 x7)) -∗ K ⟨⟩))
      ⊢ wp frame (wpE (defs₀ (F := F)) Variants.none c none) E (cc0__front_kernel i arg1 harg1 arg2 harg2 arg3 harg3 arg4 harg4 arg5 harg5 arg6 harg6 arg7 harg7 arg8 harg8 arg9 harg9) K := by
  simp only [cc0__front_kernel_eq_skeleton]; unfold cc0__front_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0
  subst hf1
  subst hf2
  subst hf3
  subst hf4
  subst hf5
  subst hf6
  subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.KI.HeadRuns.lean ====
/- What the three case runs of the lm_head kernel's body share: the body's two branch conditions in closed form
   over the grid, where the loss window is idle, the staging memrefs at a point, that each input window's buffer
   holds its block at every point, and what a whole-block store reads back. -/
import proofs.«420313_j13838384627918_1_alg».proof.Proof.KI.HeadDefs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's branch conditions -/

/-- The first conditional's condition (the reset of the three columns), from the grid coordinates. -/
abbrev cond1_0 (i : grid1.Coords) : Prop := (Scalar.cmpi .ne (Scalar.extui (Scalar.cmpi .eq (BitVec.ofNat 32 (i 1).val) 0#32)) 0#32) = 1#1
/-- It holds at the first vocabulary step of each sequence block. -/
theorem hcond1_0 : ∀ t : Fin cfg1.N, cond1_0 (grid1.coords t) ↔ t.val % 101 = 0 :=
  (by decide +kernel : ∀ t : Fin grid1.N, cond1_0 (grid1.coords t) ↔ t.val % 101 = 0)

/-- The second conditional's condition (the store of the loss block), from the grid coordinates. -/
abbrev cond1_1 (i : grid1.Coords) : Prop := k1_cond2 i = 1#1
/-- It holds at the last vocabulary step of each sequence block. -/
theorem hcond1_1 : ∀ t : Fin cfg1.N, cond1_1 (grid1.coords t) ↔ t.val % 101 = 100 :=
  (by decide +kernel : ∀ t : Fin grid1.N, cond1_1 (grid1.coords t) ↔ t.val % 101 = 100)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Away from the last vocabulary step the loss window is idle (the body stores nothing into it), -/
theorem idleAt1_4 : ∀ t : Fin cfg1.N, ¬cond1_1 (grid1.coords t) → cfg1.idle 4 (grid1.coords t) = true := by decide +kernel
/-- and the pipeline does not write its block back; -/
theorem noFlush1_4 : ∀ t : Fin cfg1.N, ¬cond1_1 (grid1.coords t) → (cfg1.win 4).flush t = false := by decide +kernel
/-- at the last vocabulary step it is live. -/
theorem liveAt1_4 : ∀ t : Fin cfg1.N, cond1_1 (grid1.coords t) → cfg1.idle 4 (grid1.coords t) = false := by decide +kernel

/-! ## The staging memrefs at a point -/

abbrev ms1_0 (t : Fin cfg1.N) : Memref sig .tc .vmem S512x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1280x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1280 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)

/-! ## Each input's buffer holds its block at every point -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

end Cert.KernelIdeal.Gen

end
-- ==== Proof.KI.HeadWhole.lean ====
/- What a whole-block load reads and a whole-block store leaves, through a whole memref; and the region invariant's
   scoped buffers taken apart around the three carried columns. -/
import proofs.«420313_j13838384627918_1_alg».proof.Proof.KI.HeadRuns
import Idealize.ShloMosaic.Lib.WholeRead
import Idealize.ShloMosaic.Lib.WritesUnit

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of the whole block through a whole memref held at the contents that read `X` reads `X`. -/
theorem readAt_full_unread {κ : Kind} {sp : Space} {e : EltTy} {d : Fin 2 → ℕ} {Val : EltTy → Type}
    {m : Memref sig κ sp (⟨2, d⟩ : Shape) e} (h : m.IsWhole)
    (X : (⟨2, d⟩ : Shape).Idx → Val e) (inb : ∀ a, (![0, 0] : Fin 2 → ℕ) a + d a ≤ d a) :
    View.readAt Val m.view (Rect.unit (s := (⟨2, d⟩ : Shape)) ![0, 0] d inb).toLoadRect (h.unread X) = X := by
  funext x
  rw [Memref.IsWhole.readAt_unread h]
  congr 1
  funext a
  apply Fin.ext
  show (![0, 0] : Fin 2 → ℕ) a + 1 * (x a).val = (x a).val
  fin_cases a <;> simp

/-- A store of the whole block reads back the stored block, whatever was there and whatever was stored before. -/
theorem read_writes_full {κ : Kind} {sp : Space} {e : EltTy} {d : Fin 2 → ℕ} {Val : EltTy → Type}
    (v : View sig κ sp (⟨2, d⟩ : Shape) e) (f : v.ty.Contents Val) (inb : ∀ a, (![0, 0] : Fin 2 → ℕ) a + d a ≤ d a)
    (w : (⟨2, d⟩ : Shape).Idx → Val e) (L : List (View.Piece Val (⟨2, d⟩ : Shape) e)) :
    v.read Val (v.writes Val f ((⟨Rect.unit (s := (⟨2, d⟩ : Shape)) ![0, 0] d inb, w⟩ : View.Piece Val (⟨2, d⟩ : Shape) e) :: L)) = w := by
  funext y
  exact View.read_writes_cons_unit_of_mem v f inb w L y y rfl (fun a => by fin_cases a <;> simp)

/-! ## The scoped buffers around the three columns -/

/-- The three columns are taken out of the scoped buffers and any statement of them put back. -/
theorem scopedWith1_wand (c : Dev nD) (S S' : sProp 𝕄) :
    scopedWith1 (F := F) c S ⊢ iprop(S ∗ (S' -∗ scopedWith1 (F := F) c S')) := by
  unfold scopedWith1
  iintro ⟨H1, H2, H3, H4, H5, H6, H7, H8, H9, H10, H11, H12, HS⟩
  isplitl [HS]; · iexact HS
  iintro HS'
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact HS'

/-- Columns owned at known contents are columns owned at some contents. -/
theorem colsAt1_any (c : Dev nD) (s : Scr1 F) : colsAt1 c s ⊢ colsAny1 (F := F) c := by
  unfold colsAt1 colsAny1
  iintro ⟨H0, H1, H2⟩
  isplitl [H0]; · iexists _; iexact H0
  isplitl [H1]; · iexists _; iexact H1
  iexists _; iexact H2

end Cert.KernelIdeal.Gen

end
-- ==== Proof.KI.HeadRunA.lean ====
/- The lm_head kernel's body at the first vocabulary step of a sequence block: the three columns are first reset
   (maximum to minus infinity, sum and label logit to zero), whatever they held; the loads that follow read the reset
   values back; the loss block is left as found. -/
import proofs.«420313_j13838384627918_1_alg».proof.Proof.KI.HeadWhole

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-two block. -/
private theorem zeros2 : (![0, 0] : Fin 2 → ℕ) = fun _ => 0 := by
  funext a; fin_cases a <;> rfl

set_option maxHeartbeats 4000000 in
/-- The body at a point where the first conditional is taken and the second is not. -/
theorem headRun_A (c : Dev nD) (i : grid1.Coords) (arg2 : Memref sig .tc .vmem S512x2048 .bf16) (harg2 : arg2.IsWhole) (arg3 : Memref sig .tc .vmem S1280x2048 .bf16) (harg3 : arg3.IsWhole) (arg4 : Memref sig .tc .vmem S512x1 .i32) (harg4 : arg4.IsWhole) (arg5 : Memref sig .tc .vmem S512x1280 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole)
    (hc0 : cond1_0 i) (hc1 : ¬cond1_1 i)
    (x0 : Vec F S512x2048 .bf16) (x1 : Vec F S1280x2048 .bf16) (x2 : Vec F S512x1 .i32) (y6 : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare y6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k1_pay6 x0 x1) ∗ owns (c : Thread nD τ) arg6 fullShare y6
            ∗ owns (c : Thread nD τ) arg7 fullShare (k1_pay9 x0 x1 (k1_pay3 (F := F)))
            ∗ owns (c : Thread nD τ) arg8 fullShare (k1_pay8 x0 x1 (k1_pay3 (F := F)) (k1_pay4 (F := F)))
            ∗ owns (c : Thread nD τ) arg9 fullShare (k1_pay1 (k1_pay6 x0 x1) (k1_pay10 i) x2 (k1_pay5 (F := F)))) -∗ K ⟨⟩))
      ⊢ wp frame (wpE (defs₀ (F := F)) Variants.none c none) E (cc1__lmhead_kernel i arg2 harg2 arg3 harg3 arg4 harg4 arg5 harg5 arg6 harg6 arg7 harg7 arg8 harg8 arg9 harg9) K := by
  simp only [cc1__lmhead_kernel_eq_skeleton]; unfold cc1__lmhead_kernel_skel
  simp only [k1_part1_eq_skeleton]; unfold k1_part1_skel
  unfold owns
  iintro ⟨⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%d9, %f9, -, H9⟩, Hk⟩
  obtain rfl := harg2.eq_unread hf2; obtain rfl := harg3.eq_unread hf3; obtain rfl := harg4.eq_unread hf4
  sl_exec (disch := first | exact hc0 | exact hc1)
  -- the three columns are loaded back after their reset: each load reads the value just stored
  have r7 := View.readCov_unit_zero (Val := Elt F) (S := S512x1) arg7.view zeros2 inb_S512x1_S512x1_0_0 (k1_pay3 (F := F))
  have r8 := View.readCov_unit_zero (Val := Elt F) (S := S512x1) arg8.view zeros2 inb_S512x1_S512x1_0_0 (k1_pay4 (F := F))
  have r9 := View.readCov_unit_zero (Val := Elt F) (S := S512x1) arg9.view zeros2 inb_S512x1_S512x1_0_0 (k1_pay5 (F := F))
  sl_step
  iapply Hk
  isplitl [H2]; · iexists _; isplitr; swap; · iexact H2
                  ipureintro; exact hf2
  isplitl [H3]; · iexists _; isplitr; swap; · iexact H3
                  ipureintro; exact hf3
  isplitl [H4]; · iexists _; isplitr; swap; · iexact H4
                  ipureintro; exact hf4
  isplitl [H5]; · iexists _; isplitr; swap; · iexact H5
                  ipureintro; rw [read_writes_full]; simp only [readAt_full_unread]
  isplitl [H6]; · iexists _; isplitr; swap; · iexact H6
                  ipureintro; exact hf6
  isplitl [H7]
  · iexists _; isplitr; swap; · iexact H7
    ipureintro; sl_unfold_words; rw [read_writes_full]; simp only [readAt_full_unread]
    exact congrArg (k1_pay9 x0 x1) r7
  isplitl [H8]
  · iexists _; isplitr; swap; · iexact H8
    ipureintro; sl_unfold_words; rw [read_writes_full]; simp only [readAt_full_unread]
    exact congr (congrArg (k1_pay8 x0 x1) r7) r8
  iexists _; isplitr; swap; · iexact H9
  ipureintro; sl_unfold_words; rw [read_writes_full]; simp only [readAt_full_unread]
  exact congrArg (k1_pay1 (k1_pay6 x0 x1) (k1_pay10 i) x2) r9

end Cert.KernelIdeal.Gen

end
-- ==== Proof.KI.HeadRunB.lean ====
/- The lm_head kernel's body at a middle vocabulary step (neither the first nor the last of its sequence block):
   from the three columns at `s`, the logits block is stored, the sum is updated from the OLD maximum, then the
   maximum, then the label logit; the loss block is left as found. -/
import proofs.«420313_j13838384627918_1_alg».proof.Proof.KI.HeadWhole

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point where neither conditional is taken. -/
theorem headRun_B (c : Dev nD) (i : grid1.Coords) (arg2 : Memref sig .tc .vmem S512x2048 .bf16) (harg2 : arg2.IsWhole) (arg3 : Memref sig .tc .vmem S1280x2048 .bf16) (harg3 : arg3.IsWhole) (arg4 : Memref sig .tc .vmem S512x1 .i32) (harg4 : arg4.IsWhole) (arg5 : Memref sig .tc .vmem S512x1280 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole)
    (hc0 : ¬cond1_0 i) (hc1 : ¬cond1_1 i)
    (x0 : Vec F S512x2048 .bf16) (x1 : Vec F S1280x2048 .bf16) (x2 : Vec F S512x1 .i32) (y6 : Vec F S512x1 .f32) (s : Scr1 F)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare y6
        ∗ owns (c : Thread nD τ) arg7 fullShare s.1 ∗ owns (c : Thread nD τ) arg8 fullShare s.2.1 ∗ owns (c : Thread nD τ) arg9 fullShare s.2.2
        ∗ (iprop(owns (c : Thread nD τ) arg2 fullShare x0 ∗ owns (c : Thread nD τ) arg3 fullShare x1 ∗ owns (c : Thread nD τ) arg4 fullShare x2
            ∗ owns (c : Thread nD τ) arg5 fullShare (k1_pay6 x0 x1) ∗ owns (c : Thread nD τ) arg6 fullShare y6
            ∗ owns (c : Thread nD τ) arg7 fullShare (k1_pay9 x0 x1 s.1)
            ∗ owns (c : Thread nD τ) arg8 fullShare (k1_pay8 x0 x1 s.1 s.2.1)
            ∗ owns (c : Thread nD τ) arg9 fullShare (k1_pay1 (k1_pay6 x0 x1) (k1_pay10 i) x2 s.2.2)) -∗ K ⟨⟩))
      ⊢ wp frame (wpE (defs₀ (F := F)) Variants.none c none) E (cc1__lmhead_kernel i arg2 harg2 arg3 harg3 arg4 harg4 arg5 harg5 arg6 harg6 arg7 harg7 arg8 harg8 arg9 harg9) K := by
  simp only [cc1__lmhead_kernel_eq_skeleton]; unfold cc1__lmhead_kernel_skel
  simp only [k1_part1_eq_skeleton]; unfold k1_part1_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4
  obtain rfl := harg7.eq_unread hf7; obtain rfl := harg8.eq_unread hf8; obtain rfl := harg9.eq_unread hf9
  sl_exec (disch := first | exact hc0 | exact hc1)
  sl_step
  iapply Hk
  isplitl [H2]; · iexists _; isplitr; swap; · iexact H2
                  ipureintro; exact hf2
  isplitl [H3]; · iexists _; isplitr; swap; · iexact H3
                  ipureintro; exact hf3
  isplitl [H4]; · iexists _; isplitr; swap; · iexact H4
                  ipureintro; exact hf4
  isplitl [H5]; · iexists _; isplitr; swap; · iexact H5
                  ipureintro; rw [read_writes_full]; simp only [readAt_full_unread]
  isplitl [H6]; · iexists _; isplitr; swap; · iexact H6
                  ipureintro; exact hf6
  isplitl [H7]; · iexists _; isplitr; swap; · iexact H7
                  ipureintro; rw [read_writes_full]; simp only [readAt_full_unread]
  isplitl [H8]; · iexists _; isplitr; swap; · iexact H8
                  ipureintro; rw [read_writes_full]; simp only [readAt_full_unread]
  iexists _; isplitr; swap; · iexact H9
  ipureintro; rw [read_writes_full]; simp only [readAt_full_unread]

end Cert.KernelIdeal.Gen

end
-- ==== Proof.KI.HeadRunC.lean ====
/- The lm_head kernel's body at a LAST vocabulary step (no reset of the three columns; the loss block is stored):
   on whole staging memrefs — the three inputs' at their blocks, the logits' and the loss's at anything, the three
   columns' at what the step before left — it runs to the continuation holding the inputs' as they were, the logits'
   at the block's logits, the three columns' one step on, and the loss's at m + log l − lbl of the columns just stored. -/
import proofs.«420313_j13838384627918_1_alg».proof.Proof.KI.HeadRuns
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-two block. -/
private theorem zeros2 : (![0, 0] : Fin 2 → ℕ) = fun _ => 0 := by
  funext a; fin_cases a <;> rfl

/-- One store of a whole block leaves its payload, whatever the buffer held. -/
private theorem read_whole_store {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero hz inb y⟩)).trans
    (View.canon_unit_zero hz inb w)

/-- A load of the whole block reads the contents. -/
private theorem load_whole {κ : Kind} {sp : Space} {S : Shape} {e : EltTy} (v : View sig κ sp S e) (f : v.ty.Contents (Elt F))
    {off : Fin S.rank → ℕ} (hz : off = fun _ => 0) (inb : ∀ a, off a + S.size a ≤ S.size a) :
    v.readAt (Elt F) (Rect.unit off S.size inb).toLoadRect f = v.read (Elt F) f :=
  (View.readAt_eq_ld v f _).trans (View.ld_unit_zero hz inb _)

set_option maxHeartbeats 4000000 in
theorem headRun_C (c : Dev nD) (i : grid1.Coords) (arg2 : Memref sig .tc .vmem S512x2048 .bf16) (harg2 : arg2.IsWhole) (arg3 : Memref sig .tc .vmem S1280x2048 .bf16) (harg3 : arg3.IsWhole) (arg4 : Memref sig .tc .vmem S512x1 .i32) (harg4 : arg4.IsWhole) (arg5 : Memref sig .tc .vmem S512x1280 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole)
    (hc0 : ¬cond1_0 i) (hc1 : cond1_1 i)
    (x0 : Vec F S512x2048 .bf16) (x1 : Vec F S1280x2048 .bf16) (x2 : Vec F S512x1 .i32) (s : Scr1 F)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ owns (c : Thread nD τ) arg7 fullShare s.1 ∗ owns (c : Thread nD τ) arg8 fullShare s.2.1 ∗ owns (c : Thread nD τ) arg9 fullShare s.2.2
        ∗ (iprop(owns (c : Thread nD τ) arg2 fullShare x0 ∗ owns (c : Thread nD τ) arg3 fullShare x1 ∗ owns (c : Thread nD τ) arg4 fullShare x2
            ∗ owns (c : Thread nD τ) arg5 fullShare (k1_pay6 x0 x1)
            ∗ owns (c : Thread nD τ) arg6 fullShare (k1_pay2 (k1_pay9 x0 x1 s.1) (k1_pay8 x0 x1 s.1 s.2.1) (k1_pay1 (k1_pay6 x0 x1) (k1_pay10 i) x2 s.2.2))
            ∗ owns (c : Thread nD τ) arg7 fullShare (k1_pay9 x0 x1 s.1)
            ∗ owns (c : Thread nD τ) arg8 fullShare (k1_pay8 x0 x1 s.1 s.2.1)
            ∗ owns (c : Thread nD τ) arg9 fullShare (k1_pay1 (k1_pay6 x0 x1) (k1_pay10 i) x2 s.2.2)) -∗ K ⟨⟩))
      ⊢ wp frame (wpE (defs₀ (F := F)) Variants.none c none) E (cc1__lmhead_kernel i arg2 harg2 arg3 harg3 arg4 harg4 arg5 harg5 arg6 harg6 arg7 harg7 arg8 harg8 arg9 harg9) K := by
  simp only [cc1__lmhead_kernel_eq_skeleton]; unfold cc1__lmhead_kernel_skel
  simp only [k1_part1_eq_skeleton]; unfold k1_part1_skel
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4
  obtain rfl := harg7.eq_unread hf7; obtain rfl := harg8.eq_unread hf8; obtain rfl := harg9.eq_unread hf9
  -- each first load of a buffer reads the contents the buffer was handed over at
  have e2 : View.readAt (Elt F) arg2.view (Rect.unit ![0, 0] S512x2048.size inb_S512x2048_S512x2048_0_0).toLoadRect (harg2.unread x0) = x0 :=
    (load_whole _ _ zeros2 _).trans (harg2.read_unread _)
  have e3 : View.readAt (Elt F) arg3.view (Rect.unit ![0, 0] S1280x2048.size inb_S1280x2048_S1280x2048_0_0).toLoadRect (harg3.unread x1) = x1 :=
    (load_whole _ _ zeros2 _).trans (harg3.read_unread _)
  have e4 : View.readAt (Elt F) arg4.view (Rect.unit ![0, 0] S512x1.size inb_S512x1_S512x1_0_0).toLoadRect (harg4.unread x2) = x2 :=
    (load_whole _ _ zeros2 _).trans (harg4.read_unread _)
  have e7 : View.readAt (Elt F) arg7.view (Rect.unit ![0, 0] S512x1.size inb_S512x1_S512x1_0_0).toLoadRect (harg7.unread s.1) = s.1 :=
    (load_whole _ _ zeros2 _).trans (harg7.read_unread _)
  have e8 : View.readAt (Elt F) arg8.view (Rect.unit ![0, 0] S512x1.size inb_S512x1_S512x1_0_0).toLoadRect (harg8.unread s.2.1) = s.2.1 :=
    (load_whole _ _ zeros2 _).trans (harg8.read_unread _)
  have e9 : View.readAt (Elt F) arg9.view (Rect.unit ![0, 0] S512x1.size inb_S512x1_S512x1_0_0).toLoadRect (harg9.unread s.2.2) = s.2.2 :=
    (load_whole _ _ zeros2 _).trans (harg9.read_unread _)
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (read_whole_store _ _ zeros2 _ _).trans ?_
    simp only [e2, e3]
  isplitl [H6]
  · iexists _; isplitr
    swap; · iexact H6
    ipureintro
    sl_unfold_words
    refine (read_whole_store _ _ zeros2 _ _).trans ?_
    simp only [e2, e3, e4, e7, e8, e9]
    -- the three columns are loaded back after their stores: each load reads the payload just stored
    have r7 := View.readCov_unit_zero (Val := Elt F) (S := S512x1) arg7.view zeros2 inb_S512x1_S512x1_0_0 (k1_pay9 x0 x1 s.1)
    have r8 := View.readCov_unit_zero (Val := Elt F) (S := S512x1) arg8.view zeros2 inb_S512x1_S512x1_0_0 (k1_pay8 x0 x1 s.1 s.2.1)
    have r9 := View.readCov_unit_zero (Val := Elt F) (S := S512x1) arg9.view zeros2 inb_S512x1_S512x1_0_0
      (k1_pay1 (k1_pay6 x0 x1) (k1_pay10 i) x2 s.2.2)
    exact congr (congr (congrArg (k1_pay2 (F := F)) r7) r8) r9
  isplitl [H7]
  · iexists _; isplitr
    swap; · iexact H7
    ipureintro
    sl_unfold_words
    refine (read_whole_store _ _ zeros2 _ _).trans ?_
    simp only [e2, e3, e7]
  isplitl [H8]
  · iexists _; isplitr
    swap; · iexact H8
    ipureintro
    sl_unfold_words
    refine (read_whole_store _ _ zeros2 _ _).trans ?_
    simp only [e2, e3, e7, e8]
  iexists _; isplitr
  swap; · iexact H9
  ipureintro
  sl_unfold_words
  refine (read_whole_store _ _ zeros2 _ _).trans ?_
  simp only [e2, e3, e4, e9]

end Cert.KernelIdeal.Gen

end
-- ==== Proof.KI.Head.lean ====
/- The lm_head region's body obligation: at every grid point the kernel's body takes the region invariant (the three
   carried columns at what the point before left) and the windows' buffers to the invariant one step on and the
   buffers at what the proof data says — by the three case runs (first, middle, last vocabulary step). -/
import proofs.«420313_j13838384627918_1_alg».proof.Proof.KI.HeadRunA
import proofs.«420313_j13838384627918_1_alg».proof.Proof.KI.HeadRunB
import proofs.«420313_j13838384627918_1_alg».proof.Proof.KI.HeadRunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- The invariant before any point hands over the three columns at SOME contents and takes them back at any. -/
theorem PhiS1_open_any (c : Dev nD) (t : Fin cfg1.N) (S' : sProp 𝕄) :
    (dat1 V c).Φ t.castSucc ⊢ iprop(colsAny1 c ∗ (S' -∗ scopedWith1 (F := F) c S') ∗ (∃ r, prngReg c r)) := by
  rw [PhiS1_castSucc V c t]
  by_cases hz : t.val = 0
  · rw [PhiS1_zero V c _ _ hz, PhiA1_eq]
    iintro ⟨Hsc, Hg⟩
    ihave Hs := (scopedWith1_wand c (colsAny1 c) S') $$ Hsc
    icases Hs with ⟨HS, Hb⟩
    isplitl [HS]; · iexact HS
    isplitl [Hb]; · iexact Hb
    iexact Hg
  · rw [PhiS1_pos V c _ _ hz]
    iintro ⟨Hsc, Hg⟩
    ihave Hs := (scopedWith1_wand c _ S') $$ Hsc
    icases Hs with ⟨HS, Hb⟩
    isplitl [HS]; · iapply (colsAt1_any c _); iexact HS
    isplitl [Hb]; · iexact Hb
    iexact Hg

/-- The invariant before a point that is not the first hands over the three columns at what the point before left. -/
theorem PhiS1_open_pos (c : Dev nD) (t : Fin cfg1.N) (hz : t.val ≠ 0) (S' : sProp 𝕄) :
    (dat1 V c).Φ t.castSucc ⊢ iprop(colsAt1 c (scrAt1 V c (t.val - 1) (Nat.lt_of_le_of_lt (Nat.sub_le _ _) t.isLt))
      ∗ (S' -∗ scopedWith1 (F := F) c S') ∗ (∃ r, prngReg c r)) := by
  rw [PhiS1_castSucc V c t, PhiS1_pos V c _ _ hz]
  iintro ⟨Hsc, Hg⟩
  ihave Hs := (scopedWith1_wand c _ S') $$ Hsc
  icases Hs with ⟨HS, Hb⟩
  isplitl [HS]; · iexact HS
  isplitl [Hb]; · iexact Hb
  iexact Hg

set_option maxHeartbeats 4000000 in
/-- The body at any point: the inputs' memrefs hold their blocks; the closed forms say which case the point is in;
    the invariant hands the body the three columns (at what the point before left; at anything at a first
    vocabulary step, where the body resets them) and takes them back one step on; the loss window's buffer is
    handed back as found away from the last vocabulary step. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [logitsAt1]
  have hN : t.val < 202 := lt_of_lt_of_eq t.isLt (show cfg1.N = 202 from N_1)
  by_cases h1 : t.val % 101 = 100
  · -- a last vocabulary step
    have h0 : ¬t.val % 101 = 0 := by omega
    have hz : t.val ≠ 0 := by omega
    rw [show (dat1 V c).leavesExact 4 t = owns (c : Thread nD τ) (ms1_4 t) fullShare ((dat1 V c).after 4 t) from by
      unfold Dat.leavesExact; rw [liveAt1_4 t ((hcond1_1 t).mpr h1)], after1_4]
    rw [nllAt1, scrAt1_step V c t h0]
    unfold scrStep1 colsAt1; dsimp only
    iintro ⟨HΦ, Ho, ⟨%d0, H0⟩, ⟨%d1, H1⟩, ⟨%d2, H2⟩, ⟨%d3, H3⟩, ⟨%d4, H4⟩⟩
    ihave HΦ' := (PhiS1_open_pos V c t hz _) $$ HΦ
    unfold colsAt1
    icases HΦ' with ⟨⟨HS0, HS1, HS2⟩, Hb, Hg⟩
    iapply (headRun_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1)
      (iblk1 V c 0 t) (iblk1 V c 1 t) (iblk1 V c 2 t) (scrAt1 V c (t.val - 1) (Nat.lt_of_le_of_lt (Nat.sub_le _ _) t.isLt)) Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [Hb Hg HS0 HS1 HS2]
    · isplitl [Hb HS0 HS1 HS2]
      · iapply Hb
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 4 t (idleAt1_4 t (fun h => h1 ((hcond1_1 t).mp h))) (noFlush1_4 t (fun h => h1 ((hcond1_1 t).mp h)))]
    by_cases h0 : t.val % 101 = 0
    · -- a first vocabulary step
      rw [scrAt1_reset V c t h0]
      unfold scrStep1 scrReset1 colsAt1; dsimp only
      iintro ⟨HΦ, Ho, ⟨%d0, H0⟩, ⟨%d1, H1⟩, ⟨%d2, H2⟩, ⟨%d3, H3⟩, ⟨%d4, H4⟩⟩
      ihave HΦ' := (PhiS1_open_any V c t _) $$ HΦ
      unfold colsAny1
      icases HΦ' with ⟨⟨HS0, HS1, HS2⟩, Hb, Hg⟩
      iapply (headRun_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h))
        (iblk1 V c 0 t) (iblk1 V c 1 t) (iblk1 V c 2 t) ((dat1 V c).before 4 t d4) Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      isplitl [HS2]; · iexact HS2
      iintro ⟨H0, H1, H2, H3, H4, HS0, HS1, HS2⟩
      isplitl [Hb Hg HS0 HS1 HS2]
      · isplitl [Hb HS0 HS1 HS2]
        · iapply Hb
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexists _; iexact H4
    · -- a middle vocabulary step
      have hz : t.val ≠ 0 := fun h => h0 (by rw [h])
      rw [scrAt1_step V c t h0]
      unfold scrStep1 colsAt1; dsimp only
      iintro ⟨HΦ, Ho, ⟨%d0, H0⟩, ⟨%d1, H1⟩, ⟨%d2, H2⟩, ⟨%d3, H3⟩, ⟨%d4, H4⟩⟩
      ihave HΦ' := (PhiS1_open_pos V c t hz _) $$ HΦ
      unfold colsAt1
      icases HΦ' with ⟨⟨HS0, HS1, HS2⟩, Hb, Hg⟩
      iapply (headRun_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h))
        (iblk1 V c 0 t) (iblk1 V c 1 t) (iblk1 V c 2 t) ((dat1 V c).before 4 t d4)
        (scrAt1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      isplitl [HS2]; · iexact HS2
      iintro ⟨H0, H1, H2, H3, H4, HS0, HS1, HS2⟩
      isplitl [Hb Hg HS0 HS1 HS2]
      · isplitl [Hb HS0 HS1 HS2]
        · iapply Hb
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.KI.HeadEnds.lean ====
/- The two ends of the lm_head region's invariant: what the launch hands the region IS the invariant before the
   first point, and the invariant after the last point gives back what the launch handed over (the three columns
   forgotten to "some contents", the generator register riding along). -/
import proofs.«420313_j13838384627918_1_alg».proof.Proof.KI.HeadWhole

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What is said beside the scoped buffers may be weakened. -/
theorem scopedWith1_mono (c : Dev nD) (S S' : sProp 𝕄) (h : S ⊢ S') : scopedWith1 (F := F) c S ⊢ scopedWith1 (F := F) c S' := by
  refine (scopedWith1_wand c S S').trans ?_
  iintro ⟨HS, Hw⟩
  iapply Hw
  iapply h
  iexact HS

/-- Before the first point the invariant is what the launch hands the region. -/
theorem hin1 (c : Dev nD) : Pipeline.ΦA spec1 c ⊢ (dat1 V c).Φ 0 := by
  have e : (dat1 V c).Φ 0 = Pipeline.ΦA spec1 c :=
    (show (dat1 V c).Φ 0 = PhiS1 V c (0 : Fin (cfg1.N + 1)).val (Nat.le_of_lt_succ (0 : Fin (cfg1.N + 1)).isLt) from rfl).trans
      (PhiS1_zero V c _ _ rfl)
  rw [e]

/-- After the last point the invariant gives back what the launch handed over. -/
theorem hout1 (c : Dev nD) : (dat1 V c).Φ (Fin.last cfg1.N) ⊢ Pipeline.ΦA spec1 c := by
  have hN : cfg1.N ≠ 0 := by
    have : cfg1.N = 202 := N_1
    omega
  have e : (dat1 V c).Φ (Fin.last cfg1.N) = PhiS1 V c cfg1.N le_rfl := rfl
  rw [e, PhiS1_pos V c cfg1.N le_rfl hN, PhiA1_eq]
  iintro ⟨HS, Hr⟩
  isplitl [HS]
  · iapply (scopedWith1_mono c _ _ (colsAt1_any c _)) $$ HS
  iexact Hr

end Cert.KernelIdeal.Gen

end
-- ==== Proof.Val.TailLoss.lean ====
/-
  The masked mean of a column of per-row losses, and the one fact the two programs' losses differ by:
  a row appended at the end whose mask entry is 0 changes neither sum.

  The masked mean of (nll, mask) with the constant c is
      (0 + Σ_s nll s * mask s) / ((0 + Σ_s mask s) + c)
  over the extended reals. If a column of 1024 rows agrees with a column of 1023 rows on the first 1023
  rows and its last mask entry is 0, the two masked means are equal: the last product is x * 0 = 0 for
  every extended real x, and the mask sum gains + 0.
-/
import Idealize.ShloMosaic.PureOps.Ideal.Laws
import Idealize.ShloMosaic.Lib.ValueIdx

noncomputable section

namespace Cert.Val

open Idealize.ShloMosaic

/-- A rank-one index is its one coordinate. -/
def idxEquiv1 {n : Nat} : (⟨1, ![n]⟩ : Shape).Idx ≃ Fin n where
  toFun j := j 0
  invFun a := ValueIdx.ix1 a
  left_inv j := (ValueIdx.eq_ix1 j).symm
  right_inv a := rfl

/-- A sum over the indices of a rank-one shape is the sum over its coordinate. -/
theorem sum_idx1 {M : Type*} [AddCommMonoid M] {n : Nat} (f : (⟨1, ![n]⟩ : Shape).Idx → M) :
    ∑ j, f j = ∑ a : Fin n, f (ValueIdx.ix1 a) :=
  Fintype.sum_equiv idxEquiv1 _ _ (fun j => congrArg f (ValueIdx.eq_ix1 j))

/-- The masked mean of a column: (0 + Σ nll·mask) / ((0 + Σ mask) + c). -/
def maskedMean {n : Nat} (nll mask : Fin n → EReal) (c : EReal) : EReal :=
  Ideal.div (0 + ∑ s, nll s * mask s) ((0 + ∑ s, mask s) + c)

/-- A last row whose mask entry is 0 contributes to neither sum. -/
theorem maskedMean_append_zero {n : Nat} (nllK maskK : Fin (n + 1) → EReal) (nllR maskR : Fin n → EReal) (c : EReal)
    (hn : ∀ s : Fin n, nllK s.castSucc = nllR s) (hm : ∀ s : Fin n, maskK s.castSucc = maskR s)
    (hlast : maskK (Fin.last n) = 0) :
    maskedMean nllK maskK c = maskedMean nllR maskR c := by
  unfold maskedMean
  rw [Fin.sum_univ_castSucc, Fin.sum_univ_castSucc (f := maskK), hlast, mul_zero, add_zero, add_zero]
  simp only [hn, hm]

end Cert.Val

end
-- ==== Proof.Val.TailHost.lean ====
/-
  The two host stretches around the second kernel region, read entry by entry at the extended reals.

  Before the region the host writes: the head weights with each entry unchanged (a change of float
  format is the identity on the extended reals); the shifted label column, whose row s is the label of
  position s + 1 for s < 1023 and the word 0 at the appended row 1023; the shifted mask, whose entry s
  is the mask of position s + 1 for s < 1023 and 0 at the appended entry 1023.

  After the region the host writes: the logits with a leading unit axis, entry (0, s, v) the entry
  (s, v) of the region's first result; and the loss, the masked mean of the region's second result (one
  per-row loss per row) against the shifted mask with the constant whose pattern is 0x322BCC77.
-/
import proofs.«420313_j13838384627918_1_alg».proof.Proof.Gen.KernelIdeal.Launch
import proofs.«420313_j13838384627918_1_alg».proof.Proof.Val.TailLoss
import Idealize.ShloMosaic.Lib.Pipeline.Value
import Idealize.ShloMosaic.Lib.ValueIdx
import Idealize.ShloMosaic.PureOps.Ideal.Laws
import Idealize.ShloMosaic.Lib.IdealHost

noncomputable section

namespace Cert.Val.TailHost

open Cert.KernelIdeal Cert.KernelIdeal.Gen
open Idealize.ShloMosaic Idealize.ShloMosaic.TcCoe Idealize.SL.Sem Idealize.ShloMosaic.StableHlo

/-- The constant added to the mask sum: the float whose pattern is 0x322BCC77. -/
abbrev epsC : EReal := Ideal.ofBits .f32 0x322BCC77#32

/-- A row of positions shifted by one with one appended entry: entry s of the result is entry (0, s + 1) of the
    operand for s < 1023, and the appended scalar at s = 1023. -/
theorem shifted_apply {α : Type} (x : S1x1024.Idx → α) (z : S_.Idx → α) (i : S1024.Idx) :
    concatenate S1024 0 [⟨S1023, extractStridedSlice S1023 ![1] (shapeCast S1024 x shapeCasts_S1x1024_S1024) slices_S1024_S1023_1⟩,
        ⟨S1, broadcastInDim S1 ![] bcast_S_S1 z⟩] concatenates_S1023_S1_S1024_d0 i
      = if h : (i 0).val < 1023 then x (ValueIdx.ix2 (0 : Fin 1) ⟨(i 0).val + 1, by omega⟩) else z ValueIdx.ix0 := by
  have hi : (i 0).val < 1024 := (i 0).isLt
  split
  · next h =>
    refine (concatenate_pair_apply_left (t := S1024) (s₁ := S1023) (s₂ := S1) (0 : Fin 1) _ _ concatenates_S1023_S1_S1024_d0 i rfl
      (ValueIdx.ix1 (⟨(i 0).val, h⟩ : Fin 1023)) (fun b => match b with | ⟨0, _⟩ => rfl)).trans ?_
    refine (extractStridedSlice_apply ![1] _ slices_S1024_S1023_1 _
      (ValueIdx.ix1 (⟨(i 0).val + 1, by omega⟩ : Fin 1024)) (fun a => match a with
        | ⟨0, _⟩ => by show (i 0).val + 1 = 1 + (i 0).val; omega)).trans ?_
    exact shapeCast_apply x shapeCasts_S1x1024_S1024 _ (ValueIdx.ix2 (0 : Fin 1) (⟨(i 0).val + 1, by omega⟩ : Fin 1024))
      (by rewrite [Shape.rowMajor_val_two, Shape.rowMajor_val_one]; show 0 * 1024 + ((i 0).val + 1) = (i 0).val + 1; omega)
  · next h =>
    refine (concatenate_pair_apply_right (t := S1024) (s₁ := S1023) (s₂ := S1) (0 : Fin 1) _ _ concatenates_S1023_S1_S1024_d0 i rfl rfl
      (ValueIdx.ix1 (0 : Fin 1)) (fun b hb => match b, hb with | ⟨0, _⟩, hb => absurd rfl hb)
      (by show 0 + 1023 = (i 0).val; omega)).trans ?_
    exact broadcastInDim_apply _ bcast_S_S1 z _ ValueIdx.ix0 (fun a => a.elim0)

/-- The host's sum of a row of 1024 entries from the initial value 0: 0 plus the sum over the coordinate. -/
theorem rowSum_apply (y : FVec Ideal S1024 .f32) (j : S_.Idx) :
    Host.reduceAdd y (constant (F := Ideal) S_ .f32 0x00000000#32) reducesTo_S1024_S_d0 h_S_ j
      = 0 + ∑ s : Fin 1024, y (ValueIdx.ix1 s) := by
  rw [ValueIdx.hostReduceAdd_apply, Ideal.hostReduceAdd_total reducesTo_S1024_S_d0 (fun b => b.elim0), sum_idx1]
  congr 1
  exact Ideal.ofBits_zero_f32

variable (W : Valuation τ sig (Elt Ideal))

/-! ## The stretch before the region -/

/-- The head weights after the change of format: each entry unchanged. -/
theorem before_headW (i : S129280x2048.Idx) :
    StableHlo.after (hostOps1 (F := Ideal)) W (Proc.devRef .tc main_v18) i = W (Proc.devRef .tc main_arg10) i := by
  have e : (StableHlo.after (hostOps1 (F := Ideal)) W (Proc.devRef .tc main_v18) : (⟨S129280x2048, .bf16⟩ : BufTy).Contents (Elt Ideal))
      = (truncf (F := Ideal) .bf16 (W (Proc.devRef .tc main_arg10) : (⟨S129280x2048, .f32⟩ : BufTy).Contents (Elt Ideal)) bitsLt_bf16_f32) := by
    after_results
  rw [e]; rfl

/-- The shifted label column: row s is the label of position s + 1, the appended row 1023 is the word 0. -/
theorem before_labels (i : S1024x1.Idx) :
    StableHlo.after (hostOps1 (F := Ideal)) W (Proc.devRef .tc main_v24) i
      = if h : (i 0).val < 1023 then W (Proc.devRef .tc main_arg2) (ValueIdx.ix2 (0 : Fin 1) ⟨(i 0).val + 1, by omega⟩) else 0#32 := by
  have e : (StableHlo.after (hostOps1 (F := Ideal)) W (Proc.devRef .tc main_v24) : (⟨S1024x1, .i32⟩ : BufTy).Contents (Elt Ideal))
      = shapeCast S1024x1 (concatenate S1024 0 [⟨S1023, extractStridedSlice S1023 ![1]
            (shapeCast S1024 (W (Proc.devRef .tc main_arg2) : (⟨S1x1024, .i32⟩ : BufTy).Contents (Elt Ideal)) shapeCasts_S1x1024_S1024) slices_S1024_S1023_1⟩,
          ⟨S1, broadcastInDim S1 ![] bcast_S_S1 (constantI S_ 32 0#32)⟩] concatenates_S1023_S1_S1024_d0) shapeCasts_S1024_S1024x1 := by
    after_results; rfl
  rw [e]
  refine (shapeCast_apply _ shapeCasts_S1024_S1024x1 i (ValueIdx.ix1 (i 0)) ?_).trans ?_
  · rewrite [Shape.rowMajor_val_one, Shape.rowMajor_val_two]
    have h1 : (i 1).val < 1 := (i 1).isLt
    show (i 0).val = (i 0).val * 1 + (i 1).val
    omega
  rw [shifted_apply]; rfl

/-- The shifted mask: entry s is the mask of position s + 1, the appended entry 1023 is 0. -/
theorem before_mask (i : S1024.Idx) :
    StableHlo.after (hostOps1 (F := Ideal)) W (Proc.devRef .tc main_v27) i
      = if h : (i 0).val < 1023 then W (Proc.devRef .tc main_arg3) (ValueIdx.ix2 (0 : Fin 1) ⟨(i 0).val + 1, by omega⟩) else (0 : EReal) := by
  have e : (StableHlo.after (hostOps1 (F := Ideal)) W (Proc.devRef .tc main_v27) : (⟨S1024, .f32⟩ : BufTy).Contents (Elt Ideal))
      = concatenate S1024 0 [⟨S1023, extractStridedSlice S1023 ![1]
            (shapeCast S1024 (W (Proc.devRef .tc main_arg3) : (⟨S1x1024, .f32⟩ : BufTy).Contents (Elt Ideal)) shapeCasts_S1x1024_S1024) slices_S1024_S1023_1⟩,
          ⟨S1, broadcastInDim S1 ![] bcast_S_S1 (constant (F := Ideal) S_ .f32 0x00000000#32)⟩] concatenates_S1023_S1_S1024_d0 := by
    after_results; rfl
  rw [e, shifted_apply]
  split
  · rfl
  · exact Ideal.ofBits_zero_f32

/-! ## The stretch after the region -/

/-- The logits with a leading unit axis. -/
theorem after_logits (i : S1x1024x129280.Idx) :
    StableHlo.after (hostOps2 (F := Ideal)) W (Proc.devRef .tc main_v35) i
      = W (Proc.devRef .tc main_v28_0) (ValueIdx.ix2 (i 1) (i 2)) := by
  have e : (StableHlo.after (hostOps2 (F := Ideal)) W (Proc.devRef .tc main_v35) : (⟨S1x1024x129280, .f32⟩ : BufTy).Contents (Elt Ideal))
      = shapeCast S1x1024x129280 (W (Proc.devRef .tc main_v28_0) : (⟨S1024x129280, .f32⟩ : BufTy).Contents (Elt Ideal))
          shapeCasts_S1024x129280_S1x1024x129280 := by
    after_results; rfl
  rw [e]
  refine shapeCast_apply _ shapeCasts_S1024x129280_S1x1024x129280 i (ValueIdx.ix2 (i 1) (i 2)) ?_
  rewrite [Shape.rowMajor_val_two, Shape.rowMajor_val_three]
  have h0 : (i 0).val < 1 := (i 0).isLt
  show (i 1).val * 129280 + (i 2).val = ((i 0).val * 1024 + (i 1).val) * 129280 + (i 2).val
  omega

/-- The loss: the masked mean of the per-row losses against the shifted mask. -/
theorem after_loss (j : S_.Idx) :
    StableHlo.after (hostOps2 (F := Ideal)) W (Proc.devRef .tc main_v34) j
      = maskedMean (fun s : Fin 1024 => W (Proc.devRef .tc main_v28_1) (ValueIdx.ix2 s (0 : Fin 1)))
          (fun s : Fin 1024 => W (Proc.devRef .tc main_v27) (ValueIdx.ix1 s)) epsC := by
  have e : (StableHlo.after (hostOps2 (F := Ideal)) W (Proc.devRef .tc main_v34) : (⟨S_, .f32⟩ : BufTy).Contents (Elt Ideal))
      = Host.divf
          (Host.reduceAdd (mulf (shapeCast S1024 (W (Proc.devRef .tc main_v28_1) : (⟨S1024x1, .f32⟩ : BufTy).Contents (Elt Ideal)) shapeCasts_S1024x1_S1024)
              (W (Proc.devRef .tc main_v27) : (⟨S1024, .f32⟩ : BufTy).Contents (Elt Ideal)))
            (constant (F := Ideal) S_ .f32 0x00000000#32) reducesTo_S1024_S_d0 h_S_)
          (addf (Host.reduceAdd (W (Proc.devRef .tc main_v27) : (⟨S1024, .f32⟩ : BufTy).Contents (Elt Ideal))
              (constant (F := Ideal) S_ .f32 0x00000000#32) reducesTo_S1024_S_d0 h_S_)
            (constant (F := Ideal) S_ .f32 0x322BCC77#32)) := by
    after_results; rfl
  rw [e, ValueIdx.hostDivf_apply, ValueIdx.addf_apply, rowSum_apply, rowSum_apply]
  unfold maskedMean
  congr 2
  refine Finset.sum_congr rfl fun s _ => ?_
  rw [ValueIdx.mulf_apply]
  congr 1
  exact shapeCast_apply _ shapeCasts_S1024x1_S1024 _ (ValueIdx.ix2 s (0 : Fin 1))
    (by rewrite [Shape.rowMajor_val_two, Shape.rowMajor_val_one]; show s.val * 1 + 0 = s.val; omega)

end Cert.Val.TailHost

end
-- ==== Proof.Val.Logits.lean ====
/-
  The logits array.

  The head region's grid has 2 x 101 points; point t = si * 101 + vi multiplies the si-th block of 512 rows of
  the normed activations (each row 2048 long) with the vi-th block of 1280 rows of the vocabulary weight
  (each row 2048 long), contracting the shared 2048 axis, and writes the 512 x 1280 product into block
  (si, vi) of the 1024 x 129280 logits array. The 202 blocks tile the array, so entry (s, v) of the array is
  the inner product of activation row s with weight row v.
-/
import proofs.«420313_j13838384627918_1_alg».proof.Proof.Gen.KernelIdeal.Launch
import proofs.«420313_j13838384627918_1_alg».proof.Proof.Gen.KernelIdeal.Skeleton
import proofs.«420313_j13838384627918_1_alg».proof.Proof.Gen.KernelIdeal.Points
import proofs.«420313_j13838384627918_1_alg».proof.Proof.KI.HeadDefs
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.Val

open Idealize.ShloMosaic Idealize.ShloMosaic.TcCoe Idealize.ShloMosaic.ValueIdx
open Idealize.ShloMosaic.Pipeline (Dat)
open Cert.KernelIdeal Cert.KernelIdeal.Gen

/-! ## One block: the product of a 512 x 2048 block with a 1280 x 2048 block, contracting the 2048 axis -/

/-- The left operand of the block product is read at (output row, contraction index): axis 0. -/
theorem lhs_blockProduct_0 (i : S512x1280.Idx) (q : dot_S512x2048_S1280x2048_S512x1280_1_1_0_0_n_n.contr.Idx) :
    (dot_S512x2048_S1280x2048_S512x1280_1_1_0_0_n_n.lhsIdx i q 0).val = (i 0).val := by
  unfold DotDims.lhsIdx
  rw [dif_neg (show ¬(0 : Fin S512x2048.rank) ∈ dot_S512x2048_S1280x2048_S512x1280_1_1_0_0_n_n.lhsBatch by decide), dif_pos (show (0 : Fin S512x2048.rank) ∈ dot_S512x2048_S1280x2048_S512x1280_1_1_0_0_n_n.lhsNonContracting by decide)]
  rfl
/-- The left operand's axis 1 is the contraction index. -/
theorem lhs_blockProduct_1 (i : S512x1280.Idx) (q : dot_S512x2048_S1280x2048_S512x1280_1_1_0_0_n_n.contr.Idx) :
    (dot_S512x2048_S1280x2048_S512x1280_1_1_0_0_n_n.lhsIdx i q 1).val = (q ⟨0, by decide⟩).val :=
  dot_S512x2048_S1280x2048_S512x1280_1_1_0_0_n_n.lhsIdx_val_of_single rfl i q
/-- The right operand is read at (output column, contraction index): axis 0. -/
theorem rhs_blockProduct_0 (i : S512x1280.Idx) (q : dot_S512x2048_S1280x2048_S512x1280_1_1_0_0_n_n.contr.Idx) :
    (dot_S512x2048_S1280x2048_S512x1280_1_1_0_0_n_n.rhsIdx i q 0).val = (i 1).val := by
  unfold DotDims.rhsIdx
  rw [dif_neg (show ¬(0 : Fin S1280x2048.rank) ∈ dot_S512x2048_S1280x2048_S512x1280_1_1_0_0_n_n.rhsBatch by decide), dif_pos (show (0 : Fin S1280x2048.rank) ∈ dot_S512x2048_S1280x2048_S512x1280_1_1_0_0_n_n.rhsNonContracting by decide)]
  rfl
/-- The right operand's axis 1 is the contraction index. -/
theorem rhs_blockProduct_1 (i : S512x1280.Idx) (q : dot_S512x2048_S1280x2048_S512x1280_1_1_0_0_n_n.contr.Idx) :
    (dot_S512x2048_S1280x2048_S512x1280_1_1_0_0_n_n.rhsIdx i q 1).val = (q ⟨0, by decide⟩).val :=
  dot_S512x2048_S1280x2048_S512x1280_1_1_0_0_n_n.rhsIdx_val_of_single rfl i q

/-- Entry (p, q) of the block product is the inner product of row p of the left block with row q of the right block. -/
theorem blockProduct_apply (x0 : Vec Ideal S512x2048 .bf16) (x1 : Vec Ideal S1280x2048 .bf16) (p : Fin 512) (q : Fin 1280) :
    k1_pay6 (F := Ideal) x0 x1 (ix2 p q) = ∑ k : Fin 2048, x0 (ix2 p k) * x1 (ix2 q k) := by
  unfold k1_pay6
  simp only [shapeCast_self]
  have hsum := Ideal.matmul_constant_zero_apply (φ₁ := .bf16) (φ₂ := .bf16) dot_S512x2048_S1280x2048_S512x1280_1_1_0_0_n_n none x0 x1 (ix2 p q)
  refine hsum.trans ?_
  rw [← Equiv.sum_comp (ValueIdx.contrEquiv1 dot_S512x2048_S1280x2048_S512x1280_1_1_0_0_n_n 2048 rfl rfl).symm]
  refine Finset.sum_congr rfl fun k _ => ?_
  have hk := ValueIdx.contrEquiv1_symm_val dot_S512x2048_S1280x2048_S512x1280_1_1_0_0_n_n 2048 rfl rfl k
  have el : dot_S512x2048_S1280x2048_S512x1280_1_1_0_0_n_n.lhsIdx (ix2 p q) ((ValueIdx.contrEquiv1 dot_S512x2048_S1280x2048_S512x1280_1_1_0_0_n_n 2048 rfl rfl).symm k) = ix2 p k := funext fun a => Fin.ext (by
    match a with
    | ⟨0, _⟩ => exact lhs_blockProduct_0 _ _
    | ⟨1, _⟩ => exact (lhs_blockProduct_1 _ _).trans hk)
  have er : dot_S512x2048_S1280x2048_S512x1280_1_1_0_0_n_n.rhsIdx (ix2 p q) ((ValueIdx.contrEquiv1 dot_S512x2048_S1280x2048_S512x1280_1_1_0_0_n_n 2048 rfl rfl).symm k) = ix2 q k := funext fun a => Fin.ext (by
    match a with
    | ⟨0, _⟩ => exact rhs_blockProduct_0 _ _
    | ⟨1, _⟩ => exact (rhs_blockProduct_1 _ _).trans hk)
  rw [el, er]

/-! ## The array the blocks are pieces of -/

/-- Entry (s, v): the inner product of row s of the activations with row v of the weight. -/
abbrev logitsOf (a : S1024x2048.Idx → EReal) (w : S129280x2048.Idx → EReal) : S1024x129280.Idx → EReal :=
  fun i => ∑ k : Fin 2048, a (ix2 (n0 := 1024) (i 0) k) * w (ix2 (n0 := 129280) (i 1) k)

theorem zero_offsets : (![0, 0] : Fin 2 → Nat) = fun _ => 0 := funext fun a => by fin_cases a <;> rfl

/-- The block indices over the grid: point t = si * 101 + vi reads activation block (si, 0) and weight block (vi, 0),
    and writes logits block (si, vi). -/
theorem head_index_facts : ∀ t : Fin cfg1.N,
      win1_0.index t (0 : Fin 2) = t.val / 101 ∧ win1_0.index t (1 : Fin 2) = 0
    ∧ win1_1.index t (0 : Fin 2) = t.val % 101 ∧ win1_1.index t (1 : Fin 2) = 0
    ∧ win1_3.index t (0 : Fin 2) = t.val / 101 ∧ win1_3.index t (1 : Fin 2) = t.val % 101 :=
  (by decide +kernel : ∀ t : Fin grid1.N, _)

variable (V : (c : Dev nD) → (b : Ref sig .tc) → Buf (Elt Ideal) ((c : Thread nD τ).loc b))

/-- What point t writes back is block t of the array of inner products. -/
theorem logitsBlock_eq (c : Dev nD) (t : Fin cfg1.N) :
    (dat1 V c).flushed 3 t = ((cfg1.win 3).blk t).view.read (Elt Ideal) (logitsOf (V c main_v17) (V c main_v18)) := by
  show (cfg1.win 3).cut (grid1.coords t) ((dat1 V c).after 3 t) = _
  rw [after1_3]
  unfold logitsAt1
  obtain ⟨e00, e01, e10, e11, e30, e31⟩ := head_index_facts t
  funext j
  obtain ⟨p, q, rfl⟩ : ∃ (p : Fin 512) (q : Fin 1280), j = ix2 p q := ⟨j 0, j 1, eq_ix2 j⟩
  show k1_pay6 (F := Ideal) (iblk1 V c 0 t) (iblk1 V c 1 t) (ix2 p q)
    = logitsOf (V c main_v17) (V c main_v18) (((cfg1.win 3).blk t).view.emb (ix2 p q))
  refine (blockProduct_apply _ _ p q).trans ?_
  refine Finset.sum_congr rfl fun k _ => ?_
  have h0 : (iblk1 V c 0 t : Vec Ideal S512x2048 .bf16) (ix2 p k)
      = (V c main_v17 : S1024x2048.Idx → EReal) (ix2 (n0 := 1024) ((((cfg1.win 3).blk t).view.emb (ix2 p q)) 0) k) := by
    show V c main_v17 (((cfg1.win 0).blk t).view.emb (ix2 p k)) = V c main_v17 _
    congr 1
    funext a; apply Fin.ext
    match a with
    | ⟨0, _⟩ => show win1_0.index t (0 : Fin 2) * 512 + 1 * p.val = win1_3.index t (0 : Fin 2) * 512 + 1 * p.val; omega
    | ⟨1, _⟩ => show win1_0.index t (1 : Fin 2) * 2048 + 1 * k.val = k.val; omega
  have h1 : (iblk1 V c 1 t : Vec Ideal S1280x2048 .bf16) (ix2 q k)
      = (V c main_v18 : S129280x2048.Idx → EReal) (ix2 (n0 := 129280) ((((cfg1.win 3).blk t).view.emb (ix2 p q)) 1) k) := by
    show V c main_v18 (((cfg1.win 1).blk t).view.emb (ix2 q k)) = V c main_v18 _
    congr 1
    funext a; apply Fin.ext
    match a with
    | ⟨0, _⟩ => show win1_1.index t (0 : Fin 2) * 1280 + 1 * q.val = win1_3.index t (1 : Fin 2) * 1280 + 1 * q.val; omega
    | ⟨1, _⟩ => show win1_1.index t (1 : Fin 2) * 2048 + 1 * k.val = k.val; omega
  rw [h0, h1]

/-- An index of the logits array is in point t's block iff each coordinate is in the block's range on its axis. -/
theorem mem_logitsBlock (t : Fin cfg1.N) (i : S1024x129280.Idx) :
    i ∈ ((cfg1.win 3).blk t).view.set ↔ ∀ a : Fin 2, win1_3.index t a * S512x1280.size a ≤ (i a).val ∧ (i a).val < win1_3.index t a * S512x1280.size a + S512x1280.size a := by
  show i ∈ ((View.whole main_v28_0).slice (win1_3.rect t)).set ↔ _
  rw [View.set_slice_whole, Rect.mem_set_unit]
  exact Iff.rfl

/-- Row s, column v lies in the block of the point (s / 512) * 101 + v / 1280. -/
theorem logits_cover (i : S1024x129280.Idx) :
    ∃ t : Fin cfg1.N, (cfg1.win 3).flush t = true ∧ i ∈ ((cfg1.win 3).blk t).view.set := by
  have hs : (i 0).val < 1024 := idx2_lt0 i
  have hv : (i 1).val < 129280 := idx2_lt1 i
  have hN : cfg1.N = 202 := N_1
  obtain ⟨t, ht⟩ : ∃ t : Fin cfg1.N, t.val = (i 0).val / 512 * 101 + (i 1).val / 1280 :=
    ⟨⟨(i 0).val / 512 * 101 + (i 1).val / 1280, by rw [hN]; omega⟩, rfl⟩
  obtain ⟨-, -, -, -, e30, e31⟩ := head_index_facts t
  refine ⟨t, flush1_3 t, ?_⟩
  rw [mem_logitsBlock]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1280 ≤ (i 1).val ∧ (i 1).val < win1_3.index t (1 : Fin 2) * 1280 + 1280; omega

/-- The whole logits array after the head region. -/
theorem logits_arr_eq (c : Dev nD) :
    (dat1 V c).arrAt 3 cfg1.N = logitsOf (V c main_v17) (V c main_v18) :=
  (dat1 V c).arrAt_eq_of_cover 3 (logitsOf (V c main_v17) (V c main_v18)) (fun t _ => logitsBlock_eq V c t) logits_cover

/-- The activations and the vocabulary weight as the head region finds them. -/
abbrev actOf (c : Dev nD) : S1024x2048.Idx → EReal := V c main_v17
abbrev weightOf (c : Dev nD) : S129280x2048.Idx → EReal := V c main_v18

/-- The array of inner products at (s, v). -/
theorem logitsOf_apply (a : S1024x2048.Idx → EReal) (w : S129280x2048.Idx → EReal) (s : Fin 1024) (v : Fin 129280) :
    logitsOf a w (ix2 s v) = ∑ k : Fin 2048, a (ix2 s k) * w (ix2 v k) := rfl

/-- Entry (s, v) of the logits array after the head region is the inner product of activation row s with weight row v. -/
theorem logits_arr (c : Dev nD) (s : Fin 1024) (v : Fin 129280) :
    @Eq EReal ((dat1 V c).arrAt 3 cfg1.N (ix2 s v)) (∑ k : Fin 2048, actOf V c (ix2 s k) * weightOf V c (ix2 v k)) := by
  rw [logits_arr_eq V c]

end Cert.Val

end
-- ==== Proof.Val.LogitsRef.lean ====
/-
  The reference's logits, entry by entry.

  The reference multiplies its normed 1 x 1024 x 2048 tensor with the 129280 x 2048 vocabulary weight,
  contracting the 2048 axis: entry (0, s, v) is the inner product of row (0, s) of the tensor with row v of the
  weight. Read against a 1024 x 2048 matrix a and a 129280 x 2048 matrix w that agree with those entry by entry,
  it is the inner product of row s of a with row v of w.
-/
import proofs.«420313_j13838384627918_1_alg».proof.Proof.Ref.Read
import Idealize.ShloMosaic.Lib.ValueIdx

noncomputable section

namespace Cert.Val

open Idealize.ShloMosaic Idealize.ShloMosaic.ValueIdx
open Cert.ReferenceIdeal Cert.ReferenceIdeal.Read

/-- The left operand of the reference's product at output (0, s, v) and contraction index k is read at (0, s, k). -/
theorem ref_lidx (s : Fin 1024) (v : Fin 129280) (k : Fin 2048) :
    lidx_main_v61 (ix3 (0 : Fin 1) s v) k = ix3 (0 : Fin 1) s k :=
  funext fun a => Fin.ext (by match a with | ⟨0, _⟩ => rfl | ⟨1, _⟩ => rfl | ⟨2, _⟩ => rfl)

/-- The right operand is read at (v, k). -/
theorem ref_ridx (s : Fin 1024) (v : Fin 129280) (k : Fin 2048) :
    ridx_main_v61 (ix3 (0 : Fin 1) s v) k = ix2 v k :=
  funext fun a => Fin.ext (by match a with | ⟨0, _⟩ => rfl | ⟨1, _⟩ => rfl)

/-- The inner product of row s of a with row v of w is the reference's sum at (0, s, v), when a agrees with the
    reference's left operand y and w with its right operand z entry by entry. -/
theorem ref_logits_sum (a : (⟨2, ![1024, 2048]⟩ : Shape).Idx → EReal) (w : (⟨2, ![129280, 2048]⟩ : Shape).Idx → EReal)
    (y : S1x1024x2048.Idx → EReal) (z : S129280x2048.Idx → EReal)
    (ha : ∀ (s : Fin 1024) (k : Fin 2048), a (ix2 s k) = y (ix3 (0 : Fin 1) s k))
    (hw : ∀ (v : Fin 129280) (k : Fin 2048), w (ix2 v k) = z (ix2 v k))
    (s : Fin 1024) (v : Fin 129280) :
    ∑ k : Fin 2048, a (ix2 s k) * w (ix2 v k)
      = ∑ k : Fin 2048, y (lidx_main_v61 (ix3 (0 : Fin 1) s v) k) * z (ridx_main_v61 (ix3 (0 : Fin 1) s v) k) := by
  refine Finset.sum_congr rfl fun k _ => ?_
  rw [ha, hw, ref_lidx, ref_ridx]

/-- The reference's logits at (0, s, v) as the inner product of row s of a with row v of w. -/
theorem ref_logits_apply (x0 : (⟨S1x1024x2048, .f32⟩ : BufTy).Contents (Elt Ideal)) (x1 : (⟨S1x1024, .i32⟩ : BufTy).Contents (Elt Ideal)) (x4 : (⟨S129280x2048, .f32⟩ : BufTy).Contents (Elt Ideal)) (x5 x6 : (⟨S2048, .f32⟩ : BufTy).Contents (Elt Ideal)) (x7 : (⟨S2048x4096, .f32⟩ : BufTy).Contents (Elt Ideal)) (x8 x9 : (⟨S2048, .f32⟩ : BufTy).Contents (Elt Ideal)) (x10 : (⟨S129280x2048, .f32⟩ : BufTy).Contents (Elt Ideal))
    (a : (⟨2, ![1024, 2048]⟩ : Shape).Idx → EReal) (w : (⟨2, ![129280, 2048]⟩ : Shape).Idx → EReal)
    (ha : ∀ (s : Fin 1024) (k : Fin 2048), a (ix2 s k) = val_main_v60 (F := Ideal) x0 x1 x4 x5 x6 x7 x8 x9 (ix3 (0 : Fin 1) s k))
    (hw : ∀ (v : Fin 129280) (k : Fin 2048), w (ix2 v k) = x10 (ix2 v k))
    (s : Fin 1024) (v : Fin 129280) :
    val_main_v61 (F := Ideal) x0 x1 x4 x5 x6 x7 x8 x9 x10 (ix3 (0 : Fin 1) s v) = ∑ k : Fin 2048, a (ix2 s k) * w (ix2 v k) := by
  rw [val_main_v61_apply]
  exact (ref_logits_sum a w _ _ ha hw s v).symm

end Cert.Val

end
-- ==== Proof.Val.BridgeLogits.lean ====
/-
  The kernel program's logits are the reference's logits.

  The program's last host stretch gives the head region's logits array a leading unit axis: entry (0, s, v) of
  the result is entry (s, v) of that array. The head region leaves there the inner product of row s of the
  activations it was entered with and row v of the weight it was entered with. The activations are the front
  region's output array, untouched by the host stretch between the regions; the weight is the program's head
  weight argument with each entry unchanged (a change of float format is the identity on the extended reals).
  So, when the front region's output array is the reference's normed tensor entry by entry, entry (0, s, v) of
  the result is the reference's product at (0, s, v).
-/
import proofs.«420313_j13838384627918_1_alg».proof.Proof.KI.Launch
import proofs.«420313_j13838384627918_1_alg».proof.Proof.Val.TailHost
import proofs.«420313_j13838384627918_1_alg».proof.Proof.Val.Logits
import proofs.«420313_j13838384627918_1_alg».proof.Proof.Val.LogitsRef

set_option maxRecDepth 16384

noncomputable section

namespace Cert.Val

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The activations the head region is entered with are the front region's output array: the host stretch between
    the regions does not write it. -/
theorem head_act_eq (c : Dev nD) :
    entry1 m c main_v17 = (dat0 (entry0 m) c).arrAt 8 cfg0.N :=
  (V3_of m (outs m) c main_v17 (by decide)).trans (hF0 m c 8).symm

/-- The weight the head region is entered with is the program's head weight argument, entry by entry. -/
theorem head_weight_apply (c : Dev nD) (i : S129280x2048.Idx) :
    @Eq EReal (entry1 m c main_v18 i) (m ((c.tc : Thread nD τ).loc main_arg10) i) := by
  refine (TailHost.before_headW (V2 m (outs m) c) i).trans ?_
  rw [V2_of m (outs m) c main_arg10 (by decide), V1_of m c main_arg10 (by decide)]

/-- The logits array after the head region, as the last host stretch finds it. -/
theorem head_logits_eq (c : Dev nD) :
    V4 m (outs m) c main_v28_0 = (dat1 (entry1 m) c).arrAt 3 cfg1.N :=
  (hF1 m c 3).symm

/-- Entry (s, v) of the logits array after the head region is the reference's product at (0, s, v), when the front
    region's output array is the reference's normed tensor entry by entry. -/
theorem logits_entry (c : Dev nD)
    (hN : ∀ (s : Fin 1024) (k : Fin 2048), @Eq EReal ((dat0 (entry0 m) c).arrAt 8 cfg0.N (ix2 s k))
      (Cert.ReferenceIdeal.Read.val_main_v60 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix3 (0 : Fin 1) s k)))
    (s : Fin 1024) (v : Fin 129280) :
    @Eq EReal (V4 m (outs m) c main_v28_0 (ix2 s v))
      (Cert.ReferenceIdeal.Read.val_main_v61 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ix3 (0 : Fin 1) s v)) := by
  rw [head_logits_eq m c]
  refine (logits_arr (entry1 m) c s v).trans ?_
  refine (ref_logits_apply (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (actOf (entry1 m) c) (weightOf (entry1 m) c) (fun s k => ?_) (fun v k => ?_) s v).symm
  · show @Eq EReal (entry1 m c main_v17 (ix2 s k)) _
    rw [head_act_eq m c]
    exact hN s k
  · exact head_weight_apply m c (ix2 v k)

/-- The program's logits result is the reference's product, under the same hypothesis. -/
theorem logits_bridge (c : Dev nD)
    (hN : ∀ (s : Fin 1024) (k : Fin 2048), @Eq EReal ((dat0 (entry0 m) c).arrAt 8 cfg0.N (ix2 s k))
      (Cert.ReferenceIdeal.Read.val_main_v60 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix3 (0 : Fin 1) s k))) :
    (fun i => V5 m (outs m) c (Proc.devRef .tc main_v35) i)
      = Cert.ReferenceIdeal.Read.val_main_v61 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  funext i
  obtain ⟨z, s, v, rfl⟩ : ∃ (z : Fin 1) (s : Fin 1024) (v : Fin 129280), i = ix3 z s v := ⟨i 0, i 1, i 2, eq_ix3 i⟩
  obtain rfl : z = 0 := Subsingleton.elim _ _
  refine (TailHost.after_logits (V4 m (outs m) c) (ix3 (0 : Fin 1) s v)).trans ?_
  exact logits_entry m c hN s v

end Cert.Val

end
-- ==== Proof.Val.TailRef.lean ====
/-
  The end of the reference program read at the extended reals: its loss is the masked mean of the 1023
  per-row losses (row s scores position s against the label of position s + 1) against the mask of
  positions 1 … 1023, with the constant whose pattern is 0x322BCC77.
-/
import proofs.«420313_j13838384627918_1_alg».proof.Proof.Ref.Read
import proofs.«420313_j13838384627918_1_alg».proof.Proof.Val.TailLoss
import Idealize.ShloMosaic.Lib.IdealHost

noncomputable section

namespace Cert.Val.TailRef

open Cert.ReferenceIdeal Cert.ReferenceIdeal.Gen Cert.ReferenceIdeal.Read
open Idealize.ShloMosaic Idealize.ShloMosaic.TcCoe Idealize.SL.Sem Idealize.ShloMosaic.StableHlo

/-- The constant added to the mask sum: the float whose pattern is 0x322BCC77. -/
abbrev epsC : EReal := Ideal.ofBits .f32 0x322BCC77#32

variable (x0 : (⟨S1x1024x2048, .f32⟩ : BufTy).Contents (Elt Ideal)) (x1 x2 : (⟨S1x1024, .i32⟩ : BufTy).Contents (Elt Ideal))
  (x3 : (⟨S1x1024, .f32⟩ : BufTy).Contents (Elt Ideal)) (x4 : (⟨S129280x2048, .f32⟩ : BufTy).Contents (Elt Ideal))
  (x5 x6 : (⟨S2048, .f32⟩ : BufTy).Contents (Elt Ideal)) (x7 : (⟨S2048x4096, .f32⟩ : BufTy).Contents (Elt Ideal))
  (x8 x9 : (⟨S2048, .f32⟩ : BufTy).Contents (Elt Ideal)) (x10 : (⟨S129280x2048, .f32⟩ : BufTy).Contents (Elt Ideal))

/-- Entry s of the reference's mask column is the mask of position s + 1. -/
theorem ref_mask_apply (s : Fin 1023) :
    val_main_v70 (F := Ideal) x3 (ValueIdx.ix1 s) = x3 (ValueIdx.ix2 (0 : Fin 1) (⟨s.val + 1, by omega⟩ : Fin 1024)) := by
  rw [val_main_v70_apply, val_main_v69_apply]
  refine congrArg x3 (funext fun a => ?_)
  match a with
  | ⟨0, _⟩ => rfl
  | ⟨1, _⟩ =>
    apply Fin.ext
    have hs : s.val < 1023 := s.isLt
    show 1 + s.val % 1023 = s.val + 1
    omega

/-- Entry s of the reference's loss column is the per-row loss of row (0, s). -/
theorem ref_nll_apply (s : Fin 1023) :
    val_main_v71 (F := Ideal) x0 x1 x2 x4 x5 x6 x7 x8 x9 x10 (ValueIdx.ix1 s)
      = val_main_v68 (F := Ideal) x0 x1 x2 x4 x5 x6 x7 x8 x9 x10 (ValueIdx.ix2 (0 : Fin 1) s) := by
  rw [val_main_v71_apply]
  refine congrArg _ (funext fun a => ?_)
  match a with
  | ⟨0, _⟩ => rfl
  | ⟨1, _⟩ =>
    apply Fin.ext
    have hs : s.val < 1023 := s.isLt
    show s.val % 1023 = s.val
    omega

/-- The reference's loss is the masked mean of its 1023 per-row losses. -/
theorem ref_loss (j : S_.Idx) :
    val_main_v76 (F := Ideal) x0 x1 x2 x3 x4 x5 x6 x7 x8 x9 x10 j
      = maskedMean (fun s : Fin 1023 => val_main_v68 (F := Ideal) x0 x1 x2 x4 x5 x6 x7 x8 x9 x10 (ValueIdx.ix2 (0 : Fin 1) s))
          (fun s : Fin 1023 => x3 (ValueIdx.ix2 (0 : Fin 1) (⟨s.val + 1, by omega⟩ : Fin 1024))) epsC := by
  rw [val_main_v76_apply, val_main_v75_apply, val_main_v73_apply, val_main_v74_apply, val_main_cst_14_apply,
    val_main_cst_12_apply, val_main_cst_13_apply, sum_idx1, sum_idx1]
  simp only [val_main_v72_apply, ref_nll_apply, ref_mask_apply]
  show Ideal.div (Ideal.ofBits .f32 0x00000000#32 + _) ((Ideal.ofBits .f32 0x00000000#32 + _) + epsC) = _
  rw [Ideal.ofBits_zero_f32]
  rfl

end Cert.Val.TailRef

end
-- ==== Proof.Val.BridgeLoss.lean ====
/-
  The two programs' losses are equal.

  The kernel program's loss is the masked mean, over 1024 rows, of the per-row losses its second region
  leaves against the shifted mask (entry s the mask of position s + 1, the appended entry 1023 equal to 0).
  The reference's loss is the masked mean, over 1023 rows, of its per-row losses against the mask of
  positions 1 … 1023. If the first 1023 per-row losses agree, the two masked means are equal: the
  appended row's product is x * 0 = 0 and the mask sum gains + 0.
-/
import proofs.«420313_j13838384627918_1_alg».proof.Proof.Gen.KernelIdeal.Regions
import proofs.«420313_j13838384627918_1_alg».proof.Proof.Val.TailHost
import proofs.«420313_j13838384627918_1_alg».proof.Proof.Val.TailRef

noncomputable section

namespace Cert.Val.BridgeLoss

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (outs : Gen.Outs (F := Ideal)) (c : Dev nD)

/-- The shifted mask the loss is taken against, in terms of the launch contents: entry s is the mask of
    position s + 1 for s < 1023, and 0 at the appended entry. -/
theorem mask_at (i : S1024.Idx) :
    Gen.V4 m outs c (Proc.devRef .tc main_v27) i
      = if h : (i 0).val < 1023 then m ((c.tc : Thread nD τ).loc main_arg3) (ValueIdx.ix2 (0 : Fin 1) ⟨(i 0).val + 1, by omega⟩)
        else (0 : EReal) := by
  have e4 := congrFun (Gen.V4_of m outs c main_v27 (by decide)) i
  have e2 : Gen.V2 m outs c (Proc.devRef .tc main_arg3) = m ((c.tc : Thread nD τ).loc main_arg3) :=
    (Gen.V2_of m outs c main_arg3 (by decide)).trans ((Gen.V1_of m c main_arg3 (by decide)).trans rfl)
  refine e4.trans ?_
  show StableHlo.after (hostOps1 (F := Ideal)) (Gen.V2 m outs c) (Proc.devRef .tc main_v27) i = _
  rw [TailHost.before_mask, e2]

/-- The losses agree once the first 1023 per-row losses do. -/
theorem loss_eq
    (hnll : ∀ s : Fin 1023,
      Gen.V4 m outs c (Proc.devRef .tc main_v28_1) (ValueIdx.ix2 s.castSucc (0 : Fin 1))
        = Cert.ReferenceIdeal.Read.val_main_v68 (F := Ideal)
            (m ((c.tc : Thread nD τ).loc main_arg0)) (m ((c.tc : Thread nD τ).loc main_arg1)) (m ((c.tc : Thread nD τ).loc main_arg2))
            (m ((c.tc : Thread nD τ).loc main_arg4)) (m ((c.tc : Thread nD τ).loc main_arg5)) (m ((c.tc : Thread nD τ).loc main_arg6))
            (m ((c.tc : Thread nD τ).loc main_arg7)) (m ((c.tc : Thread nD τ).loc main_arg8)) (m ((c.tc : Thread nD τ).loc main_arg9))
            (m ((c.tc : Thread nD τ).loc main_arg10)) (ValueIdx.ix2 (0 : Fin 1) s)) :
    (fun j => Gen.V5 m outs c (Proc.devRef .tc main_v34) j)
      = Cert.ReferenceIdeal.Read.val_main_v76 (F := Ideal)
          (m ((c.tc : Thread nD τ).loc main_arg0)) (m ((c.tc : Thread nD τ).loc main_arg1)) (m ((c.tc : Thread nD τ).loc main_arg2))
          (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9))
          (m ((c.tc : Thread nD τ).loc main_arg10)) := by
  funext j
  show StableHlo.after (hostOps2 (F := Ideal)) (Gen.V4 m outs c) (Proc.devRef .tc main_v34) j = _
  rw [TailHost.after_loss, TailRef.ref_loss]
  refine maskedMean_append_zero _ _ _ _ _ (fun s => hnll s) (fun s => ?_) ?_
  · have hs : s.val < 1023 := s.isLt
    show Gen.V4 m outs c (Proc.devRef .tc main_v27) (ValueIdx.ix1 s.castSucc) = _
    rw [mask_at, dif_pos (show ((ValueIdx.ix1 (s.castSucc : Fin 1024) : S1024.Idx) 0).val < 1023 from hs)]
    rfl
  · show Gen.V4 m outs c (Proc.devRef .tc main_v27) (ValueIdx.ix1 (Fin.last 1023)) = _
    rw [mask_at, dif_neg (show ¬ ((ValueIdx.ix1 (Fin.last 1023 : Fin 1024) : S1024.Idx) 0).val < 1023 from Nat.lt_irrefl 1023)]

end Cert.Val.BridgeLoss

end
-- ==== Proof.Val.NllRow.lean ====
/-
  The lm_head kernel's stored values read at ONE ROW of a block, at the extended reals.

  A block of the kernel has 512 rows; a vocabulary step sees the 1280 logits of each row. Read at row r:
  the new running maximum is the maximum of the old one and the row's 1280 logits; the new running sum is
  exp (old maximum − new maximum) · old sum + Σ_k exp (logit_k − new maximum); the new label logit is the old
  one plus the logits at the columns whose id equals the row's label; the loss is (m + log l) − lbl.
  The column id of column k at vocabulary step v is the word v·1280 + k; for a label in [0, 129280) it equals
  the label's word exactly when v·1280 + k is the label.
-/
import proofs.«420313_j13838384627918_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.Val.NllRow

open Idealize.ShloMosaic Idealize.ShloMosaic.ValueIdx Cert.KernelIdeal Cert.KernelIdeal.Gen

/-- The 1280 logits of row r of a vocabulary step's tile. -/
def tileRow (x0 : Vec Ideal S512x2048 .bf16) (x1 : Vec Ideal S1280x2048 .bf16) (r : Fin 512) : Fin 1280 → EReal :=
  fun k => k1_pay6 (F := Ideal) x0 x1 (ix2 r k)

/-- The index a reduction along the columns inserts: (r, k). -/
theorem lift_row (r : Fin 512) (k : Fin 1280) :
    (reduces_S512x1280_S512).lift (ix1 r) k = ix2 r k := by
  funext a; match a with | ⟨0, _⟩ => rfl | ⟨1, _⟩ => rfl

/-- A column [512] viewed [512, 1] reads row r at (r, 0). -/
theorem col_apply {α : Type} (v : S512.Idx → α) (r : Fin 512) :
    shapeCast S512x1 v shapeCasts_S512_S512x1 (ix2 r 0) = v (ix1 r) := by
  refine shapeCast_apply v _ _ _ ?_
  rw [Shape.rowMajor_val_one, Shape.rowMajor_val_two]
  show r.val = r.val * 1 + 0
  omega

/-- The pattern 0xFF800000 is −∞. -/
theorem neg_inf_word : Ideal.ofBits .f32 0xFF800000#32 = (⊥ : EReal) := by
  simp [Ideal.ofBits, Ideal.ieee]

/-- A row's maximum: the reduction by max along the columns, viewed as a column, read at (r, 0). -/
theorem rowMax_apply (z : FVec Ideal S512x1280 .f32) (r : Fin 512) (hφ : FKind.Formats .f32)
    (hacc : (0xFF800000#32 : BitVec 32) = FKind.maximumf.neutral .f32 hφ) :
    shapeCast S512x1 (multiReduction .maximumf [1] S512 z 0xFF800000#32 reduces_S512x1280_S512 hφ hacc)
        shapeCasts_S512_S512x1 (ix2 r 0)
      = (Finset.univ : Finset (Fin 1280)).fold max ⊥ (fun k => z (ix2 r k)) := by
  rw [col_apply]
  refine (Ideal.multiReduction_maximumf_single z _ reduces_S512x1280_S512 hφ hacc (ix1 r)).trans ?_
  have e : (z ∘ reduces_S512x1280_S512.lift (ix1 r)) = fun k : Fin 1280 => z (ix2 r k) :=
    funext fun k => congrArg z (lift_row r k)
  exact congrArg₂ (fun a f => (Finset.univ : Finset (Fin 1280)).fold max a f) neg_inf_word e

/-- A row's sum: the reduction by + along the columns, viewed as a column, read at (r, 0). -/
theorem rowSum_apply (z : FVec Ideal S512x1280 .f32) (r : Fin 512) (hφ : FKind.Formats .f32)
    (hacc : (0x00000000#32 : BitVec 32) = FKind.add.neutral .f32 hφ) :
    shapeCast S512x1 (multiReduction .add [1] S512 z 0x00000000#32 reduces_S512x1280_S512 hφ hacc)
        shapeCasts_S512_S512x1 (ix2 r 0)
      = ∑ k : Fin 1280, z (ix2 r k) := by
  rw [col_apply]
  refine (Ideal.multiReduction_add_single z _ reduces_S512x1280_S512 hφ hacc (ix1 r)).trans ?_
  exact Finset.sum_congr rfl fun k _ => congrArg z (lift_row r k)

/-- A column [512, 1] spread over 1280 columns reads row r's entry everywhere in row r. -/
theorem spread_apply {α : Type} (v : S512x1.Idx → α) (r : Fin 512) (k : Fin 1280) :
    broadcastTo S512x1280 v broadcasts_S512x1_S512x1280 (ix2 r k) = v (ix2 r 0) := by
  refine broadcastTo_apply v _ _ _ ?_
  intro a
  match a with
  | ⟨0, _⟩ => rfl
  | ⟨1, _⟩ => rfl

/-- A select on "the two words are equal" is the `if` on their equality. -/
theorem select_eq {α : Type} (a b : BitVec 32) (A B : α) :
    Scalar.select (IntOp.cmpi .eq a b) A B = if a = b then A else B := by
  unfold Scalar.select IntOp.cmpi
  by_cases h : a = b
  · subst h; simp
  · have hb : (a == b) = false := by simpa using h
    simp [hb, h]

variable (x0 : Vec Ideal S512x2048 .bf16) (x1 : Vec Ideal S1280x2048 .bf16)

/-- The new running maximum at row r: the old one against the row's 1280 logits. -/
theorem pay7_row (m : Vec Ideal S512x1 .f32) (r : Fin 512) :
    k1_pay7 (F := Ideal) x0 x1 m (ix2 r 0)
      = max (m (ix2 r 0)) ((Finset.univ : Finset (Fin 1280)).fold max ⊥ (tileRow x0 x1 r)) := by
  unfold k1_pay7
  exact congrArg (max (m (ix2 r 0))) (rowMax_apply _ r _ _)

/-- The stored running maximum at row r. -/
theorem pay9_row (m : Vec Ideal S512x1 .f32) (r : Fin 512) :
    k1_pay9 (F := Ideal) x0 x1 m (ix2 r 0)
      = max (m (ix2 r 0)) ((Finset.univ : Finset (Fin 1280)).fold max ⊥ (tileRow x0 x1 r)) := by
  unfold k1_pay9
  rw [shapeCast_self]
  exact pay7_row x0 x1 m r

/-- The stored running sum at row r: the old sum rescaled to the new maximum, plus the row's exponentials. -/
theorem pay8_row (m l : Vec Ideal S512x1 .f32) (r : Fin 512) :
    k1_pay8 (F := Ideal) x0 x1 m l (ix2 r 0)
      = Ideal.exp (m (ix2 r 0) - max (m (ix2 r 0)) ((Finset.univ : Finset (Fin 1280)).fold max ⊥ (tileRow x0 x1 r)))
          * l (ix2 r 0)
        + ∑ k : Fin 1280, Ideal.exp (tileRow x0 x1 r k
            - max (m (ix2 r 0)) ((Finset.univ : Finset (Fin 1280)).fold max ⊥ (tileRow x0 x1 r))) := by
  unfold k1_pay8
  rw [shapeCast_self]
  refine congrArg₂ (· + ·) ?_ ((rowSum_apply _ r _ _).trans (Finset.sum_congr rfl fun k _ => ?_))
  · exact congrArg (fun t => Ideal.exp (m (ix2 r 0) - t) * l (ix2 r 0)) (pay7_row x0 x1 m r)
  · exact congrArg (fun t => Ideal.exp (k1_pay6 (F := Ideal) x0 x1 (ix2 r k) - t))
      ((spread_apply _ r k).trans (pay7_row x0 x1 m r))

/-- The stored label logit at row r: the old one plus the logits of the columns whose id is the row's label. -/
theorem pay1_row (z : FVec Ideal S512x1280 .f32) (ids : IVec S512x1280 32) (lab : Vec Ideal S512x1 .i32)
    (lbl : Vec Ideal S512x1 .f32) (r : Fin 512) :
    k1_pay1 (F := Ideal) z ids lab lbl (ix2 r 0)
      = lbl (ix2 r 0) + ∑ k : Fin 1280, (if ids (ix2 r k) = lab (ix2 r 0) then z (ix2 r k) else 0) := by
  unfold k1_pay1
  simp only [shapeCast_self]
  refine congrArg (lbl (ix2 r 0) + ·) ((rowSum_apply _ r _ _).trans (Finset.sum_congr rfl fun k _ => ?_))
  refine (select_eq _ _ _ _).trans ?_
  rw [spread_apply]
  show (if ids (ix2 r k) = lab (ix2 r 0) then z (ix2 r k) else Ideal.ofBits .f32 0x00000000#32) = _
  rw [Ideal.ofBits_zero_f32]

/-- The stored loss at row r. -/
theorem pay2_row (m l lbl : Vec Ideal S512x1 .f32) (r : Fin 512) :
    k1_pay2 (F := Ideal) m l lbl (ix2 r 0) = (m (ix2 r 0) + Ideal.log (l (ix2 r 0))) - lbl (ix2 r 0) := rfl

/-- The three reset columns at row r. -/
theorem pay3_row (r : Fin 512) : k1_pay3 (F := Ideal) (ix2 r 0) = ⊥ := by
  unfold k1_pay3
  rw [shapeCast_self]
  exact neg_inf_word
theorem pay4_row (r : Fin 512) : k1_pay4 (F := Ideal) (ix2 r 0) = 0 := by
  unfold k1_pay4
  rw [shapeCast_self]
  exact Ideal.ofBits_zero_f32
theorem pay5_row (r : Fin 512) : k1_pay5 (F := Ideal) (ix2 r 0) = 0 := by
  unfold k1_pay5
  rw [shapeCast_self]
  exact Ideal.ofBits_zero_f32

/-- The column id of column k at a grid point: the word (vocabulary step)·1280 + k. -/
theorem pay10_row (i : grid1.Coords) (r : Fin 512) (k : Fin 1280) :
    k1_pay10 i (ix2 r k) = BitVec.ofNat 32 (i 1).val * 1280#32 + BitVec.ofNat 32 k.val := by
  unfold k1_pay10
  have e := iota_single_apply .tc S512x1280 32 1 iota_S512x1280_d1_w32 (ix2 r k)
  show BitVec.ofNat 32 (i 1).val * 1280#32 + iota .tc S512x1280 32 [1] iota_S512x1280_d1_w32 (ix2 r k) = _
  rw [e]

/-- For a vocabulary step v < 101, a column k < 1280 and a label word in [0, 129280): the column id is the label's
    word exactly when v·1280 + k is the label. -/
theorem colid_eq_iff (v k : ℕ) (hv : v < 101) (hk : k < 1280) (l : BitVec 32) (h0 : 0 ≤ l.toInt) (h1 : l.toInt < 129280) :
    BitVec.ofNat 32 v * 1280#32 + BitVec.ofNat 32 k = l ↔ v * 1280 + k = l.toInt.toNat := by
  rw [← BitVec.toNat_inj]
  have hl := BitVec.toInt_eq_toNat_cond l
  simp only [BitVec.toNat_add, BitVec.toNat_mul, BitVec.toNat_ofNat]
  have : l.toNat < 2 ^ 32 := l.isLt
  split_ifs at hl <;> omega

end Cert.Val.NllRow
-- ==== Proof.Val.SoftmaxLaw.lean ====
/-
The softmax law on the extended reals.

A row of finite logits is cut into tiles.  A running pair (m, l) is carried over the tiles: m is the
greatest logit seen so far and l is the sum, over the logits seen so far, of exp (x - m).  After the last
tile, (m + log l) - x_label is the negative log-softmax of the row at the label, which the direct
formula writes as -((x_label - M) - log (Σ_v exp (x_v - M))) with M the greatest logit of the row.
-/
import Idealize.ShloMosaic.PureOps.Ideal
import Idealize.ShloMosaic.PureOps.Ideal.Laws
import Mathlib.Data.EReal.Basic
import Mathlib.Data.EReal.Operations
import Mathlib.Analysis.SpecialFunctions.Exp
import Mathlib.Analysis.SpecialFunctions.Log.Basic
import Mathlib.Algebra.BigOperators.Group.Finset.Basic
import Mathlib.Algebra.BigOperators.Fin
import Mathlib.Data.Finset.Fold

noncomputable section

namespace Cert.Val.Softmax

open Idealize.ShloMosaic
open scoped BigOperators

/-! ## Coercion lemmas -/

theorem coe_add' (a b : ℝ) : (a : EReal) + (b : EReal) = ((a + b : ℝ) : EReal) := (EReal.coe_add a b).symm
theorem coe_sub' (a b : ℝ) : (a : EReal) - (b : EReal) = ((a - b : ℝ) : EReal) := (EReal.coe_sub a b).symm
theorem coe_mul' (a b : ℝ) : (a : EReal) * (b : EReal) = ((a * b : ℝ) : EReal) := (EReal.coe_mul a b).symm
theorem coe_neg' (a : ℝ) : -(a : EReal) = ((-a : ℝ) : EReal) := (EReal.coe_neg a).symm
theorem coe_max' (a b : ℝ) : max (a : EReal) (b : EReal) = ((max a b : ℝ) : EReal) :=
  (Monotone.map_max (f := fun r : ℝ => (r : EReal)) (fun _ _ h => EReal.coe_le_coe_iff.2 h)).symm
theorem max_bot_coe (a : ℝ) : max (⊥ : EReal) (a : EReal) = (a : EReal) := max_eq_right bot_le
theorem max_coe_bot (a : ℝ) : max (a : EReal) (⊥ : EReal) = (a : EReal) := max_eq_left bot_le
theorem bot_sub_coe (a : ℝ) : (⊥ : EReal) - (a : EReal) = ⊥ := EReal.bot_sub _
theorem exp_bot' : Ideal.exp ⊥ = 0 := rfl
theorem exp_coe' (a : ℝ) : Ideal.exp (a : EReal) = ((Real.exp a : ℝ) : EReal) := rfl
theorem log_coe_pos {a : ℝ} (h : 0 < a) : Ideal.log (a : EReal) = ((Real.log a : ℝ) : EReal) := by
  rw [Ideal.log_coe, if_neg (not_le.2 h)]
theorem zero_mul_coe (a : ℝ) : (0 : EReal) * (a : EReal) = 0 := EReal.zero_mul _
theorem zero_add_coe (a : ℝ) : (0 : EReal) + (a : EReal) = (a : EReal) := zero_add _

theorem coe_sum' {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, coe_add']

/-- The pattern of negative infinity at f32 is the bottom element. -/
theorem ofBits_neg_inf_f32 : Ideal.ofBits .f32 0xFF800000#32 = ⊥ := by
  simp [Ideal.ofBits, Ideal.ieee]

/-! ## The running fold over tiles, with the ideal operations -/

variable {W : ℕ}

/-- The greatest element of one tile, folded from the bottom element. -/
def tileMax (t : Fin W → EReal) : EReal := (Finset.univ : Finset (Fin W)).fold max ⊥ t

/-- The running maximum after one more tile. -/
def stepM (m : EReal) (t : Fin W → EReal) : EReal := max m (tileMax t)

/-- The running sum after one more tile: the old sum rescaled to the new maximum, plus the tile's terms. -/
def stepL (m l : EReal) (t : Fin W → EReal) : EReal :=
  Ideal.exp (m - stepM m t) * l + ∑ k : Fin W, Ideal.exp (t k - stepM m t)

/-- The running label logit after one more tile: the tile's entries at the label's column, if any. -/
def stepLbl (lbl : EReal) (hit : Fin W → Prop) [DecidablePred hit] (t : Fin W → EReal) : EReal :=
  lbl + ∑ k : Fin W, (if hit k then t k else 0)

/-- The running maximum after the first j tiles. -/
def runM (t : ℕ → Fin W → EReal) : ℕ → EReal
  | 0 => ⊥
  | j + 1 => stepM (runM t j) (t j)

/-- The running sum after the first j tiles. -/
def runL (t : ℕ → Fin W → EReal) : ℕ → EReal
  | 0 => 0
  | j + 1 => stepL (runM t j) (runL t j) (t j)

/-- The running label logit after the first j tiles. -/
def runLbl (t : ℕ → Fin W → EReal) (hit : ℕ → Fin W → Prop) [∀ j, DecidablePred (hit j)] : ℕ → EReal
  | 0 => 0
  | j + 1 => stepLbl (runLbl t hit j) (hit j) (t j)

/-- The tiled form of the negative log-softmax at the label. -/
def tiledNll (m l lbl : EReal) : EReal := (m + Ideal.log l) - lbl

/-- The direct form of the negative log-softmax of a row at the label. -/
def directNll {ι : Type*} [Fintype ι] (row : ι → EReal) (lab : ι) : EReal :=
  -((row lab - max ⊥ ((Finset.univ : Finset ι).fold max ⊥ row))
      - Ideal.log (0 + ∑ v : ι, Ideal.exp (row v - max ⊥ ((Finset.univ : Finset ι).fold max ⊥ row))))

@[simp] theorem runM_zero (t : ℕ → Fin W → EReal) : runM t 0 = ⊥ := rfl
@[simp] theorem runL_zero (t : ℕ → Fin W → EReal) : runL t 0 = 0 := rfl
theorem runM_succ (t : ℕ → Fin W → EReal) (j : ℕ) : runM t (j + 1) = stepM (runM t j) (t j) := rfl
theorem runL_succ (t : ℕ → Fin W → EReal) (j : ℕ) : runL t (j + 1) = stepL (runM t j) (runL t j) (t j) := rfl
theorem runLbl_zero (t : ℕ → Fin W → EReal) (hit : ℕ → Fin W → Prop) [∀ j, DecidablePred (hit j)] :
    runLbl t hit 0 = 0 := rfl
theorem runLbl_succ (t : ℕ → Fin W → EReal) (hit : ℕ → Fin W → Prop) [∀ j, DecidablePred (hit j)] (j : ℕ) :
    runLbl t hit (j + 1) = stepLbl (runLbl t hit j) (hit j) (t j) := rfl

/-- The runs after j tiles read only the first j tiles. -/
theorem runM_congr (t t' : ℕ → Fin W → EReal) (j : ℕ) (h : ∀ i < j, t i = t' i) : runM t j = runM t' j := by
  induction j with
  | zero => rfl
  | succ j ih =>
    rw [runM_succ, runM_succ, ih (fun i hi => h i (Nat.lt_succ_of_lt hi)), h j (Nat.lt_succ_self j)]
theorem runL_congr (t t' : ℕ → Fin W → EReal) (j : ℕ) (h : ∀ i < j, t i = t' i) : runL t j = runL t' j := by
  induction j with
  | zero => rfl
  | succ j ih =>
    rw [runL_succ, runL_succ, ih (fun i hi => h i (Nat.lt_succ_of_lt hi)),
      runM_congr t t' j (fun i hi => h i (Nat.lt_succ_of_lt hi)), h j (Nat.lt_succ_self j)]
theorem runLbl_congr (t t' : ℕ → Fin W → EReal) (hit : ℕ → Fin W → Prop) [∀ j, DecidablePred (hit j)] (j : ℕ)
    (h : ∀ i < j, t i = t' i) : runLbl t hit j = runLbl t' hit j := by
  induction j with
  | zero => rfl
  | succ j ih =>
    rw [runLbl_succ, runLbl_succ, ih (fun i hi => h i (Nat.lt_succ_of_lt hi)), h j (Nat.lt_succ_self j)]

/-! ## The greatest element of a finite family of reals, through the coercion -/

/-- The fold of max from the bottom element over a nonempty finite family of reals is the coercion of a
    real that bounds the family and is attained. -/
theorem fold_max_coe {ι : Type*} (s : Finset ι) (hs : s.Nonempty) (r : ι → ℝ) :
    ∃ M : ℝ, s.fold max ⊥ (fun i => (r i : EReal)) = (M : EReal) ∧ (∀ i ∈ s, r i ≤ M) ∧ ∃ i ∈ s, r i = M := by
  classical
  induction hs using Finset.Nonempty.cons_induction with
  | singleton a =>
    refine ⟨r a, ?_, ?_, ?_⟩
    · rw [Finset.fold_singleton]; exact max_coe_bot _
    · intro i hi; rw [Finset.mem_singleton] at hi; rw [hi]
    · exact ⟨a, Finset.mem_singleton_self a, rfl⟩
  | cons a s ha hs ih =>
    obtain ⟨M, hM, hle, i, his, hi⟩ := ih
    refine ⟨max (r a) M, ?_, ?_, ?_⟩
    · rw [Finset.fold_cons, hM, coe_max']
    · intro i' hi'
      rw [Finset.mem_cons] at hi'
      rcases hi' with rfl | hi'
      · exact le_max_left _ _
      · exact (hle i' hi').trans (le_max_right _ _)
    · rcases le_total M (r a) with h | h
      · exact ⟨a, Finset.mem_cons_self a s, (max_eq_left h).symm⟩
      · exact ⟨i, Finset.mem_cons.2 (Or.inr his), by rw [hi, max_eq_right h]⟩

theorem fin_nonempty [NeZero W] : Nonempty (Fin W) := ⟨⟨0, Nat.pos_of_ne_zero (NeZero.ne W)⟩⟩

/-- One step from a finite running maximum and sum over a tile of reals. -/
theorem stepL_coe (M M' L : ℝ) (r : Fin W → ℝ)
    (h : stepM (M : EReal) (fun k => (r k : EReal)) = (M' : EReal)) :
    stepL (M : EReal) (L : EReal) (fun k => (r k : EReal))
      = ((Real.exp (M - M') * L + ∑ k : Fin W, Real.exp (r k - M') : ℝ) : EReal) := by
  unfold stepL
  rw [h]
  simp only [coe_sub', exp_coe', coe_mul', coe_sum', coe_add']

/-- The first step, from the bottom element and zero. -/
theorem stepL_bot (c : ℝ) (r : Fin W → ℝ) (h : stepM (⊥ : EReal) (fun k => (r k : EReal)) = (c : EReal)) :
    stepL (⊥ : EReal) 0 (fun k => (r k : EReal)) = ((∑ k : Fin W, Real.exp (r k - c) : ℝ) : EReal) := by
  unfold stepL
  rw [h, bot_sub_coe, exp_bot', mul_zero, zero_add]
  simp only [coe_sub', exp_coe', coe_sum']

/-- M is the greatest entry of the first j tiles of x. -/
def IsMaxOf (x : ℕ → Fin W → ℝ) (j : ℕ) (M : ℝ) : Prop :=
  (∀ i < j, ∀ k, x i k ≤ M) ∧ ∃ i < j, ∃ k, x i k = M

/-- The invariant: after j ≥ 1 tiles of finite logits the running maximum is the coercion of the greatest
    entry M of those tiles, and the running sum is the coercion of the sum of exp (x - M) over them. -/
theorem run_invariant [NeZero W] (x : ℕ → Fin W → ℝ) (j : ℕ) (hj : 0 < j) :
    ∃ M : ℝ, IsMaxOf x j M ∧ runM (fun i k => (x i k : EReal)) j = (M : EReal) ∧
      runL (fun i k => (x i k : EReal)) j
        = ((∑ i ∈ Finset.range j, ∑ k : Fin W, Real.exp (x i k - M) : ℝ) : EReal) := by
  haveI : Nonempty (Fin W) := fin_nonempty
  obtain ⟨n, rfl⟩ : ∃ n, j = n + 1 := ⟨j - 1, by omega⟩
  clear hj
  induction n with
  | zero =>
    obtain ⟨c, hc, hle, k0, _, hk0⟩ := fold_max_coe Finset.univ Finset.univ_nonempty (x 0)
    have hM : stepM (⊥ : EReal) (fun k => (x 0 k : EReal)) = (c : EReal) := by
      unfold stepM tileMax; rw [hc]; exact max_bot_coe c
    refine ⟨c, ⟨?_, ?_⟩, ?_, ?_⟩
    · intro i hi k
      obtain rfl : i = 0 := by omega
      exact hle k (Finset.mem_univ k)
    · exact ⟨0, Nat.zero_lt_one, k0, hk0⟩
    · exact hM
    · show stepL (⊥ : EReal) 0 (fun k => (x 0 k : EReal)) = _
      rw [stepL_bot c _ hM, Finset.sum_range_one]
  | succ n ih =>
    obtain ⟨M, ⟨hle, i0, hi0, k0, hk0⟩, hM, hL⟩ := ih
    obtain ⟨c, hc, hcle, k1, _, hk1⟩ := fold_max_coe Finset.univ Finset.univ_nonempty (x (n + 1))
    have hM' : stepM (M : EReal) (fun k => (x (n + 1) k : EReal)) = ((max M c : ℝ) : EReal) := by
      unfold stepM tileMax; rw [hc, coe_max']
    refine ⟨max M c, ⟨?_, ?_⟩, ?_, ?_⟩
    · intro i hi k
      rcases Nat.lt_succ_iff_lt_or_eq.1 hi with h | rfl
      · exact (hle i h k).trans (le_max_left _ _)
      · exact (hcle k (Finset.mem_univ k)).trans (le_max_right _ _)
    · rcases le_total c M with h | h
      · exact ⟨i0, Nat.lt_succ_of_lt hi0, k0, by rw [hk0, max_eq_left h]⟩
      · exact ⟨n + 1, Nat.lt_succ_self _, k1, by rw [hk1, max_eq_right h]⟩
    · rw [runM_succ, hM]; exact hM'
    · rw [runL_succ, hM, hL]
      show stepL (M : EReal) _ (fun k => (x (n + 1) k : EReal)) = _
      rw [stepL_coe M (max M c) _ _ hM', Finset.sum_range_succ _ (n + 1)]
      congr 2
      rw [Finset.mul_sum]
      refine Finset.sum_congr rfl fun i _ => ?_
      rw [Finset.mul_sum]
      refine Finset.sum_congr rfl fun k _ => ?_
      rw [← Real.exp_add]
      congr 1
      ring

/-- The running label logit is the coercion of the sum of the hit entries. -/
theorem runLbl_coe (x : ℕ → Fin W → ℝ) (hit : ℕ → Fin W → Prop) [∀ j, DecidablePred (hit j)] (T : ℕ) :
    runLbl (fun i k => (x i k : EReal)) hit T
      = ((∑ i ∈ Finset.range T, ∑ k : Fin W, (if hit i k then x i k else 0) : ℝ) : EReal) := by
  induction T with
  | zero => rfl
  | succ n ih =>
    rw [runLbl_succ, ih, Finset.sum_range_succ]
    unfold stepLbl
    have h : ∀ k, (if hit n k then (x n k : EReal) else 0) = ((if hit n k then x n k else 0 : ℝ) : EReal) :=
      fun k => by split_ifs <;> rfl
    simp only [h, coe_sum', coe_add']

/-- The label logit: when exactly one entry (j₀, k₀) of the first T tiles is hit, the running label logit
    after T tiles is that entry. -/
theorem runLbl_eq (x : ℕ → Fin W → ℝ) (hit : ℕ → Fin W → Prop) [∀ j, DecidablePred (hit j)] (T : ℕ)
    (j₀ : ℕ) (k₀ : Fin W) (hj₀ : j₀ < T) (hhit : ∀ j < T, ∀ k, hit j k ↔ (j = j₀ ∧ k = k₀)) :
    runLbl (fun i k => (x i k : EReal)) hit T = (x j₀ k₀ : EReal) := by
  rw [runLbl_coe]
  congr 1
  rw [Finset.sum_eq_single j₀, Finset.sum_eq_single k₀, if_pos ((hhit j₀ hj₀ k₀).2 ⟨rfl, rfl⟩)]
  · intro k _ hk
    exact if_neg (fun h => hk ((hhit j₀ hj₀ k).1 h).2)
  · intro h; exact absurd (Finset.mem_univ k₀) h
  · intro i hi hij
    exact Finset.sum_eq_zero fun k _ => if_neg (fun h => hij ((hhit i (Finset.mem_range.1 hi) k).1 h).1)
  · intro h; exact absurd (Finset.mem_range.2 hj₀) h

/-- The two forms agree on a row of reals: ι indexes the row, idx cuts it into T tiles of width W. -/
theorem tiledNll_eq_directNll_real [NeZero W] {ι : Type*} [Fintype ι] (T : ℕ) (row : ι → ℝ)
    (idx : Fin T → Fin W → ι) (hidx : Function.Bijective (fun p : Fin T × Fin W => idx p.1 p.2))
    (x : ℕ → Fin W → ℝ) (hx : ∀ (j : Fin T) (k : Fin W), x j k = row (idx j k))
    (lab : ι) (hit : ℕ → Fin W → Prop) [∀ j, DecidablePred (hit j)]
    (hhit : ∀ (j : Fin T) (k : Fin W), hit j k ↔ idx j k = lab) :
    tiledNll (runM (fun i k => (x i k : EReal)) T) (runL (fun i k => (x i k : EReal)) T)
        (runLbl (fun i k => (x i k : EReal)) hit T)
      = directNll (fun v => (row v : EReal)) lab := by
  classical
  haveI : Nonempty (Fin W) := fin_nonempty
  haveI : Nonempty ι := ⟨lab⟩
  have hinj := hidx.1
  have hsurj := hidx.2
  obtain ⟨⟨j₀, k₀⟩, hjk₀⟩ := hsurj lab
  have hjk₀' : idx j₀ k₀ = lab := hjk₀
  have hT : 0 < T := lt_of_le_of_lt (Nat.zero_le _) j₀.isLt
  obtain ⟨M, ⟨hle, i0, hi0, k0, hk0⟩, hM, hL⟩ := run_invariant x T hT
  obtain ⟨M', hM', hle', v0, _, hv0⟩ := fold_max_coe Finset.univ Finset.univ_nonempty row
  -- the two greatest elements are the same real
  have hMM : M' = M := by
    apply le_antisymm
    · obtain ⟨⟨j, k⟩, hjk⟩ := hsurj v0
      have hjk' : idx j k = v0 := hjk
      rw [← hv0, ← hjk', ← hx j k]
      exact hle j j.isLt k
    · rw [← hk0, show x i0 k0 = row (idx ⟨i0, hi0⟩ k0) from hx ⟨i0, hi0⟩ k0]
      exact hle' _ (Finset.mem_univ _)
  rw [hMM] at hM'
  -- the sum over the row is the sum over the tiles
  have hsum : ∑ v : ι, Real.exp (row v - M) = ∑ i ∈ Finset.range T, ∑ k : Fin W, Real.exp (x i k - M) := by
    rw [← hidx.sum_comp (fun v => Real.exp (row v - M)), Fintype.sum_prod_type, Finset.sum_range]
    refine Finset.sum_congr rfl fun j _ => Finset.sum_congr rfl fun k _ => ?_
    rw [hx j k]
  have hpos : 0 < ∑ v : ι, Real.exp (row v - M) :=
    Finset.sum_pos (fun v _ => Real.exp_pos _) Finset.univ_nonempty
  -- the label logit
  have hh : ∀ j < T, ∀ k, hit j k ↔ (j = (j₀ : ℕ) ∧ k = k₀) := by
    intro j hj k
    rw [hhit ⟨j, hj⟩ k]
    constructor
    · intro h
      have hp : ((⟨j, hj⟩ : Fin T), k) = (j₀, k₀) := hinj (h.trans hjk₀'.symm)
      exact ⟨congrArg (fun p : Fin T × Fin W => (p.1 : ℕ)) hp, congrArg Prod.snd hp⟩
    · rintro ⟨rfl, rfl⟩
      exact hjk₀'
  have hlbl : runLbl (fun i k => (x i k : EReal)) hit T = (row lab : EReal) := by
    rw [runLbl_eq x hit T j₀ k₀ j₀.isLt hh, hx j₀ k₀, hjk₀']
  rw [hM, hL, hlbl, ← hsum]
  unfold tiledNll directNll
  rw [hM', max_bot_coe]
  simp only [coe_sub', exp_coe', coe_sum', zero_add_coe]
  rw [log_coe_pos hpos]
  simp only [coe_sub', coe_add', coe_neg']
  congr 1
  ring

/-- The two forms agree on a row of finite extended reals. -/
theorem tiledNll_eq_directNll [NeZero W] {ι : Type*} [Fintype ι] (T : ℕ) (row : ι → EReal)
    (hfin : ∀ v, row v ≠ ⊥ ∧ row v ≠ ⊤)
    (idx : Fin T → Fin W → ι) (hidx : Function.Bijective (fun p : Fin T × Fin W => idx p.1 p.2))
    (t : ℕ → Fin W → EReal) (ht : ∀ (j : Fin T) (k : Fin W), t j k = row (idx j k))
    (lab : ι) (hit : ℕ → Fin W → Prop) [∀ j, DecidablePred (hit j)]
    (hhit : ∀ (j : Fin T) (k : Fin W), hit j k ↔ idx j k = lab) :
    tiledNll (runM t T) (runL t T) (runLbl t hit T) = directNll row lab := by
  have hrow : row = fun v => (((row v).toReal : ℝ) : EReal) :=
    funext fun v => (EReal.coe_toReal (hfin v).2 (hfin v).1).symm
  have htile : ∀ i < T, t i = (fun i k => (((t i k).toReal : ℝ) : EReal)) i := by
    intro i hi
    funext k
    show t i k = (((t i k).toReal : ℝ) : EReal)
    have hf := hfin (idx ⟨i, hi⟩ k)
    rw [← ht ⟨i, hi⟩ k] at hf
    exact (EReal.coe_toReal hf.2 hf.1).symm
  rw [runM_congr t _ T htile, runL_congr t _ T htile, runLbl_congr t _ hit T htile]
  conv_rhs => rw [hrow]
  exact tiledNll_eq_directNll_real T (fun v => (row v).toReal) idx hidx (fun i k => (t i k).toReal)
    (fun j k => by show (t j k).toReal = (row (idx j k)).toReal; rw [ht j k]) lab hit hhit

end Cert.Val.Softmax
-- ==== Proof.Val.NllFold.lean ====
/-
  The three carried columns of the lm_head kernel, row by row, are the tiled running maximum, running sum and
  label logit of that row's logits.

  Grid point t = si·101 + vi handles row block si at vocabulary step vi. At vi = 0 the columns restart from
  (−∞, 0, 0); every step folds the row's 1280 logits of that step into them. So after step vi the columns at row r
  are the fold, over the vi + 1 tiles seen so far, of one tiled softmax step per tile.
-/
import proofs.«420313_j13838384627918_1_alg».proof.Proof.KI.HeadDefs
import proofs.«420313_j13838384627918_1_alg».proof.Proof.Val.NllRow
import proofs.«420313_j13838384627918_1_alg».proof.Proof.Val.SoftmaxLaw

noncomputable section

namespace Cert.Val.NllFold

open Idealize.ShloMosaic Idealize.ShloMosaic.TcCoe Idealize.ShloMosaic.ValueIdx Idealize.SL.Sem
open Cert.KernelIdeal Cert.KernelIdeal.Gen Cert.Val.Softmax Cert.Val.NllRow

variable (V : (c : Dev nD) → (b : Ref sig .tc) → Buf (Elt Ideal) ((c : Thread nD τ).loc b))

/-- The normed block, the weight block and the label block of grid point t, at their literal types. -/
abbrev xb0 (c : Dev nD) (t : Fin cfg1.N) : Vec Ideal S512x2048 .bf16 := iblk1 V c 0 t
abbrev xb1 (c : Dev nD) (t : Fin cfg1.N) : Vec Ideal S1280x2048 .bf16 := iblk1 V c 1 t
abbrev xb2 (c : Dev nD) (t : Fin cfg1.N) : Vec Ideal S512x1 .i32 := iblk1 V c 2 t

/-- Row r's 1280 logits at grid point t. -/
def tileAt (c : Dev nD) (t : Fin cfg1.N) (r : Fin 512) : Fin 1280 → EReal := tileRow (xb0 V c t) (xb1 V c t) r

/-- Column k of grid point t carries the label of row r. -/
def hitAt (c : Dev nD) (t : Fin cfg1.N) (r : Fin 512) (k : Fin 1280) : Prop :=
  k1_pay10 (grid1.coords t) (ix2 r k) = xb2 V c t (ix2 r 0)

instance (c : Dev nD) (t : Fin cfg1.N) (r : Fin 512) : DecidablePred (hitAt V c t r) :=
  fun k => inferInstanceAs (Decidable (k1_pay10 (grid1.coords t) (ix2 r k) = xb2 V c t (ix2 r 0)))

/-- One body at row r: one tiled step of each of the three columns. -/
theorem step_row (c : Dev nD) (t : Fin cfg1.N) (prev : Scr1 Ideal) (r : Fin 512) :
    (scrStep1 V c t prev).1 (ix2 r 0) = stepM (prev.1 (ix2 r 0)) (tileAt V c t r)
    ∧ (scrStep1 V c t prev).2.1 (ix2 r 0) = stepL (prev.1 (ix2 r 0)) (prev.2.1 (ix2 r 0)) (tileAt V c t r)
    ∧ (scrStep1 V c t prev).2.2 (ix2 r 0) = stepLbl (prev.2.2 (ix2 r 0)) (hitAt V c t r) (tileAt V c t r) :=
  ⟨pay9_row (xb0 V c t) (xb1 V c t) prev.1 r, pay8_row (xb0 V c t) (xb1 V c t) prev.1 prev.2.1 r,
    pay1_row (k1_pay6 (F := Ideal) (xb0 V c t) (xb1 V c t)) (k1_pay10 (grid1.coords t)) (xb2 V c t) prev.2.2 r⟩

/-- The reset columns at row r. -/
theorem reset_row (r : Fin 512) :
    (scrReset1 (F := Ideal)).1 (ix2 r 0) = ⊥ ∧ (scrReset1 (F := Ideal)).2.1 (ix2 r 0) = 0
      ∧ (scrReset1 (F := Ideal)).2.2 (ix2 r 0) = 0 :=
  ⟨pay3_row r, pay4_row r, pay5_row r⟩

/-- Grid point (si, vi), total in vi (read only at vi < 101). -/
def pt (si : Fin 2) (vi : ℕ) : Fin cfg1.N := ⟨(si.val * 101 + vi) % 202, by
  have h : cfg1.N = 202 := N_1
  rw [h]; exact Nat.mod_lt _ (by decide)⟩

/-- Row r of row block si: its tile at each vocabulary step, and which columns carry its label. -/
def tiles (c : Dev nD) (si : Fin 2) (r : Fin 512) : ℕ → Fin 1280 → EReal := fun vi => tileAt V c (pt si vi) r
def hits (c : Dev nD) (si : Fin 2) (r : Fin 512) : ℕ → Fin 1280 → Prop := fun vi => hitAt V c (pt si vi) r

instance (c : Dev nD) (si : Fin 2) (r : Fin 512) : ∀ vi, DecidablePred (hits V c si r vi) :=
  fun vi => inferInstanceAs (DecidablePred (hitAt V c (pt si vi) r))

/-- One body at grid point (si, vi) from columns that are the fold over vi tiles: the fold over vi + 1 tiles. -/
theorem step_fold (c : Dev nD) (si : Fin 2) (r : Fin 512) (vi : ℕ) (t : Fin cfg1.N) (ht : t = pt si vi) (prev : Scr1 Ideal)
    (h1 : prev.1 (ix2 r 0) = runM (tiles V c si r) vi) (h2 : prev.2.1 (ix2 r 0) = runL (tiles V c si r) vi)
    (h3 : prev.2.2 (ix2 r 0) = runLbl (tiles V c si r) (hits V c si r) vi) :
    (scrStep1 V c t prev).1 (ix2 r 0) = runM (tiles V c si r) (vi + 1)
    ∧ (scrStep1 V c t prev).2.1 (ix2 r 0) = runL (tiles V c si r) (vi + 1)
    ∧ (scrStep1 V c t prev).2.2 (ix2 r 0) = runLbl (tiles V c si r) (hits V c si r) (vi + 1) := by
  subst ht
  obtain ⟨a, b, d⟩ := step_row V c (pt si vi) prev r
  rw [h1] at a b
  rw [h2] at b
  rw [h3] at d
  exact ⟨a, b, d⟩

/-- The columns at equal positions are equal. -/
theorem scrAt1_pos_congr (c : Dev nD) (a b : ℕ) (h : a = b) (ha : a < cfg1.N) (hb : b < cfg1.N) :
    scrAt1 V c a ha = scrAt1 V c b hb := by
  subst h; rfl

/-- THE FOLD. After vocabulary step vi of row block si the three columns at row r are the tiled fold over the
    vi + 1 tiles of that row seen so far. -/
theorem scr_row (c : Dev nD) (si : Fin 2) (r : Fin 512) (vi : ℕ) (hvi : vi < 101) (hn : si.val * 101 + vi < cfg1.N) :
    (scrAt1 V c (si.val * 101 + vi) hn).1 (ix2 r 0) = runM (tiles V c si r) (vi + 1)
    ∧ (scrAt1 V c (si.val * 101 + vi) hn).2.1 (ix2 r 0) = runL (tiles V c si r) (vi + 1)
    ∧ (scrAt1 V c (si.val * 101 + vi) hn).2.2 (ix2 r 0) = runLbl (tiles V c si r) (hits V c si r) (vi + 1) := by
  have hN : cfg1.N = 202 := N_1
  have hsi := si.isLt
  induction vi with
  | zero =>
    obtain ⟨r1, r2, r3⟩ := reset_row r
    have e : scrAt1 V c (si.val * 101 + 0) hn = scrStep1 V c ⟨si.val * 101 + 0, hn⟩ scrReset1 :=
      scrAt1_reset V c ⟨si.val * 101 + 0, hn⟩ (by show (si.val * 101 + 0) % 101 = 0; omega)
    rw [e]
    exact step_fold V c si r 0 _ (Fin.ext (by show si.val * 101 + 0 = (si.val * 101 + 0) % 202; omega)) scrReset1 r1 r2 r3
  | succ vi ih =>
    have hn' : si.val * 101 + vi < cfg1.N := by omega
    have e : scrAt1 V c (si.val * 101 + (vi + 1)) hn
        = scrStep1 V c ⟨si.val * 101 + (vi + 1), hn⟩ (scrAt1 V c (si.val * 101 + vi) hn') :=
      (scrAt1_step V c ⟨si.val * 101 + (vi + 1), hn⟩ (by show (si.val * 101 + (vi + 1)) % 101 ≠ 0; omega)).trans
        (congrArg (scrStep1 V c ⟨si.val * 101 + (vi + 1), hn⟩)
          (scrAt1_pos_congr V c _ _ (by show si.val * 101 + (vi + 1) - 1 = si.val * 101 + vi; omega) _ _))
    rw [e]
    obtain ⟨i1, i2, i3⟩ := ih (by omega) hn'
    exact step_fold V c si r (vi + 1) _
      (Fin.ext (by show si.val * 101 + (vi + 1) = (si.val * 101 + (vi + 1)) % 202; omega)) _ i1 i2 i3

/-- The loss block at the last vocabulary step of row block si, at row r: the tiled loss of the row's 101 tiles. -/
theorem nll_row (c : Dev nD) (si : Fin 2) (r : Fin 512) (t : Fin cfg1.N) (ht : t.val = si.val * 101 + 100) :
    nllAt1 V c t (ix2 r 0)
      = tiledNll (runM (tiles V c si r) 101) (runL (tiles V c si r) 101) (runLbl (tiles V c si r) (hits V c si r) 101) := by
  obtain ⟨n, hn⟩ := t
  obtain rfl : n = si.val * 101 + 100 := ht
  obtain ⟨a, b, d⟩ := scr_row V c si r 100 (by decide) hn
  unfold nllAt1
  refine (pay2_row _ _ _ r).trans ?_
  show tiledNll _ _ _ = _
  rw [a, b, d]

end Cert.Val.NllFold
-- ==== Proof.Val.TileIndex.lean ====
/-
Cutting a row of 129280 columns into 101 tiles of 1280: the column of entry k of tile j is j * 1280 + k,
and every column is reached exactly once.
-/
import Mathlib.Data.Fin.Basic
import Mathlib.Logic.Function.Basic
import Mathlib.Tactic.Ring

namespace Cert.Val

/-- The column of entry k of tile j. -/
def tileIdx (j : Fin 101) (k : Fin 1280) : Fin 129280 :=
  ⟨j.val * 1280 + k.val, by have := j.isLt; have := k.isLt; omega⟩

@[simp] theorem tileIdx_val (j : Fin 101) (k : Fin 1280) : (tileIdx j k).val = j.val * 1280 + k.val := rfl

/-- The tile of a column and its place in the tile. -/
def tileOf (v : Fin 129280) : Fin 101 := ⟨v.val / 1280, by have := v.isLt; omega⟩
def placeOf (v : Fin 129280) : Fin 1280 := ⟨v.val % 1280, Nat.mod_lt _ (by decide)⟩

theorem tileIdx_tileOf_placeOf (v : Fin 129280) : tileIdx (tileOf v) (placeOf v) = v := by
  apply Fin.ext
  show v.val / 1280 * 1280 + v.val % 1280 = v.val
  omega

theorem tileIdx_eq_iff (j j' : Fin 101) (k k' : Fin 1280) : tileIdx j k = tileIdx j' k' ↔ j = j' ∧ k = k' := by
  constructor
  · intro h
    have hv : j.val * 1280 + k.val = j'.val * 1280 + k'.val := congrArg Fin.val h
    have := k.isLt
    have := k'.isLt
    exact ⟨Fin.ext (by omega), Fin.ext (by omega)⟩
  · rintro ⟨rfl, rfl⟩
    rfl

theorem tileIdx_bijective : Function.Bijective (fun p : Fin 101 × Fin 1280 => tileIdx p.1 p.2) := by
  constructor
  · rintro ⟨j, k⟩ ⟨j', k'⟩ h
    obtain ⟨rfl, rfl⟩ := (tileIdx_eq_iff j j' k k').1 h
    rfl
  · intro v
    exact ⟨(tileOf v, placeOf v), tileIdx_tileOf_placeOf v⟩

end Cert.Val
-- ==== Proof.Val.NllArr.lean ====
/-
  The loss column the lm_head kernel leaves.

  Row block si (512 rows) is written back once, after its last vocabulary step (grid point si·101 + 100); the two
  blocks tile the 1024 × 1 array. Row s = si·512 + r of the array is the tiled loss of that row's 101 tiles of 1280
  logits; entry k of tile j is the inner product of activation row s with weight row j·1280 + k, and column k of
  tile j carries the row's label when the word j·1280 + k equals the label's word.
-/
import proofs.«420313_j13838384627918_1_alg».proof.Proof.Val.NllFold
import proofs.«420313_j13838384627918_1_alg».proof.Proof.Val.Logits
import proofs.«420313_j13838384627918_1_alg».proof.Proof.Val.TileIndex

set_option maxRecDepth 16384

noncomputable section

namespace Cert.Val.NllArr

open Idealize.ShloMosaic Idealize.ShloMosaic.TcCoe Idealize.ShloMosaic.ValueIdx Idealize.SL.Sem
open Idealize.ShloMosaic.Pipeline (Dat)
open Cert.KernelIdeal Cert.KernelIdeal.Gen Cert.Val Cert.Val.Softmax Cert.Val.NllRow Cert.Val.NllFold

/-! ## The array the two blocks are pieces of -/

/-- Column k of tile j is vocabulary entry j·1280 + k (total in j; read at j < 101). -/
def colOf (j : ℕ) (k : Fin 1280) : Fin 129280 := ⟨(j % 101) * 1280 + k.val, by have := k.isLt; omega⟩

/-- Row s's tiles: entry k of tile j is the inner product of activation row s with weight row j·1280 + k. -/
def rowTiles (a : S1024x2048.Idx → EReal) (w : S129280x2048.Idx → EReal) (s : Fin 1024) : ℕ → Fin 1280 → EReal :=
  fun j k => ∑ h : Fin 2048, a (ix2 s h) * w (ix2 (colOf j k) h)

/-- At a tile j < 101 the column is the tile index j·1280 + k. -/
theorem colOf_eq_tileIdx (j : Fin 101) (k : Fin 1280) : colOf j.val k = tileIdx j k :=
  Fin.ext (by show (j.val % 101) * 1280 + k.val = j.val * 1280 + k.val; have := j.isLt; rw [Nat.mod_eq_of_lt this])

/-- Entry k of tile j < 101 of row s: the inner product of activation row s with weight row j·1280 + k. -/
theorem rowTiles_apply (a : S1024x2048.Idx → EReal) (w : S129280x2048.Idx → EReal) (s : Fin 1024) (j : Fin 101) (k : Fin 1280) :
    rowTiles a w s j.val k = ∑ h : Fin 2048, a (ix2 s h) * w (ix2 (tileIdx j k) h) := by
  unfold rowTiles; rw [colOf_eq_tileIdx]

/-- Column k of tile j carries the label: the column id's word is the label's word. -/
def wordHit (lab : BitVec 32) : ℕ → Fin 1280 → Prop :=
  fun j k => BitVec.ofNat 32 j * 1280#32 + BitVec.ofNat 32 k.val = lab

instance (lab : BitVec 32) : ∀ j, DecidablePred (wordHit lab j) :=
  fun j k => inferInstanceAs (Decidable (BitVec.ofNat 32 j * 1280#32 + BitVec.ofNat 32 k.val = lab))

/-- For a label in [0, 129280) the column of tile j < 101 that carries it is the one with j·1280 + k = label. -/
theorem wordHit_iff (lab : BitVec 32) (h0 : 0 ≤ lab.toInt) (h1 : lab.toInt < 129280) (j : ℕ) (hj : j < 101) (k : Fin 1280) :
    wordHit lab j k ↔ j * 1280 + k.val = lab.toInt.toNat :=
  colid_eq_iff j k.val hj k.isLt lab h0 h1

/-- The tiled loss of row s. -/
def rowNll (a : S1024x2048.Idx → EReal) (w : S129280x2048.Idx → EReal) (lab : BitVec 32) (s : Fin 1024) : EReal :=
  tiledNll (runM (rowTiles a w s) 101) (runL (rowTiles a w s) 101) (runLbl (rowTiles a w s) (wordHit lab) 101)

/-- The loss column: row s holds the tiled loss of row s against row s's label. -/
def nllOf (a : S1024x2048.Idx → EReal) (w : S129280x2048.Idx → EReal) (labs : S1024x1.Idx → BitVec 32) :
    S1024x1.Idx → EReal :=
  fun i => rowNll a w (labs (ix2 (n0 := 1024) (i 0) (0 : Fin 1))) (i 0)

/-- The label logit's fold only looks at which columns are hit. -/
theorem runLbl_hit_congr (t : ℕ → Fin 1280 → EReal) (hit hit' : ℕ → Fin 1280 → Prop)
    [∀ j, DecidablePred (hit j)] [∀ j, DecidablePred (hit' j)] (n : ℕ)
    (h : ∀ j < n, ∀ k, hit j k ↔ hit' j k) : runLbl t hit n = runLbl t hit' n := by
  induction n with
  | zero => rfl
  | succ n ih =>
    show stepLbl (runLbl t hit n) (hit n) (t n) = stepLbl (runLbl t hit' n) (hit' n) (t n)
    rw [ih fun j hj => h j (Nat.lt_succ_of_lt hj)]
    unfold stepLbl
    exact congrArg (runLbl t hit' n + ·) (Finset.sum_congr rfl fun k _ => if_congr (h n (Nat.lt_succ_self n) k) rfl rfl)

/-! ## The blocks of a grid point as pieces of the arrays -/

/-- The block indices of the label and loss windows, and the vocabulary step, over the grid. -/
theorem head_index_facts' : ∀ t : Fin cfg1.N,
      win1_2.index t (0 : Fin 2) = t.val / 101 ∧ win1_2.index t (1 : Fin 2) = 0
    ∧ win1_4.index t (0 : Fin 2) = t.val / 101 ∧ win1_4.index t (1 : Fin 2) = 0
    ∧ (grid1.coords t 1).val = t.val % 101 :=
  (by decide +kernel : ∀ t : Fin grid1.N, _)

variable (V : (c : Dev nD) → (b : Ref sig .tc) → Buf (Elt Ideal) ((c : Thread nD τ).loc b))

/-- The shifted labels as the head region finds them. -/
abbrev labelsOf (c : Dev nD) : S1024x1.Idx → BitVec 32 := V c main_v24

/-- Row s = (t / 101)·512 + r of the array, for row r of grid point t's blocks. -/
def rowOf (t : Fin cfg1.N) (r : Fin 512) : Fin 1024 := ⟨t.val / 101 * 512 + r.val, by
  have h : cfg1.N = 202 := N_1
  have := t.isLt; have := r.isLt; omega⟩

theorem xb0_apply (c : Dev nD) (t : Fin cfg1.N) (r : Fin 512) (h : Fin 2048) :
    xb0 V c t (ix2 r h) = actOf V c (ix2 (rowOf t r) h) := by
  obtain ⟨e00, e01, -, -, -, -⟩ := head_index_facts t
  show V c main_v17 (((cfg1.win 0).blk t).view.emb (ix2 r h)) = V c main_v17 _
  congr 1
  funext a; apply Fin.ext
  match a with
  | ⟨0, _⟩ => show win1_0.index t (0 : Fin 2) * 512 + 1 * r.val = t.val / 101 * 512 + r.val; omega
  | ⟨1, _⟩ => show win1_0.index t (1 : Fin 2) * 2048 + 1 * h.val = h.val; omega

theorem xb1_apply (c : Dev nD) (t : Fin cfg1.N) (k : Fin 1280) (h : Fin 2048) :
    xb1 V c t (ix2 k h) = weightOf V c (ix2 (colOf (t.val % 101) k) h) := by
  obtain ⟨-, -, e10, e11, -, -⟩ := head_index_facts t
  show V c main_v18 (((cfg1.win 1).blk t).view.emb (ix2 k h)) = V c main_v18 _
  congr 1
  funext a; apply Fin.ext
  match a with
  | ⟨0, _⟩ => show win1_1.index t (0 : Fin 2) * 1280 + 1 * k.val = (t.val % 101 % 101) * 1280 + k.val; omega
  | ⟨1, _⟩ => show win1_1.index t (1 : Fin 2) * 2048 + 1 * h.val = h.val; omega

theorem xb2_apply (c : Dev nD) (t : Fin cfg1.N) (r : Fin 512) :
    xb2 V c t (ix2 r 0) = labelsOf V c (ix2 (rowOf t r) 0) := by
  obtain ⟨e20, e21, -, -, -⟩ := head_index_facts' t
  show V c main_v24 (((cfg1.win 2).blk t).view.emb (ix2 r 0)) = V c main_v24 _
  congr 1
  funext a; apply Fin.ext
  match a with
  | ⟨0, _⟩ => show win1_2.index t (0 : Fin 2) * 512 + 1 * r.val = t.val / 101 * 512 + r.val; omega
  | ⟨1, _⟩ => show win1_2.index t (1 : Fin 2) * 1 + 1 * 0 = 0; omega

/-- Row r's logits at grid point t are tile (t % 101) of array row (t / 101)·512 + r. -/
theorem tileAt_eq (c : Dev nD) (t : Fin cfg1.N) (r : Fin 512) :
    tileAt V c t r = rowTiles (actOf V c) (weightOf V c) (rowOf t r) (t.val % 101) := by
  funext k
  unfold tileAt tileRow rowTiles
  refine (blockProduct_apply (xb0 V c t) (xb1 V c t) r k).trans (Finset.sum_congr rfl fun h _ => ?_)
  exact congrArg₂ (· * ·) (xb0_apply V c t r h) (xb1_apply V c t k h)

/-- … and the columns carrying the row's label are those whose id is the label's word. -/
theorem hitAt_iff (c : Dev nD) (t : Fin cfg1.N) (r : Fin 512) (k : Fin 1280) :
    hitAt V c t r k ↔ wordHit (labelsOf V c (ix2 (rowOf t r) 0)) (t.val % 101) k := by
  have e5 : (grid1.coords t 1).val = t.val % 101 := (head_index_facts' t).2.2.2.2
  unfold hitAt wordHit
  rw [pay10_row (grid1.coords t) r k, xb2_apply V c t r, e5]

/-- Row block si's tile at vocabulary step vi < 101, at row r, is tile vi of array row si·512 + r. -/
theorem tiles_eq (c : Dev nD) (si : Fin 2) (r : Fin 512) (s : Fin 1024) (hs : s.val = si.val * 512 + r.val)
    (vi : ℕ) (hvi : vi < 101) :
    tiles V c si r vi = rowTiles (actOf V c) (weightOf V c) s vi := by
  have hsi := si.isLt
  have hp : (pt si vi).val = si.val * 101 + vi := by show (si.val * 101 + vi) % 202 = _; omega
  have e1 : rowOf (pt si vi) r = s := Fin.ext (by show (pt si vi).val / 101 * 512 + r.val = s.val; rw [hp, hs]; omega)
  have e2 : (pt si vi).val % 101 = vi := by rw [hp]; omega
  unfold tiles
  rw [tileAt_eq, e1, e2]

/-- … and its hit columns are those whose id is the word of row si·512 + r's label. -/
theorem hits_iff (c : Dev nD) (si : Fin 2) (r : Fin 512) (s : Fin 1024) (hs : s.val = si.val * 512 + r.val)
    (vi : ℕ) (hvi : vi < 101) (k : Fin 1280) :
    hits V c si r vi k ↔ wordHit (labelsOf V c (ix2 s 0)) vi k := by
  have hsi := si.isLt
  have hp : (pt si vi).val = si.val * 101 + vi := by show (si.val * 101 + vi) % 202 = _; omega
  have e1 : rowOf (pt si vi) r = s := Fin.ext (by show (pt si vi).val / 101 * 512 + r.val = s.val; rw [hp, hs]; omega)
  have e2 : (pt si vi).val % 101 = vi := by rw [hp]; omega
  unfold hits
  rw [hitAt_iff, e1, e2]

/-! ## The write-backs and the array -/

/-- What the last vocabulary step of a row block writes back is that block of the loss column. -/
theorem nllBlock_eq (c : Dev nD) (t : Fin cfg1.N) (hf : (cfg1.win 4).flush t = true) :
    (dat1 V c).flushed 4 t
      = ((cfg1.win 4).blk t).view.read (Elt Ideal) (nllOf (actOf V c) (weightOf V c) (labelsOf V c)) := by
  have hN : cfg1.N = 202 := N_1
  have h100 : t.val % 101 = 100 := (flush1_4 t).mp hf
  have htl := t.isLt
  obtain ⟨-, -, e40, e41, -⟩ := head_index_facts' t
  show (cfg1.win 4).cut (grid1.coords t) ((dat1 V c).after 4 t) = _
  rw [after1_4]
  funext j
  obtain ⟨r, q, rfl⟩ : ∃ (r : Fin 512) (q : Fin 1), j = ix2 r q := ⟨j 0, j 1, eq_ix2 j⟩
  obtain rfl : q = 0 := Subsingleton.elim _ _
  have hsi : t.val / 101 < 2 := by omega
  have hemb : (((cfg1.win 4).blk t).view.emb (ix2 r 0)) = ix2 (rowOf t r) (0 : Fin 1) := by
    funext a; apply Fin.ext
    match a with
    | ⟨0, _⟩ => show win1_4.index t (0 : Fin 2) * 512 + 1 * r.val = t.val / 101 * 512 + r.val; omega
    | ⟨1, _⟩ => show win1_4.index t (1 : Fin 2) * 1 + 1 * 0 = 0; omega
  show nllAt1 V c t (ix2 r 0)
    = nllOf (actOf V c) (weightOf V c) (labelsOf V c) (((cfg1.win 4).blk t).view.emb (ix2 r 0))
  rw [hemb, nll_row V c ⟨t.val / 101, hsi⟩ r t (by show t.val = t.val / 101 * 101 + 100; omega)]
  show _ = rowNll (actOf V c) (weightOf V c) (labelsOf V c (ix2 (rowOf t r) 0)) (rowOf t r)
  unfold rowNll
  have hs : (rowOf t r).val = (⟨t.val / 101, hsi⟩ : Fin 2).val * 512 + r.val := rfl
  rw [runM_congr _ _ 101 fun vi hvi => tiles_eq V c ⟨t.val / 101, hsi⟩ r (rowOf t r) hs vi hvi,
    runL_congr _ _ 101 fun vi hvi => tiles_eq V c ⟨t.val / 101, hsi⟩ r (rowOf t r) hs vi hvi,
    runLbl_congr _ _ _ 101 fun vi hvi => tiles_eq V c ⟨t.val / 101, hsi⟩ r (rowOf t r) hs vi hvi,
    runLbl_hit_congr _ _ _ 101 fun vi hvi k => hits_iff V c ⟨t.val / 101, hsi⟩ r (rowOf t r) hs vi hvi k]

/-- Row s lies in the block written back at grid point (s / 512)·101 + 100. -/
theorem nll_cover (i : S1024x1.Idx) :
    ∃ t : Fin cfg1.N, (cfg1.win 4).flush t = true ∧ i ∈ ((cfg1.win 4).blk t).view.set := by
  have hs : (i 0).val < 1024 := idx2_lt0 i
  have hq : (i 1).val < 1 := idx2_lt1 i
  have hN : cfg1.N = 202 := N_1
  obtain ⟨t, ht⟩ : ∃ t : Fin cfg1.N, t.val = (i 0).val / 512 * 101 + 100 :=
    ⟨⟨(i 0).val / 512 * 101 + 100, by rw [hN]; omega⟩, rfl⟩
  obtain ⟨-, -, e40, e41, -⟩ := head_index_facts' t
  refine ⟨t, (flush1_4 t).mpr (by omega), ?_⟩
  show i ∈ ((View.whole main_v28_1).slice (win1_4.rect t)).set
  rw [View.set_slice_whole, Rect.mem_set_unit]
  intro a
  match a with
  | ⟨0, _⟩ => show win1_4.index t (0 : Fin 2) * 512 ≤ (i 0).val ∧ (i 0).val < win1_4.index t (0 : Fin 2) * 512 + 512; omega
  | ⟨1, _⟩ => show win1_4.index t (1 : Fin 2) * 1 ≤ (i 1).val ∧ (i 1).val < win1_4.index t (1 : Fin 2) * 1 + 1; omega

/-- The whole loss column after the head region. -/
theorem nll_arr_eq (c : Dev nD) :
    (dat1 V c).arrAt 4 cfg1.N = nllOf (actOf V c) (weightOf V c) (labelsOf V c) :=
  (dat1 V c).arrAt_eq_of_cover 4 (nllOf (actOf V c) (weightOf V c) (labelsOf V c)) (nllBlock_eq V c) nll_cover

/-- Row s of the loss column after the head region: the tiled loss of row s's 101 tiles against its label. -/
theorem nll_arr (c : Dev nD) (s : Fin 1024) :
    @Eq EReal ((dat1 V c).arrAt 4 cfg1.N (ix2 s 0))
      (rowNll (actOf V c) (weightOf V c) (labelsOf V c (ix2 s 0)) s) := by
  rw [nll_arr_eq V c]
  rfl

end Cert.Val.NllArr
-- ==== Proof.Val.NllRef.lean ====
/-
The reference's negative log-likelihood of one row, read down to the direct form of the softmax law:
at row s the reference takes the log-softmax of the row of logits, picks the entry at the row's label
and negates it.
-/
import proofs.«420313_j13838384627918_1_alg».proof.Proof.Ref.Read
import proofs.«420313_j13838384627918_1_alg».proof.Proof.Val.SoftmaxLaw

noncomputable section

namespace Cert.Val

open Cert.ReferenceIdeal Cert.ReferenceIdeal.Gen Cert.ReferenceIdeal.Read Idealize.ShloMosaic Idealize.ShloMosaic.ValueIdx
open Cert.Val.Softmax

variable (x0 : (⟨S1x1024x2048, .f32⟩ : BufTy).Contents (Elt Ideal)) (x1 x2 : (⟨S1x1024, .i32⟩ : BufTy).Contents (Elt Ideal))
  (x4 : (⟨S129280x2048, .f32⟩ : BufTy).Contents (Elt Ideal)) (x5 x6 : (⟨S2048, .f32⟩ : BufTy).Contents (Elt Ideal))
  (x7 : (⟨S2048x4096, .f32⟩ : BufTy).Contents (Elt Ideal)) (x8 x9 : (⟨S2048, .f32⟩ : BufTy).Contents (Elt Ideal))
  (x10 : (⟨S129280x2048, .f32⟩ : BufTy).Contents (Elt Ideal))

/-- The label of row s: the next position's token. -/
def labelBits (s : Fin 1023) : BitVec 32 := x2 (ix2 (0 : Fin 1) (⟨s.val + 1, by omega⟩ : Fin 1024))

theorem labelBits_toNat_lt (s : Fin 1023)
    (hlab : 0 ≤ (labelBits x2 s).toInt ∧ (labelBits x2 s).toInt < 129280) : (labelBits x2 s).toNat < 129280 := by
  obtain ⟨h0, h1⟩ := hlab
  have h := BitVec.toInt_eq_toNat_cond (labelBits x2 s)
  have hlt := (labelBits x2 s).isLt
  split_ifs at h <;> omega

theorem labelBits_toInt_toNat (s : Fin 1023) (h0 : 0 ≤ (labelBits x2 s).toInt) :
    (labelBits x2 s).toInt.toNat = (labelBits x2 s).toNat := by
  have h := BitVec.toInt_eq_toNat_cond (labelBits x2 s)
  have hlt := (labelBits x2 s).isLt
  split_ifs at h <;> omega

/-! ## The log-softmax of row s -/

/-- The row of logits the log-softmax reads at row s. -/
def logit (s : Fin 1023) (v : Fin 129280) : EReal :=
  val_main_v61 (F := Ideal) x0 x1 x4 x5 x6 x7 x8 x9 x10 (ix3 (0 : Fin 1) s.castSucc v)

/-- The greatest logit of row s, as the reference takes it. -/
def rowMaxRef (s : Fin 1023) : EReal :=
  max ⊥ ((Finset.univ : Finset (Fin 129280)).fold max ⊥ (fun v => logit x0 x1 x4 x5 x6 x7 x8 x9 x10 s v))

theorem v62_row (s : Fin 1023) (v : Fin 129280) :
    val_main_v62 (F := Ideal) x0 x1 x4 x5 x6 x7 x8 x9 x10 (ix3 (0 : Fin 1) s v) = logit x0 x1 x4 x5 x6 x7 x8 x9 x10 s v := by
  rw [val_main_v62_apply]
  unfold logit
  congr 1
  funext a
  match a with
  | ⟨0, _⟩ => rfl
  | ⟨1, _⟩ => rfl
  | ⟨2, _⟩ => rfl

theorem call0_v2_row (s : Fin 1023) :
    val_main_call0_v2 (F := Ideal) x0 x1 x4 x5 x6 x7 x8 x9 x10 (ix2 (0 : Fin 1) s) = rowMaxRef x0 x1 x4 x5 x6 x7 x8 x9 x10 s := by
  have h : S1x1023x129280.Reduces [2] S1x1023 := by decide
  have hf : (val_main_v62 (F := Ideal) x0 x1 x4 x5 x6 x7 x8 x9 x10 ∘ h.lift (ix2 (0 : Fin 1) s))
      = fun v : Fin 129280 => logit x0 x1 x4 x5 x6 x7 x8 x9 x10 s v := by
    funext k
    have hl : h.lift (ix2 (0 : Fin 1) s) k = ix3 (0 : Fin 1) s k := by
      funext a
      match a with
      | ⟨0, _⟩ => rfl
      | ⟨1, _⟩ => rfl
      | ⟨2, _⟩ => rfl
    show val_main_v62 (F := Ideal) x0 x1 x4 x5 x6 x7 x8 x9 x10 (h.lift (ix2 (0 : Fin 1) s) k) = _
    rw [hl]
    exact v62_row x0 x1 x4 x5 x6 x7 x8 x9 x10 s k
  rw [val_main_call0_v2_apply, val_main_call0_v1_apply, val_main_call0_cst_0_apply]
  unfold val_main_call0_v0
  rw [Host.reduce_eq_fold_single FloatOps.maximumf _ _ reducesTo_S1x1023x129280_S1x1023_d2 h h_S_ (ix2 (0 : Fin 1) s),
    val_main_call0_cst_apply, hf]
  unfold rowMaxRef
  rw [Ideal.ofBits_def, ofBits_neg_inf_f32]
  rfl

theorem call0_v5_row (s : Fin 1023) (v : Fin 129280) :
    val_main_call0_v5 (F := Ideal) x0 x1 x4 x5 x6 x7 x8 x9 x10 (ix3 (0 : Fin 1) s v)
      = logit x0 x1 x4 x5 x6 x7 x8 x9 x10 s v - rowMaxRef x0 x1 x4 x5 x6 x7 x8 x9 x10 s := by
  have hi : idx_main_call0_v3 (idx_main_call0_v4 (ix3 (0 : Fin 1) s v)) = ix2 (0 : Fin 1) s := by
    funext a
    match a with
    | ⟨0, _⟩ => rfl
    | ⟨1, _⟩ => rfl
  rw [val_main_call0_v5_apply, val_main_call0_v4_apply, val_main_call0_v3_apply, v62_row, hi, call0_v2_row,
    Ideal.subf_def]

theorem call0_v7_row (s : Fin 1023) :
    val_main_call0_v7 (F := Ideal) x0 x1 x4 x5 x6 x7 x8 x9 x10 (ix2 (0 : Fin 1) s)
      = 0 + ∑ v : Fin 129280, Ideal.exp (logit x0 x1 x4 x5 x6 x7 x8 x9 x10 s v - rowMaxRef x0 x1 x4 x5 x6 x7 x8 x9 x10 s) := by
  rw [val_main_call0_v7_apply, val_main_call0_cst_1_apply]
  show Ideal.ofBits .f32 0x00000000#32 + _ = _
  rw [Ideal.ofBits_zero_f32]
  refine congrArg (HAdd.hAdd (0 : EReal)) (Finset.sum_congr rfl fun k _ => ?_)
  have hi : idx_main_call0_v7 (ix2 (0 : Fin 1) s) k = ix3 (0 : Fin 1) s k := by
    funext a
    match a with
    | ⟨0, _⟩ => rfl
    | ⟨1, _⟩ => rfl
    | ⟨2, _⟩ => rfl
  rw [hi, val_main_call0_v6_apply, call0_v5_row, Ideal.hostUnary_exp_def]

theorem v64_row (s : Fin 1023) (v : Fin 129280) :
    val_main_v64 (F := Ideal) x0 x1 x4 x5 x6 x7 x8 x9 x10 (ix3 (0 : Fin 1) s v)
      = (logit x0 x1 x4 x5 x6 x7 x8 x9 x10 s v - rowMaxRef x0 x1 x4 x5 x6 x7 x8 x9 x10 s)
        - Ideal.log (0 + ∑ v : Fin 129280,
            Ideal.exp (logit x0 x1 x4 x5 x6 x7 x8 x9 x10 s v - rowMaxRef x0 x1 x4 x5 x6 x7 x8 x9 x10 s)) := by
  have hi : idx_main_call0_v8 (idx_main_call0_v10 (ix3 (0 : Fin 1) s v)) = ix2 (0 : Fin 1) s := by
    funext a
    match a with
    | ⟨0, _⟩ => rfl
    | ⟨1, _⟩ => rfl
  rw [val_main_v64_apply, val_main_call0_v10_apply, val_main_call0_v9_apply, val_main_call0_v8_apply, call0_v5_row, hi,
    call0_v7_row, Ideal.subf_def, Ideal.hostUnary_log_def]

/-! ## The entry at the label -/

theorem cmpi_slt_zero {b : BitVec 32} (h : 0 ≤ b.toInt) : IntOp.cmpi .slt b 0#32 = 0#1 := by
  have hb : b.slt 0#32 = false := by
    simp only [BitVec.slt, BitVec.toInt_zero]
    exact decide_eq_false (not_lt.2 h)
  show BitVec.ofBool (b.slt 0#32) = 0#1
  rw [hb]
  rfl

theorem cmpi_sge_zero {b : BitVec 32} (h : 0 ≤ b.toInt) : IntOp.cmpi .sge b 0#32 = 1#1 := by
  have hb : (0#32 : BitVec 32).sle b = true := by
    simp only [BitVec.sle, BitVec.toInt_zero]
    exact decide_eq_true h
  show BitVec.ofBool ((0#32 : BitVec 32).sle b) = 1#1
  rw [hb]
  rfl

theorem cmpi_sle_top {b : BitVec 32} (h : b.toInt < 129280) : IntOp.cmpi .sle b 129279#32 = 1#1 := by
  have h2 : (129279#32 : BitVec 32).toInt = 129279 := by decide
  have hb : b.sle 129279#32 = true := by
    simp only [BitVec.sle, h2]
    exact decide_eq_true (by omega)
  show BitVec.ofBool (b.sle 129279#32) = 1#1
  rw [hb]
  rfl

theorem v65_row (s : Fin 1023) :
    val_main_v65 (F := Ideal) x2 (ix3 (0 : Fin 1) s (0 : Fin 1)) = labelBits x2 s := by
  rw [val_main_v65_apply, val_main_v63_apply]
  unfold labelBits
  congr 1
  funext a
  match a with
  | ⟨0, _⟩ => rfl
  | ⟨1, _⟩ => exact Fin.ext (Nat.add_comm 1 s.val)

theorem call1_v4_row (s : Fin 1023) (h0 : 0 ≤ (labelBits x2 s).toInt) :
    val_main_call1_v4 (F := Ideal) x2 (ix3 (0 : Fin 1) s (0 : Fin 1)) = labelBits x2 s := by
  rw [val_main_call1_v4_apply, val_main_call1_v1_apply, val_main_call1_v0_apply, val_main_call1_c_apply, v65_row,
    cmpi_slt_zero h0, select_zero]

theorem call1_v5_row (s : Fin 1023) (h0 : 0 ≤ (labelBits x2 s).toInt) :
    val_main_call1_v5 (F := Ideal) x2 (ix3 s (0 : Fin 1) (0 : Fin 1)) = labelBits x2 s := by
  have hi : idx_main_call1_v5 (ix3 s (0 : Fin 1) (0 : Fin 1)) = ix3 (0 : Fin 1) s (0 : Fin 1) := by
    funext a
    match a with
    | ⟨0, _⟩ => rfl
    | ⟨1, _⟩ =>
      refine Fin.ext ?_
      show ((s.val * 1 + 0) * 1 + 0) / 1 % 1023 = s.val
      have := s.isLt
      omega
    | ⟨2, _⟩ => rfl
  rw [val_main_call1_v5_apply, hi, call1_v4_row x2 s h0]

theorem call1_v11_row (s : Fin 1023) (hlab : 0 ≤ (labelBits x2 s).toInt ∧ (labelBits x2 s).toInt < 129280) :
    val_main_call1_v11 (F := Ideal) x2 (ix3 s (0 : Fin 1) (0 : Fin 1)) = 1#1 := by
  rw [val_main_call1_v11_apply, val_main_call1_v7_apply, val_main_call1_v10_apply, val_main_call1_v6_apply,
    val_main_call1_c_2_apply, val_main_call1_v9_apply, val_main_call1_v8_apply, val_main_call1_c_1_apply,
    call1_v5_row x2 s hlab.1, cmpi_sge_zero hlab.1, cmpi_sle_top hlab.2]
  rfl

/-- A conjunction of ones, from one, is one. -/
theorem fold_andi_all_one {ι : Type} (t : Finset ι) (f : ι → BitVec 1) (hf : ∀ k, f k = 1#1) :
    t.fold IntOp.andi 1#1 f = 1#1 := by
  classical
  induction t using Finset.induction_on with
  | empty => rfl
  | insert a t ha ih =>
    rw [Finset.fold_insert ha, ih, hf]
    rfl

theorem call1_v12_row (s : Fin 1023) (hlab : 0 ≤ (labelBits x2 s).toInt ∧ (labelBits x2 s).toInt < 129280) :
    val_main_call1_v12 (F := Ideal) x2 (ix2 s (0 : Fin 1)) = 1#1 := by
  have h : S1023x1x1.Reduces [2] S1023x1 := by decide
  unfold val_main_call1_v12
  rw [Host.reduce_eq_fold_single IntOp.andi _ _ reducesTo_S1023x1x1_S1023x1_d2 h h_S_ (ix2 s (0 : Fin 1)),
    val_main_call1_c_3_apply]
  refine fold_andi_all_one _ _ (fun k => ?_)
  have hl : h.lift (ix2 s (0 : Fin 1)) k = ix3 s (0 : Fin 1) (0 : Fin 1) := by
    funext a
    match a with
    | ⟨0, _⟩ => rfl
    | ⟨1, _⟩ => rfl
    | ⟨2, _⟩ =>
      refine Fin.ext ?_
      have hk : k.val < 1 := k.isLt
      show k.val = 0
      omega
  show val_main_call1_v11 (F := Ideal) x2 (h.lift (ix2 s (0 : Fin 1)) k) = 1#1
  rw [hl, call1_v11_row x2 s hlab]

/-- The gather's dimension numbers: along the last axis, one start index per row. -/
abbrev gd := gather_S1x1023x129280_S1023x1x1_S1x1023x1_0_2_1_0_2_2_111

/-- The gather of the entry at the label: on row s the operand is read at the row's start index, read
    signed and clamped into the row. -/
theorem gather_row {α : Type} (x : S1x1023x129280.Idx → α) (idx : IVec S1023x1x1 32) (s : Fin 1023) :
    Host.gather gd x idx (ix3 (0 : Fin 1) s (0 : Fin 1))
      = x (ix3 (0 : Fin 1) s ⟨min (idx (ix3 s (0 : Fin 1) (0 : Fin 1))).toInt.toNat 129279, by omega⟩) := by
  unfold Host.gather
  congr 1
  funext a
  refine Fin.ext ?_
  match a with
  | ⟨0, _⟩ =>
    show gd.start (ix3 (0 : Fin 1) s (0 : Fin 1)) idx 0 + gd.batchCoord (ix3 (0 : Fin 1) s (0 : Fin 1)) 0
      + gd.offCoord (ix3 (0 : Fin 1) s (0 : Fin 1)) 0 = 0
    rfl
  | ⟨1, _⟩ =>
    have h1 : gd.start (ix3 (0 : Fin 1) s (0 : Fin 1)) idx 1 = 0 := rfl
    have h2 : gd.batchCoord (ix3 (0 : Fin 1) s (0 : Fin 1)) 1 = s.val := rfl
    have h3 : gd.offCoord (ix3 (0 : Fin 1) s (0 : Fin 1)) 1 = 0 := rfl
    show gd.start (ix3 (0 : Fin 1) s (0 : Fin 1)) idx 1 + gd.batchCoord (ix3 (0 : Fin 1) s (0 : Fin 1)) 1
      + gd.offCoord (ix3 (0 : Fin 1) s (0 : Fin 1)) 1 = s.val
    rw [h1, h2, h3, Nat.zero_add, Nat.add_zero]
  | ⟨2, _⟩ =>
    show gd.start (ix3 (0 : Fin 1) s (0 : Fin 1)) idx 2 + gd.batchCoord (ix3 (0 : Fin 1) s (0 : Fin 1)) 2
      + gd.offCoord (ix3 (0 : Fin 1) s (0 : Fin 1)) 2 = min (idx (ix3 s (0 : Fin 1) (0 : Fin 1))).toInt.toNat 129279
    have hb : gd.batchCoord (ix3 (0 : Fin 1) s (0 : Fin 1)) 2 = 0 := rfl
    have ho : gd.offCoord (ix3 (0 : Fin 1) s (0 : Fin 1)) 2 = 0 := rfl
    rw [hb, ho]
    simp only [Nat.add_zero]
    unfold GatherDims.start
    rw [dif_pos (show (2 : Fin 3) ∈ gd.startIndexMap from List.mem_singleton.mpr rfl)]
    have hsi : gd.siIdx (ix3 (0 : Fin 1) s (0 : Fin 1)) ⟨List.idxOf (2 : Fin 3) gd.startIndexMap,
        List.idxOf_lt_length_iff.2 (List.mem_singleton.mpr rfl)⟩ = ix3 s (0 : Fin 1) (0 : Fin 1) := by
      funext b
      refine Fin.ext ?_
      match b with
      | ⟨0, _⟩ => rfl
      | ⟨1, _⟩ => rfl
      | ⟨2, _⟩ => rfl
    rw [hsi]
    rfl

theorem v66_row (s : Fin 1023) (hlab : 0 ≤ (labelBits x2 s).toInt ∧ (labelBits x2 s).toInt < 129280) :
    val_main_v66 (F := Ideal) x0 x1 x2 x4 x5 x6 x7 x8 x9 x10 (ix3 (0 : Fin 1) s (0 : Fin 1))
      = val_main_v64 (F := Ideal) x0 x1 x4 x5 x6 x7 x8 x9 x10
          (ix3 (0 : Fin 1) s ⟨(labelBits x2 s).toNat, labelBits_toNat_lt x2 s hlab⟩) := by
  have hi : idx_main_call1_v14 (ix3 (0 : Fin 1) s (0 : Fin 1)) = ix2 s (0 : Fin 1) := by
    funext a
    match a with
    | ⟨0, _⟩ => rfl
    | ⟨1, _⟩ => rfl
  rw [val_main_v66_apply, val_main_call1_v14_apply, hi, call1_v12_row x2 s hlab, select_one]
  unfold val_main_call1_v13
  rw [gather_row]
  congr 2
  refine Fin.ext ?_
  show min (val_main_call1_v5 (F := Ideal) x2 (ix3 s (0 : Fin 1) (0 : Fin 1))).toInt.toNat 129279 = (labelBits x2 s).toNat
  rw [call1_v5_row x2 s hlab.1, labelBits_toInt_toNat x2 s hlab.1]
  have := labelBits_toNat_lt x2 s hlab
  omega

/-- The reference's negated log-softmax at the label of row s is the direct form over the row of logits. -/
theorem ref_nll_eq_directNll (s : Fin 1023)
    (hlab : 0 ≤ (labelBits x2 s).toInt ∧ (labelBits x2 s).toInt < 129280) :
    val_main_v68 (F := Ideal) x0 x1 x2 x4 x5 x6 x7 x8 x9 x10 (ix2 (0 : Fin 1) s)
      = directNll (fun v : Fin 129280 => val_main_v61 (F := Ideal) x0 x1 x4 x5 x6 x7 x8 x9 x10 (ix3 (0 : Fin 1) s.castSucc v))
          ⟨(labelBits x2 s).toNat, labelBits_toNat_lt x2 s hlab⟩ := by
  have hi : idx_main_v67 (ix2 (0 : Fin 1) s) = ix3 (0 : Fin 1) s (0 : Fin 1) := by
    funext a
    match a with
    | ⟨0, _⟩ => rfl
    | ⟨1, _⟩ =>
      refine Fin.ext ?_
      show (0 * 1023 + s.val) / 1 % 1023 = s.val
      have := s.isLt
      omega
    | ⟨2, _⟩ => rfl
  rw [val_main_v68_apply, val_main_v67_apply, hi, v66_row x0 x1 x2 x4 x5 x6 x7 x8 x9 x10 s hlab, v64_row,
    Ideal.hostNegf_def, Ideal.negf_def]
  rfl

end Cert.Val
-- ==== Proof.Val.Finite.lean ====
/-
  Finiteness of the reference's logits at the ideal values: if every entry of the float arguments is a real
  number, every entry of the logits is a real number. One closure lemma per kind of operation (real in, real
  out; for the root-mean-square normalisation, nonnegative in, positive in, so that the reciprocal square root
  is taken of a positive real), then one lemma per stage: normalised embedding, normalised hidden state,
  projection, the two further normalisations, logits.
-/
import proofs.«420313_j13838384627918_1_alg».proof.Proof.Ref.Read
import Idealize.ShloMosaic.Lib.Pipeline.Value
import Idealize.ShloMosaic.Lib.ValueIdx
import Idealize.ShloMosaic.PureOps.Ideal.Laws

noncomputable section

namespace Cert.Val

open Idealize.ShloMosaic Idealize.ShloMosaic.ValueIdx

/-! ## Tensors of real numbers

An extended-real tensor all of whose entries are real numbers (neither infinity), and the two sharper
kinds the root-mean-square normalisation needs: all entries nonnegative reals, all entries positive reals. -/

/-- Every entry is a real number. -/
def AllReal {ι : Type} (x : ι → EReal) : Prop := ∀ i, ∃ r : ℝ, x i = (r : EReal)

/-- Every entry is a nonnegative real number. -/
def AllNonneg {ι : Type} (x : ι → EReal) : Prop := ∀ i, ∃ r : ℝ, 0 ≤ r ∧ x i = (r : EReal)

/-- Every entry is a positive real number. -/
def AllPos {ι : Type} (x : ι → EReal) : Prop := ∀ i, ∃ r : ℝ, 0 < r ∧ x i = (r : EReal)

theorem AllNonneg.real {ι : Type} {x : ι → EReal} (h : AllNonneg x) : AllReal x :=
  fun i => let ⟨r, _, hr⟩ := h i; ⟨r, hr⟩

theorem AllPos.real {ι : Type} {x : ι → EReal} (h : AllPos x) : AllReal x :=
  fun i => let ⟨r, _, hr⟩ := h i; ⟨r, hr⟩

/-! ## Finite sums of reals -/

/-- A finite sum of real numbers, taken among the extended reals, is a real number. -/
theorem exists_real_sum {κ : Type} (s : Finset κ) (f : κ → EReal) (hf : ∀ k ∈ s, ∃ r : ℝ, f k = (r : EReal)) :
    ∃ r : ℝ, ∑ k ∈ s, f k = (r : EReal) := by
  classical
  induction s using Finset.induction_on with
  | empty => exact ⟨0, by simp⟩
  | insert a s ha ih =>
    obtain ⟨r, hr⟩ := ih (fun k hk => hf k (Finset.mem_insert_of_mem hk))
    obtain ⟨q, hq⟩ := hf a (Finset.mem_insert_self a s)
    exact ⟨q + r, by rw [Finset.sum_insert ha, hr, hq, EReal.coe_add]⟩

/-- A finite sum of nonnegative real numbers is a nonnegative real number. -/
theorem exists_nonneg_sum {κ : Type} (s : Finset κ) (f : κ → EReal)
    (hf : ∀ k ∈ s, ∃ r : ℝ, 0 ≤ r ∧ f k = (r : EReal)) :
    ∃ r : ℝ, 0 ≤ r ∧ ∑ k ∈ s, f k = (r : EReal) := by
  classical
  induction s using Finset.induction_on with
  | empty => exact ⟨0, le_refl _, by simp⟩
  | insert a s ha ih =>
    obtain ⟨r, hr0, hr⟩ := ih (fun k hk => hf k (Finset.mem_insert_of_mem hk))
    obtain ⟨q, hq0, hq⟩ := hf a (Finset.mem_insert_self a s)
    exact ⟨q + r, add_nonneg hq0 hr0, by rw [Finset.sum_insert ha, hr, hq, EReal.coe_add]⟩

/-! ## One closure lemma per kind of operation: real in, real out -/

section Ops
variable {s t : Shape} {φ : FTy}

/-- The entrywise product of two real tensors is real. -/
theorem allReal_mulf (x y : FVec Ideal s φ) (hx : AllReal x) (hy : AllReal y) : AllReal (mulf x y) := by
  intro i
  obtain ⟨a, ha⟩ := hx i
  obtain ⟨b, hb⟩ := hy i
  refine ⟨a * b, ?_⟩
  show x i * y i = _
  rw [ha, hb, EReal.coe_mul]

/-- The entrywise square of a real tensor is nonnegative. -/
theorem allNonneg_mulf_self (x : FVec Ideal s φ) (hx : AllReal x) : AllNonneg (mulf x x) := by
  intro i
  obtain ⟨a, ha⟩ := hx i
  refine ⟨a * a, mul_self_nonneg a, ?_⟩
  show x i * x i = _
  rw [ha, EReal.coe_mul]

/-- The entrywise sum of two real tensors is real. -/
theorem allReal_addf (x y : FVec Ideal s φ) (hx : AllReal x) (hy : AllReal y) : AllReal (addf x y) := by
  intro i
  obtain ⟨a, ha⟩ := hx i
  obtain ⟨b, hb⟩ := hy i
  refine ⟨a + b, ?_⟩
  show x i + y i = _
  rw [ha, hb, EReal.coe_add]

/-- A nonnegative tensor plus a positive one is positive. -/
theorem allPos_addf (x y : FVec Ideal s φ) (hx : AllNonneg x) (hy : AllPos y) : AllPos (addf x y) := by
  intro i
  obtain ⟨a, ha0, ha⟩ := hx i
  obtain ⟨b, hb0, hb⟩ := hy i
  refine ⟨a + b, add_pos_of_nonneg_of_pos ha0 hb0, ?_⟩
  show x i + y i = _
  rw [ha, hb, EReal.coe_add]

/-- The entrywise quotient of a nonnegative tensor by a positive one is nonnegative. -/
theorem allNonneg_hostDivf (x y : FVec Ideal s φ) (hx : AllNonneg x) (hy : AllPos y) : AllNonneg (Host.divf x y) := by
  intro i
  obtain ⟨a, ha0, ha⟩ := hx i
  obtain ⟨b, hb0, hb⟩ := hy i
  refine ⟨a * (1 / b), mul_nonneg ha0 (by positivity), ?_⟩
  show Ideal.div (x i) (y i) = _
  rw [ha, hb, Ideal.div_coe (ne_of_gt hb0), EReal.coe_mul]

/-- The reciprocal square root of a positive tensor is real. -/
theorem allReal_hostRsqrt (x : FVec Ideal s φ) (hx : AllPos x) : AllReal (Host.rsqrt x) := by
  intro i
  obtain ⟨a, ha0, ha⟩ := hx i
  refine ⟨(Real.sqrt a)⁻¹, ?_⟩
  show Ideal.rsqrt (x i) = _
  rw [ha, Ideal.rsqrt_coe, if_neg (not_lt.2 (le_of_lt ha0)), if_neg (ne_of_gt ha0)]

/-- A broadcast only re-reads its operand's entries. -/
theorem allReal_broadcastInDim (dims : Fin s.rank → Fin t.rank) (h : s.BroadcastsInDim t dims) (x : s.Idx → EReal)
    (hx : AllReal x) : AllReal (broadcastInDim t dims h x) :=
  fun _ => hx _

theorem allNonneg_broadcastInDim (dims : Fin s.rank → Fin t.rank) (h : s.BroadcastsInDim t dims) (x : s.Idx → EReal)
    (hx : AllNonneg x) : AllNonneg (broadcastInDim t dims h x) :=
  fun _ => hx _

theorem allPos_broadcastInDim (dims : Fin s.rank → Fin t.rank) (h : s.BroadcastsInDim t dims) (x : s.Idx → EReal)
    (hx : AllPos x) : AllPos (broadcastInDim t dims h x) :=
  fun _ => hx _

/-- A gather only re-reads its operand's entries (at clamped indices). -/
theorem allReal_gather {si : Shape} {w : Nat} (d : GatherDims s si t) (x : s.Idx → EReal) (idx : IVec si w)
    (hx : AllReal x) : AllReal (Host.gather d x idx) :=
  fun _ => hx _

/-- Every entry of a concatenation is an entry of one of its pieces. -/
theorem allReal_concatenate (a : Fin t.rank) (xs : List ((s : Shape) × (s.Idx → EReal)))
    (h : Shape.Concatenates (xs.map (·.1)) t a) (hxs : ∀ p ∈ xs, AllReal p.2) :
    AllReal (concatenate t a xs h) := by
  intro j
  exact hxs _ (List.getElem_mem _) _

/-- The host's sum over axes, from a real initial value, of a real tensor is real. -/
theorem allReal_reduceAdd {axes : List (Fin s.rank)} {u : Shape} (x : FVec Ideal s φ) (init : u.Idx → Ideal φ)
    (h : s.ReducesTo axes t) (hu : 0 < u.numel) (hx : AllReal x) (hi : AllReal init) :
    AllReal (Host.reduceAdd x init h hu) := by
  intro j
  obtain ⟨c, hc⟩ := hi (Shape.Idx.first hu)
  obtain ⟨r, hr⟩ := exists_real_sum (Finset.univ.filter (fun i => h.drop i = j)) x (fun k _ => hx k)
  refine ⟨c + r, ?_⟩
  show init (Shape.Idx.first hu) + ∑ i ∈ Finset.univ.filter (fun i => h.drop i = j), x i = _
  rw [hc, hr, EReal.coe_add]

/-- The host's sum over axes, from a nonnegative initial value, of a nonnegative tensor is nonnegative. -/
theorem allNonneg_reduceAdd {axes : List (Fin s.rank)} {u : Shape} (x : FVec Ideal s φ) (init : u.Idx → Ideal φ)
    (h : s.ReducesTo axes t) (hu : 0 < u.numel) (hx : AllNonneg x) (hi : AllNonneg init) :
    AllNonneg (Host.reduceAdd x init h hu) := by
  intro j
  obtain ⟨c, hc0, hc⟩ := hi (Shape.Idx.first hu)
  obtain ⟨r, hr0, hr⟩ := exists_nonneg_sum (Finset.univ.filter (fun i => h.drop i = j)) x (fun k _ => hx k)
  refine ⟨c + r, add_nonneg hc0 hr0, ?_⟩
  show init (Shape.Idx.first hu) + ∑ i ∈ Finset.univ.filter (fun i => h.drop i = j), x i = _
  rw [hc, hr, EReal.coe_add]

/-- The host's contraction of two real tensors is real: each entry is a finite sum of products. -/
theorem allReal_dotGeneral {sl sr so : Shape} {φ₁ φ₂ : FTy} (d : DotDims sl sr so) (prec : Option ContractPrecision)
    (l : FVec Ideal sl φ₁) (r : FVec Ideal sr φ₂) (hl : AllReal l) (hr : AllReal r) :
    AllReal (Host.dotGeneral d prec l r) := by
  intro j
  show ∃ q : ℝ, FloatOps.dotGeneral d prec .single l r j = (q : EReal)
  rw [Ideal.dotGeneral_apply]
  refine exists_real_sum _ _ (fun k _ => ?_)
  obtain ⟨a, ha⟩ := hl (d.lhsIdx j k)
  obtain ⟨b, hb⟩ := hr (d.rhsIdx j k)
  exact ⟨a * b, by rw [ha, hb, EReal.coe_mul]⟩

end Ops

/-! ## The two float constants of the normalisation -/

/-- The word 0x45000000 is the real number 2048. -/
theorem ofBits_2048 : ∃ r : ℝ, 0 < r ∧ Ideal.ofBits .f32 0x45000000#32 = (r : EReal) := by
  refine ⟨8388608 * (2 ^ 12)⁻¹, by positivity, ?_⟩
  simp [Ideal.ofBits, Ideal.ieee]

/-- The word 0x358637BD (the normalisation's epsilon) is a positive real number. -/
theorem ofBits_eps : ∃ r : ℝ, 0 < r ∧ Ideal.ofBits .f32 0x358637BD#32 = (r : EReal) := by
  refine ⟨8796093 * (2 ^ 43)⁻¹, by positivity, ?_⟩
  simp [Ideal.ofBits, Ideal.ieee]

/-- The word 0 is the real number 0. -/
theorem ofBits_zero : ∃ r : ℝ, 0 ≤ r ∧ Ideal.ofBits .f32 0x00000000#32 = (r : EReal) :=
  ⟨0, le_refl _, by rw [Ideal.ofBits_zero_f32]; rfl⟩

/-! ## The constant tensors -/

theorem allNonneg_constant_zero (s : Shape) : AllNonneg (constant (F := Ideal) s .f32 0x00000000#32) :=
  fun _ => ofBits_zero

theorem allPos_constant_2048 (s : Shape) : AllPos (constant (F := Ideal) s .f32 0x45000000#32) :=
  fun _ => ofBits_2048

theorem allPos_constant_eps (s : Shape) : AllPos (constant (F := Ideal) s .f32 0x358637BD#32) :=
  fun _ => ofBits_eps

/-! ## One lemma per stage of the reference -/

section Stages

open Cert.ReferenceIdeal Cert.ReferenceIdeal.Read

variable (x0 : (⟨S1x1024x2048, .f32⟩ : BufTy).Contents (Elt Ideal)) (x1 : (⟨S1x1024, .i32⟩ : BufTy).Contents (Elt Ideal))
  (x4 : (⟨S129280x2048, .f32⟩ : BufTy).Contents (Elt Ideal)) (x5 x6 : (⟨S2048, .f32⟩ : BufTy).Contents (Elt Ideal))
  (x7 : (⟨S2048x4096, .f32⟩ : BufTy).Contents (Elt Ideal)) (x8 x9 : (⟨S2048, .f32⟩ : BufTy).Contents (Elt Ideal))
  (x10 : (⟨S129280x2048, .f32⟩ : BufTy).Contents (Elt Ideal))

/-- The gathered embedding rows are rows of the embedding table. -/
theorem real_emb (h4 : AllReal x4) : AllReal (val_main_v6 (F := Ideal) x1 x4) :=
  allReal_gather _ _ _ h4

/-- The normalised embedding: w_e · (emb · rsqrt(mean(emb²) + ε)). -/
theorem real_normed_emb (h4 : AllReal x4) (h5 : AllReal x5) : AllReal (val_main_v19 (F := Ideal) x1 x4 x5) := by
  have e6 : AllReal (val_main_v6 (F := Ideal) x1 x4) := real_emb x1 x4 h4
  have e7 : AllNonneg (val_main_v7 (F := Ideal) x1 x4) := allNonneg_mulf_self _ e6
  have e8 : AllNonneg (val_main_v8 (F := Ideal) x1 x4) :=
    allNonneg_reduceAdd _ _ _ _ e7 (allNonneg_constant_zero _)
  have e9 : AllNonneg (val_main_v9 (F := Ideal) x1 x4) := allNonneg_broadcastInDim _ _ _ e8
  have e10 : AllPos (val_main_v10 (F := Ideal)) := allPos_broadcastInDim _ _ _ (allPos_constant_2048 _)
  have e11 : AllNonneg (val_main_v11 (F := Ideal) x1 x4) := allNonneg_hostDivf _ _ e9 e10
  have e12 : AllPos (val_main_v12 (F := Ideal)) := allPos_broadcastInDim _ _ _ (allPos_constant_eps _)
  have e13 : AllPos (val_main_v13 (F := Ideal) x1 x4) := allPos_addf _ _ e11 e12
  have e14 : AllReal (val_main_v14 (F := Ideal) x1 x4) := allReal_hostRsqrt _ e13
  have e15 : AllReal (val_main_v15 (F := Ideal) x1 x4) := allReal_broadcastInDim _ _ _ e14
  have e16 : AllReal (val_main_v16 (F := Ideal) x1 x4) := allReal_mulf _ _ e6 e15
  have e17 : AllReal (val_main_v17 (F := Ideal) x5) := allReal_broadcastInDim _ _ _ h5
  have e18 : AllReal (val_main_v18 (F := Ideal) x5) := allReal_broadcastInDim _ _ _ e17
  exact allReal_mulf _ _ e18 e16

/-- The normalised hidden state: w_h · (h · rsqrt(mean(h²) + ε)). -/
theorem real_normed_hid (h0 : AllReal x0) (h6 : AllReal x6) : AllReal (val_main_v32 (F := Ideal) x0 x6) := by
  have e20 : AllNonneg (val_main_v20 (F := Ideal) x0) := allNonneg_mulf_self _ h0
  have e21 : AllNonneg (val_main_v21 (F := Ideal) x0) :=
    allNonneg_reduceAdd _ _ _ _ e20 (allNonneg_constant_zero _)
  have e22 : AllNonneg (val_main_v22 (F := Ideal) x0) := allNonneg_broadcastInDim _ _ _ e21
  have e23 : AllPos (val_main_v23 (F := Ideal)) := allPos_broadcastInDim _ _ _ (allPos_constant_2048 _)
  have e24 : AllNonneg (val_main_v24 (F := Ideal) x0) := allNonneg_hostDivf _ _ e22 e23
  have e25 : AllPos (val_main_v25 (F := Ideal)) := allPos_broadcastInDim _ _ _ (allPos_constant_eps _)
  have e26 : AllPos (val_main_v26 (F := Ideal) x0) := allPos_addf _ _ e24 e25
  have e27 : AllReal (val_main_v27 (F := Ideal) x0) := allReal_hostRsqrt _ e26
  have e28 : AllReal (val_main_v28 (F := Ideal) x0) := allReal_broadcastInDim _ _ _ e27
  have e29 : AllReal (val_main_v29 (F := Ideal) x0) := allReal_mulf _ _ h0 e28
  have e30 : AllReal (val_main_v30 (F := Ideal) x6) := allReal_broadcastInDim _ _ _ h6
  have e31 : AllReal (val_main_v31 (F := Ideal) x6) := allReal_broadcastInDim _ _ _ e30
  exact allReal_mulf _ _ e31 e29

/-- The projection of the concatenated pair by the 2048 × 4096 matrix. -/
theorem real_projected (h0 : AllReal x0) (h4 : AllReal x4) (h5 : AllReal x5) (h6 : AllReal x6) (h7 : AllReal x7) :
    AllReal (val_main_v34 (F := Ideal) x0 x1 x4 x5 x6 x7) := by
  have e19 := real_normed_emb x1 x4 x5 h4 h5
  have e32 := real_normed_hid x0 x6 h0 h6
  have e33 : AllReal (val_main_v33 (F := Ideal) x0 x1 x4 x5 x6) := by
    refine allReal_concatenate _ _ _ (fun p hp => ?_)
    rcases List.mem_cons.1 hp with rfl | hp
    · exact e19
    · rcases List.mem_cons.1 hp with rfl | hp
      · exact e32
      · exact absurd hp (List.not_mem_nil)
  exact allReal_dotGeneral _ _ _ _ e33 h7

/-- After the first normalisation of the projection (weights ln_w). -/
theorem real_after_ln (h0 : AllReal x0) (h4 : AllReal x4) (h5 : AllReal x5) (h6 : AllReal x6) (h7 : AllReal x7)
    (h8 : AllReal x8) : AllReal (val_main_v47 (F := Ideal) x0 x1 x4 x5 x6 x7 x8) := by
  have e34 := real_projected x0 x1 x4 x5 x6 x7 h0 h4 h5 h6 h7
  have e35 : AllNonneg (val_main_v35 (F := Ideal) x0 x1 x4 x5 x6 x7) := allNonneg_mulf_self _ e34
  have e36 : AllNonneg (val_main_v36 (F := Ideal) x0 x1 x4 x5 x6 x7) :=
    allNonneg_reduceAdd _ _ _ _ e35 (allNonneg_constant_zero _)
  have e37 : AllNonneg (val_main_v37 (F := Ideal) x0 x1 x4 x5 x6 x7) := allNonneg_broadcastInDim _ _ _ e36
  have e38 : AllPos (val_main_v38 (F := Ideal)) := allPos_broadcastInDim _ _ _ (allPos_constant_2048 _)
  have e39 : AllNonneg (val_main_v39 (F := Ideal) x0 x1 x4 x5 x6 x7) := allNonneg_hostDivf _ _ e37 e38
  have e40 : AllPos (val_main_v40 (F := Ideal)) := allPos_broadcastInDim _ _ _ (allPos_constant_eps _)
  have e41 : AllPos (val_main_v41 (F := Ideal) x0 x1 x4 x5 x6 x7) := allPos_addf _ _ e39 e40
  have e42 : AllReal (val_main_v42 (F := Ideal) x0 x1 x4 x5 x6 x7) := allReal_hostRsqrt _ e41
  have e43 : AllReal (val_main_v43 (F := Ideal) x0 x1 x4 x5 x6 x7) := allReal_broadcastInDim _ _ _ e42
  have e44 : AllReal (val_main_v44 (F := Ideal) x0 x1 x4 x5 x6 x7) := allReal_mulf _ _ e34 e43
  have e45 : AllReal (val_main_v45 (F := Ideal) x8) := allReal_broadcastInDim _ _ _ h8
  have e46 : AllReal (val_main_v46 (F := Ideal) x8) := allReal_broadcastInDim _ _ _ e45
  exact allReal_mulf _ _ e46 e44

/-- After the second normalisation (weights norm_w): the rows the vocabulary matrix multiplies. -/
theorem real_after_norm (h0 : AllReal x0) (h4 : AllReal x4) (h5 : AllReal x5) (h6 : AllReal x6) (h7 : AllReal x7)
    (h8 : AllReal x8) (h9 : AllReal x9) : AllReal (val_main_v60 (F := Ideal) x0 x1 x4 x5 x6 x7 x8 x9) := by
  have e47 := real_after_ln x0 x1 x4 x5 x6 x7 x8 h0 h4 h5 h6 h7 h8
  have e48 : AllNonneg (val_main_v48 (F := Ideal) x0 x1 x4 x5 x6 x7 x8) := allNonneg_mulf_self _ e47
  have e49 : AllNonneg (val_main_v49 (F := Ideal) x0 x1 x4 x5 x6 x7 x8) :=
    allNonneg_reduceAdd _ _ _ _ e48 (allNonneg_constant_zero _)
  have e50 : AllNonneg (val_main_v50 (F := Ideal) x0 x1 x4 x5 x6 x7 x8) := allNonneg_broadcastInDim _ _ _ e49
  have e51 : AllPos (val_main_v51 (F := Ideal)) := allPos_broadcastInDim _ _ _ (allPos_constant_2048 _)
  have e52 : AllNonneg (val_main_v52 (F := Ideal) x0 x1 x4 x5 x6 x7 x8) := allNonneg_hostDivf _ _ e50 e51
  have e53 : AllPos (val_main_v53 (F := Ideal)) := allPos_broadcastInDim _ _ _ (allPos_constant_eps _)
  have e54 : AllPos (val_main_v54 (F := Ideal) x0 x1 x4 x5 x6 x7 x8) := allPos_addf _ _ e52 e53
  have e55 : AllReal (val_main_v55 (F := Ideal) x0 x1 x4 x5 x6 x7 x8) := allReal_hostRsqrt _ e54
  have e56 : AllReal (val_main_v56 (F := Ideal) x0 x1 x4 x5 x6 x7 x8) := allReal_broadcastInDim _ _ _ e55
  have e57 : AllReal (val_main_v57 (F := Ideal) x0 x1 x4 x5 x6 x7 x8) := allReal_mulf _ _ e47 e56
  have e58 : AllReal (val_main_v58 (F := Ideal) x9) := allReal_broadcastInDim _ _ _ h9
  have e59 : AllReal (val_main_v59 (F := Ideal) x9) := allReal_broadcastInDim _ _ _ e58
  exact allReal_mulf _ _ e59 e57

/-- The logits: the normalised rows against the vocabulary matrix. -/
theorem real_logits (h0 : AllReal x0) (h4 : AllReal x4) (h5 : AllReal x5) (h6 : AllReal x6) (h7 : AllReal x7)
    (h8 : AllReal x8) (h9 : AllReal x9) (h10 : AllReal x10) :
    AllReal (val_main_v61 (F := Ideal) x0 x1 x4 x5 x6 x7 x8 x9 x10) :=
  allReal_dotGeneral _ _ _ _ (real_after_norm x0 x1 x4 x5 x6 x7 x8 x9 h0 h4 h5 h6 h7 h8 h9) h10

/-- FINITENESS OF THE LOGITS. If every entry of the float arguments is a real number, every entry of the reference's
    logits is a real number. -/
theorem logits_finite
    (h0 : ∀ i, ∃ r : ℝ, x0 i = (r : EReal)) (h4 : ∀ i, ∃ r : ℝ, x4 i = (r : EReal))
    (h5 : ∀ i, ∃ r : ℝ, x5 i = (r : EReal)) (h6 : ∀ i, ∃ r : ℝ, x6 i = (r : EReal))
    (h7 : ∀ i, ∃ r : ℝ, x7 i = (r : EReal)) (h8 : ∀ i, ∃ r : ℝ, x8 i = (r : EReal))
    (h9 : ∀ i, ∃ r : ℝ, x9 i = (r : EReal)) (h10 : ∀ i, ∃ r : ℝ, x10 i = (r : EReal))
    (s : Fin 1024) (v : Fin 129280) :
    ∃ r : ℝ, val_main_v61 (F := Ideal) x0 x1 x4 x5 x6 x7 x8 x9 x10 (ix3 0 s v) = (r : EReal) :=
  real_logits x0 x1 x4 x5 x6 x7 x8 x9 x10 h0 h4 h5 h6 h7 h8 h9 h10 (ix3 0 s v)

end Stages

end Cert.Val
-- ==== Proof.Val.Pre.lean ====
/-
  What the precondition says of the argument arrays, at the extended reals.

  The precondition is one equation: a conjunction of ten "all entries satisfy p" tests is the all-ones
  boolean scalar. Nine of the tests are |x| < +∞ over a float array; the tenth is 0 ≤ l ∧ l < 129280 (signed)
  over the label array. Read back one entry at a time: every float entry is a real number, and every
  label is a signed integer in [0, 129280).
-/
import proofs.«420313_j13838384627918_1_alg».proof.Pre_finite_inputs
import Idealize.ShloMosaic.Lib.ReduceAll
import Idealize.ShloMosaic.Lib.StableHlo.Predicate
import Idealize.ShloMosaic.PureOps.Ideal

noncomputable section

namespace Cert.Val.Pre

open Idealize.ShloMosaic Cert.Pre_finite_inputs

/-- The scalar shape has one index. -/
instance subsingleton_scalar_idx : Subsingleton S_.Idx := ⟨fun a b => funext fun d => d.elim0⟩

/-- The pattern 0x7F800000 is +∞. -/
theorem inf_pattern : Ideal.ofBits .f32 0x7F800000#32 = (⊤ : EReal) := by
  simp [Ideal.ofBits, Ideal.ieee]

/-- An extended real whose absolute value max x (−x) is strictly below +∞ is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have h' : Ideal.cmp .olt (max x (-x)) (Ideal.ofBits .f32 0x7F800000#32) = 1#1 := h
  rw [inf_pattern] at h'
  unfold Ideal.cmp at h'
  have hlt : max x (-x) < ⊤ := by
    have := (StableHlo.Predicate.ofBool_eq_one_iff _).1 h'
    exact of_decide_eq_true this
  rw [max_lt_iff] at hlt
  induction x using EReal.rec with
  | bot => exact absurd hlt.2 (by simp)
  | coe r => exact ⟨r, rfl⟩
  | top => exact absurd hlt.1 (by simp)

/-- A word that passes both signed tests 0 ≤ l and l < 129280 has its signed value in [0, 129280). -/
theorem range_of_tests (l : BitVec 32)
    (h : IntOp.andi (IntOp.cmpi .sge l 0#32) (IntOp.cmpi .slt l 129280#32) = 1#1) :
    0 ≤ l.toInt ∧ l.toInt < 129280 := by
  obtain ⟨h1, h2⟩ := IntOp.andi_eq_one.1 h
  unfold IntOp.cmpi at h1 h2
  have b1 : (0#32 : BitVec 32).sle l = true := (StableHlo.Predicate.ofBool_eq_one_iff _).1 h1
  have b2 : l.slt 129280#32 = true := (StableHlo.Predicate.ofBool_eq_one_iff _).1 h2
  have z : (0#32 : BitVec 32).toInt = 0 := by decide
  have n : (129280#32 : BitVec 32).toInt = 129280 := by decide
  simp only [BitVec.sle, BitVec.slt, decide_eq_true_eq, z, n] at b1 b2
  exact ⟨b1, b2⟩

/-- A real entry is the coercion of its own real part. -/
theorem eq_coe_toReal {x : EReal} (h : ∃ r : ℝ, x = (r : EReal)) : x = ((x.toReal : ℝ) : EReal) := by
  obtain ⟨r, rfl⟩ := h
  rfl

/-- A word whose signed value is in [0, 129280) reads the same unsigned, below 129280. -/
theorem toNat_of_range {l : BitVec 32} (h : 0 ≤ l.toInt ∧ l.toInt < 129280) :
    l.toInt = (l.toNat : Int) ∧ l.toNat < 129280 := by
  have hl : l.toNat < 2 ^ 32 := l.isLt
  have e := BitVec.toInt_eq_toNat_cond l
  obtain ⟨h1, h2⟩ := h
  split_ifs at e with hc
  · exact ⟨e, by omega⟩
  · exfalso; omega

variable [Facts]

/-- The entrywise test of one float array: all entries pass, so every entry is real. -/
theorem real_of_all {s : Shape} (x : FVec Ideal s .f32) (hb : S_.BroadcastsInDim s (![] : Fin 0 → Fin s.rank))
    {axes : List (Fin s.rank)} (hr : s.ReducesTo axes S_) (j : S_.Idx)
    (h : Host.reduce IntOp.andi
          (cmpf .olt (Host.absf x) (broadcastInDim s ![] hb (constant (F := Ideal) S_ .f32 0x7F800000#32)))
          (constantI S_ 1 1#1) hr Facts.h_S_ j = 1#1) :
    ∀ i, ∃ r : ℝ, x i = (r : EReal) := by
  intro i
  exact real_of_abs_lt_inf (x i) (Host.reduce_andi_all _ _ hr Facts.h_S_ j h i)

section
variable (a0 : FVec Ideal S1x1024x2048 .f32) (a1 : IVec S1x1024 32) (a2 : IVec S1x1024 32)
  (a3 : FVec Ideal S1x1024 .f32) (a4 : FVec Ideal S129280x2048 .f32) (a5 : FVec Ideal S2048 .f32)
  (a6 : FVec Ideal S2048 .f32) (a7 : FVec Ideal S2048x4096 .f32) (a8 : FVec Ideal S2048 .f32)
  (a9 : FVec Ideal S2048 .f32) (a10 : FVec Ideal S129280x2048 .f32)

/-- Everything the precondition says, in one statement. -/
structure Holds : Prop where
  real0 : ∀ i, ∃ r : ℝ, a0 i = (r : EReal)
  real3 : ∀ i, ∃ r : ℝ, a3 i = (r : EReal)
  real4 : ∀ i, ∃ r : ℝ, a4 i = (r : EReal)
  real5 : ∀ i, ∃ r : ℝ, a5 i = (r : EReal)
  real6 : ∀ i, ∃ r : ℝ, a6 i = (r : EReal)
  real7 : ∀ i, ∃ r : ℝ, a7 i = (r : EReal)
  real8 : ∀ i, ∃ r : ℝ, a8 i = (r : EReal)
  real9 : ∀ i, ∃ r : ℝ, a9 i = (r : EReal)
  real10 : ∀ i, ∃ r : ℝ, a10 i = (r : EReal)
  labels : ∀ i, 0 ≤ (a2 i).toInt ∧ (a2 i).toInt < 129280

/-- From the one equation of the precondition: every float entry is real and every label is in [0, 129280). -/
theorem holds (h : fn (F := Ideal) a0 a1 a2 a3 a4 a5 a6 a7 a8 a9 a10 = (fun _ => 1#1)) :
    Holds a0 a2 a3 a4 a5 a6 a7 a8 a9 a10 := by
  have j : S_.Idx := fun d => d.elim0
  have h0 := congrFun h j
  dsimp only [fn, fn_part1, fn_part2] at h0
  -- the conjunction, outermost test first: labels, then arrays 10, 9, 8, 7, 6, 5, 4, 3, 0
  obtain ⟨h0, hL⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  exact
    { real0 := real_of_all a0 _ _ j h0
      real3 := real_of_all a3 _ _ j h3
      real4 := real_of_all a4 _ _ j h4
      real5 := real_of_all a5 _ _ j h5
      real6 := real_of_all a6 _ _ j h6
      real7 := real_of_all a7 _ _ j h7
      real8 := real_of_all a8 _ _ j h8
      real9 := real_of_all a9 _ _ j h9
      real10 := real_of_all a10 _ _ j h10
      labels := fun i => range_of_tests (a2 i) (Host.reduce_andi_all _ _ _ Facts.h_S_ j hL i) }

end

end Cert.Val.Pre

end
-- ==== Proof.Val.TailAt.lean ====
/-
  The host stretches around the second kernel region, in terms of the launch contents and of what the
  two regions leave: the arrays the second region reads (the normalized rows the first region leaves, the
  head weights entry by entry as launched, the shifted label column) and the program's first result
  (the second region's logits with a leading unit axis).
-/
import proofs.«420313_j13838384627918_1_alg».proof.Proof.Gen.KernelIdeal.Regions
import proofs.«420313_j13838384627918_1_alg».proof.Proof.Val.TailHost

noncomputable section

namespace Cert.Val.TailAt

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (outs : Gen.Outs (F := Ideal)) (c : Dev nD)

/-- The normalized rows reach the second region as the first region left them. -/
theorem normed_at : Gen.V3 m outs c (Proc.devRef .tc main_v17) = outs 2 main_v17 c :=
  (Gen.V3_of m outs c main_v17 (by decide)).trans (Function.update_self ..)

/-- The head weights reach the second region entry by entry as launched. -/
theorem headW_at (i : S129280x2048.Idx) :
    Gen.V3 m outs c (Proc.devRef .tc main_v18) i = m ((c.tc : Thread nD τ).loc main_arg10) i := by
  have e2 : Gen.V2 m outs c (Proc.devRef .tc main_arg10) = m ((c.tc : Thread nD τ).loc main_arg10) :=
    (Gen.V2_of m outs c main_arg10 (by decide)).trans ((Gen.V1_of m c main_arg10 (by decide)).trans rfl)
  show StableHlo.after (hostOps1 (F := Ideal)) (Gen.V2 m outs c) (Proc.devRef .tc main_v18) i = _
  rw [TailHost.before_headW, e2]

/-- The shifted label column: row s is the launched label of position s + 1, the appended row is the word 0. -/
theorem labels_at (i : S1024x1.Idx) :
    Gen.V3 m outs c (Proc.devRef .tc main_v24) i
      = if h : (i 0).val < 1023 then m ((c.tc : Thread nD τ).loc main_arg2) (ValueIdx.ix2 (0 : Fin 1) ⟨(i 0).val + 1, by omega⟩)
        else 0#32 := by
  have e2 : Gen.V2 m outs c (Proc.devRef .tc main_arg2) = m ((c.tc : Thread nD τ).loc main_arg2) :=
    (Gen.V2_of m outs c main_arg2 (by decide)).trans ((Gen.V1_of m c main_arg2 (by decide)).trans rfl)
  show StableHlo.after (hostOps1 (F := Ideal)) (Gen.V2 m outs c) (Proc.devRef .tc main_v24) i = _
  rw [TailHost.before_labels, e2]

/-- The label word of row s < 1023 at the second region's entry: the launched label of position s + 1. -/
theorem label_word_at (s : Fin 1023) :
    Gen.V3 m outs c (Proc.devRef .tc main_v24) (ValueIdx.ix2 (s.castSucc : Fin 1024) (0 : Fin 1))
      = m ((c.tc : Thread nD τ).loc main_arg2) (ValueIdx.ix2 (0 : Fin 1) (⟨s.val + 1, by omega⟩ : Fin 1024)) := by
  have hs : s.val < 1023 := s.isLt
  rw [labels_at, dif_pos (show ((ValueIdx.ix2 (s.castSucc : Fin 1024) (0 : Fin 1) : S1024x1.Idx) 0).val < 1023 from hs)]
  rfl

/-- The program's first result: entry (0, s, v) is entry (s, v) of what the second region leaves. -/
theorem logits_at (i : S1x1024x129280.Idx) :
    Gen.V5 m outs c (Proc.devRef .tc main_v35) i = outs 4 main_v28_0 c (ValueIdx.ix2 (i 1) (i 2)) := by
  have e4 : Gen.V4 m outs c (Proc.devRef .tc main_v28_0) = outs 4 main_v28_0 c :=
    (Function.update_of_ne (by decide) ..).trans (Function.update_self ..)
  show StableHlo.after (hostOps2 (F := Ideal)) (Gen.V4 m outs c) (Proc.devRef .tc main_v35) i = _
  rw [TailHost.after_logits, e4]

/-- The per-row losses the loss reads are what the second region leaves. -/
theorem nll_at : Gen.V4 m outs c (Proc.devRef .tc main_v28_1) = outs 4 main_v28_1 c :=
  Function.update_self ..

end Cert.Val.TailAt

end
-- ==== Proof.Val.BridgeNll.lean ====
/-
  The per-row loss the kernel program leaves is the reference's.

  Row s < 1023 of the loss column after the head region is the tiled loss of the row's 101 tiles of 1280 logits
  against the row's label word: the running maximum, the running sum of exponentials and the label's logit, folded
  tile by tile. Each tile entry is the inner product the head region computes, which is the reference's logit at
  (0, s, j·1280 + k) when the front region's output is the reference's normed tensor. Every logit of the row is a
  real number (the arguments are real by the precondition), the 101 × 1280 tile entries cover the 129280 columns
  exactly once, and the label word of row s is the label of position s + 1, in [0, 129280) by the precondition: so
  the tiled loss is the direct one, the negated log-softmax at the label, which is what the reference computes.
-/
import proofs.«420313_j13838384627918_1_alg».proof.Defs
import proofs.«420313_j13838384627918_1_alg».proof.Proof.KI.Launch
import proofs.«420313_j13838384627918_1_alg».proof.Proof.Val.BridgeLogits
import proofs.«420313_j13838384627918_1_alg».proof.Proof.Val.NllArr
import proofs.«420313_j13838384627918_1_alg».proof.Proof.Val.NllRef
import proofs.«420313_j13838384627918_1_alg».proof.Proof.Val.Finite
import proofs.«420313_j13838384627918_1_alg».proof.Proof.Val.Pre
import proofs.«420313_j13838384627918_1_alg».proof.Proof.Val.TailAt

set_option maxRecDepth 16384

noncomputable section

namespace Cert.Val

open Idealize.ShloMosaic Idealize.ShloMosaic.TcCoe Idealize.ShloMosaic.ValueIdx Idealize.SL.Sem
open Cert.KernelIdeal Cert.KernelIdeal.Gen
open Cert.Val.Softmax Cert.Val.NllArr

variable [Cert.Pre_finite_inputs.Facts]
variable (m : (ℓ : Loc nD τ sig) → Buf (Elt Ideal) ℓ)

/-- A word whose signed value is in [0, 129280): its signed value, as a natural number, is its unsigned value. -/
theorem toInt_toNat_of_range {l : BitVec 32} (h : 0 ≤ l.toInt ∧ l.toInt < 129280) : l.toInt.toNat = l.toNat := by
  rw [(Pre.toNat_of_range h).1]
  exact Int.toNat_natCast _

/-- Row s < 1023 of the loss column the program leaves is the reference's negated log-softmax at the label of
    position s + 1, when the front region's output array is the reference's normed tensor entry by entry. -/
theorem nll_bridge (hpre : Cert.Pre_KernelIdeal m) (c : Dev nD)
    (hN : ∀ (s : Fin 1024) (k : Fin 2048), @Eq EReal ((dat0 (entry0 m) c).arrAt 8 cfg0.N (ix2 s k))
      (Cert.ReferenceIdeal.Read.val_main_v60 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix3 (0 : Fin 1) s k)))
    (s : Fin 1023) :
    @Eq EReal (V4 m (outs m) c (Proc.devRef .tc main_v28_1) (ix2 (s.castSucc : Fin 1024) (0 : Fin 1)))
      (Cert.ReferenceIdeal.Read.val_main_v68 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ix2 (0 : Fin 1) s)) := by
  -- what the precondition says of this core's arguments
  have P := Pre.holds _ _ _ _ _ _ _ _ _ _ _ (hpre c)
  have hlab : 0 ≤ (labelBits (m ((c.tc : Thread nD τ).loc main_arg2)) s).toInt ∧ (labelBits (m ((c.tc : Thread nD τ).loc main_arg2)) s).toInt < 129280 := P.labels _
  -- the loss column is the head region's fourth array, whose row s is the tiled loss of the row
  rw [show V4 m (outs m) c (Proc.devRef .tc main_v28_1) = (dat1 (entry1 m) c).arrAt 4 cfg1.N from (hF1 m c 4).symm]
  refine (nll_arr (entry1 m) c s.castSucc).trans ?_
  -- the reference's side is the direct loss over the row of logits
  rw [ref_nll_eq_directNll (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) s hlab]
  -- the label word the head region reads at row s is the label of position s + 1
  have hw : labelsOf (entry1 m) c (ix2 (s.castSucc : Fin 1024) (0 : Fin 1)) = labelBits (m ((c.tc : Thread nD τ).loc main_arg2)) s :=
    TailAt.label_word_at m (outs m) c s
  unfold rowNll
  refine tiledNll_eq_directNll (W := 1280) 101 _ (fun v => ?_) tileIdx tileIdx_bijective _ (fun j k => ?_) _ _ (fun j k => ?_)
  · -- every logit of the row is a real number
    obtain ⟨r, hr⟩ := logits_finite (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      P.real0 P.real4 P.real5 P.real6 P.real7 P.real8 P.real9 P.real10 s.castSucc v
    show Cert.ReferenceIdeal.Read.val_main_v61 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ix3 (0 : Fin 1) s.castSucc v) ≠ ⊥
      ∧ Cert.ReferenceIdeal.Read.val_main_v61 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ix3 (0 : Fin 1) s.castSucc v) ≠ ⊤
    rw [hr]
    exact ⟨EReal.coe_ne_bot r, EReal.coe_ne_top r⟩
  · -- entry k of tile j is the reference's logit at column j·1280 + k
    rw [rowTiles_apply]
    refine (logits_arr (entry1 m) c s.castSucc (tileIdx j k)).symm.trans ?_
    rw [← head_logits_eq m c]
    exact logits_entry m c hN s.castSucc (tileIdx j k)
  · -- the column carrying the label word is the label's column
    rw [hw, wordHit_iff _ hlab.1 hlab.2 j.val j.isLt k, toInt_toNat_of_range hlab]
    exact ⟨fun h => Fin.ext h, fun h => congrArg Fin.val h⟩

end Cert.Val

end
-- ==== Proof.Val.NormedSpec.lean ====
import Idealize.ShloMosaic.PureOps.Ideal.Laws
import Idealize.ShloMosaic.Lib.ValueIdx

noncomputable section

namespace Cert.Val

open Idealize.ShloMosaic Idealize.ShloMosaic.ValueIdx

/-! # The normed tensor, row by row

A row of 2048 lanes is normalised by its root mean square: each lane is scaled by
`rsqrt (mean of squares + stabiliser)` and then by a per-lane weight. The front stage normalises the
embedding row and the hidden row, projects each through a square 2048 x 2048 weight (contracting the
weight's second axis), adds the two projections, and normalises the sum twice. The two literals (the
row length and the stabiliser) stay the words the programs print. -/

/-- The row length 2048, as the printed f32 word. -/
abbrev lanes : EReal := Ideal.ofBits .f32 0x45000000#32
/-- The stabiliser added to the mean of squares, as the printed f32 word. -/
abbrev stab : EReal := Ideal.ofBits .f32 0x358637BD#32

/-- The scale of a row: `rsqrt (Σ_k x[k]² / 2048 + stab)`. -/
def rowScale (x : Fin 2048 → EReal) : EReal :=
  Ideal.rsqrt (Ideal.div (∑ k : Fin 2048, x k * x k) lanes + stab)

/-- Root-mean-square normalisation of one row: `w[h] · (x[h] · rowScale x)`. -/
def rmsRow (x w : Fin 2048 → EReal) (h : Fin 2048) : EReal :=
  w h * (x h * rowScale x)

/-- The projection of the two normalised rows, each through its own square weight, added. -/
def projRow (a b : Fin 2048 → EReal) (ehe ehh : Fin 2048 → Fin 2048 → EReal) (h : Fin 2048) : EReal :=
  (∑ k : Fin 2048, a k * ehe h k) + ∑ k : Fin 2048, b k * ehh h k

/-- One row of the normed tensor from the embedding row `e`, the hidden row `d`, the four norm weights
    and the two square projection weights. -/
def frontRow (e d we wd : Fin 2048 → EReal) (ehe ehh : Fin 2048 → Fin 2048 → EReal)
    (wl wn : Fin 2048 → EReal) : Fin 2048 → EReal :=
  rmsRow (rmsRow (projRow (rmsRow e we) (rmsRow d wd) ehe ehh) wl) wn

/-- The normed tensor over any number of rows `R`: row `s` is `frontRow` of row `s` of the two streams;
    the norm weights are single rows, the projection weights square. -/
def frontRows {R : Nat} (emb hid : (⟨2, ![R, 2048]⟩ : Shape).Idx → EReal)
    (we wd : (⟨2, ![1, 2048]⟩ : Shape).Idx → EReal)
    (ehe ehh : (⟨2, ![2048, 2048]⟩ : Shape).Idx → EReal)
    (wl wn : (⟨2, ![1, 2048]⟩ : Shape).Idx → EReal) : (⟨2, ![R, 2048]⟩ : Shape).Idx → EReal :=
  fun i => frontRow (fun k => emb (ix2 (i 0) k)) (fun k => hid (ix2 (i 0) k))
    (fun k => we (ix2 0 k)) (fun k => wd (ix2 0 k))
    (fun h k => ehe (ix2 h k)) (fun h k => ehh (ix2 h k))
    (fun k => wl (ix2 0 k)) (fun k => wn (ix2 0 k)) (i 1)

/-- The whole 1024-row normed tensor. -/
abbrev frontArr := @frontRows 1024

theorem frontRows_ix2 {R : Nat} (emb hid : (⟨2, ![R, 2048]⟩ : Shape).Idx → EReal)
    (we wd : (⟨2, ![1, 2048]⟩ : Shape).Idx → EReal)
    (ehe ehh : (⟨2, ![2048, 2048]⟩ : Shape).Idx → EReal)
    (wl wn : (⟨2, ![1, 2048]⟩ : Shape).Idx → EReal) (s : Fin R) (h : Fin 2048) :
    frontRows emb hid we wd ehe ehh wl wn (ix2 s h)
      = frontRow (fun k => emb (ix2 s k)) (fun k => hid (ix2 s k))
          (fun k => we (ix2 0 k)) (fun k => wd (ix2 0 k))
          (fun h k => ehe (ix2 h k)) (fun h k => ehh (ix2 h k))
          (fun k => wl (ix2 0 k)) (fun k => wn (ix2 0 k)) h := rfl

/-- A token id as both programs' gathers read it: a negative id is first shifted up by the vocabulary size
    129280 … -/
def wrapId (x : BitVec 32) : BitVec 32 :=
  Scalar.select (IntOp.cmpi .slt x 0#32) (IntOp.addi x 129280#32) x

/-- … and the wrapped id is then read as a signed integer and clamped into the embedding table's rows. -/
def tokRow (x : BitVec 32) : Fin 129280 :=
  ⟨min (wrapId x).toInt.toNat (129280 - 1), by omega⟩

/-- A contraction over 4096 lanes splits into its two halves of 2048 (no finiteness: sums in the
    extended reals commute and associate). -/
theorem sum_halves (f : Fin 4096 → EReal) :
    ∑ k : Fin 4096, f k = (∑ k : Fin 2048, f ⟨k.val, by omega⟩) + ∑ k : Fin 2048, f ⟨2048 + k.val, by omega⟩ := by
  exact Fin.sum_univ_add (a := 2048) (b := 2048) f

end Cert.Val

end
-- ==== Proof.Val.FrontPayload.lean ====
/-
  The front kernel's value, read at the ideal instance.

  One grid point of the front region takes a 256-row tile of the embedding stream and of the hidden stream.
  Each row (2048 lanes) is normalised by its root mean square and scaled by a per-lane weight, rounded,
  multiplied with its own square 2048 x 2048 weight (contracting the weight's second axis); the two products
  are added and the sum is normalised twice more. At the ideal instance rounding is the identity, a lane sum
  is a finite sum and a matrix product into a zero accumulator is a finite sum of products, so entry (r, h) of
  the tile the kernel stores is the closed row formula of the normed tensor at row r, lane h.
-/
import proofs.«420313_j13838384627918_1_alg».proof.Proof.KI.FrontDefs
import proofs.«420313_j13838384627918_1_alg».proof.Proof.Val.NormedSpec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.Val

open Idealize.ShloMosaic Idealize.ShloMosaic.TcCoe Idealize.ShloMosaic.ValueIdx
open Cert.KernelIdeal Cert.KernelIdeal.Gen

/-! ## Normalising a tile row by row -/

/-- A 256 x 2048 tile normalised row by row and scaled by the weight row `w`, spelled as the kernel
    spells it: square, sum along the lanes, divide by the row length, add the stabiliser, inverse square
    root, broadcast back along the lanes, multiply, multiply by the broadcast weight. -/
def rmsTile (x : FVec Ideal S256x2048 .f32) (w : FVec Ideal S1x2048 .f32) : FVec Ideal S256x2048 .f32 :=
  mulf (broadcastTo S256x2048 w broadcasts_S1x2048_S256x2048)
    (mulf x (broadcastTo S256x2048
      (rsqrt (addf (divf (shapeCast S256x1 (multiReduction .add [1] S256 (mulf x x) 0x00000000#32 reduces_S256x2048_S256 (.inl rfl) rfl) shapeCasts_S256_S256x1)
                    (broadcast S256x1 (Scalar.ofBits .f32 0x45000000#32)))
             (broadcast S256x1 (Scalar.ofBits .f32 0x358637BD#32))))
      broadcasts_S256x1_S256x2048))

/-- The reduced index `r` with lane `k` put back is (r, k). -/
theorem lift_row (h : S256x2048.Reduces [1] S256) (r : Fin 256) (k : Fin (S256x2048.size 1)) :
    h.lift (ix1 r) k = ix2 r (⟨k.val, k.isLt⟩ : Fin 2048) := by
  funext c; apply Fin.ext
  fin_cases c <;> rfl

/-- The lane sum of the squares of row `r`. -/
theorem sumSq_apply (x : FVec Ideal S256x2048 .f32) (r : Fin 256) :
    multiReduction .add [1] S256 (mulf x x) 0x00000000#32 reduces_S256x2048_S256 (.inl rfl) rfl (ix1 r)
      = ∑ k : Fin 2048, x (ix2 r k) * x (ix2 r k) := by
  refine (Ideal.multiReduction_add_single (mulf x x) 0x00000000#32 reduces_S256x2048_S256 (.inl rfl) rfl (ix1 r)).trans ?_
  refine Finset.sum_congr rfl fun k _ => ?_
  rw [lift_row]; rfl

/-- Entry (r, h) of the normalised tile is the row formula on row `r`. -/
theorem rmsTile_apply (x : FVec Ideal S256x2048 .f32) (w : FVec Ideal S1x2048 .f32) (r : Fin 256) (h : Fin 2048) :
    rmsTile x w (ix2 r h) = rmsRow (fun k => x (ix2 r k)) (fun k => w (ix2 0 k)) h := by
  have hw : broadcastTo S256x2048 w broadcasts_S1x2048_S256x2048 (ix2 r h) = w (ix2 0 h) :=
    broadcastTo_apply w _ (ix2 r h) (ix2 0 h) (fun a => by fin_cases a <;> rfl)
  have hs : ∀ v : FVec Ideal S256x1 .f32, broadcastTo S256x2048 v broadcasts_S256x1_S256x2048 (ix2 r h) = v (ix2 r 0) :=
    fun v => broadcastTo_apply v _ (ix2 r h) (ix2 r 0) (fun a => by fin_cases a <;> rfl)
  have hc : shapeCast S256x1 (multiReduction .add [1] S256 (mulf x x) 0x00000000#32 reduces_S256x2048_S256 (.inl rfl) rfl) shapeCasts_S256_S256x1 (ix2 r 0)
      = ∑ k : Fin 2048, x (ix2 r k) * x (ix2 r k) := by
    rw [shapeCast_apply _ _ (ix2 r 0) (ix1 r) (by
      rw [Shape.rowMajor_val_one, Shape.rowMajor_val_two]
      show r.val = r.val * 1 + 0
      omega)]
    exact sumSq_apply x r
  unfold rmsTile
  rw [mulf_apply, hw, mulf_apply, hs]
  show w (ix2 0 h) * (x (ix2 r h) * Ideal.rsqrt (Ideal.div
    (shapeCast S256x1 (multiReduction .add [1] S256 (mulf x x) 0x00000000#32 reduces_S256x2048_S256 (.inl rfl) rfl) shapeCasts_S256_S256x1 (ix2 r 0))
    lanes + stab)) = _
  rw [hc]; rfl

/-! ## A tile times a square weight, contracting the weight's second axis -/

/-- The left operand is read at (output row, contraction index): axis 0. -/
theorem lhs_tileProduct_0 (i : S256x2048.Idx) (q : dot_S256x2048_S2048x2048_S256x2048_1_1_0_0_n_n.contr.Idx) :
    (dot_S256x2048_S2048x2048_S256x2048_1_1_0_0_n_n.lhsIdx i q 0).val = (i 0).val := by
  unfold DotDims.lhsIdx
  rw [dif_neg (show ¬(0 : Fin S256x2048.rank) ∈ dot_S256x2048_S2048x2048_S256x2048_1_1_0_0_n_n.lhsBatch by decide), dif_pos (show (0 : Fin S256x2048.rank) ∈ dot_S256x2048_S2048x2048_S256x2048_1_1_0_0_n_n.lhsNonContracting by decide)]
  rfl
/-- The left operand's axis 1 is the contraction index. -/
theorem lhs_tileProduct_1 (i : S256x2048.Idx) (q : dot_S256x2048_S2048x2048_S256x2048_1_1_0_0_n_n.contr.Idx) :
    (dot_S256x2048_S2048x2048_S256x2048_1_1_0_0_n_n.lhsIdx i q 1).val = (q ⟨0, by decide⟩).val :=
  dot_S256x2048_S2048x2048_S256x2048_1_1_0_0_n_n.lhsIdx_val_of_single rfl i q
/-- The right operand is read at (output lane, contraction index): axis 0. -/
theorem rhs_tileProduct_0 (i : S256x2048.Idx) (q : dot_S256x2048_S2048x2048_S256x2048_1_1_0_0_n_n.contr.Idx) :
    (dot_S256x2048_S2048x2048_S256x2048_1_1_0_0_n_n.rhsIdx i q 0).val = (i 1).val := by
  unfold DotDims.rhsIdx
  rw [dif_neg (show ¬(0 : Fin S2048x2048.rank) ∈ dot_S256x2048_S2048x2048_S256x2048_1_1_0_0_n_n.rhsBatch by decide), dif_pos (show (0 : Fin S2048x2048.rank) ∈ dot_S256x2048_S2048x2048_S256x2048_1_1_0_0_n_n.rhsNonContracting by decide)]
  rfl
/-- The right operand's axis 1 is the contraction index. -/
theorem rhs_tileProduct_1 (i : S256x2048.Idx) (q : dot_S256x2048_S2048x2048_S256x2048_1_1_0_0_n_n.contr.Idx) :
    (dot_S256x2048_S2048x2048_S256x2048_1_1_0_0_n_n.rhsIdx i q 1).val = (q ⟨0, by decide⟩).val :=
  dot_S256x2048_S2048x2048_S256x2048_1_1_0_0_n_n.rhsIdx_val_of_single rfl i q

/-- Entry (r, h) of the product into a zero accumulator is the inner product of row r of the tile with row h of the weight. -/
theorem tileProduct_apply (a : FVec Ideal S256x2048 .bf16) (b : FVec Ideal S2048x2048 .bf16) (r : Fin 256) (h : Fin 2048) :
    matmul dot_S256x2048_S2048x2048_S256x2048_1_1_0_0_n_n none a b (constant S256x2048 .f32 0x00000000#32) (ix2 r h) = ∑ k : Fin 2048, a (ix2 r k) * b (ix2 h k) := by
  refine (Ideal.matmul_constant_zero_apply dot_S256x2048_S2048x2048_S256x2048_1_1_0_0_n_n none a b (ix2 r h)).trans ?_
  rw [← Equiv.sum_comp (ValueIdx.contrEquiv1 dot_S256x2048_S2048x2048_S256x2048_1_1_0_0_n_n 2048 rfl rfl).symm]
  refine Finset.sum_congr rfl fun k _ => ?_
  have hk := ValueIdx.contrEquiv1_symm_val dot_S256x2048_S2048x2048_S256x2048_1_1_0_0_n_n 2048 rfl rfl k
  have el : dot_S256x2048_S2048x2048_S256x2048_1_1_0_0_n_n.lhsIdx (ix2 r h) ((ValueIdx.contrEquiv1 dot_S256x2048_S2048x2048_S256x2048_1_1_0_0_n_n 2048 rfl rfl).symm k) = ix2 r k := funext fun c => Fin.ext (by
    match c with
    | ⟨0, _⟩ => exact lhs_tileProduct_0 _ _
    | ⟨1, _⟩ => exact (lhs_tileProduct_1 _ _).trans hk)
  have er : dot_S256x2048_S2048x2048_S256x2048_1_1_0_0_n_n.rhsIdx (ix2 r h) ((ValueIdx.contrEquiv1 dot_S256x2048_S2048x2048_S256x2048_1_1_0_0_n_n 2048 rfl rfl).symm k) = ix2 h k := funext fun c => Fin.ext (by
    match c with
    | ⟨0, _⟩ => exact rhs_tileProduct_0 _ _
    | ⟨1, _⟩ => exact (rhs_tileProduct_1 _ _).trans hk)
  rw [el, er]

/-! ## The payloads at an index -/

/-- The rounded normalised hidden tile. -/
theorem pay2_apply (v16 : Vec Ideal S256x2048 .f32) (v18 : Vec Ideal S1x2048 .f32) (r : Fin 256) (k : Fin 2048) :
    k0_pay2 (F := Ideal) v16 v18 (ix2 r k) = rmsRow (fun k => v16 (ix2 r k)) (fun k => v18 (ix2 0 k)) k := by
  show rmsTile (shapeCast S256x2048 v16 shapeCasts_S256x2048_S256x2048) (shapeCast S1x2048 v18 shapeCasts_S1x2048_S1x2048) (ix2 r k) = _
  rw [shapeCast_self, shapeCast_self]
  exact rmsTile_apply v16 v18 r k

/-- The embedding stream's projection. -/
theorem pay3_apply (v0 : Vec Ideal S256x2048 .f32) (v2 : Vec Ideal S1x2048 .f32) (v34 : Vec Ideal S2048x2048 .bf16) (r : Fin 256) (h : Fin 2048) :
    k0_pay3 (F := Ideal) v0 v2 v34 (ix2 r h)
      = ∑ k : Fin 2048, rmsRow (fun k => v0 (ix2 r k)) (fun k => v2 (ix2 0 k)) k * v34 (ix2 h k) := by
  show matmul dot_S256x2048_S2048x2048_S256x2048_1_1_0_0_n_n none
      (truncf .bf16 (rmsTile (shapeCast S256x2048 v0 shapeCasts_S256x2048_S256x2048) (shapeCast S1x2048 v2 shapeCasts_S1x2048_S1x2048)) bitsLt_bf16_f32)
      (shapeCast S2048x2048 v34 shapeCasts_S2048x2048_S2048x2048) (constant S256x2048 .f32 0x00000000#32) (ix2 r h) = _
  rw [shapeCast_self, shapeCast_self, shapeCast_self, tileProduct_apply]
  refine Finset.sum_congr rfl fun k _ => ?_
  rw [truncf_apply, rmsTile_apply]

/-- The store's payload at (r, h), over the part's three results and the two closing weights. -/
theorem pay1_apply (v33 : FVec Ideal S256x2048 .bf16) (v36 : FVec Ideal S256x2048 .f32) (v38 : FVec Ideal S2048x2048 .bf16)
    (v41 v55 : Vec Ideal S1x2048 .f32) (r : Fin 256) (h : Fin 2048) :
    k0_pay1 (F := Ideal) v33 v36 v38 (constant S256x2048 .f32 0x00000000#32) v41 v55 (ix2 r h)
      = rmsRow (rmsRow (fun k => v36 (ix2 r k) + ∑ q : Fin 2048, v33 (ix2 r q) * v38 (ix2 k q)) (fun k => v41 (ix2 0 k)))
          (fun k => v55 (ix2 0 k)) h := by
  show rmsTile (rmsTile (addf v36 (matmul dot_S256x2048_S2048x2048_S256x2048_1_1_0_0_n_n none v33 v38 (constant S256x2048 .f32 0x00000000#32)))
      (shapeCast S1x2048 v41 shapeCasts_S1x2048_S1x2048)) (shapeCast S1x2048 v55 shapeCasts_S1x2048_S1x2048) (ix2 r h) = _
  rw [shapeCast_self, shapeCast_self, rmsTile_apply]
  simp only [rmsTile_apply, addf_apply, tileProduct_apply]

/-! ## The stored tile is the normed tensor's rows -/

/-- The whole-block rectangle starts at the origin. -/
theorem origin2 : (![0, 0] : Fin 2 → Nat) = fun _ => 0 := by
  funext a; fin_cases a <;> rfl

/-- Entry (r, h) of the tile the body stores. -/
theorem frontOut_apply (x0 x1 : Vec Ideal S256x2048 .f32) (x2 x3 : Vec Ideal S1x2048 .f32) (x4 x5 : Vec Ideal S2048x2048 .bf16)
    (x6 x7 : Vec Ideal S1x2048 .f32) (r : Fin 256) (h : Fin 2048) :
    frontOut (F := Ideal) x0 x1 x2 x3 x4 x5 x6 x7 (ix2 r h)
      = frontRow (fun k => x0 (ix2 r k)) (fun k => x1 (ix2 r k)) (fun k => x2 (ix2 0 k)) (fun k => x3 (ix2 0 k))
          (fun h k => x4 (ix2 h k)) (fun h k => x5 (ix2 h k)) (fun k => x6 (ix2 0 k)) (fun k => x7 (ix2 0 k)) h := by
  unfold frontOut
  rw [View.canon_unit_zero (S := S256x2048) origin2]
  simp only [View.ld_unit_zero (S := S256x2048) origin2, View.ld_unit_zero (S := S1x2048) origin2, View.ld_unit_zero (S := S2048x2048) origin2]
  rw [pay1_apply]
  unfold frontRow projRow
  simp only [pay2_apply, pay3_apply]
  unfold k0_pay4
  simp only [shapeCast_self]

/-- The tile the body stores is the normed tensor's 256 rows over the tile's blocks. -/
theorem frontOut_eq (x0 x1 : Vec Ideal S256x2048 .f32) (x2 x3 : Vec Ideal S1x2048 .f32) (x4 x5 : Vec Ideal S2048x2048 .bf16)
    (x6 x7 : Vec Ideal S1x2048 .f32) :
    frontOut (F := Ideal) x0 x1 x2 x3 x4 x5 x6 x7 = frontRows (R := 256) x0 x1 x2 x3 x4 x5 x6 x7 := by
  funext j
  obtain ⟨r, h, rfl⟩ : ∃ (r : Fin 256) (h : Fin 2048), j = ix2 r h := ⟨j 0, j 1, eq_ix2 (n0 := 256) (n1 := 2048) j⟩
  rw [frontOut_apply, frontRows_ix2]

end Cert.Val

end
-- ==== Proof.Val.NormedBlocks.lean ====
import proofs.«420313_j13838384627918_1_alg».proof.Proof.KI.FrontDefs
import proofs.«420313_j13838384627918_1_alg».proof.Proof.Val.NormedSpec
import proofs.«420313_j13838384627918_1_alg».proof.Proof.Val.FrontPayload
import Idealize.ShloMosaic.Lib.Pipeline.Value
import Idealize.ShloMosaic.Lib.ValueIdx

set_option maxRecDepth 16384

noncomputable section

namespace Cert.Val

open Cert.KernelIdeal Cert.KernelIdeal.Gen Idealize.ShloMosaic Idealize.ShloMosaic.TcCoe Idealize.ShloMosaic.ValueIdx Idealize.SL.Sem
open Idealize.ShloMosaic.Pipeline (Dat)

/-! # From the four row blocks to the whole normed array

The front region walks four points; point `t` reads rows `256 t … 256 t + 255` of the two streams and
the whole of the six weights, and writes rows `256 t … 256 t + 255` of the output. A row of the output
depends on the same row of the streams only, so every block written is the block of ONE function of the
eight arrays, and the four blocks cover the 1024 rows. -/

-- the arrays as the region finds them
variable (V : (c : Dev nD) → (b : Ref sig .tc) → Buf (Elt Ideal) ((c : Thread nD τ).loc b))

/-- The whole-array function the region leaves: `frontArr` of the eight arrays as found. -/
abbrev frontOf (c : Dev nD) : S1024x2048.Idx → EReal :=
  frontArr (V c main_v7) (V c main_v8) (V c main_v13) (V c main_v14) (V c main_v10) (V c main_v12)
    (V c main_v15) (V c main_v16)

/-- The printed index maps, decided over the four points: the two streams' blocks and the output's block
    sit at block row `t`, block column 0; the six weights' blocks at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- A row of the closed form depends on that row of the two streams and on the weights only: if a block's
    row `p` is the array's row `r` (both streams) and the weights agree, the block's closed form at
    `(p, q)` is the array's at `(r, q)`. -/
theorem rows_congr (x0 x1 : S256x2048.Idx → EReal) (x2 x3 : S1x2048.Idx → EReal) (x4 x5 : S2048x2048.Idx → EReal)
    (x6 x7 : S1x2048.Idx → EReal) (A0 A1 : S1024x2048.Idx → EReal) (A2 A3 : S1x2048.Idx → EReal)
    (A4 A5 : S2048x2048.Idx → EReal) (A6 A7 : S1x2048.Idx → EReal) (p : Fin 256) (q : Fin 2048) (r : Fin 1024)
    (h0 : ∀ k, x0 (ix2 p k) = A0 (ix2 r k)) (h1 : ∀ k, x1 (ix2 p k) = A1 (ix2 r k))
    (h2 : ∀ k, x2 (ix2 0 k) = A2 (ix2 0 k)) (h3 : ∀ k, x3 (ix2 0 k) = A3 (ix2 0 k))
    (h4 : ∀ h k, x4 (ix2 h k) = A4 (ix2 h k)) (h5 : ∀ h k, x5 (ix2 h k) = A5 (ix2 h k))
    (h6 : ∀ k, x6 (ix2 0 k) = A6 (ix2 0 k)) (h7 : ∀ k, x7 (ix2 0 k) = A7 (ix2 0 k)) :
    frontRows (R := 256) x0 x1 x2 x3 x4 x5 x6 x7 (ix2 p q) = frontArr A0 A1 A2 A3 A4 A5 A6 A7 (ix2 r q) := by
  simp only [frontArr, frontRows_ix2, h0, h1, h2, h3, h4, h5, h6, h7]

/-- WHAT POINT `t` WRITES BACK is block `t` of the whole-array function. -/
theorem front_flushed (c : Dev nD) (t : Fin cfg0.N) :
    (dat0 (F := Ideal) V c).flushed 8 t = ((cfg0.win 8).blk t).view.read (Elt Ideal) (frontOf V c) := by
  show (cfg0.win 8).cut (grid0.coords t) ((dat0 (F := Ideal) V c).after 8 t) = _
  rw [after0_8, frontOut_eq]
  obtain ⟨e00, e01, e10, e11, e20, e21, e30, e31, e40, e41, e50, e51, e60, e61, e70, e71, e80, e81⟩ := idx_facts t
  have hN : cfg0.N = 4 := N_0
  have ht : t.val < 4 := hN ▸ t.isLt
  funext j
  show frontRows (R := 256) (iblk0 V c 0 t) (iblk0 V c 1 t) (iblk0 V c 2 t) (iblk0 V c 3 t) (iblk0 V c 4 t)
      (iblk0 V c 5 t) (iblk0 V c 6 t) (iblk0 V c 7 t) j = frontOf V c (((cfg0.win 8).blk t).view.emb j)
  have hj0 : (j 0).val < 256 := (j 0).isLt
  have hj1 : (j 1).val < 2048 := (j 1).isLt
  have hj : j = ix2 (n0 := 256) (n1 := 2048) ⟨(j 0).val, hj0⟩ ⟨(j 1).val, hj1⟩ := by
    funext a; match a with | ⟨0, _⟩ => rfl | ⟨1, _⟩ => rfl
  have hr : ((cfg0.win 8).blk t).view.emb j
      = ix2 (n0 := 1024) (n1 := 2048) ⟨t.val * 256 + (j 0).val, by omega⟩ ⟨(j 1).val, hj1⟩ := by
    funext a; apply Fin.ext
    match a with
    | ⟨0, _⟩ => show win0_8.index t (0 : Fin 2) * 256 + 1 * (j 0).val = t.val * 256 + (j 0).val; rw [e80]; omega
    | ⟨1, _⟩ => show win0_8.index t (1 : Fin 2) * 2048 + 1 * (j 1).val = (j 1).val; rw [e81]; omega
  refine (congrArg _ hj).trans (Eq.trans ?_ (congrArg (frontOf V c) hr.symm))
  refine rows_congr _ _ _ _ _ _ _ _ _ _ _ _ _ _ _ _ _ _ _ ?_ ?_ ?_ ?_ ?_ ?_ ?_ ?_
  · intro k
    show V c main_v7 (((cfg0.win 0).blk t).view.emb (ix2 (n0 := 256) (n1 := 2048) ⟨(j 0).val, hj0⟩ k)) = V c main_v7 _
    congr 1; funext a; apply Fin.ext
    match a with
    | ⟨0, _⟩ => show win0_0.index t (0 : Fin 2) * 256 + 1 * (j 0).val = t.val * 256 + (j 0).val; rw [e00]; omega
    | ⟨1, _⟩ => show win0_0.index t (1 : Fin 2) * 2048 + 1 * k.val = k.val; rw [e01]; omega
  · intro k
    show V c main_v8 (((cfg0.win 1).blk t).view.emb (ix2 (n0 := 256) (n1 := 2048) ⟨(j 0).val, hj0⟩ k)) = V c main_v8 _
    congr 1; funext a; apply Fin.ext
    match a with
    | ⟨0, _⟩ => show win0_1.index t (0 : Fin 2) * 256 + 1 * (j 0).val = t.val * 256 + (j 0).val; rw [e10]; omega
    | ⟨1, _⟩ => show win0_1.index t (1 : Fin 2) * 2048 + 1 * k.val = k.val; rw [e11]; omega
  · intro k
    show V c main_v13 (((cfg0.win 2).blk t).view.emb (ix2 (n0 := 1) (n1 := 2048) 0 k)) = V c main_v13 _
    congr 1; funext a; apply Fin.ext
    match a with
    | ⟨0, _⟩ => show win0_2.index t (0 : Fin 2) * 1 + 1 * 0 = 0; rw [e20]
    | ⟨1, _⟩ => show win0_2.index t (1 : Fin 2) * 2048 + 1 * k.val = k.val; rw [e21]; omega
  · intro k
    show V c main_v14 (((cfg0.win 3).blk t).view.emb (ix2 (n0 := 1) (n1 := 2048) 0 k)) = V c main_v14 _
    congr 1; funext a; apply Fin.ext
    match a with
    | ⟨0, _⟩ => show win0_3.index t (0 : Fin 2) * 1 + 1 * 0 = 0; rw [e30]
    | ⟨1, _⟩ => show win0_3.index t (1 : Fin 2) * 2048 + 1 * k.val = k.val; rw [e31]; omega
  · intro h k
    show V c main_v10 (((cfg0.win 4).blk t).view.emb (ix2 (n0 := 2048) (n1 := 2048) h k)) = V c main_v10 _
    congr 1; funext a; apply Fin.ext
    match a with
    | ⟨0, _⟩ => show win0_4.index t (0 : Fin 2) * 2048 + 1 * h.val = h.val; rw [e40]; omega
    | ⟨1, _⟩ => show win0_4.index t (1 : Fin 2) * 2048 + 1 * k.val = k.val; rw [e41]; omega
  · intro h k
    show V c main_v12 (((cfg0.win 5).blk t).view.emb (ix2 (n0 := 2048) (n1 := 2048) h k)) = V c main_v12 _
    congr 1; funext a; apply Fin.ext
    match a with
    | ⟨0, _⟩ => show win0_5.index t (0 : Fin 2) * 2048 + 1 * h.val = h.val; rw [e50]; omega
    | ⟨1, _⟩ => show win0_5.index t (1 : Fin 2) * 2048 + 1 * k.val = k.val; rw [e51]; omega
  · intro k
    show V c main_v15 (((cfg0.win 6).blk t).view.emb (ix2 (n0 := 1) (n1 := 2048) 0 k)) = V c main_v15 _
    congr 1; funext a; apply Fin.ext
    match a with
    | ⟨0, _⟩ => show win0_6.index t (0 : Fin 2) * 1 + 1 * 0 = 0; rw [e60]
    | ⟨1, _⟩ => show win0_6.index t (1 : Fin 2) * 2048 + 1 * k.val = k.val; rw [e61]; omega
  · intro k
    show V c main_v16 (((cfg0.win 7).blk t).view.emb (ix2 (n0 := 1) (n1 := 2048) 0 k)) = V c main_v16 _
    congr 1; funext a; apply Fin.ext
    match a with
    | ⟨0, _⟩ => show win0_7.index t (0 : Fin 2) * 1 + 1 * 0 = 0; rw [e70]
    | ⟨1, _⟩ => show win0_7.index t (1 : Fin 2) * 2048 + 1 * k.val = k.val; rw [e71]; omega

/-- THE ARRAY the front region leaves in its output. -/
theorem front_arr (c : Dev nD) : (dat0 (F := Ideal) V c).arrAt 8 cfg0.N = frontOf V c :=
  (dat0 (F := Ideal) V c).arrAt_eq_of_cover 8 (frontOf V c) (fun t _ => front_flushed V c t) fun i => by
    have hN : cfg0.N = 4 := N_0
    have hi0 : (i 0).val < 1024 := (i 0).isLt
    have hi1 : (i 1).val < 2048 := (i 1).isLt
    obtain ⟨t, ht⟩ : ∃ t : Fin cfg0.N, t.val = (i 0).val / 256 := ⟨⟨(i 0).val / 256, by omega⟩, rfl⟩
    obtain ⟨_, _, _, _, _, _, _, _, _, _, _, _, _, _, _, _, e80, e81⟩ := idx_facts t
    refine ⟨t, flush0_8 t, ?_⟩
    show i ∈ ((View.whole main_v17).slice (win0_8.rect t)).set
    rw [View.set_slice_whole, Rect.mem_set_unit]
    intro a
    match a with
    | ⟨0, _⟩ => show win0_8.index t (0 : Fin 2) * 256 ≤ (i 0).val ∧ (i 0).val < win0_8.index t (0 : Fin 2) * 256 + 256; rw [e80, ht]; omega
    | ⟨1, _⟩ => show win0_8.index t (1 : Fin 2) * 2048 ≤ (i 1).val ∧ (i 1).val < win0_8.index t (1 : Fin 2) * 2048 + 2048; rw [e81]; omega

end Cert.Val

end
-- ==== Proof.Val.NormedHost.lean ====
import proofs.«420313_j13838384627918_1_alg».proof.Proof.Gen.KernelIdeal.Regions
import proofs.«420313_j13838384627918_1_alg».proof.Proof.Val.NormedSpec
import Idealize.ShloMosaic.Lib.Pipeline.Value
import Idealize.ShloMosaic.Lib.ValueIdx
import Idealize.ShloMosaic.Lib.Tactic

set_option maxRecDepth 16384

noncomputable section

namespace Cert.Val

open Cert.KernelIdeal Cert.KernelIdeal.Gen Idealize.ShloMosaic Idealize.ShloMosaic.TcCoe Idealize.ShloMosaic.ValueIdx Idealize.ShloMosaic.Tactic Idealize.SL.Sem

/-! # What the front region finds in its eight input arrays

Before the front region the program gathers one embedding row per token (the token id wrapped and
clamped into the table), flattens the hidden states to 1024 rows, cuts the projection weight
2048 x 4096 into its two column halves, and lays each norm weight out as one row. Each of the eight
arrays, read at an index, is an argument array read at an index. -/

variable (m : (ℓ : Loc nD τ sig) → Buf (Elt Ideal) ℓ)

/-- The hidden states, the token ids, the embedding table, the four norm weights and the projection
    weight as the program is launched with them. -/
abbrev hidden0 (c : Dev nD) : S1x1024x2048.Idx → EReal := m ((c : Thread nD τ).loc main_arg0)
abbrev ids0 (c : Dev nD) : S1x1024.Idx → BitVec 32 := m ((c : Thread nD τ).loc main_arg1)
abbrev table0 (c : Dev nD) : S129280x2048.Idx → EReal := m ((c : Thread nD τ).loc main_arg4)
abbrev enorm0 (c : Dev nD) : S2048.Idx → EReal := m ((c : Thread nD τ).loc main_arg5)
abbrev hnorm0 (c : Dev nD) : S2048.Idx → EReal := m ((c : Thread nD τ).loc main_arg6)
abbrev proj0 (c : Dev nD) : S2048x4096.Idx → EReal := m ((c : Thread nD τ).loc main_arg7)
abbrev ln0 (c : Dev nD) : S2048.Idx → EReal := m ((c : Thread nD τ).loc main_arg8)
abbrev norm0 (c : Dev nD) : S2048.Idx → EReal := m ((c : Thread nD τ).loc main_arg9)

/-! ## One table row per start index -/

/-- The gather of whole rows: result entry (s, h) is the table at the row the start index (s, 0) names,
    read as a signed integer and clamped into the table's rows, lane h. -/
theorem gatherRows_apply {α : Type} (x : S129280x2048.Idx → α) (idx : IVec S1024x1 32) (s : Fin 1024) (h : Fin 2048) :
    Host.gather gather_S129280x2048_S1024x1_S1024x2048_1_0_n_n_0_1_12048 x idx (ix2 s h)
      = x (ix2 (⟨min (idx (ix2 s 0)).toInt.toNat (129280 - 1), by omega⟩ : Fin 129280) h) := by
  unfold Host.gather
  congr 1
  funext a
  refine Fin.ext ?_
  match a with
  | ⟨0, _⟩ =>
    show gather_S129280x2048_S1024x1_S1024x2048_1_0_n_n_0_1_12048.start (ix2 s h) idx 0 + gather_S129280x2048_S1024x1_S1024x2048_1_0_n_n_0_1_12048.batchCoord (ix2 s h) 0 + gather_S129280x2048_S1024x1_S1024x2048_1_0_n_n_0_1_12048.offCoord (ix2 s h) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin S129280x2048.rank) ∈ gather_S129280x2048_S1024x1_S1024x2048_1_0_n_n_0_1_12048.startIndexMap from List.mem_singleton.mpr rfl)]
    have hsi : gather_S129280x2048_S1024x1_S1024x2048_1_0_n_n_0_1_12048.siIdx (ix2 s h) ⟨List.idxOf (0 : Fin S129280x2048.rank) gather_S129280x2048_S1024x1_S1024x2048_1_0_n_n_0_1_12048.startIndexMap,
        List.idxOf_lt_length_iff.2 (List.mem_singleton.mpr rfl)⟩ = ix2 s 0 := by
      funext b; refine Fin.ext ?_
      match b with
      | ⟨0, _⟩ => rfl
      | ⟨1, _⟩ => rfl
    rw [hsi]
    rfl
  | ⟨1, _⟩ =>
    show gather_S129280x2048_S1024x1_S1024x2048_1_0_n_n_0_1_12048.start (ix2 s h) idx 1 + gather_S129280x2048_S1024x1_S1024x2048_1_0_n_n_0_1_12048.batchCoord (ix2 s h) 1 + gather_S129280x2048_S1024x1_S1024x2048_1_0_n_n_0_1_12048.offCoord (ix2 s h) 1 = h.val
    rw [GatherDims.batchCoord_eq_zero _ _ _ List.not_mem_nil]
    unfold GatherDims.start
    rw [dif_neg (show ¬(1 : Fin S129280x2048.rank) ∈ gather_S129280x2048_S1024x1_S1024x2048_1_0_n_n_0_1_12048.startIndexMap by decide)]
    unfold GatherDims.offCoord
    rw [dif_pos (show (1 : Fin S129280x2048.rank) ∈ gather_S129280x2048_S1024x1_S1024x2048_1_0_n_n_0_1_12048.sKept by decide)]
    simp only [Nat.zero_add]
    rfl

/-- Row `s` of the gathered embeddings is the table's row for token `s`. -/
theorem V1_emb (c : Dev nD) (s : Fin 1024) (h : Fin 2048) :
    (V1 m c main_v7 : S1024x2048.Idx → EReal) (ix2 s h) = table0 m c (ix2 (tokRow (ids0 m c (ix2 0 s))) h) := by
  have e : (V1 m c main_v7 : S1024x2048.Idx → EReal)
      = Host.gather gather_S129280x2048_S1024x1_S1024x2048_1_0_n_n_0_1_12048 (m ((c : Thread nD τ).loc main_arg4) : S129280x2048.Idx → EReal)
          (broadcastInDim S1024x1 ![0] bcast_S1024_S1024x1_0
            (select (cmpi .slt (shapeCast S1024 (m ((c : Thread nD τ).loc main_arg1) : S1x1024.Idx → BitVec 32) shapeCasts_S1x1024_S1024)
                (broadcastInDim S1024 ![] bcast_S_S1024 (constantI S_ 32 0#32)))
              (addi (shapeCast S1024 (m ((c : Thread nD τ).loc main_arg1) : S1x1024.Idx → BitVec 32) shapeCasts_S1x1024_S1024)
                (broadcastInDim S1024 ![] bcast_S_S1024 (constantI S_ 32 129280#32)))
              (shapeCast S1024 (m ((c : Thread nD τ).loc main_arg1) : S1x1024.Idx → BitVec 32) shapeCasts_S1x1024_S1024))) := by
    dsimp only [V1, V0, hostOps0]; after_results; rfl
  rw [e, gatherRows_apply]
  have hid : broadcastInDim S1024x1 ![0] bcast_S1024_S1024x1_0
            (select (cmpi .slt (shapeCast S1024 (m ((c : Thread nD τ).loc main_arg1) : S1x1024.Idx → BitVec 32) shapeCasts_S1x1024_S1024)
                (broadcastInDim S1024 ![] bcast_S_S1024 (constantI S_ 32 0#32)))
              (addi (shapeCast S1024 (m ((c : Thread nD τ).loc main_arg1) : S1x1024.Idx → BitVec 32) shapeCasts_S1x1024_S1024)
                (broadcastInDim S1024 ![] bcast_S_S1024 (constantI S_ 32 129280#32)))
              (shapeCast S1024 (m ((c : Thread nD τ).loc main_arg1) : S1x1024.Idx → BitVec 32) shapeCasts_S1x1024_S1024)) (ix2 s 0)
      = wrapId (ids0 m c (ix2 0 s)) := by
    have hv : (shapeCast S1024 (m ((c : Thread nD τ).loc main_arg1) : S1x1024.Idx → BitVec 32) shapeCasts_S1x1024_S1024) (ix1 s) = ids0 m c (ix2 0 s) :=
      shapeCast_apply _ shapeCasts_S1x1024_S1024 (ix1 s) (ix2 0 s) (by
        rewrite [Shape.rowMajor_val_two, Shape.rowMajor_val_one]
        show 0 * 1024 + s.val = s.val
        omega)
    rw [broadcastInDim_apply _ bcast_S1024_S1024x1_0 _ (ix2 s 0) (ix1 s) (fun a => by match a with | ⟨0, _⟩ => rfl)]
    unfold wrapId select cmpi addi
    beta_reduce
    rw [hv]
    rfl
  refine congrArg (fun r : Fin 129280 => (m ((c : Thread nD τ).loc main_arg4) : S129280x2048.Idx → EReal) (ix2 r h)) (Fin.ext ?_)
  exact congrArg (fun w : BitVec 32 => min w.toInt.toNat (129280 - 1)) hid

/-- Row `s` of the flattened hidden states. -/
theorem V1_hidden (c : Dev nD) (s : Fin 1024) (h : Fin 2048) :
    (V1 m c main_v8 : S1024x2048.Idx → EReal) (ix2 s h) = hidden0 m c (ix3 0 s h) := by
  have e : (V1 m c main_v8 : S1024x2048.Idx → EReal)
      = shapeCast S1024x2048 (m ((c : Thread nD τ).loc main_arg0) : S1x1024x2048.Idx → EReal) shapeCasts_S1x1024x2048_S1024x2048 := by
    dsimp only [V1, V0, hostOps0]; after_results; rfl
  rw [e]
  exact shapeCast_apply _ shapeCasts_S1x1024x2048_S1024x2048 (ix2 s h) (ix3 0 s h) (by
    rewrite [Shape.rowMajor_val_three, Shape.rowMajor_val_two]
    show (0 * 1024 + s.val) * 2048 + h.val = s.val * 2048 + h.val
    omega)

/-- The left column half of the projection weight (it multiplies the embedding stream). -/
theorem V1_ehe (c : Dev nD) (h k : Fin 2048) :
    (V1 m c main_v10 : S2048x2048.Idx → EReal) (ix2 h k) = proj0 m c (ix2 h ⟨k.val, by omega⟩) := by
  have e : (V1 m c main_v10 : S2048x2048.Idx → EReal)
      = truncf (F := Ideal) .bf16 (extractStridedSlice S2048x2048 ![0, 0]
          (m ((c : Thread nD τ).loc main_arg7) : S2048x4096.Idx → EReal) slices_S2048x4096_S2048x2048_0_0) bitsLt_bf16_f32 := by
    dsimp only [V1, V0, hostOps0]; after_results
  rw [e, truncf_apply]
  exact extractStridedSlice_apply _ _ slices_S2048x4096_S2048x2048_0_0 (ix2 h k) (ix2 h ⟨k.val, by omega⟩) (fun a => by
    match a with
    | ⟨0, _⟩ => exact (Nat.zero_add h.val).symm
    | ⟨1, _⟩ => show k.val = 0 + k.val; omega)

/-- The right column half of the projection weight (it multiplies the hidden stream). -/
theorem V1_ehh (c : Dev nD) (h k : Fin 2048) :
    (V1 m c main_v12 : S2048x2048.Idx → EReal) (ix2 h k) = proj0 m c (ix2 h ⟨2048 + k.val, by omega⟩) := by
  have e : (V1 m c main_v12 : S2048x2048.Idx → EReal)
      = truncf (F := Ideal) .bf16 (extractStridedSlice S2048x2048 ![0, 2048]
          (m ((c : Thread nD τ).loc main_arg7) : S2048x4096.Idx → EReal) slices_S2048x4096_S2048x2048_0_2048) bitsLt_bf16_f32 := by
    dsimp only [V1, V0, hostOps0]; after_results
  rw [e, truncf_apply]
  exact extractStridedSlice_apply _ _ slices_S2048x4096_S2048x2048_0_2048 (ix2 h k) (ix2 h ⟨2048 + k.val, by omega⟩) (fun a => by
    match a with
    | ⟨0, _⟩ => exact (Nat.zero_add h.val).symm
    | ⟨1, _⟩ => show 2048 + k.val = 2048 + k.val; rfl)

/-- The four norm weights, each laid out as one row. -/
theorem V1_enorm (c : Dev nD) (k : Fin 2048) :
    (V1 m c main_v13 : S1x2048.Idx → EReal) (ix2 0 k) = enorm0 m c (ix1 k) := by
  have e : (V1 m c main_v13 : S1x2048.Idx → EReal)
      = shapeCast S1x2048 (m ((c : Thread nD τ).loc main_arg5) : S2048.Idx → EReal) shapeCasts_S2048_S1x2048 := by
    dsimp only [V1, V0, hostOps0]; after_results; rfl
  rw [e]
  exact shapeCast_apply _ shapeCasts_S2048_S1x2048 (ix2 0 k) (ix1 k) (by
    rewrite [Shape.rowMajor_val_one, Shape.rowMajor_val_two]
    show k.val = 0 * 2048 + k.val
    omega)
theorem V1_hnorm (c : Dev nD) (k : Fin 2048) :
    (V1 m c main_v14 : S1x2048.Idx → EReal) (ix2 0 k) = hnorm0 m c (ix1 k) := by
  have e : (V1 m c main_v14 : S1x2048.Idx → EReal)
      = shapeCast S1x2048 (m ((c : Thread nD τ).loc main_arg6) : S2048.Idx → EReal) shapeCasts_S2048_S1x2048 := by
    dsimp only [V1, V0, hostOps0]; after_results; rfl
  rw [e]
  exact shapeCast_apply _ shapeCasts_S2048_S1x2048 (ix2 0 k) (ix1 k) (by
    rewrite [Shape.rowMajor_val_one, Shape.rowMajor_val_two]
    show k.val = 0 * 2048 + k.val
    omega)
theorem V1_ln (c : Dev nD) (k : Fin 2048) :
    (V1 m c main_v15 : S1x2048.Idx → EReal) (ix2 0 k) = ln0 m c (ix1 k) := by
  have e : (V1 m c main_v15 : S1x2048.Idx → EReal)
      = shapeCast S1x2048 (m ((c : Thread nD τ).loc main_arg8) : S2048.Idx → EReal) shapeCasts_S2048_S1x2048 := by
    dsimp only [V1, V0, hostOps0]; after_results; rfl
  rw [e]
  exact shapeCast_apply _ shapeCasts_S2048_S1x2048 (ix2 0 k) (ix1 k) (by
    rewrite [Shape.rowMajor_val_one, Shape.rowMajor_val_two]
    show k.val = 0 * 2048 + k.val
    omega)
theorem V1_norm (c : Dev nD) (k : Fin 2048) :
    (V1 m c main_v16 : S1x2048.Idx → EReal) (ix2 0 k) = norm0 m c (ix1 k) := by
  have e : (V1 m c main_v16 : S1x2048.Idx → EReal)
      = shapeCast S1x2048 (m ((c : Thread nD τ).loc main_arg9) : S2048.Idx → EReal) shapeCasts_S2048_S1x2048 := by
    dsimp only [V1, V0, hostOps0]; after_results; rfl
  rw [e]
  exact shapeCast_apply _ shapeCasts_S2048_S1x2048 (ix2 0 k) (ix1 k) (by
    rewrite [Shape.rowMajor_val_one, Shape.rowMajor_val_two]
    show k.val = 0 * 2048 + k.val
    omega)

end Cert.Val

end
-- ==== Proof.Val.NormedRef.lean ====
import proofs.«420313_j13838384627918_1_alg».proof.Proof.Ref.Read
import proofs.«420313_j13838384627918_1_alg».proof.Proof.Val.NormedSpec
import Idealize.ShloMosaic.Lib.Pipeline.Value
import Idealize.ShloMosaic.Lib.ValueIdx
import Idealize.ShloMosaic.PureOps.Ideal.Laws

set_option maxRecDepth 16384

noncomputable section

namespace Cert.Val

open Cert.ReferenceIdeal Cert.ReferenceIdeal.Gen Cert.ReferenceIdeal.Read Idealize.ShloMosaic Idealize.ShloMosaic.TcCoe Idealize.ShloMosaic.ValueIdx Idealize.SL.Sem

/-! # The reference's normed tensor, row by row

The reference normalises the gathered embedding rows and the hidden rows, joins each pair of rows into
one row of 4096 lanes, contracts it against the 2048 x 4096 projection weight, and normalises the result
twice. Its four normalisations are one and the same chain of operations applied to different streams
and weights; the contraction over 4096 lanes is the sum of the contractions over its two halves, the
first reading the embedding half of the joined row, the second the hidden half. -/

/-- The normalisation chain, read at row `s`, lane `k`: the row formula of that row of the stream. -/
theorem ref_rms (X : S1x1024x2048.Idx → EReal) (w : S2048.Idx → EReal) (s : Fin 1024) (k : Fin 2048) :
    val_main_v32 (F := Ideal) X w (ix3 0 s k) = rmsRow (fun k => X (ix3 0 s k)) (fun k => w (ix1 k)) k := by
  rw [val_main_v32_apply, val_main_v31_apply, val_main_v30_apply, val_main_v29_apply, val_main_v28_apply,
    val_main_v27_apply, val_main_v26_apply, val_main_v25_apply, val_main_cst_5_apply, val_main_v24_apply,
    val_main_v23_apply, val_main_cst_4_apply, val_main_v22_apply, val_main_v21_apply, val_main_cst_3_apply]
  simp only [val_main_v20_apply]
  have e1 : idx_main_v30 (idx_main_v31 (ix3 0 s k)) = ix1 k := by
    funext a; match a with | ⟨0, _⟩ => rfl
  have e2 : ∀ k' : Fin 2048, idx_main_v21 (idx_main_v22 (idx_main_v28 (ix3 0 s k))) k' = ix3 0 s k' := fun k' => by
    funext a; match a with | ⟨0, _⟩ => rfl | ⟨1, _⟩ => rfl | ⟨2, _⟩ => rfl
  simp only [e1, e2]
  unfold rmsRow rowScale
  show _ * (_ * Ideal.rsqrt (Ideal.div (Ideal.ofBits .f32 0x00000000#32 + _) _ + _)) = _
  rw [Ideal.ofBits_zero_f32, zero_add]
  rfl

/-- The other three normalisations are the same chain on other streams and weights. -/
theorem v19_eq (x1 : S1x1024.Idx → BitVec 32) (x4 : S129280x2048.Idx → EReal) (x5 : S2048.Idx → EReal) :
    val_main_v19 (F := Ideal) x1 x4 x5 = val_main_v32 (F := Ideal) (val_main_v6 (F := Ideal) x1 x4) x5 := rfl
theorem v47_eq (x0 : S1x1024x2048.Idx → EReal) (x1 : S1x1024.Idx → BitVec 32) (x4 : S129280x2048.Idx → EReal)
    (x5 x6 : S2048.Idx → EReal) (x7 : S2048x4096.Idx → EReal) (x8 : S2048.Idx → EReal) :
    val_main_v47 (F := Ideal) x0 x1 x4 x5 x6 x7 x8
      = val_main_v32 (F := Ideal) (val_main_v34 (F := Ideal) x0 x1 x4 x5 x6 x7) x8 := rfl
theorem v60_eq (x0 : S1x1024x2048.Idx → EReal) (x1 : S1x1024.Idx → BitVec 32) (x4 : S129280x2048.Idx → EReal)
    (x5 x6 : S2048.Idx → EReal) (x7 : S2048x4096.Idx → EReal) (x8 x9 : S2048.Idx → EReal) :
    val_main_v60 (F := Ideal) x0 x1 x4 x5 x6 x7 x8 x9
      = val_main_v32 (F := Ideal) (val_main_v47 (F := Ideal) x0 x1 x4 x5 x6 x7 x8) x9 := rfl

-- the gather's dimension numbers: the table's rows are indexed, a whole row of 2048 lanes is taken
local notation "GD" => gather_S129280x2048_S1x1024x1_S1x1024x2048_2_0_n_n_0_2_12048

/-- The gathered embedding row of token `s`: the table's row for its wrapped, clamped id. On the table's
    row axis the operand index is the clamped start index (no batch, no offset); on its lane axis it is
    the result's lane (start 0, the offset coordinate). -/
theorem ref_emb (x1 : S1x1024.Idx → BitVec 32) (x4 : S129280x2048.Idx → EReal) (s : Fin 1024) (k : Fin 2048) :
    val_main_v6 (F := Ideal) x1 x4 (ix3 0 s k) = x4 (ix2 (tokRow (x1 (ix2 0 s))) k) := by
  unfold val_main_v6 Host.gather
  congr 1
  funext a
  refine Fin.ext ?_
  match a with
  | ⟨0, _⟩ =>
    show GatherDims.start GD (ix3 0 s k) (val_main_v5 (F := Ideal) x1) (0 : Fin 2)
        + GatherDims.batchCoord GD (ix3 0 s k) (0 : Fin 2) + GatherDims.offCoord GD (ix3 0 s k) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap GD from List.mem_singleton.mpr rfl)]
    have hsi : GatherDims.siIdx GD (ix3 0 s k) ⟨List.idxOf (0 : Fin 2) (GatherDims.startIndexMap GD),
        List.idxOf_lt_length_iff.2 (List.mem_singleton.mpr rfl)⟩ = ix3 0 s 0 := by
      funext b; refine Fin.ext ?_
      match b with
      | ⟨0, _⟩ => rfl
      | ⟨1, _⟩ => rfl
      | ⟨2, _⟩ => rfl
    rw [hsi]
    rw [val_main_v5_apply, val_main_v4_apply, val_main_v3_apply, val_main_v2_apply, val_main_c_0_apply,
      val_main_v1_apply, val_main_v0_apply, val_main_c_apply]
    have e5 : idx_main_v5 (ix3 0 s 0) = ix2 0 s := by
      funext b; match b with | ⟨0, _⟩ => rfl | ⟨1, _⟩ => rfl
    rw [e5]
    rfl
  | ⟨1, _⟩ =>
    show GatherDims.start GD (ix3 0 s k) (val_main_v5 (F := Ideal) x1) (1 : Fin 2)
        + GatherDims.batchCoord GD (ix3 0 s k) (1 : Fin 2) + GatherDims.offCoord GD (ix3 0 s k) (1 : Fin 2) = k.val
    rw [GatherDims.batchCoord_eq_zero _ _ _ List.not_mem_nil]
    unfold GatherDims.start
    rw [dif_neg (show (1 : Fin 2) ∉ GatherDims.startIndexMap GD by decide)]
    unfold GatherDims.offCoord
    rw [dif_pos (show (1 : Fin 2) ∈ GatherDims.sKept GD by decide)]
    rw [Nat.zero_add]
    rfl

/-- The joined row of 4096 lanes reads its first 2048 lanes off the first tensor … -/
theorem joined_left (A B : S1x1024x2048.Idx → EReal) (s : Fin 1024) (k : Fin 2048) (j : S1x1024x4096.Idx)
    (hj0 : (j 0).val = 0) (hj1 : (j 1).val = s.val) (hj2 : (j 2).val = k.val) :
    concatenate S1x1024x4096 2 [⟨S1x1024x2048, A⟩, ⟨S1x1024x2048, B⟩]
      concatenates_S1x1024x2048_S1x1024x2048_S1x1024x4096_d2 j = A (ix3 0 s k) :=
  concatenate_pair_apply_left (t := S1x1024x4096) (s₁ := S1x1024x2048) (s₂ := S1x1024x2048) 2 A B _ j rfl (ix3 0 s k)
    (fun b => by
      match b with
      | ⟨0, _⟩ => exact hj0.symm
      | ⟨1, _⟩ => exact hj1.symm
      | ⟨2, _⟩ => exact hj2.symm)

/-- … and its last 2048 lanes off the second. -/
theorem joined_right (A B : S1x1024x2048.Idx → EReal) (s : Fin 1024) (k : Fin 2048) (j : S1x1024x4096.Idx)
    (hj0 : (j 0).val = 0) (hj1 : (j 1).val = s.val) (hj2 : (j 2).val = 2048 + k.val) :
    concatenate S1x1024x4096 2 [⟨S1x1024x2048, A⟩, ⟨S1x1024x2048, B⟩]
      concatenates_S1x1024x2048_S1x1024x2048_S1x1024x4096_d2 j = B (ix3 0 s k) :=
  concatenate_pair_apply_right (t := S1x1024x4096) (s₁ := S1x1024x2048) (s₂ := S1x1024x2048) 2 A B _ j rfl rfl (ix3 0 s k)
    (fun b hb => by
      match b with
      | ⟨0, _⟩ => exact hj0.symm
      | ⟨1, _⟩ => exact hj1.symm
      | ⟨2, _⟩ => exact absurd rfl hb)
    (by show k.val + 2048 = (j 2).val; omega)

/-- The contraction over the joined row of 4096 lanes: the embedding half against the weight's left
    column half plus the hidden half against its right column half. -/
theorem ref_proj (x0 : S1x1024x2048.Idx → EReal) (x1 : S1x1024.Idx → BitVec 32) (x4 : S129280x2048.Idx → EReal)
    (x5 x6 : S2048.Idx → EReal) (x7 : S2048x4096.Idx → EReal) (s : Fin 1024) (h : Fin 2048) :
    val_main_v34 (F := Ideal) x0 x1 x4 x5 x6 x7 (ix3 0 s h)
      = projRow (fun k => val_main_v19 (F := Ideal) x1 x4 x5 (ix3 0 s k))
          (fun k => val_main_v32 (F := Ideal) x0 x6 (ix3 0 s k))
          (fun h k => x7 (ix2 h ⟨k.val, by omega⟩)) (fun h k => x7 (ix2 h ⟨2048 + k.val, by omega⟩)) h := by
  rw [val_main_v34_apply, sum_halves]
  unfold projRow
  congr 1
  · refine Finset.sum_congr rfl fun k _ => ?_
    congr 1
    · unfold val_main_v33
      exact joined_left _ _ s k _ rfl rfl rfl
    · congr 1; funext a; match a with | ⟨0, _⟩ => rfl | ⟨1, _⟩ => rfl
  · refine Finset.sum_congr rfl fun k _ => ?_
    congr 1
    · unfold val_main_v33
      exact joined_right _ _ s k _ rfl rfl rfl
    · congr 1; funext a; match a with | ⟨0, _⟩ => rfl | ⟨1, _⟩ => rfl

/-- THE REFERENCE'S NORMED TENSOR at row `s`, lane `h`: the row formula of the token's table row and the
    hidden row. -/
theorem ref_normed (x0 : S1x1024x2048.Idx → EReal) (x1 : S1x1024.Idx → BitVec 32) (x4 : S129280x2048.Idx → EReal)
    (x5 x6 : S2048.Idx → EReal) (x7 : S2048x4096.Idx → EReal) (x8 x9 : S2048.Idx → EReal) (s : Fin 1024) (h : Fin 2048) :
    val_main_v60 (F := Ideal) x0 x1 x4 x5 x6 x7 x8 x9 (ix3 0 s h)
      = frontRow (fun k => x4 (ix2 (tokRow (x1 (ix2 0 s))) k)) (fun k => x0 (ix3 0 s k))
          (fun k => x5 (ix1 k)) (fun k => x6 (ix1 k))
          (fun h k => x7 (ix2 h ⟨k.val, by omega⟩)) (fun h k => x7 (ix2 h ⟨2048 + k.val, by omega⟩))
          (fun k => x8 (ix1 k)) (fun k => x9 (ix1 k)) h := by
  rw [v60_eq, ref_rms]
  simp only [v47_eq, ref_rms, ref_proj, v19_eq, ref_emb]
  rfl

end Cert.Val

end
-- ==== Proof.Val.Normed.lean ====
import proofs.«420313_j13838384627918_1_alg».proof.Proof.Val.NormedBlocks
import proofs.«420313_j13838384627918_1_alg».proof.Proof.Val.NormedHost
import proofs.«420313_j13838384627918_1_alg».proof.Proof.Val.NormedRef

set_option maxRecDepth 16384

noncomputable section

namespace Cert.Val

open Cert.KernelIdeal Cert.KernelIdeal.Gen Idealize.ShloMosaic Idealize.ShloMosaic.TcCoe Idealize.ShloMosaic.ValueIdx Idealize.SL.Sem

/-! # The front region leaves the reference's normed tensor

Row `s` of what the front region writes is the row formula of row `s` of the gathered embeddings and of
the flattened hidden states, with the two column halves of the projection weight; the reference's
normed tensor at row `s` is the same row formula of the token's table row and the hidden row, with the
contraction over the joined 4096 lanes split into its two halves. The eight arrays the region finds
are exactly those rows and halves of the arguments, so the two agree entry by entry, whatever the
inputs are. -/

variable (m : (ℓ : Loc nD τ sig) → Buf (Elt Ideal) ℓ)

/-- THE RESULT: entry `(s, h)` of the array the front region leaves is entry `(0, s, h)` of the
    reference's normed tensor of the launch contents. -/
theorem normed_eq (c : Dev nD) (s : Fin 1024) (h : Fin 2048) :
    (dat0 (F := Ideal) (fun c b => V1 m c b) c).arrAt 8 cfg0.N (ix2 s h)
      = Cert.ReferenceIdeal.Read.val_main_v60 (F := Ideal) (hidden0 m c) (ids0 m c) (table0 m c) (enorm0 m c)
          (hnorm0 m c) (proj0 m c) (ln0 m c) (norm0 m c) (ix3 0 s h) := by
  rw [front_arr, ref_normed]
  show frontArr (V1 m c main_v7) (V1 m c main_v8) (V1 m c main_v13) (V1 m c main_v14) (V1 m c main_v10)
      (V1 m c main_v12) (V1 m c main_v15) (V1 m c main_v16) (ix2 s h) = _
  simp only [frontArr, frontRows_ix2]
  -- the eight arrays the region finds, as rows and halves of the launch contents
  have h7 : (fun k => (V1 m c main_v7 : S1024x2048.Idx → EReal) (ix2 s k))
      = fun k => table0 m c (ix2 (tokRow (ids0 m c (ix2 0 s))) k) := funext fun k => V1_emb m c s k
  have h8 : (fun k => (V1 m c main_v8 : S1024x2048.Idx → EReal) (ix2 s k))
      = fun k => hidden0 m c (ix3 0 s k) := funext fun k => V1_hidden m c s k
  have h13 : (fun k => (V1 m c main_v13 : S1x2048.Idx → EReal) (ix2 0 k))
      = fun k => enorm0 m c (ix1 k) := funext fun k => V1_enorm m c k
  have h14 : (fun k => (V1 m c main_v14 : S1x2048.Idx → EReal) (ix2 0 k))
      = fun k => hnorm0 m c (ix1 k) := funext fun k => V1_hnorm m c k
  have h10 : (fun h k => (V1 m c main_v10 : S2048x2048.Idx → EReal) (ix2 h k))
      = fun h k => proj0 m c (ix2 h ⟨k.val, by omega⟩) := funext fun h => funext fun k => V1_ehe m c h k
  have h12 : (fun h k => (V1 m c main_v12 : S2048x2048.Idx → EReal) (ix2 h k))
      = fun h k => proj0 m c (ix2 h ⟨2048 + k.val, by omega⟩) := funext fun h => funext fun k => V1_ehh m c h k
  have h15 : (fun k => (V1 m c main_v15 : S1x2048.Idx → EReal) (ix2 0 k))
      = fun k => ln0 m c (ix1 k) := funext fun k => V1_ln m c k
  have h16 : (fun k => (V1 m c main_v16 : S1x2048.Idx → EReal) (ix2 0 k))
      = fun k => norm0 m c (ix1 k) := funext fun k => V1_norm m c k
  rw [h7, h8, h13, h14, h10, h12, h15, h16]

end Cert.Val

end
-- ==== Proof.Val.Bridge.lean ====
/-
  The kernel program's two results are the reference's two results.

  The logits: the last host stretch reshapes the array the vocabulary kernel wrote, whose entry (s, v) is the
  contraction over the hidden axis of row s of the normalised activations with row v of the head weights; the
  activations are, entry by entry, the reference's normalised tensor and the weights are the same argument.
  The loss: the last host stretch forms the masked mean of the kernel's per-row negative log-likelihoods over
  1024 rows with a mask whose appended last entry is zero; on the first 1023 rows the kernel's column is the
  reference's negated log-softmax at the label, so the two means are one quotient.
-/
import proofs.«420313_j13838384627918_1_alg».proof.Proof.Val.BridgeLogits
import proofs.«420313_j13838384627918_1_alg».proof.Proof.Val.BridgeLoss
import proofs.«420313_j13838384627918_1_alg».proof.Proof.Val.BridgeNll
import proofs.«420313_j13838384627918_1_alg».proof.Proof.Val.Normed

noncomputable section

open Idealize.ShloMosaic Idealize.ShloMosaic.TcCoe Idealize.SL.Sem
open Cert.KernelIdeal Cert.KernelIdeal.Gen

namespace Cert.Val

variable [Cert.Pre_finite_inputs.Facts]

/-- The kernel program's logits result is the reference's logits term of the kernel program's arguments. -/
theorem logits_result (m : (ℓ : Loc nD τ sig) → Buf (Elt Ideal) ℓ) (c : Dev nD) :
    V5 m (outs m) c (Proc.devRef .tc main_v35)
      = Cert.ReferenceIdeal.Read.val_main_v61 (F := Ideal) (m ((c.tc : Thread nD τ).loc main_arg0))
          (m ((c.tc : Thread nD τ).loc main_arg1)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9)) (m ((c.tc : Thread nD τ).loc main_arg10)) :=
  logits_bridge m c (fun s k => normed_eq m c s k)

/-- The kernel program's loss result is the reference's loss term of the kernel program's arguments, for a
    launch memory whose float arguments are finite and whose labels lie in the vocabulary. -/
theorem loss_result (m : (ℓ : Loc nD τ sig) → Buf (Elt Ideal) ℓ) (hpre : Cert.Pre_KernelIdeal m) (c : Dev nD) :
    V5 m (outs m) c (Proc.devRef .tc main_v34)
      = Cert.ReferenceIdeal.Read.val_main_v76 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9)) (m ((c.tc : Thread nD τ).loc main_arg10)) :=
  Cert.Val.BridgeLoss.loss_eq m (outs m) c (fun s => nll_bridge m hpre c (fun s k => normed_eq m c s k) s)

end Cert.Val

end
-- ==== Proof.Val.Algebraic.lean ====
/-
  The two idealized programs compute the same results.

  The kernel program's run ends with every unscoped buffer at the last contents of the fold through its five
  items; read at the two result buffers these are, entry by entry, the reference's logits and the reference's
  masked mean of the negative log-likelihoods (the bridge lemmas of this directory), and the reference's run
  ends with its results at those same terms of the arguments; the arguments of the two launch memories agree.
-/
import proofs.«420313_j13838384627918_1_alg».proof.Defs
import proofs.«420313_j13838384627918_1_alg».proof.Proof.Gen.KernelIdeal
import proofs.«420313_j13838384627918_1_alg».proof.Proof.Gen.ReferenceIdeal
import proofs.«420313_j13838384627918_1_alg».proof.Proof.Gen.Pre_finite_inputs
import proofs.«420313_j13838384627918_1_alg».proof.Proof.KI.Launch
import proofs.«420313_j13838384627918_1_alg».proof.Proof.KI.Front
import proofs.«420313_j13838384627918_1_alg».proof.Proof.KI.Head
import proofs.«420313_j13838384627918_1_alg».proof.Proof.KI.HeadEnds
import proofs.«420313_j13838384627918_1_alg».proof.Proof.Ref.Read
import proofs.«420313_j13838384627918_1_alg».proof.Proof.Val.Bridge

noncomputable section

open Idealize.ShloMosaic Idealize.ShloMosaic.TcCoe Idealize.SL.Sem

namespace Cert.Proof

/-- An unscoped TensorCore reference of the kernel program is among those the run's last state is read at. -/
theorem mem_unscoped (b : Ref Cert.KernelIdeal.sig .tc)
    (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

theorem algebraic : Cert.algebraic_KernelIdeal_ReferenceIdeal := by
  intro m ρ m' ρ' hpre hagree
  refine ⟨fun c => Cert.ReferenceIdeal.Value.res_main_v61 (F := Ideal) m' c,
    fun c => Cert.ReferenceIdeal.Value.res_main_v76 (F := Ideal) m' c, ?_,
    Cert.ReferenceIdeal.Value.run (F := Ideal) m' ρ'⟩
  refine (θ_run Cert.KernelIdeal.defs _ _).mono (fun r h c => ?_)
    (Cert.KernelIdeal.Gen.run_all (F := Ideal) m Cert.KernelIdeal.Gen.body_obligation0
      Cert.KernelIdeal.Gen.body_obligation1 Cert.KernelIdeal.Gen.hin1 Cert.KernelIdeal.Gen.hout1 ρ)
  have hu := h c
  have hl : Cert.KernelIdeal.Gen.V5 m (Cert.KernelIdeal.Gen.outs m) c (Proc.devRef .tc Cert.KernelIdeal.main_v35)
      = Cert.ReferenceIdeal.Value.res_main_v61 (F := Ideal) m' c := by
    rw [Cert.ReferenceIdeal.Read.val_main_v61_eq m' c, (hagree c).1, (hagree c).2.1, (hagree c).2.2.2.2.1,
      (hagree c).2.2.2.2.2.1, (hagree c).2.2.2.2.2.2.1, (hagree c).2.2.2.2.2.2.2.1, (hagree c).2.2.2.2.2.2.2.2.1,
      (hagree c).2.2.2.2.2.2.2.2.2.1, (hagree c).2.2.2.2.2.2.2.2.2.2]
    exact Cert.Val.logits_result m c
  have hs : Cert.KernelIdeal.Gen.V5 m (Cert.KernelIdeal.Gen.outs m) c (Proc.devRef .tc Cert.KernelIdeal.main_v34)
      = Cert.ReferenceIdeal.Value.res_main_v76 (F := Ideal) m' c := by
    rw [Cert.ReferenceIdeal.Read.val_main_v76_eq m' c, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2]
    exact Cert.Val.loss_result m hpre c
  exact ⟨(hu _ (mem_unscoped _ (by decide))).trans hl, (hu _ (mem_unscoped _ (by decide))).trans hs,
    (hu _ (mem_unscoped Cert.KernelIdeal.main_arg0 (by decide))).trans (Cert.KernelIdeal.Gen.V5_main_arg0 m _ c),
    (hu _ (mem_unscoped Cert.KernelIdeal.main_arg1 (by decide))).trans (Cert.KernelIdeal.Gen.V5_main_arg1 m _ c),
    (hu _ (mem_unscoped Cert.KernelIdeal.main_arg2 (by decide))).trans (Cert.KernelIdeal.Gen.V5_main_arg2 m _ c),
    (hu _ (mem_unscoped Cert.KernelIdeal.main_arg3 (by decide))).trans (Cert.KernelIdeal.Gen.V5_main_arg3 m _ c),
    (hu _ (mem_unscoped Cert.KernelIdeal.main_arg4 (by decide))).trans (Cert.KernelIdeal.Gen.V5_main_arg4 m _ c),
    (hu _ (mem_unscoped Cert.KernelIdeal.main_arg5 (by decide))).trans (Cert.KernelIdeal.Gen.V5_main_arg5 m _ c),
    (hu _ (mem_unscoped Cert.KernelIdeal.main_arg6 (by decide))).trans (Cert.KernelIdeal.Gen.V5_main_arg6 m _ c),
    (hu _ (mem_unscoped Cert.KernelIdeal.main_arg7 (by decide))).trans (Cert.KernelIdeal.Gen.V5_main_arg7 m _ c),
    (hu _ (mem_unscoped Cert.KernelIdeal.main_arg8 (by decide))).trans (Cert.KernelIdeal.Gen.V5_main_arg8 m _ c),
    (hu _ (mem_unscoped Cert.KernelIdeal.main_arg9 (by decide))).trans (Cert.KernelIdeal.Gen.V5_main_arg9 m _ c),
    (hu _ (mem_unscoped Cert.KernelIdeal.main_arg10 (by decide))).trans (Cert.KernelIdeal.Gen.V5_main_arg10 m _ c)⟩

end Cert.Proof

end
-- ==== Proof.lean ====
/-
  The certificate of the next-token head with its embedding front: a front kernel (two row-wise root-mean-square
  normalisations, the two halves of one projection added, two more normalisations) followed by a vocabulary
  kernel (the logits, and per row the negative log-likelihood of the shifted label by a running maximum and a
  rescaled running sum over 101 vocabulary tiles), against the reference that concatenates, projects once,
  normalises, multiplies by the head weights, and takes the masked mean of -log_softmax at the shifted labels.

  The three frames: each kernel program runs as five items (a host stretch, the front region, a host stretch,
  the vocabulary region, a host stretch), each region over its pipeline's proof data — the front region's body
  stores its one block whole; the vocabulary region carries three columns across its 101 steps, resets them at
  the first, and stores its loss column only at the last — and the reference is a straight line of host
  operations. Nothing is rewritten between the printed kernel and its idealization, so that claim is empty.
  The value claim is assembled in Val/Algebraic.lean: over the extended reals both programs compute the same
  logits (a contraction split in two halves is the whole contraction) and, the logits being finite under the
  precondition and the labels lying in the vocabulary, the same masked mean (the running maximum and rescaled
  sum are the row's maximum and its sum of exponentials; the kernel's appended last row meets a zero mask).
-/
import proofs.«420313_j13838384627918_1_alg».proof.Defs
import proofs.«420313_j13838384627918_1_alg».proof.Proof.Gen.Kernel
import proofs.«420313_j13838384627918_1_alg».proof.Proof.Gen.KernelIdeal
import proofs.«420313_j13838384627918_1_alg».proof.Proof.Gen.ReferenceIdeal
import proofs.«420313_j13838384627918_1_alg».proof.Proof.Gen.Pre_finite_inputs
import proofs.«420313_j13838384627918_1_alg».proof.Proof.KB.Launch
import proofs.«420313_j13838384627918_1_alg».proof.Proof.KB.Front
import proofs.«420313_j13838384627918_1_alg».proof.Proof.KB.Head
import proofs.«420313_j13838384627918_1_alg».proof.Proof.KB.HeadEnds
import proofs.«420313_j13838384627918_1_alg».proof.Proof.KI.Launch
import proofs.«420313_j13838384627918_1_alg».proof.Proof.KI.Front
import proofs.«420313_j13838384627918_1_alg».proof.Proof.KI.Head
import proofs.«420313_j13838384627918_1_alg».proof.Proof.KI.HeadEnds
import proofs.«420313_j13838384627918_1_alg».proof.Proof.Ref.Run
import proofs.«420313_j13838384627918_1_alg».proof.Proof.Val.Algebraic
import Idealize.ShloMosaic.Adequacy
import Idealize.ShloMosaic.Init

noncomputable section

namespace Cert.Proof

open Idealize.ShloMosaic Idealize.SL.Sem

/-- The word-level program runs and leaves its arguments as launched: its five items over the two regions' proof data. -/
theorem frame_kernel : Cert.frame_Kernel := fun m ρ _ =>
  Cert.Kernel.Gen.frame (F := Bits) m Cert.Kernel.Gen.body_obligation0 Cert.Kernel.Gen.body_obligation1
    Cert.Kernel.Gen.hin1 Cert.Kernel.Gen.hout1 ρ

/-- The same for the idealized program, read at the extended reals. -/
theorem frame_kernelIdeal : Cert.frame_KernelIdeal := fun m ρ _ =>
  Cert.KernelIdeal.Gen.frame (F := Ideal) m Cert.KernelIdeal.Gen.body_obligation0 Cert.KernelIdeal.Gen.body_obligation1
    Cert.KernelIdeal.Gen.hin1 Cert.KernelIdeal.Gen.hout1 ρ

/-- The reference is a straight line of host operations: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, Cert.Proof.algebraic⟩

end Cert.Proof

end
